-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)) →
    ∃ (v0 : (c : Dev Cert.KernelIdeal.nD) → Buf (Elt Ideal) ((c.tc : Thread Cert.KernelIdeal.nD Cert.KernelIdeal.τ).loc Cert.KernelIdeal.main_v42)) (v1 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_v43) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_v155) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x600 : Shape := ⟨2, ![512, 600]⟩
abbrev S2x16384 : Shape := ⟨2, ![2, 16384]⟩
abbrev S16384x300 : Shape := ⟨2, ![16384, 300]⟩
abbrev S2x262144 : Shape := ⟨2, ![2, 262144]⟩
abbrev S262144x300 : Shape := ⟨2, ![262144, 300]⟩
abbrev S300x600 : Shape := ⟨2, ![300, 600]⟩
abbrev S300 : Shape := ⟨1, ![300]⟩
abbrev S300x300 : Shape := ⟨2, ![300, 300]⟩
abbrev S600x300 : Shape := ⟨2, ![600, 300]⟩
abbrev S600 : Shape := ⟨1, ![600]⟩
abbrev S_ : Shape := ⟨0, ![]⟩
abbrev S1x16384 : Shape := ⟨2, ![1, 16384]⟩
abbrev S1x262144 : Shape := ⟨2, ![1, 262144]⟩

class Facts : Prop where
  bcast_S_S512x600 : S_.BroadcastsInDim S512x600 (![] : Fin 0 → Fin S512x600.rank)
  reducesTo_S512x600_S_d0_1 : S512x600.ReducesTo [0, 1] S_
  h_S_ : 0 < S_.numel
  bcast_S_S16384x300 : S_.BroadcastsInDim S16384x300 (![] : Fin 0 → Fin S16384x300.rank)
  reducesTo_S16384x300_S_d0_1 : S16384x300.ReducesTo [0, 1] S_
  bcast_S_S262144x300 : S_.BroadcastsInDim S262144x300 (![] : Fin 0 → Fin S262144x300.rank)
  reducesTo_S262144x300_S_d0_1 : S262144x300.ReducesTo [0, 1] S_
  bcast_S_S300x600 : S_.BroadcastsInDim S300x600 (![] : Fin 0 → Fin S300x600.rank)
  reducesTo_S300x600_S_d0_1 : S300x600.ReducesTo [0, 1] S_
  bcast_S_S300 : S_.BroadcastsInDim S300 (![] : Fin 0 → Fin S300.rank)
  reducesTo_S300_S_d0 : S300.ReducesTo [0] S_
  bcast_S_S300x300 : S_.BroadcastsInDim S300x300 (![] : Fin 0 → Fin S300x300.rank)
  reducesTo_S300x300_S_d0_1 : S300x300.ReducesTo [0, 1] S_
  bcast_S_S600x300 : S_.BroadcastsInDim S600x300 (![] : Fin 0 → Fin S600x300.rank)
  reducesTo_S600x300_S_d0_1 : S600x300.ReducesTo [0, 1] S_
  bcast_S_S600 : S_.BroadcastsInDim S600 (![] : Fin 0 → Fin S600.rank)
  reducesTo_S600_S_d0 : S600.ReducesTo [0] S_
  slices_S2x16384_S1x16384_0_0 : S2x16384.Slices ![0, 0] S1x16384
  bcast_S_S1x16384 : S_.BroadcastsInDim S1x16384 (![] : Fin 0 → Fin S1x16384.rank)
  reducesTo_S1x16384_S_d0_1 : S1x16384.ReducesTo [0, 1] S_
  slices_S2x262144_S1x262144_0_0 : S2x262144.Slices ![0, 0] S1x262144
  bcast_S_S1x262144 : S_.BroadcastsInDim S1x262144 (![] : Fin 0 → Fin S1x262144.rank)
  reducesTo_S1x262144_S_d0_1 : S1x262144.ReducesTo [0, 1] S_

variable [Facts]

def fn_part11 {F : FTy → Type} [FloatOps F] (main_v183 : IVec S_ 1) (main_v187 : IVec S_ 1) : IVec S_ 1 :=
  let main_v188 : IVec S_ 1 := andi main_v183 main_v187
  main_v188

def fn_part10 {F : FTy → Type} [FloatOps F] (main_arg6 : IVec S2x262144 32) (main_arg8 : IVec S2x262144 32) (main_v168 : IVec S_ 1) (main_v169 : IVec S1x262144 32) (main_v170 : IVec S1x262144 32) : IVec S_ 1 :=
  let main_v171 : IVec S1x262144 1 := cmpi .sge main_v169 main_v170
  let main_c_67 : IVec S_ 1 := constantI S_ 1 1#1
  let main_v172 : IVec S_ 1 := (fun x v => Host.reduce IntOp.andi x v reducesTo_S1x262144_S_d0_1 h_S_) main_v171 main_c_67
  let main_v173 : IVec S_ 1 := andi main_v168 main_v172
  let main_v174 : IVec S1x262144 32 := (extractStridedSlice S1x262144 ![0, 0] · slices_S2x262144_S1x262144_0_0) main_arg6
  let main_c_68 : IVec S_ 32 := constantI S_ 32 1024#32
  let main_v175 : IVec S1x262144 32 := broadcastInDim S1x262144 ![] bcast_S_S1x262144 main_c_68
  let main_v176 : IVec S1x262144 1 := cmpi .slt main_v174 main_v175
  let main_c_69 : IVec S_ 1 := constantI S_ 1 1#1
  let main_v177 : IVec S_ 1 := (fun x v => Host.reduce IntOp.andi x v reducesTo_S1x262144_S_d0_1 h_S_) main_v176 main_c_69
  let main_v178 : IVec S_ 1 := andi main_v173 main_v177
  let main_v179 : IVec S1x262144 32 := (extractStridedSlice S1x262144 ![0, 0] · slices_S2x262144_S1x262144_0_0) main_arg8
  let main_c_70 : IVec S_ 32 := constantI S_ 32 0#32
  let main_v180 : IVec S1x262144 32 := broadcastInDim S1x262144 ![] bcast_S_S1x262144 main_c_70
  let main_v181 : IVec S1x262144 1 := cmpi .sge main_v179 main_v180
  let main_c_71 : IVec S_ 1 := constantI S_ 1 1#1
  let main_v182 : IVec S_ 1 := (fun x v => Host.reduce IntOp.andi x v reducesTo_S1x262144_S_d0_1 h_S_) main_v181 main_c_71
  let main_v183 : IVec S_ 1 := andi main_v178 main_v182
  let main_v184 : IVec S1x262144 32 := (extractStridedSlice S1x262144 ![0, 0] · slices_S2x262144_S1x262144_0_0) main_arg8
  let main_c_72 : IVec S_ 32 := constantI S_ 32 1024#32
  let main_v185 : IVec S1x262144 32 := broadcastInDim S1x262144 ![] bcast_S_S1x262144 main_c_72
  let main_v186 : IVec S1x262144 1 := cmpi .slt main_v184 main_v185
  let main_c_73 : IVec S_ 1 := constantI S_ 1 1#1
  let main_v187 : IVec S_ 1 := (fun x v => Host.reduce IntOp.andi x v reducesTo_S1x262144_S_d0_1 h_S_) main_v186 main_c_73
  fn_part11 (F := F) main_v183 main_v187

def fn_part9 {F : FTy → Type} [FloatOps F] (main_arg2 : IVec S2x16384 32) (main_arg3 : IVec S2x16384 32) (main_arg6 : IVec S2x262144 32) (main_arg8 : IVec S2x262144 32) (main_v153 : IVec S_ 1) : IVec S_ 1 :=
  let main_v154 : IVec S1x16384 32 := (extractStridedSlice S1x16384 ![0, 0] · slices_S2x16384_S1x16384_0_0) main_arg2
  let main_c_60 : IVec S_ 32 := constantI S_ 32 512#32
  let main_v155 : IVec S1x16384 32 := broadcastInDim S1x16384 ![] bcast_S_S1x16384 main_c_60
  let main_v156 : IVec S1x16384 1 := cmpi .slt main_v154 main_v155
  let main_c_61 : IVec S_ 1 := constantI S_ 1 1#1
  let main_v157 : IVec S_ 1 := (fun x v => Host.reduce IntOp.andi x v reducesTo_S1x16384_S_d0_1 h_S_) main_v156 main_c_61
  let main_v158 : IVec S_ 1 := andi main_v153 main_v157
  let main_v159 : IVec S1x16384 32 := (extractStridedSlice S1x16384 ![0, 0] · slices_S2x16384_S1x16384_0_0) main_arg3
  let main_c_62 : IVec S_ 32 := constantI S_ 32 0#32
  let main_v160 : IVec S1x16384 32 := broadcastInDim S1x16384 ![] bcast_S_S1x16384 main_c_62
  let main_v161 : IVec S1x16384 1 := cmpi .sge main_v159 main_v160
  let main_c_63 : IVec S_ 1 := constantI S_ 1 1#1
  let main_v162 : IVec S_ 1 := (fun x v => Host.reduce IntOp.andi x v reducesTo_S1x16384_S_d0_1 h_S_) main_v161 main_c_63
  let main_v163 : IVec S_ 1 := andi main_v158 main_v162
  let main_v164 : IVec S1x16384 32 := (extractStridedSlice S1x16384 ![0, 0] · slices_S2x16384_S1x16384_0_0) main_arg3
  let main_c_64 : IVec S_ 32 := constantI S_ 32 512#32
  let main_v165 : IVec S1x16384 32 := broadcastInDim S1x16384 ![] bcast_S_S1x16384 main_c_64
  let main_v166 : IVec S1x16384 1 := cmpi .slt main_v164 main_v165
  let main_c_65 : IVec S_ 1 := constantI S_ 1 1#1
  let main_v167 : IVec S_ 1 := (fun x v => Host.reduce IntOp.andi x v reducesTo_S1x16384_S_d0_1 h_S_) main_v166 main_c_65
  let main_v168 : IVec S_ 1 := andi main_v163 main_v167
  let main_v169 : IVec S1x262144 32 := (extractStridedSlice S1x262144 ![0, 0] · slices_S2x262144_S1x262144_0_0) main_arg6
  let main_c_66 : IVec S_ 32 := constantI S_ 32 0#32
  let main_v170 : IVec S1x262144 32 := broadcastInDim S1x262144 ![] bcast_S_S1x262144 main_c_66
  fn_part10 (F := F) main_arg6 main_arg8 main_v168 main_v169 main_v170

def fn_part8 {F : FTy → Type} [FloatOps F] (main_arg2 : IVec S2x16384 32) (main_arg3 : IVec S2x16384 32) (main_arg6 : IVec S2x262144 32) (main_arg8 : IVec S2x262144 32) (main_arg32 : FVec F S600x300 .f32) (main_arg33 : FVec F S600 .f32) (main_v133 : IVec S_ 1) (main_v136 : IVec S300 1) : IVec S_ 1 :=
  let main_c_53 : IVec S_ 1 := constantI S_ 1 1#1
  let main_v137 : IVec S_ 1 := (fun x v => Host.reduce IntOp.andi x v reducesTo_S300_S_d0 h_S_) main_v136 main_c_53
  let main_v138 : IVec S_ 1 := andi main_v133 main_v137
  let main_v139 : FVec F S600x300 .f32 := Host.absf main_arg32
  let main_cst_54 : FVec F S_ .f32 := constant S_ .f32 0x7F800000#32
  let main_v140 : FVec F S600x300 .f32 := broadcastInDim S600x300 ![] bcast_S_S600x300 main_cst_54
  let main_v141 : IVec S600x300 1 := cmpf .olt main_v139 main_v140
  let main_c_55 : IVec S_ 1 := constantI S_ 1 1#1
  let main_v142 : IVec S_ 1 := (fun x v => Host.reduce IntOp.andi x v reducesTo_S600x300_S_d0_1 h_S_) main_v141 main_c_55
  let main_v143 : IVec S_ 1 := andi main_v138 main_v142
  let main_v144 : FVec F S600 .f32 := Host.absf main_arg33
  let main_cst_56 : FVec F S_ .f32 := constant S_ .f32 0x7F800000#32
  let main_v145 : FVec F S600 .f32 := broadcastInDim S600 ![] bcast_S_S600 main_cst_56
  let main_v146 : IVec S600 1 := cmpf .olt main_v144 main_v145
  let main_c_57 : IVec S_ 1 := constantI S_ 1 1#1
  let main_v147 : IVec S_ 1 := (fun x v => Host.reduce IntOp.andi x v reducesTo_S600_S_d0 h_S_) main_v146 main_c_57
  let main_v148 : IVec S_ 1 := andi main_v143 main_v147
  let main_v149 : IVec S1x16384 32 := (extractStridedSlice S1x16384 ![0, 0] · slices_S2x16384_S1x16384_0_0) main_arg2
  let main_c_58 : IVec S_ 32 := constantI S_ 32 0#32
  let main_v150 : IVec S1x16384 32 := broadcastInDim S1x16384 ![] bcast_S_S1x16384 main_c_58
  let main_v151 : IVec S1x16384 1 := cmpi .sge main_v149 main_v150
  let main_c_59 : IVec S_ 1 := constantI S_ 1 1#1
  let main_v152 : IVec S_ 1 := (fun x v => Host.reduce IntOp.andi x v reducesTo_S1x16384_S_d0_1 h_S_) main_v151 main_c_59
  let main_v153 : IVec S_ 1 := andi main_v148 main_v152
  fn_part9 (F := F) main_arg2 main_arg3 main_arg6 main_arg8 main_v153

def fn_part7 {F : FTy → Type} [FloatOps F] (main_arg2 : IVec S2x16384 32) (main_arg3 : IVec S2x16384 32) (main_arg6 : IVec S2x262144 32) (main_arg8 : IVec S2x262144 32) (main_arg29 : FVec F S300 .f32) (main_arg30 : FVec F S300x300 .f32) (main_arg31 : FVec F S300 .f32) (main_arg32 : FVec F S600x300 .f32) (main_arg33 : FVec F S600 .f32) (main_v118 : IVec S_ 1) (main_v119 : FVec F S300x600 .f32) : IVec S_ 1 :=
  let main_cst_46 : FVec F S_ .f32 := constant S_ .f32 0x7F800000#32
  let main_v120 : FVec F S300x600 .f32 := broadcastInDim S300x600 ![] bcast_S_S300x600 main_cst_46
  let main_v121 : IVec S300x600 1 := cmpf .olt main_v119 main_v120
  let main_c_47 : IVec S_ 1 := constantI S_ 1 1#1
  let main_v122 : IVec S_ 1 := (fun x v => Host.reduce IntOp.andi x v reducesTo_S300x600_S_d0_1 h_S_) main_v121 main_c_47
  let main_v123 : IVec S_ 1 := andi main_v118 main_v122
  let main_v124 : FVec F S300 .f32 := Host.absf main_arg29
  let main_cst_48 : FVec F S_ .f32 := constant S_ .f32 0x7F800000#32
  let main_v125 : FVec F S300 .f32 := broadcastInDim S300 ![] bcast_S_S300 main_cst_48
  let main_v126 : IVec S300 1 := cmpf .olt main_v124 main_v125
  let main_c_49 : IVec S_ 1 := constantI S_ 1 1#1
  let main_v127 : IVec S_ 1 := (fun x v => Host.reduce IntOp.andi x v reducesTo_S300_S_d0 h_S_) main_v126 main_c_49
  let main_v128 : IVec S_ 1 := andi main_v123 main_v127
  let main_v129 : FVec F S300x300 .f32 := Host.absf main_arg30
  let main_cst_50 : FVec F S_ .f32 := constant S_ .f32 0x7F800000#32
  let main_v130 : FVec F S300x300 .f32 := broadcastInDim S300x300 ![] bcast_S_S300x300 main_cst_50
  let main_v131 : IVec S300x300 1 := cmpf .olt main_v129 main_v130
  let main_c_51 : IVec S_ 1 := constantI S_ 1 1#1
  let main_v132 : IVec S_ 1 := (fun x v => Host.reduce IntOp.andi x v reducesTo_S300x300_S_d0_1 h_S_) main_v131 main_c_51
  let main_v133 : IVec S_ 1 := andi main_v128 main_v132
  let main_v134 : FVec F S300 .f32 := Host.absf main_arg31
  let main_cst_52 : FVec F S_ .f32 := constant S_ .f32 0x7F800000#32
  let main_v135 : FVec F S300 .f32 := broadcastInDim S300 ![] bcast_S_S300 main_cst_52
  let main_v136 : IVec S300 1 := cmpf .olt main_v134 main_v135
  fn_part8 (F := F) main_arg2 main_arg3 main_arg6 main_arg8 main_arg32 main_arg33 main_v133 main_v136

def fn_part6 {F : FTy → Type} [FloatOps F] (main_arg2 : IVec S2x16384 32) (main_arg3 : IVec S2x16384 32) (main_arg6 : IVec S2x262144 32) (main_arg8 : IVec S2x262144 32) (main_arg25 : FVec F S300 .f32) (main_arg26 : FVec F S600x300 .f32) (main_arg27 : FVec F S600 .f32) (main_arg28 : FVec F S300x600 .f32) (main_arg29 : FVec F S300 .f32) (main_arg30 : FVec F S300x300 .f32) (main_arg31 : FVec F S300 .f32) (main_arg32 : FVec F S600x300 .f32) (main_arg33 : FVec F S600 .f32) (main_v98 : IVec S_ 1) (main_v101 : IVec S300x300 1) (main_c_39 : IVec S_ 1) : IVec S_ 1 :=
  let main_v102 : IVec S_ 1 := (fun x v => Host.reduce IntOp.andi x v reducesTo_S300x300_S_d0_1 h_S_) main_v101 main_c_39
  let main_v103 : IVec S_ 1 := andi main_v98 main_v102
  let main_v104 : FVec F S300 .f32 := Host.absf main_arg25
  let main_cst_40 : FVec F S_ .f32 := constant S_ .f32 0x7F800000#32
  let main_v105 : FVec F S300 .f32 := broadcastInDim S300 ![] bcast_S_S300 main_cst_40
  let main_v106 : IVec S300 1 := cmpf .olt main_v104 main_v105
  let main_c_41 : IVec S_ 1 := constantI S_ 1 1#1
  let main_v107 : IVec S_ 1 := (fun x v => Host.reduce IntOp.andi x v reducesTo_S300_S_d0 h_S_) main_v106 main_c_41
  let main_v108 : IVec S_ 1 := andi main_v103 main_v107
  let main_v109 : FVec F S600x300 .f32 := Host.absf main_arg26
  let main_cst_42 : FVec F S_ .f32 := constant S_ .f32 0x7F800000#32
  let main_v110 : FVec F S600x300 .f32 := broadcastInDim S600x300 ![] bcast_S_S600x300 main_cst_42
  let main_v111 : IVec S600x300 1 := cmpf .olt main_v109 main_v110
  let main_c_43 : IVec S_ 1 := constantI S_ 1 1#1
  let main_v112 : IVec S_ 1 := (fun x v => Host.reduce IntOp.andi x v reducesTo_S600x300_S_d0_1 h_S_) main_v111 main_c_43
  let main_v113 : IVec S_ 1 := andi main_v108 main_v112
  let main_v114 : FVec F S600 .f32 := Host.absf main_arg27
  let main_cst_44 : FVec F S_ .f32 := constant S_ .f32 0x7F800000#32
  let main_v115 : FVec F S600 .f32 := broadcastInDim S600 ![] bcast_S_S600 main_cst_44
  let main_v116 : IVec S600 1 := cmpf .olt main_v114 main_v115
  let main_c_45 : IVec S_ 1 := constantI S_ 1 1#1
  let main_v117 : IVec S_ 1 := (fun x v => Host.reduce IntOp.andi x v reducesTo_S600_S_d0 h_S_) main_v116 main_c_45
  let main_v118 : IVec S_ 1 := andi main_v113 main_v117
  let main_v119 : FVec F S300x600 .f32 := Host.absf main_arg28
  fn_part7 (F := F) main_arg2 main_arg3 main_arg6 main_arg8 main_arg29 main_arg30 main_arg31 main_arg32 main_arg33 main_v118 main_v119

def fn_part5 {F : FTy → Type} [FloatOps F] (main_arg2 : IVec S2x16384 32) (main_arg3 : IVec S2x16384 32) (main_arg6 : IVec S2x262144 32) (main_arg8 : IVec S2x262144 32) (main_arg22 : FVec F S300x600 .f32) (main_arg23 : FVec F S300 .f32) (main_arg24 : FVec F S300x300 .f32) (main_arg25 : FVec F S300 .f32) (main_arg26 : FVec F S600x300 .f32) (main_arg27 : FVec F S600 .f32) (main_arg28 : FVec F S300x600 .f32) (main_arg29 : FVec F S300 .f32) (main_arg30 : FVec F S300x300 .f32) (main_arg31 : FVec F S300 .f32) (main_arg32 : FVec F S600x300 .f32) (main_arg33 : FVec F S600 .f32) (main_v83 : IVec S_ 1) (main_v84 : FVec F S600 .f32) (main_cst_32 : FVec F S_ .f32) : IVec S_ 1 :=
  let main_v85 : FVec F S600 .f32 := broadcastInDim S600 ![] bcast_S_S600 main_cst_32
  let main_v86 : IVec S600 1 := cmpf .olt main_v84 main_v85
  let main_c_33 : IVec S_ 1 := constantI S_ 1 1#1
  let main_v87 : IVec S_ 1 := (fun x v => Host.reduce IntOp.andi x v reducesTo_S600_S_d0 h_S_) main_v86 main_c_33
  let main_v88 : IVec S_ 1 := andi main_v83 main_v87
  let main_v89 : FVec F S300x600 .f32 := Host.absf main_arg22
  let main_cst_34 : FVec F S_ .f32 := constant S_ .f32 0x7F800000#32
  let main_v90 : FVec F S300x600 .f32 := broadcastInDim S300x600 ![] bcast_S_S300x600 main_cst_34
  let main_v91 : IVec S300x600 1 := cmpf .olt main_v89 main_v90
  let main_c_35 : IVec S_ 1 := constantI S_ 1 1#1
  let main_v92 : IVec S_ 1 := (fun x v => Host.reduce IntOp.andi x v reducesTo_S300x600_S_d0_1 h_S_) main_v91 main_c_35
  let main_v93 : IVec S_ 1 := andi main_v88 main_v92
  let main_v94 : FVec F S300 .f32 := Host.absf main_arg23
  let main_cst_36 : FVec F S_ .f32 := constant S_ .f32 0x7F800000#32
  let main_v95 : FVec F S300 .f32 := broadcastInDim S300 ![] bcast_S_S300 main_cst_36
  let main_v96 : IVec S300 1 := cmpf .olt main_v94 main_v95
  let main_c_37 : IVec S_ 1 := constantI S_ 1 1#1
  let main_v97 : IVec S_ 1 := (fun x v => Host.reduce IntOp.andi x v reducesTo_S300_S_d0 h_S_) main_v96 main_c_37
  let main_v98 : IVec S_ 1 := andi main_v93 main_v97
  let main_v99 : FVec F S300x300 .f32 := Host.absf main_arg24
  let main_cst_38 : FVec F S_ .f32 := constant S_ .f32 0x7F800000#32
  let main_v100 : FVec F S300x300 .f32 := broadcastInDim S300x300 ![] bcast_S_S300x300 main_cst_38
  let main_v101 : IVec S300x300 1 := cmpf .olt main_v99 main_v100
  let main_c_39 : IVec S_ 1 := constantI S_ 1 1#1
  fn_part6 (F := F) main_arg2 main_arg3 main_arg6 main_arg8 main_arg25 main_arg26 main_arg27 main_arg28 main_arg29 main_arg30 main_arg31 main_arg32 main_arg33 main_v98 main_v101 main_c_39

def fn_part4 {F : FTy → Type} [FloatOps F] (main_arg2 : IVec S2x16384 32) (main_arg3 : IVec S2x16384 32) (main_arg6 : IVec S2x262144 32) (main_arg8 : IVec S2x262144 32) (main_arg18 : FVec F S300x300 .f32) (main_arg19 : FVec F S300 .f32) (main_arg20 : FVec F S600x300 .f32) (main_arg21 : FVec F S600 .f32) (main_arg22 : FVec F S300x600 .f32) (main_arg23 : FVec F S300 .f32) (main_arg24 : FVec F S300x300 .f32) (main_arg25 : FVec F S300 .f32) (main_arg26 : FVec F S600x300 .f32) (main_arg27 : FVec F S600 .f32) (main_arg28 : FVec F S300x600 .f32) (main_arg29 : FVec F S300 .f32) (main_arg30 : FVec F S300x300 .f32) (main_arg31 : FVec F S300 .f32) (main_arg32 : FVec F S600x300 .f32) (main_arg33 : FVec F S600 .f32) (main_v63 : IVec S_ 1) (main_v67 : IVec S_ 1) : IVec S_ 1 :=
  let main_v68 : IVec S_ 1 := andi main_v63 main_v67
  let main_v69 : FVec F S300x300 .f32 := Host.absf main_arg18
  let main_cst_26 : FVec F S_ .f32 := constant S_ .f32 0x7F800000#32
  let main_v70 : FVec F S300x300 .f32 := broadcastInDim S300x300 ![] bcast_S_S300x300 main_cst_26
  let main_v71 : IVec S300x300 1 := cmpf .olt main_v69 main_v70
  let main_c_27 : IVec S_ 1 := constantI S_ 1 1#1
  let main_v72 : IVec S_ 1 := (fun x v => Host.reduce IntOp.andi x v reducesTo_S300x300_S_d0_1 h_S_) main_v71 main_c_27
  let main_v73 : IVec S_ 1 := andi main_v68 main_v72
  let main_v74 : FVec F S300 .f32 := Host.absf main_arg19
  let main_cst_28 : FVec F S_ .f32 := constant S_ .f32 0x7F800000#32
  let main_v75 : FVec F S300 .f32 := broadcastInDim S300 ![] bcast_S_S300 main_cst_28
  let main_v76 : IVec S300 1 := cmpf .olt main_v74 main_v75
  let main_c_29 : IVec S_ 1 := constantI S_ 1 1#1
  let main_v77 : IVec S_ 1 := (fun x v => Host.reduce IntOp.andi x v reducesTo_S300_S_d0 h_S_) main_v76 main_c_29
  let main_v78 : IVec S_ 1 := andi main_v73 main_v77
  let main_v79 : FVec F S600x300 .f32 := Host.absf main_arg20
  let main_cst_30 : FVec F S_ .f32 := constant S_ .f32 0x7F800000#32
  let main_v80 : FVec F S600x300 .f32 := broadcastInDim S600x300 ![] bcast_S_S600x300 main_cst_30
  let main_v81 : IVec S600x300 1 := cmpf .olt main_v79 main_v80
  let main_c_31 : IVec S_ 1 := constantI S_ 1 1#1
  let main_v82 : IVec S_ 1 := (fun x v => Host.reduce IntOp.andi x v reducesTo_S600x300_S_d0_1 h_S_) main_v81 main_c_31
  let main_v83 : IVec S_ 1 := andi main_v78 main_v82
  let main_v84 : FVec F S600 .f32 := Host.absf main_arg21
  let main_cst_32 : FVec F S_ .f32 := constant S_ .f32 0x7F800000#32
  fn_part5 (F := F) main_arg2 main_arg3 main_arg6 main_arg8 main_arg22 main_arg23 main_arg24 main_arg25 main_arg26 main_arg27 main_arg28 main_arg29 main_arg30 main_arg31 main_arg32 main_arg33 main_v83 main_v84 main_cst_32

def fn_part3 {F : FTy → Type} [FloatOps F] (main_arg2 : IVec S2x16384 32) (main_arg3 : IVec S2x16384 32) (main_arg6 : IVec S2x262144 32) (main_arg8 : IVec S2x262144 32) (main_arg15 : FVec F S600 .f32) (main_arg16 : FVec F S300x600 .f32) (main_arg17 : FVec F S300 .f32) (main_arg18 : FVec F S300x300 .f32) (main_arg19 : FVec F S300 .f32) (main_arg20 : FVec F S600x300 .f32) (main_arg21 : FVec F S600 .f32) (main_arg22 : FVec F S300x600 .f32) (main_arg23 : FVec F S300 .f32) (main_arg24 : FVec F S300x300 .f32) (main_arg25 : FVec F S300 .f32) (main_arg26 : FVec F S600x300 .f32) (main_arg27 : FVec F S600 .f32) (main_arg28 : FVec F S300x600 .f32) (main_arg29 : FVec F S300 .f32) (main_arg30 : FVec F S300x300 .f32) (main_arg31 : FVec F S300 .f32) (main_arg32 : FVec F S600x300 .f32) (main_arg33 : FVec F S600 .f32) (main_v48 : IVec S_ 1) (main_v49 : FVec F S600x300 .f32) (main_v50 : FVec F S600x300 .f32) : IVec S_ 1 :=
  let main_v51 : IVec S600x300 1 := cmpf .olt main_v49 main_v50
  let main_c_19 : IVec S_ 1 := constantI S_ 1 1#1
  let main_v52 : IVec S_ 1 := (fun x v => Host.reduce IntOp.andi x v reducesTo_S600x300_S_d0_1 h_S_) main_v51 main_c_19
  let main_v53 : IVec S_ 1 := andi main_v48 main_v52
  let main_v54 : FVec F S600 .f32 := Host.absf main_arg15
  let main_cst_20 : FVec F S_ .f32 := constant S_ .f32 0x7F800000#32
  let main_v55 : FVec F S600 .f32 := broadcastInDim S600 ![] bcast_S_S600 main_cst_20
  let main_v56 : IVec S600 1 := cmpf .olt main_v54 main_v55
  let main_c_21 : IVec S_ 1 := constantI S_ 1 1#1
  let main_v57 : IVec S_ 1 := (fun x v => Host.reduce IntOp.andi x v reducesTo_S600_S_d0 h_S_) main_v56 main_c_21
  let main_v58 : IVec S_ 1 := andi main_v53 main_v57
  let main_v59 : FVec F S300x600 .f32 := Host.absf main_arg16
  let main_cst_22 : FVec F S_ .f32 := constant S_ .f32 0x7F800000#32
  let main_v60 : FVec F S300x600 .f32 := broadcastInDim S300x600 ![] bcast_S_S300x600 main_cst_22
  let main_v61 : IVec S300x600 1 := cmpf .olt main_v59 main_v60
  let main_c_23 : IVec S_ 1 := constantI S_ 1 1#1
  let main_v62 : IVec S_ 1 := (fun x v => Host.reduce IntOp.andi x v reducesTo_S300x600_S_d0_1 h_S_) main_v61 main_c_23
  let main_v63 : IVec S_ 1 := andi main_v58 main_v62
  let main_v64 : FVec F S300 .f32 := Host.absf main_arg17
  let main_cst_24 : FVec F S_ .f32 := constant S_ .f32 0x7F800000#32
  let main_v65 : FVec F S300 .f32 := broadcastInDim S300 ![] bcast_S_S300 main_cst_24
  let main_v66 : IVec S300 1 := cmpf .olt main_v64 main_v65
  let main_c_25 : IVec S_ 1 := constantI S_ 1 1#1
  let main_v67 : IVec S_ 1 := (fun x v => Host.reduce IntOp.andi x v reducesTo_S300_S_d0 h_S_) main_v66 main_c_25
  fn_part4 (F := F) main_arg2 main_arg3 main_arg6 main_arg8 main_arg18 main_arg19 main_arg20 main_arg21 main_arg22 main_arg23 main_arg24 main_arg25 main_arg26 main_arg27 main_arg28 main_arg29 main_arg30 main_arg31 main_arg32 main_arg33 main_v63 main_v67

def fn_part2 {F : FTy → Type} [FloatOps F] (main_arg2 : IVec S2x16384 32) (main_arg3 : IVec S2x16384 32) (main_arg6 : IVec S2x262144 32) (main_arg8 : IVec S2x262144 32) (main_arg11 : FVec F S300 .f32) (main_arg12 : FVec F S300x300 .f32) (main_arg13 : FVec F S300 .f32) (main_arg14 : FVec F S600x300 .f32) (main_arg15 : FVec F S600 .f32) (main_arg16 : FVec F S300x600 .f32) (main_arg17 : FVec F S300 .f32) (main_arg18 : FVec F S300x300 .f32) (main_arg19 : FVec F S300 .f32) (main_arg20 : FVec F S600x300 .f32) (main_arg21 : FVec F S600 .f32) (main_arg22 : FVec F S300x600 .f32) (main_arg23 : FVec F S300 .f32) (main_arg24 : FVec F S300x300 .f32) (main_arg25 : FVec F S300 .f32) (main_arg26 : FVec F S600x300 .f32) (main_arg27 : FVec F S600 .f32) (main_arg28 : FVec F S300x600 .f32) (main_arg29 : FVec F S300 .f32) (main_arg30 : FVec F S300x300 .f32) (main_arg31 : FVec F S300 .f32) (main_arg32 : FVec F S600x300 .f32) (main_arg33 : FVec F S600 .f32) (main_v33 : IVec S_ 1) : IVec S_ 1 :=
  let main_v34 : FVec F S300 .f32 := Host.absf main_arg11
  let main_cst_12 : FVec F S_ .f32 := constant S_ .f32 0x7F800000#32
  let main_v35 : FVec F S300 .f32 := broadcastInDim S300 ![] bcast_S_S300 main_cst_12
  let main_v36 : IVec S300 1 := cmpf .olt main_v34 main_v35
  let main_c_13 : IVec S_ 1 := constantI S_ 1 1#1
  let main_v37 : IVec S_ 1 := (fun x v => Host.reduce IntOp.andi x v reducesTo_S300_S_d0 h_S_) main_v36 main_c_13
  let main_v38 : IVec S_ 1 := andi main_v33 main_v37
  let main_v39 : FVec F S300x300 .f32 := Host.absf main_arg12
  let main_cst_14 : FVec F S_ .f32 := constant S_ .f32 0x7F800000#32
  let main_v40 : FVec F S300x300 .f32 := broadcastInDim S300x300 ![] bcast_S_S300x300 main_cst_14
  let main_v41 : IVec S300x300 1 := cmpf .olt main_v39 main_v40
  let main_c_15 : IVec S_ 1 := constantI S_ 1 1#1
  let main_v42 : IVec S_ 1 := (fun x v => Host.reduce IntOp.andi x v reducesTo_S300x300_S_d0_1 h_S_) main_v41 main_c_15
  let main_v43 : IVec S_ 1 := andi main_v38 main_v42
  let main_v44 : FVec F S300 .f32 := Host.absf main_arg13
  let main_cst_16 : FVec F S_ .f32 := constant S_ .f32 0x7F800000#32
  let main_v45 : FVec F S300 .f32 := broadcastInDim S300 ![] bcast_S_S300 main_cst_16
  let main_v46 : IVec S300 1 := cmpf .olt main_v44 main_v45
  let main_c_17 : IVec S_ 1 := constantI S_ 1 1#1
  let main_v47 : IVec S_ 1 := (fun x v => Host.reduce IntOp.andi x v reducesTo_S300_S_d0 h_S_) main_v46 main_c_17
  let main_v48 : IVec S_ 1 := andi main_v43 main_v47
  let main_v49 : FVec F S600x300 .f32 := Host.absf main_arg14
  let main_cst_18 : FVec F S_ .f32 := constant S_ .f32 0x7F800000#32
  let main_v50 : FVec F S600x300 .f32 := broadcastInDim S600x300 ![] bcast_S_S600x300 main_cst_18
  fn_part3 (F := F) main_arg2 main_arg3 main_arg6 main_arg8 main_arg15 main_arg16 main_arg17 main_arg18 main_arg19 main_arg20 main_arg21 main_arg22 main_arg23 main_arg24 main_arg25 main_arg26 main_arg27 main_arg28 main_arg29 main_arg30 main_arg31 main_arg32 main_arg33 main_v48 main_v49 main_v50

def fn_part1 {F : FTy → Type} [FloatOps F] (main_arg2 : IVec S2x16384 32) (main_arg3 : IVec S2x16384 32) (main_arg6 : IVec S2x262144 32) (main_arg7 : FVec F S262144x300 .f32) (main_arg8 : IVec S2x262144 32) (main_arg9 : FVec F S262144x300 .f32) (main_arg10 : FVec F S300x600 .f32) (main_arg11 : FVec F S300 .f32) (main_arg12 : FVec F S300x300 .f32) (main_arg13 : FVec F S300 .f32) (main_arg14 : FVec F S600x300 .f32) (main_arg15 : FVec F S600 .f32) (main_arg16 : FVec F S300x600 .f32) (main_arg17 : FVec F S300 .f32) (main_arg18 : FVec F S300x300 .f32) (main_arg19 : FVec F S300 .f32) (main_arg20 : FVec F S600x300 .f32) (main_arg21 : FVec F S600 .f32) (main_arg22 : FVec F S300x600 .f32) (main_arg23 : FVec F S300 .f32) (main_arg24 : FVec F S300x300 .f32) (main_arg25 : FVec F S300 .f32) (main_arg26 : FVec F S600x300 .f32) (main_arg27 : FVec F S600 .f32) (main_arg28 : FVec F S300x600 .f32) (main_arg29 : FVec F S300 .f32) (main_arg30 : FVec F S300x300 .f32) (main_arg31 : FVec F S300 .f32) (main_arg32 : FVec F S600x300 .f32) (main_arg33 : FVec F S600 .f32) (main_v13 : IVec S_ 1) (main_v16 : IVec S16384x300 1) : IVec S_ 1 :=
  let main_c_5 : IVec S_ 1 := constantI S_ 1 1#1
  let main_v17 : IVec S_ 1 := (fun x v => Host.reduce IntOp.andi x v reducesTo_S16384x300_S_d0_1 h_S_) main_v16 main_c_5
  let main_v18 : IVec S_ 1 := andi main_v13 main_v17
  let main_v19 : FVec F S262144x300 .f32 := Host.absf main_arg7
  let main_cst_6 : FVec F S_ .f32 := constant S_ .f32 0x7F800000#32
  let main_v20 : FVec F S262144x300 .f32 := broadcastInDim S262144x300 ![] bcast_S_S262144x300 main_cst_6
  let main_v21 : IVec S262144x300 1 := cmpf .olt main_v19 main_v20
  let main_c_7 : IVec S_ 1 := constantI S_ 1 1#1
  let main_v22 : IVec S_ 1 := (fun x v => Host.reduce IntOp.andi x v reducesTo_S262144x300_S_d0_1 h_S_) main_v21 main_c_7
  let main_v23 : IVec S_ 1 := andi main_v18 main_v22
  let main_v24 : FVec F S262144x300 .f32 := Host.absf main_arg9
  let main_cst_8 : FVec F S_ .f32 := constant S_ .f32 0x7F800000#32
  let main_v25 : FVec F S262144x300 .f32 := broadcastInDim S262144x300 ![] bcast_S_S262144x300 main_cst_8
  let main_v26 : IVec S262144x300 1 := cmpf .olt main_v24 main_v25
  let main_c_9 : IVec S_ 1 := constantI S_ 1 1#1
  let main_v27 : IVec S_ 1 := (fun x v => Host.reduce IntOp.andi x v reducesTo_S262144x300_S_d0_1 h_S_) main_v26 main_c_9
  let main_v28 : IVec S_ 1 := andi main_v23 main_v27
  let main_v29 : FVec F S300x600 .f32 := Host.absf main_arg10
  let main_cst_10 : FVec F S_ .f32 := constant S_ .f32 0x7F800000#32
  let main_v30 : FVec F S300x600 .f32 := broadcastInDim S300x600 ![] bcast_S_S300x600 main_cst_10
  let main_v31 : IVec S300x600 1 := cmpf .olt main_v29 main_v30
  let main_c_11 : IVec S_ 1 := constantI S_ 1 1#1
  let main_v32 : IVec S_ 1 := (fun x v => Host.reduce IntOp.andi x v reducesTo_S300x600_S_d0_1 h_S_) main_v31 main_c_11
  let main_v33 : IVec S_ 1 := andi main_v28 main_v32
  fn_part2 (F := F) main_arg2 main_arg3 main_arg6 main_arg8 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_v33

def fn {F : FTy → Type} [FloatOps F] (main_arg0 : FVec F S512x600 .f32) (main_arg1 : FVec F S512x600 .f32) (main_arg2 : IVec S2x16384 32) (main_arg3 : IVec S2x16384 32) (main_arg4 : FVec F S16384x300 .f32) (main_arg5 : FVec F S16384x300 .f32) (main_arg6 : IVec S2x262144 32) (main_arg7 : FVec F S262144x300 .f32) (main_arg8 : IVec S2x262144 32) (main_arg9 : FVec F S262144x300 .f32) (main_arg10 : FVec F S300x600 .f32) (main_arg11 : FVec F S300 .f32) (main_arg12 : FVec F S300x300 .f32) (main_arg13 : FVec F S300 .f32) (main_arg14 : FVec F S600x300 .f32) (main_arg15 : FVec F S600 .f32) (main_arg16 : FVec F S300x600 .f32) (main_arg17 : FVec F S300 .f32) (main_arg18 : FVec F S300x300 .f32) (main_arg19 : FVec F S300 .f32) (main_arg20 : FVec F S600x300 .f32) (main_arg21 : FVec F S600 .f32) (main_arg22 : FVec F S300x600 .f32) (main_arg23 : FVec F S300 .f32) (main_arg24 : FVec F S300x300 .f32) (main_arg25 : FVec F S300 .f32) (main_arg26 : FVec F S600x300 .f32) (main_arg27 : FVec F S600 .f32) (main_arg28 : FVec F S300x600 .f32) (main_arg29 : FVec F S300 .f32) (main_arg30 : FVec F S300x300 .f32) (main_arg31 : FVec F S300 .f32) (main_arg32 : FVec F S600x300 .f32) (main_arg33 : FVec F S600 .f32) : IVec S_ 1 :=
  let main_v0 : FVec F S512x600 .f32 := Host.absf main_arg0
  let main_cst : FVec F S_ .f32 := constant S_ .f32 0x7F800000#32
  let main_v1 : FVec F S512x600 .f32 := broadcastInDim S512x600 ![] bcast_S_S512x600 main_cst
  let main_v2 : IVec S512x600 1 := cmpf .olt main_v0 main_v1
  let main_c : IVec S_ 1 := constantI S_ 1 1#1
  let main_v3 : IVec S_ 1 := (fun x v => Host.reduce IntOp.andi x v reducesTo_S512x600_S_d0_1 h_S_) main_v2 main_c
  let main_v4 : FVec F S512x600 .f32 := Host.absf main_arg1
  let main_cst_0 : FVec F S_ .f32 := constant S_ .f32 0x7F800000#32
  let main_v5 : FVec F S512x600 .f32 := broadcastInDim S512x600 ![] bcast_S_S512x600 main_cst_0
  let main_v6 : IVec S512x600 1 := cmpf .olt main_v4 main_v5
  let main_c_1 : IVec S_ 1 := constantI S_ 1 1#1
  let main_v7 : IVec S_ 1 := (fun x v => Host.reduce IntOp.andi x v reducesTo_S512x600_S_d0_1 h_S_) main_v6 main_c_1
  let main_v8 : IVec S_ 1 := andi main_v3 main_v7
  let main_v9 : FVec F S16384x300 .f32 := Host.absf main_arg4
  let main_cst_2 : FVec F S_ .f32 := constant S_ .f32 0x7F800000#32
  let main_v10 : FVec F S16384x300 .f32 := broadcastInDim S16384x300 ![] bcast_S_S16384x300 main_cst_2
  let main_v11 : IVec S16384x300 1 := cmpf .olt main_v9 main_v10
  let main_c_3 : IVec S_ 1 := constantI S_ 1 1#1
  let main_v12 : IVec S_ 1 := (fun x v => Host.reduce IntOp.andi x v reducesTo_S16384x300_S_d0_1 h_S_) main_v11 main_c_3
  let main_v13 : IVec S_ 1 := andi main_v8 main_v12
  let main_v14 : FVec F S16384x300 .f32 := Host.absf main_arg5
  let main_cst_4 : FVec F S_ .f32 := constant S_ .f32 0x7F800000#32
  let main_v15 : FVec F S16384x300 .f32 := broadcastInDim S16384x300 ![] bcast_S_S16384x300 main_cst_4
  let main_v16 : IVec S16384x300 1 := cmpf .olt main_v14 main_v15
  fn_part1 (F := F) main_arg2 main_arg3 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_v13 main_v16
-- ==== Kernel.lean ====
abbrev S512x600 : Shape := ⟨2, ![512, 600]⟩
abbrev S2x16384 : Shape := ⟨2, ![2, 16384]⟩
abbrev S16384x300 : Shape := ⟨2, ![16384, 300]⟩
abbrev S2x262144 : Shape := ⟨2, ![2, 262144]⟩
abbrev S262144x300 : Shape := ⟨2, ![262144, 300]⟩
abbrev S300x600 : Shape := ⟨2, ![300, 600]⟩
abbrev S300 : Shape := ⟨1, ![300]⟩
abbrev S300x300 : Shape := ⟨2, ![300, 300]⟩
abbrev S600x300 : Shape := ⟨2, ![600, 300]⟩
abbrev S600 : Shape := ⟨1, ![600]⟩
abbrev S1x16384 : Shape := ⟨2, ![1, 16384]⟩
abbrev S16384 : Shape := ⟨1, ![16384]⟩
abbrev S1x300 : Shape := ⟨2, ![1, 300]⟩
abbrev S512x300 : Shape := ⟨2, ![512, 300]⟩
abbrev S2048x300 : Shape := ⟨2, ![2048, 300]⟩
abbrev S2048 : Shape := ⟨1, ![2048]⟩
abbrev S2048x512 : Shape := ⟨2, ![2048, 512]⟩
abbrev S2048x1 : Shape := ⟨2, ![2048, 1]⟩
abbrev S512x2048 : Shape := ⟨2, ![512, 2048]⟩
abbrev S1x2048 : Shape := ⟨2, ![1, 2048]⟩
abbrev S1x600 : Shape := ⟨2, ![1, 600]⟩
abbrev S1024x600 : Shape := ⟨2, ![1024, 600]⟩
abbrev S1x262144 : Shape := ⟨2, ![1, 262144]⟩
abbrev S262144 : Shape := ⟨1, ![262144]⟩
abbrev S1024x300 : Shape := ⟨2, ![1024, 300]⟩
abbrev S1024 : Shape := ⟨1, ![1024]⟩
abbrev S1024x1024 : Shape := ⟨2, ![1024, 1024]⟩
abbrev S1024x1 : Shape := ⟨2, ![1024, 1]⟩
abbrev S1x1024 : Shape := ⟨2, ![1, 1024]⟩

abbrev nBuf : Space → Nat
  | .hbm => 78
  | .vmem => 72
  | .smem => 0
  | _ => 0

abbrev bufTy : (tb : Table) → Fin (tcTables nBuf tb) → BufTy
  | .hbm, ⟨0, _⟩ => ⟨S512x600, .f32⟩
  | .hbm, ⟨1, _⟩ => ⟨S512x600, .f32⟩
  | .hbm, ⟨2, _⟩ => ⟨S2x16384, .i32⟩
  | .hbm, ⟨3, _⟩ => ⟨S2x16384, .i32⟩
  | .hbm, ⟨4, _⟩ => ⟨S16384x300, .f32⟩
  | .hbm, ⟨5, _⟩ => ⟨S16384x300, .f32⟩
  | .hbm, ⟨6, _⟩ => ⟨S2x262144, .i32⟩
  | .hbm, ⟨7, _⟩ => ⟨S262144x300, .f32⟩
  | .hbm, ⟨8, _⟩ => ⟨S2x262144, .i32⟩
  | .hbm, ⟨9, _⟩ => ⟨S262144x300, .f32⟩
  | .hbm, ⟨10, _⟩ => ⟨S300x600, .f32⟩
  | .hbm, ⟨11, _⟩ => ⟨S300, .f32⟩
  | .hbm, ⟨12, _⟩ => ⟨S300x300, .f32⟩
  | .hbm, ⟨13, _⟩ => ⟨S300, .f32⟩
  | .hbm, ⟨14, _⟩ => ⟨S600x300, .f32⟩
  | .hbm, ⟨15, _⟩ => ⟨S600, .f32⟩
  | .hbm, ⟨16, _⟩ => ⟨S300x600, .f32⟩
  | .hbm, ⟨17, _⟩ => ⟨S300, .f32⟩
  | .hbm, ⟨18, _⟩ => ⟨S300x300, .f32⟩
  | .hbm, ⟨19, _⟩ => ⟨S300, .f32⟩
  | .hbm, ⟨20, _⟩ => ⟨S600x300, .f32⟩
  | .hbm, ⟨21, _⟩ => ⟨S600, .f32⟩
  | .hbm, ⟨22, _⟩ => ⟨S300x600, .f32⟩
  | .hbm, ⟨23, _⟩ => ⟨S300, .f32⟩
  | .hbm, ⟨24, _⟩ => ⟨S300x300, .f32⟩
  | .hbm, ⟨25, _⟩ => ⟨S300, .f32⟩
  | .hbm, ⟨26, _⟩ => ⟨S600x300, .f32⟩
  | .hbm, ⟨27, _⟩ => ⟨S600, .f32⟩
  | .hbm, ⟨28, _⟩ => ⟨S300x600, .f32⟩
  | .hbm, ⟨29, _⟩ => ⟨S300, .f32⟩
  | .hbm, ⟨30, _⟩ => ⟨S300x300, .f32⟩
  | .hbm, ⟨31, _⟩ => ⟨S300, .f32⟩
  | .hbm, ⟨32, _⟩ => ⟨S600x300, .f32⟩
  | .hbm, ⟨33, _⟩ => ⟨S600, .f32⟩
  | .hbm, ⟨34, _⟩ => ⟨S1x16384, .i32⟩
  | .hbm, ⟨35, _⟩ => ⟨S16384, .i32⟩
  | .hbm, ⟨36, _⟩ => ⟨S1x16384, .i32⟩
  | .hbm, ⟨37, _⟩ => ⟨S16384, .i32⟩
  | .hbm, ⟨38, _⟩ => ⟨S1x300, .f32⟩
  | .hbm, ⟨39, _⟩ => ⟨S512x300, .f32⟩
  | .hbm, ⟨40, _⟩ => ⟨S1x300, .f32⟩
  | .hbm, ⟨41, _⟩ => ⟨S512x300, .f32⟩
  | .hbm, ⟨42, _⟩ => ⟨S1x600, .f32⟩
  | .hbm, ⟨43, _⟩ => ⟨S512x600, .f32⟩
  | .hbm, ⟨44, _⟩ => ⟨S1x16384, .i32⟩
  | .hbm, ⟨45, _⟩ => ⟨S16384, .i32⟩
  | .hbm, ⟨46, _⟩ => ⟨S1x16384, .i32⟩
  | .hbm, ⟨47, _⟩ => ⟨S16384, .i32⟩
  | .hbm, ⟨48, _⟩ => ⟨S1x300, .f32⟩
  | .hbm, ⟨49, _⟩ => ⟨S512x300, .f32⟩
  | .hbm, ⟨50, _⟩ => ⟨S1x300, .f32⟩
  | .hbm, ⟨51, _⟩ => ⟨S512x300, .f32⟩
  | .hbm, ⟨52, _⟩ => ⟨S1x600, .f32⟩
  | .hbm, ⟨53, _⟩ => ⟨S512x600, .f32⟩
  | .hbm, ⟨54, _⟩ => ⟨S1024x600, .f32⟩
  | .hbm, ⟨55, _⟩ => ⟨S1024x600, .f32⟩
  | .hbm, ⟨56, _⟩ => ⟨S1x262144, .i32⟩
  | .hbm, ⟨57, _⟩ => ⟨S262144, .i32⟩
  | .hbm, ⟨58, _⟩ => ⟨S1x262144, .i32⟩
  | .hbm, ⟨59, _⟩ => ⟨S262144, .i32⟩
  | .hbm, ⟨60, _⟩ => ⟨S1x300, .f32⟩
  | .hbm, ⟨61, _⟩ => ⟨S1024x300, .f32⟩
  | .hbm, ⟨62, _⟩ => ⟨S1x300, .f32⟩
  | .hbm, ⟨63, _⟩ => ⟨S1024x300, .f32⟩
  | .hbm, ⟨64, _⟩ => ⟨S1x600, .f32⟩
  | .hbm, ⟨65, _⟩ => ⟨S1024x600, .f32⟩
  | .hbm, ⟨66, _⟩ => ⟨S1x262144, .i32⟩
  | .hbm, ⟨67, _⟩ => ⟨S262144, .i32⟩
  | .hbm, ⟨68, _⟩ => ⟨S1x262144, .i32⟩
  | .hbm, ⟨69, _⟩ => ⟨S262144, .i32⟩
  | .hbm, ⟨70, _⟩ => ⟨S1x300, .f32⟩
  | .hbm, ⟨71, _⟩ => ⟨S1024x300, .f32⟩
  | .hbm, ⟨72, _⟩ => ⟨S1x300, .f32⟩
  | .hbm, ⟨73, _⟩ => ⟨S1024x300, .f32⟩
  | .hbm, ⟨74, _⟩ => ⟨S1x600, .f32⟩
  | .hbm, ⟨75, _⟩ => ⟨S1024x600, .f32⟩
  | .hbm, ⟨76, _⟩ => ⟨S512x600, .f32⟩
  | .hbm, ⟨77, _⟩ => ⟨S512x600, .f32⟩
  | .local _ .vmem, ⟨0, _⟩ => ⟨S512x600, .f32⟩
  | .local _ .vmem, ⟨1, _⟩ => ⟨S300x600, .f32⟩
  | .local _ .vmem, ⟨2, _⟩ => ⟨S1x300, .f32⟩
  | .local _ .vmem, ⟨3, _⟩ => ⟨S512x300, .f32⟩
  | .local _ .vmem, ⟨4, _⟩ => ⟨S512x300, .f32⟩
  | .local _ .vmem, ⟨5, _⟩ => ⟨S300x300, .f32⟩
  | .local _ .vmem, ⟨6, _⟩ => ⟨S1x300, .f32⟩
  | .local _ .vmem, ⟨7, _⟩ => ⟨S2048x300, .f32⟩
  | .local _ .vmem, ⟨8, _⟩ => ⟨S2048x300, .f32⟩
  | .local _ .vmem, ⟨9, _⟩ => ⟨S2048, .i32⟩
  | .local _ .vmem, ⟨10, _⟩ => ⟨S2048, .i32⟩
  | .local _ .vmem, ⟨11, _⟩ => ⟨S2048, .i32⟩
  | .local _ .vmem, ⟨12, _⟩ => ⟨S2048, .i32⟩
  | .local _ .vmem, ⟨13, _⟩ => ⟨S512x300, .f32⟩
  | .local _ .vmem, ⟨14, _⟩ => ⟨S512x300, .f32⟩
  | .local _ .vmem, ⟨15, _⟩ => ⟨S600x300, .f32⟩
  | .local _ .vmem, ⟨16, _⟩ => ⟨S1x600, .f32⟩
  | .local _ .vmem, ⟨17, _⟩ => ⟨S512x600, .f32⟩
  | .local _ .vmem, ⟨18, _⟩ => ⟨S512x600, .f32⟩
  | .local _ .vmem, ⟨19, _⟩ => ⟨S300x600, .f32⟩
  | .local _ .vmem, ⟨20, _⟩ => ⟨S1x300, .f32⟩
  | .local _ .vmem, ⟨21, _⟩ => ⟨S512x300, .f32⟩
  | .local _ .vmem, ⟨22, _⟩ => ⟨S512x300, .f32⟩
  | .local _ .vmem, ⟨23, _⟩ => ⟨S300x300, .f32⟩
  | .local _ .vmem, ⟨24, _⟩ => ⟨S1x300, .f32⟩
  | .local _ .vmem, ⟨25, _⟩ => ⟨S2048x300, .f32⟩
  | .local _ .vmem, ⟨26, _⟩ => ⟨S2048x300, .f32⟩
  | .local _ .vmem, ⟨27, _⟩ => ⟨S2048, .i32⟩
  | .local _ .vmem, ⟨28, _⟩ => ⟨S2048, .i32⟩
  | .local _ .vmem, ⟨29, _⟩ => ⟨S2048, .i32⟩
  | .local _ .vmem, ⟨30, _⟩ => ⟨S2048, .i32⟩
  | .local _ .vmem, ⟨31, _⟩ => ⟨S512x300, .f32⟩
  | .local _ .vmem, ⟨32, _⟩ => ⟨S512x300, .f32⟩
  | .local _ .vmem, ⟨33, _⟩ => ⟨S600x300, .f32⟩
  | .local _ .vmem, ⟨34, _⟩ => ⟨S1x600, .f32⟩
  | .local _ .vmem, ⟨35, _⟩ => ⟨S512x600, .f32⟩
  | .local _ .vmem, ⟨36, _⟩ => ⟨S1024x600, .f32⟩
  | .local _ .vmem, ⟨37, _⟩ => ⟨S300x600, .f32⟩
  | .local _ .vmem, ⟨38, _⟩ => ⟨S1x300, .f32⟩
  | .local _ .vmem, ⟨39, _⟩ => ⟨S1024x300, .f32⟩
  | .local _ .vmem, ⟨40, _⟩ => ⟨S1024x300, .f32⟩
  | .local _ .vmem, ⟨41, _⟩ => ⟨S300x300, .f32⟩
  | .local _ .vmem, ⟨42, _⟩ => ⟨S1x300, .f32⟩
  | .local _ .vmem, ⟨43, _⟩ => ⟨S1024x300, .f32⟩
  | .local _ .vmem, ⟨44, _⟩ => ⟨S1024x300, .f32⟩
  | .local _ .vmem, ⟨45, _⟩ => ⟨S1024, .i32⟩
  | .local _ .vmem, ⟨46, _⟩ => ⟨S1024, .i32⟩
  | .local _ .vmem, ⟨47, _⟩ => ⟨S1024, .i32⟩
  | .local _ .vmem, ⟨48, _⟩ => ⟨S1024, .i32⟩
  | .local _ .vmem, ⟨49, _⟩ => ⟨S1024x300, .f32⟩
  | .local _ .vmem, ⟨50, _⟩ => ⟨S1024x300, .f32⟩
  | .local _ .vmem, ⟨51, _⟩ => ⟨S600x300, .f32⟩
  | .local _ .vmem, ⟨52, _⟩ => ⟨S1x600, .f32⟩
  | .local _ .vmem, ⟨53, _⟩ => ⟨S1024x600, .f32⟩
  | .local _ .vmem, ⟨54, _⟩ => ⟨S1024x600, .f32⟩
  | .local _ .vmem, ⟨55, _⟩ => ⟨S300x600, .f32⟩
  | .local _ .vmem, ⟨56, _⟩ => ⟨S1x300, .f32⟩
  | .local _ .vmem, ⟨57, _⟩ => ⟨S1024x300, .f32⟩
  | .local _ .vmem, ⟨58, _⟩ => ⟨S1024x300, .f32⟩
  | .local _ .vmem, ⟨59, _⟩ => ⟨S300x300, .f32⟩
  | .local _ .vmem, ⟨60, _⟩ => ⟨S1x300, .f32⟩
  | .local _ .vmem, ⟨61, _⟩ => ⟨S1024x300, .f32⟩
  | .local _ .vmem, ⟨62, _⟩ => ⟨S1024x300, .f32⟩
  | .local _ .vmem, ⟨63, _⟩ => ⟨S1024, .i32⟩
  | .local _ .vmem, ⟨64, _⟩ => ⟨S1024, .i32⟩
  | .local _ .vmem, ⟨65, _⟩ => ⟨S1024, .i32⟩
  | .local _ .vmem, ⟨66, _⟩ => ⟨S1024, .i32⟩
  | .local _ .vmem, ⟨67, _⟩ => ⟨S1024x300, .f32⟩
  | .local _ .vmem, ⟨68, _⟩ => ⟨S1024x300, .f32⟩
  | .local _ .vmem, ⟨69, _⟩ => ⟨S600x300, .f32⟩
  | .local _ .vmem, ⟨70, _⟩ => ⟨S1x600, .f32⟩
  | .local _ .vmem, ⟨71, _⟩ => ⟨S1024x600, .f32⟩
  | _, _ => ⟨S512x600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_v0 : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc1_stg4_0 : Ref sig .tc := ⟨.vmem, 9, rfl⟩
abbrev cc1_stg4_1 : Ref sig .tc := ⟨.vmem, 10, rfl⟩
abbrev cc1_stg5_0 : Ref sig .tc := ⟨.vmem, 11, rfl⟩
abbrev cc1_stg5_1 : Ref sig .tc := ⟨.vmem, 12, rfl⟩
abbrev cc1_stg6_0 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc3_stg0_0 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc4_stg0_0 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg3_0 : Ref sig .tc := ⟨.vmem, 25, rfl⟩
abbrev cc4_stg3_1 : Ref sig .tc := ⟨.vmem, 26, rfl⟩
abbrev cc4_stg4_0 : Ref sig .tc := ⟨.vmem, 27, rfl⟩
abbrev cc4_stg4_1 : Ref sig .tc := ⟨.vmem, 28, rfl⟩
abbrev cc4_stg5_0 : Ref sig .tc := ⟨.vmem, 29, rfl⟩
abbrev cc4_stg5_1 : Ref sig .tc := ⟨.vmem, 30, rfl⟩
abbrev cc4_stg6_0 : Ref sig .tc := ⟨.vmem, 31, rfl⟩
abbrev cc5_stg0_0 : Ref sig .tc := ⟨.vmem, 32, rfl⟩
abbrev cc5_stg1_0 : Ref sig .tc := ⟨.vmem, 33, rfl⟩
abbrev cc5_stg2_0 : Ref sig .tc := ⟨.vmem, 34, rfl⟩
abbrev cc5_stg3_0 : Ref sig .tc := ⟨.vmem, 35, rfl⟩
abbrev cc6_stg0_0 : Ref sig .tc := ⟨.vmem, 36, rfl⟩
abbrev cc6_stg1_0 : Ref sig .tc := ⟨.vmem, 37, rfl⟩
abbrev cc6_stg2_0 : Ref sig .tc := ⟨.vmem, 38, rfl⟩
abbrev cc6_stg3_0 : Ref sig .tc := ⟨.vmem, 39, rfl⟩
abbrev cc7_stg0_0 : Ref sig .tc := ⟨.vmem, 40, rfl⟩
abbrev cc7_stg1_0 : Ref sig .tc := ⟨.vmem, 41, rfl⟩
abbrev cc7_stg2_0 : Ref sig .tc := ⟨.vmem, 42, rfl⟩
abbrev cc7_stg3_0 : Ref sig .tc := ⟨.vmem, 43, rfl⟩
abbrev cc7_stg3_1 : Ref sig .tc := ⟨.vmem, 44, rfl⟩
abbrev cc7_stg4_0 : Ref sig .tc := ⟨.vmem, 45, rfl⟩
abbrev cc7_stg4_1 : Ref sig .tc := ⟨.vmem, 46, rfl⟩
abbrev cc7_stg5_0 : Ref sig .tc := ⟨.vmem, 47, rfl⟩
abbrev cc7_stg5_1 : Ref sig .tc := ⟨.vmem, 48, rfl⟩
abbrev cc7_stg6_0 : Ref sig .tc := ⟨.vmem, 49, rfl⟩
abbrev cc8_stg0_0 : Ref sig .tc := ⟨.vmem, 50, rfl⟩
abbrev cc8_stg1_0 : Ref sig .tc := ⟨.vmem, 51, rfl⟩
abbrev cc8_stg2_0 : Ref sig .tc := ⟨.vmem, 52, rfl⟩
abbrev cc8_stg3_0 : Ref sig .tc := ⟨.vmem, 53, rfl⟩
abbrev cc9_stg0_0 : Ref sig .tc := ⟨.vmem, 54, rfl⟩
abbrev cc9_stg1_0 : Ref sig .tc := ⟨.vmem, 55, rfl⟩
abbrev cc9_stg2_0 : Ref sig .tc := ⟨.vmem, 56, rfl⟩
abbrev cc9_stg3_0 : Ref sig .tc := ⟨.vmem, 57, rfl⟩
abbrev cc10_stg0_0 : Ref sig .tc := ⟨.vmem, 58, rfl⟩
abbrev cc10_stg1_0 : Ref sig .tc := ⟨.vmem, 59, rfl⟩
abbrev cc10_stg2_0 : Ref sig .tc := ⟨.vmem, 60, rfl⟩
abbrev cc10_stg3_0 : Ref sig .tc := ⟨.vmem, 61, rfl⟩
abbrev cc10_stg3_1 : Ref sig .tc := ⟨.vmem, 62, rfl⟩
abbrev cc10_stg4_0 : Ref sig .tc := ⟨.vmem, 63, rfl⟩
abbrev cc10_stg4_1 : Ref sig .tc := ⟨.vmem, 64, rfl⟩
abbrev cc10_stg5_0 : Ref sig .tc := ⟨.vmem, 65, rfl⟩
abbrev cc10_stg5_1 : Ref sig .tc := ⟨.vmem, 66, rfl⟩
abbrev cc10_stg6_0 : Ref sig .tc := ⟨.vmem, 67, rfl⟩
abbrev cc11_stg0_0 : Ref sig .tc := ⟨.vmem, 68, rfl⟩
abbrev cc11_stg1_0 : Ref sig .tc := ⟨.vmem, 69, rfl⟩
abbrev cc11_stg2_0 : Ref sig .tc := ⟨.vmem, 70, rfl⟩
abbrev cc11_stg3_0 : Ref sig .tc := ⟨.vmem, 71, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem3_1 : DmaSem sig := 8
abbrev cc1_sem4_0 : DmaSem sig := 9
abbrev cc1_sem4_1 : DmaSem sig := 10
abbrev cc1_sem5_0 : DmaSem sig := 11
abbrev cc1_sem5_1 : DmaSem sig := 12
abbrev cc1_sem6_0 : DmaSem sig := 13
abbrev cc2_sem0_0 : DmaSem sig := 14
abbrev cc2_sem1_0 : DmaSem sig := 15
abbrev cc2_sem2_0 : DmaSem sig := 16
abbrev cc2_sem3_0 : DmaSem sig := 17
abbrev cc3_sem0_0 : DmaSem sig := 18
abbrev cc3_sem1_0 : DmaSem sig := 19
abbrev cc3_sem2_0 : DmaSem sig := 20
abbrev cc3_sem3_0 : DmaSem sig := 21
abbrev cc4_sem0_0 : DmaSem sig := 22
abbrev cc4_sem1_0 : DmaSem sig := 23
abbrev cc4_sem2_0 : DmaSem sig := 24
abbrev cc4_sem3_0 : DmaSem sig := 25
abbrev cc4_sem3_1 : DmaSem sig := 26
abbrev cc4_sem4_0 : DmaSem sig := 27
abbrev cc4_sem4_1 : DmaSem sig := 28
abbrev cc4_sem5_0 : DmaSem sig := 29
abbrev cc4_sem5_1 : DmaSem sig := 30
abbrev cc4_sem6_0 : DmaSem sig := 31
abbrev cc5_sem0_0 : DmaSem sig := 32
abbrev cc5_sem1_0 : DmaSem sig := 33
abbrev cc5_sem2_0 : DmaSem sig := 34
abbrev cc5_sem3_0 : DmaSem sig := 35
abbrev cc6_sem0_0 : DmaSem sig := 36
abbrev cc6_sem1_0 : DmaSem sig := 37
abbrev cc6_sem2_0 : DmaSem sig := 38
abbrev cc6_sem3_0 : DmaSem sig := 39
abbrev cc7_sem0_0 : DmaSem sig := 40
abbrev cc7_sem1_0 : DmaSem sig := 41
abbrev cc7_sem2_0 : DmaSem sig := 42
abbrev cc7_sem3_0 : DmaSem sig := 43
abbrev cc7_sem3_1 : DmaSem sig := 44
abbrev cc7_sem4_0 : DmaSem sig := 45
abbrev cc7_sem4_1 : DmaSem sig := 46
abbrev cc7_sem5_0 : DmaSem sig := 47
abbrev cc7_sem5_1 : DmaSem sig := 48
abbrev cc7_sem6_0 : DmaSem sig := 49
abbrev cc8_sem0_0 : DmaSem sig := 50
abbrev cc8_sem1_0 : DmaSem sig := 51
abbrev cc8_sem2_0 : DmaSem sig := 52
abbrev cc8_sem3_0 : DmaSem sig := 53
abbrev cc9_sem0_0 : DmaSem sig := 54
abbrev cc9_sem1_0 : DmaSem sig := 55
abbrev cc9_sem2_0 : DmaSem sig := 56
abbrev cc9_sem3_0 : DmaSem sig := 57
abbrev cc10_sem0_0 : DmaSem sig := 58
abbrev cc10_sem1_0 : DmaSem sig := 59
abbrev cc10_sem2_0 : DmaSem sig := 60
abbrev cc10_sem3_0 : DmaSem sig := 61
abbrev cc10_sem3_1 : DmaSem sig := 62
abbrev cc10_sem4_0 : DmaSem sig := 63
abbrev cc10_sem4_1 : DmaSem sig := 64
abbrev cc10_sem5_0 : DmaSem sig := 65
abbrev cc10_sem5_1 : DmaSem sig := 66
abbrev cc10_sem6_0 : DmaSem sig := 67
abbrev cc11_sem0_0 : DmaSem sig := 68
abbrev cc11_sem1_0 : DmaSem sig := 69
abbrev cc11_sem2_0 : DmaSem sig := 70
abbrev cc11_sem3_0 : DmaSem sig := 71

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x600 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S300x600 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x300 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x300 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 1 → Nat :=
  let arg0 : BitVec 32 := BitVec.ofNat 32 (i 0).val
  let c0_i32 : BitVec 32 := 0#32
  ![arg0.toNat]

def cc1_transform_5 (i : grid1.Coords) : Fin 1 → Nat :=
  let arg0 : BitVec 32 := BitVec.ofNat 32 (i 0).val
  let c0_i32 : BitVec 32 := 0#32
  ![arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S512x300 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S300x300 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x300 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x300 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2048 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S512x300 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S512x300 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S600x300 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x600 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x600 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x600 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S300x600 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x300 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512x300 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 1 → Nat :=
  let arg0 : BitVec 32 := BitVec.ofNat 32 (i 0).val
  let c0_i32 : BitVec 32 := 0#32
  ![arg0.toNat]

def cc4_transform_5 (i : grid4.Coords) : Fin 1 → Nat :=
  let arg0 : BitVec 32 := BitVec.ofNat 32 (i 0).val
  let c0_i32 : BitVec 32 := 0#32
  ![arg0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S512x300 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S300x300 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x300 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2048x300 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S2048 .i32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S2048 .i32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S512x300 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S512x300 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S600x300 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x600 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S512x600 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S1024x600 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S300x600 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x300 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1024x300 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev grid7 : Pipeline.Grid := ⟨1, ![256], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 1 → Nat :=
  let arg0 : BitVec 32 := BitVec.ofNat 32 (i 0).val
  let c0_i32 : BitVec 32 := 0#32
  ![arg0.toNat]

def cc7_transform_5 (i : grid7.Coords) : Fin 1 → Nat :=
  let arg0 : BitVec 32 := BitVec.ofNat 32 (i 0).val
  let c0_i32 : BitVec 32 := 0#32
  ![arg0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S1024x300 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S300x300 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x300 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S1024x300 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S1024 .i32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S1024 .i32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 1 → Memref sig .tc .vmem S1024x300 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 1 → Memref sig .tc .vmem S1024x300 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 1 → Memref sig .tc .vmem S600x300 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x600 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1024x600 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 1 → Memref sig .tc .vmem S1024x600 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false]

abbrev stage9_1 : Fin 1 → Memref sig .tc .vmem S300x600 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x300 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1024x300 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev grid10 : Pipeline.Grid := ⟨1, ![256], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_4 (i : grid10.Coords) : Fin 1 → Nat :=
  let arg0 : BitVec 32 := BitVec.ofNat 32 (i 0).val
  let c0_i32 : BitVec 32 := 0#32
  ![arg0.toNat]

def cc10_transform_5 (i : grid10.Coords) : Fin 1 → Nat :=
  let arg0 : BitVec 32 := BitVec.ofNat 32 (i 0).val
  let c0_i32 : BitVec 32 := 0#32
  ![arg0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 1 → Memref sig .tc .vmem S1024x300 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![false]

abbrev stage10_1 : Fin 1 → Memref sig .tc .vmem S300x300 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x300 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S1024x300 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev stage10_4 : Fin 2 → Memref sig .tc .vmem S1024 .i32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev stage10_5 : Fin 2 → Memref sig .tc .vmem S1024 .i32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev stage10_6 : Fin 1 → Memref sig .tc .vmem S1024x300 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev grid11 : Pipeline.Grid := ⟨1, ![1], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage11_0 : Fin 1 → Memref sig .tc .vmem S1024x300 .f32 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))
abbrev reads11_0 : Fin grid11.rank → Bool := ![false]

abbrev stage11_1 : Fin 1 → Memref sig .tc .vmem S600x300 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x600 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1024x600 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

class Facts₀ : Prop where
  slices_S2x16384_S1x16384_0_0 : S2x16384.Slices ![0, 0] S1x16384
  shapeCasts_S1x16384_S16384 : S1x16384.ShapeCasts S16384
  slices_S2x16384_S1x16384_1_0 : S2x16384.Slices ![1, 0] S1x16384
  shapeCasts_S300_S1x300 : S300.ShapeCasts S1x300
  inb_S512x600_S512x600_0_0 : ∀ a, (![0, 0] : Fin 2 → Nat) a + S512x600.size a ≤ S512x600.size a
  h_S512x600 : 0 < S512x600.numel
  bitsLt_bf16_f32 : FTy.bits .bf16 < FTy.bits .f32
  inb_S300x600_S300x600_0_0 : ∀ a, (![0, 0] : Fin 2 → Nat) a + S300x600.size a ≤ S300x600.size a
  h_S300x600 : 0 < S300x600.numel
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S512x300 : S1x300.Broadcasts S512x300
  inb_S512x300_S512x300_0_0 : ∀ a, (![0, 0] : Fin 2 → Nat) a + S512x300.size a ≤ S512x300.size a
  h_S512x300 : 0 < S512x300.numel
  inb_S2048_S2048_0 : ∀ a, (![0] : Fin 1 → Nat) a + S2048.size a ≤ S2048.size a
  h_S2048 : 0 < S2048.numel
  shapeCasts_S2048_S2048 : S2048.ShapeCasts S2048
  iota_S2048x512_d1_w32 : S2048x512.Iotas .tc 32 [1]
  shapeCasts_S2048_S2048x1 : S2048.ShapeCasts S2048x1
  broadcasts_S2048x1_S2048x512 : S2048x1.Broadcasts S2048x512
  natLt_1_32 : 1 < 32
  iota_S512x2048_d0_w32 : S512x2048.Iotas .tc 32 [0]
  shapeCasts_S2048_S1x2048 : S2048.ShapeCasts S1x2048
  broadcasts_S1x2048_S512x2048 : S1x2048.Broadcasts S512x2048
  shapeCasts_S512x300_S512x300 : S512x300.ShapeCasts S512x300
  inb_S2048x300_S2048x300_0_0 : ∀ a, (![0, 0] : Fin 2 → Nat) a + S2048x300.size a ≤ S2048x300.size a
  h_S2048x300 : 0 < S2048x300.numel
  inb_S300x300_S300x300_0_0 : ∀ a, (![0, 0] : Fin 2 → Nat) a + S300x300.size a ≤ S300x300.size a
  h_S300x300 : 0 < S300x300.numel
  broadcasts_S1x300_S2048x300 : S1x300.Broadcasts S2048x300
  shapeCasts_S600_S1x600 : S600.ShapeCasts S1x600
  inb_S600x300_S600x300_0_0 : ∀ a, (![0, 0] : Fin 2 → Nat) a + S600x300.size a ≤ S600x300.size a
  h_S600x300 : 0 < S600x300.numel
  inb_S1x600_S1x600_0_0 : ∀ a, (![0, 0] : Fin 2 → Nat) a + S1x600.size a ≤ S1x600.size a
  h_S1x600 : 0 < S1x600.numel
  shapeCasts_S1x600_S1x600 : S1x600.ShapeCasts S1x600
  broadcasts_S1x600_S512x600 : S1x600.Broadcasts S512x600
  concatenates_S512x600_S512x600_S1024x600_d0 : Shape.Concatenates [S512x600, S512x600] S1024x600 0
  slices_S2x262144_S1x262144_0_0 : S2x262144.Slices ![0, 0] S1x262144
  shapeCasts_S1x262144_S262144 : S1x262144.ShapeCasts S262144
  slices_S2x262144_S1x262144_1_0 : S2x262144.Slices ![1, 0] S1x262144
  inb_S1024x600_S1024x600_0_0 : ∀ a, (![0, 0] : Fin 2 → Nat) a + S1024x600.size a ≤ S1024x600.size a
  h_S1024x600 : 0 < S1024x600.numel
  shapeCasts_S1024x600_S1024x600 : S1024x600.ShapeCasts S1024x600
  broadcasts_S1x300_S1024x300 : S1x300.Broadcasts S1024x300
  inb_S1024x300_S1024x300_0_0 : ∀ a, (![0, 0] : Fin 2 → Nat) a + S1024x300.size a ≤ S1024x300.size a
  h_S1024x300 : 0 < S1024x300.numel
  inb_S1024_S1024_0 : ∀ a, (![0] : Fin 1 → Nat) a + S1024.size a ≤ S1024.size a
  h_S1024 : 0 < S1024.numel
  shapeCasts_S1024_S1024 : S1024.ShapeCasts S1024
  iota_S1024x1024_d1_w32 : S1024x1024.Iotas .tc 32 [1]
  shapeCasts_S1024_S1024x1 : S1024.ShapeCasts S1024x1
  broadcasts_S1024x1_S1024x1024 : S1024x1.Broadcasts S1024x1024
  iota_S1024x1024_d0_w32 : S1024x1024.Iotas .tc 32 [0]
  shapeCasts_S1024_S1x1024 : S1024.ShapeCasts S1x1024
  broadcasts_S1x1024_S1024x1024 : S1x1024.Broadcasts S1024x1024
  shapeCasts_S1024x300_S1024x300 : S1024x300.ShapeCasts S1024x300
  broadcasts_S1x600_S1024x600 : S1x600.Broadcasts S1024x600
  slices_S1024x600_S512x600_0_0 : S1024x600.Slices ![0, 0] S512x600
  dot_S512x600_S300x600_S512x300_1_1_0_0_n_n_wf : DotDims.WF S512x600 S300x600 S512x300 [1] [1] [0] [0] [] []
  dot_S2048x512_S512x300_S2048x300_1_0_0_1_n_n_wf : DotDims.WF S2048x512 S512x300 S2048x300 [1] [0] [0] [1] [] []
  dot_S2048x300_S300x300_S2048x300_1_1_0_0_n_n_wf : DotDims.WF S2048x300 S300x300 S2048x300 [1] [1] [0] [0] [] []
  dot_S512x2048_S2048x300_S512x300_1_0_0_1_n_n_wf : DotDims.WF S512x2048 S2048x300 S512x300 [1] [0] [0] [1] [] []
  dot_S512x300_S600x300_S512x600_1_1_0_0_n_n_wf : DotDims.WF S512x300 S600x300 S512x600 [1] [1] [0] [0] [] []
  dot_S1024x600_S300x600_S1024x300_1_1_0_0_n_n_wf : DotDims.WF S1024x600 S300x600 S1024x300 [1] [1] [0] [0] [] []
  dot_S1024x1024_S1024x300_S1024x300_1_0_0_1_n_n_wf : DotDims.WF S1024x1024 S1024x300 S1024x300 [1] [0] [0] [1] [] []
  dot_S1024x300_S300x300_S1024x300_1_1_0_0_n_n_wf : DotDims.WF S1024x300 S300x300 S1024x300 [1] [1] [0] [0] [] []
  dot_S1024x300_S600x300_S1024x600_1_1_0_0_n_n_wf : DotDims.WF S1024x300 S600x300 S1024x600 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x600.size a ≤ S512x600.size a
  hwx0_0 : ∀ i : grid0.Coords, EltTy.bits .f32 = 32 ∨ (Rect.block (s := S512x600) S512x600.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S300x600.size a ≤ S300x600.size a
  hwx0_1 : ∀ i : grid0.Coords, EltTy.bits .f32 = 32 ∨ (Rect.block (s := S300x600) S300x600.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x300.size a ≤ S1x300.size a
  hwx0_2 : ∀ i : grid0.Coords, EltTy.bits .f32 = 32 ∨ (Rect.block (s := S1x300) S1x300.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x300.size a ≤ S512x300.size a
  hwx0_3 : ∀ i : grid0.Coords, EltTy.bits .f32 = 32 ∨ (Rect.block (s := S512x300) S512x300.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x300.size a ≤ S512x300.size a
  hwx1_0 : ∀ i : grid1.Coords, EltTy.bits .f32 = 32 ∨ (Rect.block (s := S512x300) S512x300.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S300x300.size a ≤ S300x300.size a
  hwx1_1 : ∀ i : grid1.Coords, EltTy.bits .f32 = 32 ∨ (Rect.block (s := S300x300) S300x300.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x300.size a ≤ S1x300.size a
  hwx1_2 : ∀ i : grid1.Coords, EltTy.bits .f32 = 32 ∨ (Rect.block (s := S1x300) S1x300.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x300.size a ≤ S16384x300.size a
  hwx1_3 : ∀ i : grid1.Coords, EltTy.bits .f32 = 32 ∨ (Rect.block (s := S16384x300) S2048x300.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048.size a ≤ S16384.size a
  hwx1_4 : ∀ i : grid1.Coords, EltTy.bits .i32 = 32 ∨ (Rect.block (s := S16384) S2048.size (cc1_transform_4 i) (hinb1_4 i)).WholeWords (EltTy.packing .i32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048.size a ≤ S16384.size a
  hwx1_5 : ∀ i : grid1.Coords, EltTy.bits .i32 = 32 ∨ (Rect.block (s := S16384) S2048.size (cc1_transform_5 i) (hinb1_5 i)).WholeWords (EltTy.packing .i32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512x300.size a ≤ S512x300.size a
  hwx1_6 : ∀ i : grid1.Coords, EltTy.bits .f32 = 32 ∨ (Rect.block (s := S512x300) S512x300.size (cc1_transform_6 i) (hinb1_6 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S512x300.size a ≤ S512x300.size a
  hwx2_0 : ∀ i : grid2.Coords, EltTy.bits .f32 = 32 ∨ (Rect.block (s := S512x300) S512x300.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S600x300.size a ≤ S600x300.size a
  hwx2_1 : ∀ i : grid2.Coords, EltTy.bits .f32 = 32 ∨ (Rect.block (s := S600x300) S600x300.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x600.size a ≤ S1x600.size a
  hwx2_2 : ∀ i : grid2.Coords, EltTy.bits .f32 = 32 ∨ (Rect.block (s := S1x600) S1x600.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x600.size a ≤ S512x600.size a
  hwx2_3 : ∀ i : grid2.Coords, EltTy.bits .f32 = 32 ∨ (Rect.block (s := S512x600) S512x600.size (cc2_transform_3 i) (hinb2_3 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x600.size a ≤ S512x600.size a
  hwx3_0 : ∀ i : grid3.Coords, EltTy.bits .f32 = 32 ∨ (Rect.block (s := S512x600) S512x600.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S300x600.size a ≤ S300x600.size a
  hwx3_1 : ∀ i : grid3.Coords, EltTy.bits .f32 = 32 ∨ (Rect.block (s := S300x600) S300x600.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x300.size a ≤ S1x300.size a
  hwx3_2 : ∀ i : grid3.Coords, EltTy.bits .f32 = 32 ∨ (Rect.block (s := S1x300) S1x300.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x300.size a ≤ S512x300.size a
  hwx3_3 : ∀ i : grid3.Coords, EltTy.bits .f32 = 32 ∨ (Rect.block (s := S512x300) S512x300.size (cc3_transform_3 i) (hinb3_3 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S512x300.size a ≤ S512x300.size a
  hwx4_0 : ∀ i : grid4.Coords, EltTy.bits .f32 = 32 ∨ (Rect.block (s := S512x300) S512x300.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S300x300.size a ≤ S300x300.size a
  hwx4_1 : ∀ i : grid4.Coords, EltTy.bits .f32 = 32 ∨ (Rect.block (s := S300x300) S300x300.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x300.size a ≤ S1x300.size a
  hwx4_2 : ∀ i : grid4.Coords, EltTy.bits .f32 = 32 ∨ (Rect.block (s := S1x300) S1x300.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2048x300.size a ≤ S16384x300.size a
  hwx4_3 : ∀ i : grid4.Coords, EltTy.bits .f32 = 32 ∨ (Rect.block (s := S16384x300) S2048x300.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2048.size a ≤ S16384.size a
  hwx4_4 : ∀ i : grid4.Coords, EltTy.bits .i32 = 32 ∨ (Rect.block (s := S16384) S2048.size (cc4_transform_4 i) (hinb4_4 i)).WholeWords (EltTy.packing .i32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2048.size a ≤ S16384.size a
  hwx4_5 : ∀ i : grid4.Coords, EltTy.bits .i32 = 32 ∨ (Rect.block (s := S16384) S2048.size (cc4_transform_5 i) (hinb4_5 i)).WholeWords (EltTy.packing .i32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S512x300.size a ≤ S512x300.size a
  hwx4_6 : ∀ i : grid4.Coords, EltTy.bits .f32 = 32 ∨ (Rect.block (s := S512x300) S512x300.size (cc4_transform_6 i) (hinb4_6 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S512x300.size a ≤ S512x300.size a
  hwx5_0 : ∀ i : grid5.Coords, EltTy.bits .f32 = 32 ∨ (Rect.block (s := S512x300) S512x300.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S600x300.size a ≤ S600x300.size a
  hwx5_1 : ∀ i : grid5.Coords, EltTy.bits .f32 = 32 ∨ (Rect.block (s := S600x300) S600x300.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x600.size a ≤ S1x600.size a
  hwx5_2 : ∀ i : grid5.Coords, EltTy.bits .f32 = 32 ∨ (Rect.block (s := S1x600) S1x600.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S512x600.size a ≤ S512x600.size a
  hwx5_3 : ∀ i : grid5.Coords, EltTy.bits .f32 = 32 ∨ (Rect.block (s := S512x600) S512x600.size (cc5_transform_3 i) (hinb5_3 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S1024x600.size a ≤ S1024x600.size a
  hwx6_0 : ∀ i : grid6.Coords, EltTy.bits .f32 = 32 ∨ (Rect.block (s := S1024x600) S1024x600.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S300x600.size a ≤ S300x600.size a
  hwx6_1 : ∀ i : grid6.Coords, EltTy.bits .f32 = 32 ∨ (Rect.block (s := S300x600) S300x600.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x300.size a ≤ S1x300.size a
  hwx6_2 : ∀ i : grid6.Coords, EltTy.bits .f32 = 32 ∨ (Rect.block (s := S1x300) S1x300.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1024x300.size a ≤ S1024x300.size a
  hwx6_3 : ∀ i : grid6.Coords, EltTy.bits .f32 = 32 ∨ (Rect.block (s := S1024x300) S1024x300.size (cc6_transform_3 i) (hinb6_3 i)).WholeWords (EltTy.packing .f32)
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S1024x300.size a ≤ S1024x300.size a
  hwx7_0 : ∀ i : grid7.Coords, EltTy.bits .f32 = 32 ∨ (Rect.block (s := S1024x300) S1024x300.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S300x300.size a ≤ S300x300.size a
  hwx7_1 : ∀ i : grid7.Coords, EltTy.bits .f32 = 32 ∨ (Rect.block (s := S300x300) S300x300.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x300.size a ≤ S1x300.size a
  hwx7_2 : ∀ i : grid7.Coords, EltTy.bits .f32 = 32 ∨ (Rect.block (s := S1x300) S1x300.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1024x300.size a ≤ S262144x300.size a
  hwx7_3 : ∀ i : grid7.Coords, EltTy.bits .f32 = 32 ∨ (Rect.block (s := S262144x300) S1024x300.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S1024.size a ≤ S262144.size a
  hwx7_4 : ∀ i : grid7.Coords, EltTy.bits .i32 = 32 ∨ (Rect.block (s := S262144) S1024.size (cc7_transform_4 i) (hinb7_4 i)).WholeWords (EltTy.packing .i32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S1024.size a ≤ S262144.size a
  hwx7_5 : ∀ i : grid7.Coords, EltTy.bits .i32 = 32 ∨ (Rect.block (s := S262144) S1024.size (cc7_transform_5 i) (hinb7_5 i)).WholeWords (EltTy.packing .i32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1024x300.size a ≤ S1024x300.size a
  hwx7_6 : ∀ i : grid7.Coords, EltTy.bits .f32 = 32 ∨ (Rect.block (s := S1024x300) S1024x300.size (cc7_transform_6 i) (hinb7_6 i)).WholeWords (EltTy.packing .f32)
  hrank8 : 0 < grid8.rank
  hstage8_0 : ∀ j, (stage8_0 j).IsWhole
  nbuf8_0 : grid8.bufCount reads8_0 true = 1
  hreads8_0 : ∀ i i' : grid8.Coords, (∀ a, reads8_0 a = true → i a = i' a) → cc8_transform_0 i = cc8_transform_0 i'
  hinb8_0 : ∀ (i : grid8.Coords) a, (cc8_transform_0 i a + 1) * S1024x300.size a ≤ S1024x300.size a
  hwx8_0 : ∀ i : grid8.Coords, EltTy.bits .f32 = 32 ∨ (Rect.block (s := S1024x300) S1024x300.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S600x300.size a ≤ S600x300.size a
  hwx8_1 : ∀ i : grid8.Coords, EltTy.bits .f32 = 32 ∨ (Rect.block (s := S600x300) S600x300.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x600.size a ≤ S1x600.size a
  hwx8_2 : ∀ i : grid8.Coords, EltTy.bits .f32 = 32 ∨ (Rect.block (s := S1x600) S1x600.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1024x600.size a ≤ S1024x600.size a
  hwx8_3 : ∀ i : grid8.Coords, EltTy.bits .f32 = 32 ∨ (Rect.block (s := S1024x600) S1024x600.size (cc8_transform_3 i) (hinb8_3 i)).WholeWords (EltTy.packing .f32)
  hrank9 : 0 < grid9.rank
  hstage9_0 : ∀ j, (stage9_0 j).IsWhole
  nbuf9_0 : grid9.bufCount reads9_0 true = 1
  hreads9_0 : ∀ i i' : grid9.Coords, (∀ a, reads9_0 a = true → i a = i' a) → cc9_transform_0 i = cc9_transform_0 i'
  hinb9_0 : ∀ (i : grid9.Coords) a, (cc9_transform_0 i a + 1) * S1024x600.size a ≤ S1024x600.size a
  hwx9_0 : ∀ i : grid9.Coords, EltTy.bits .f32 = 32 ∨ (Rect.block (s := S1024x600) S1024x600.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S300x600.size a ≤ S300x600.size a
  hwx9_1 : ∀ i : grid9.Coords, EltTy.bits .f32 = 32 ∨ (Rect.block (s := S300x600) S300x600.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x300.size a ≤ S1x300.size a
  hwx9_2 : ∀ i : grid9.Coords, EltTy.bits .f32 = 32 ∨ (Rect.block (s := S1x300) S1x300.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1024x300.size a ≤ S1024x300.size a
  hwx9_3 : ∀ i : grid9.Coords, EltTy.bits .f32 = 32 ∨ (Rect.block (s := S1024x300) S1024x300.size (cc9_transform_3 i) (hinb9_3 i)).WholeWords (EltTy.packing .f32)
  hrank10 : 0 < grid10.rank
  hstage10_0 : ∀ j, (stage10_0 j).IsWhole
  nbuf10_0 : grid10.bufCount reads10_0 true = 1
  hreads10_0 : ∀ i i' : grid10.Coords, (∀ a, reads10_0 a = true → i a = i' a) → cc10_transform_0 i = cc10_transform_0 i'
  hinb10_0 : ∀ (i : grid10.Coords) a, (cc10_transform_0 i a + 1) * S1024x300.size a ≤ S1024x300.size a
  hwx10_0 : ∀ i : grid10.Coords, EltTy.bits .f32 = 32 ∨ (Rect.block (s := S1024x300) S1024x300.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S300x300.size a ≤ S300x300.size a
  hwx10_1 : ∀ i : grid10.Coords, EltTy.bits .f32 = 32 ∨ (Rect.block (s := S300x300) S300x300.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x300.size a ≤ S1x300.size a
  hwx10_2 : ∀ i : grid10.Coords, EltTy.bits .f32 = 32 ∨ (Rect.block (s := S1x300) S1x300.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S1024x300.size a ≤ S262144x300.size a
  hwx10_3 : ∀ i : grid10.Coords, EltTy.bits .f32 = 32 ∨ (Rect.block (s := S262144x300) S1024x300.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S1024.size a ≤ S262144.size a
  hwx10_4 : ∀ i : grid10.Coords, EltTy.bits .i32 = 32 ∨ (Rect.block (s := S262144) S1024.size (cc10_transform_4 i) (hinb10_4 i)).WholeWords (EltTy.packing .i32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S1024.size a ≤ S262144.size a
  hwx10_5 : ∀ i : grid10.Coords, EltTy.bits .i32 = 32 ∨ (Rect.block (s := S262144) S1024.size (cc10_transform_5 i) (hinb10_5 i)).WholeWords (EltTy.packing .i32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1024x300.size a ≤ S1024x300.size a
  hwx10_6 : ∀ i : grid10.Coords, EltTy.bits .f32 = 32 ∨ (Rect.block (s := S1024x300) S1024x300.size (cc10_transform_6 i) (hinb10_6 i)).WholeWords (EltTy.packing .f32)
  hrank11 : 0 < grid11.rank
  hstage11_0 : ∀ j, (stage11_0 j).IsWhole
  nbuf11_0 : grid11.bufCount reads11_0 true = 1
  hreads11_0 : ∀ i i' : grid11.Coords, (∀ a, reads11_0 a = true → i a = i' a) → cc11_transform_0 i = cc11_transform_0 i'
  hinb11_0 : ∀ (i : grid11.Coords) a, (cc11_transform_0 i a + 1) * S1024x300.size a ≤ S1024x300.size a
  hwx11_0 : ∀ i : grid11.Coords, EltTy.bits .f32 = 32 ∨ (Rect.block (s := S1024x300) S1024x300.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S600x300.size a ≤ S600x300.size a
  hwx11_1 : ∀ i : grid11.Coords, EltTy.bits .f32 = 32 ∨ (Rect.block (s := S600x300) S600x300.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x600.size a ≤ S1x600.size a
  hwx11_2 : ∀ i : grid11.Coords, EltTy.bits .f32 = 32 ∨ (Rect.block (s := S1x600) S1x600.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1024x600.size a ≤ S1024x600.size a
  hwx11_3 : ∀ i : grid11.Coords, EltTy.bits .f32 = 32 ∨ (Rect.block (s := S1024x600) S1024x600.size (cc11_transform_3 i) (hinb11_3 i)).WholeWords (EltTy.packing .f32)

variable [Facts₀]

def dot_S512x600_S300x600_S512x300_1_1_0_0_n_n : DotDims S512x600 S300x600 S512x300 where
  lhsContracting := [1]
  rhsContracting := [1]
  lhsNonContracting := [0]
  rhsNonContracting := [0]
  lhsBatch := []
  rhsBatch := []
  wf := dot_S512x600_S300x600_S512x300_1_1_0_0_n_n_wf
def dot_S2048x512_S512x300_S2048x300_1_0_0_1_n_n : DotDims S2048x512 S512x300 S2048x300 where
  lhsContracting := [1]
  rhsContracting := [0]
  lhsNonContracting := [0]
  rhsNonContracting := [1]
  lhsBatch := []
  rhsBatch := []
  wf := dot_S2048x512_S512x300_S2048x300_1_0_0_1_n_n_wf
def dot_S2048x300_S300x300_S2048x300_1_1_0_0_n_n : DotDims S2048x300 S300x300 S2048x300 where
  lhsContracting := [1]
  rhsContracting := [1]
  lhsNonContracting := [0]
  rhsNonContracting := [0]
  lhsBatch := []
  rhsBatch := []
  wf := dot_S2048x300_S300x300_S2048x300_1_1_0_0_n_n_wf
def dot_S512x2048_S2048x300_S512x300_1_0_0_1_n_n : DotDims S512x2048 S2048x300 S512x300 where
  lhsContracting := [1]
  rhsContracting := [0]
  lhsNonContracting := [0]
  rhsNonContracting := [1]
  lhsBatch := []
  rhsBatch := []
  wf := dot_S512x2048_S2048x300_S512x300_1_0_0_1_n_n_wf
def dot_S512x300_S600x300_S512x600_1_1_0_0_n_n : DotDims S512x300 S600x300 S512x600 where
  lhsContracting := [1]
  rhsContracting := [1]
  lhsNonContracting := [0]
  rhsNonContracting := [0]
  lhsBatch := []
  rhsBatch := []
  wf := dot_S512x300_S600x300_S512x600_1_1_0_0_n_n_wf
def dot_S1024x600_S300x600_S1024x300_1_1_0_0_n_n : DotDims S1024x600 S300x600 S1024x300 where
  lhsContracting := [1]
  rhsContracting := [1]
  lhsNonContracting := [0]
  rhsNonContracting := [0]
  lhsBatch := []
  rhsBatch := []
  wf := dot_S1024x600_S300x600_S1024x300_1_1_0_0_n_n_wf
def dot_S1024x1024_S1024x300_S1024x300_1_0_0_1_n_n : DotDims S1024x1024 S1024x300 S1024x300 where
  lhsContracting := [1]
  rhsContracting := [0]
  lhsNonContracting := [0]
  rhsNonContracting := [1]
  lhsBatch := []
  rhsBatch := []
  wf := dot_S1024x1024_S1024x300_S1024x300_1_0_0_1_n_n_wf
def dot_S1024x300_S300x300_S1024x300_1_1_0_0_n_n : DotDims S1024x300 S300x300 S1024x300 where
  lhsContracting := [1]
  rhsContracting := [1]
  lhsNonContracting := [0]
  rhsNonContracting := [0]
  lhsBatch := []
  rhsBatch := []
  wf := dot_S1024x300_S300x300_S1024x300_1_1_0_0_n_n_wf
def dot_S1024x300_S600x300_S1024x600_1_1_0_0_n_n : DotDims S1024x300 S600x300 S1024x600 where
  lhsContracting := [1]
  rhsContracting := [1]
  lhsNonContracting := [0]
  rhsNonContracting := [0]
  lhsBatch := []
  rhsBatch := []
  wf := dot_S1024x300_S600x300_S1024x600_1_1_0_0_n_n_wf

abbrev win0_0 : Pipeline.Window sig grid0 :=
  Pipeline.Window.ofSpec (Memref.whole main_arg0) S512x600.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg10) S300x600.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x300.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x300.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S512x300.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg12) S300x300.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x300.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S2048x300.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S2048.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3) S2048.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v7) S512x300.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v7) S512x300.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg14) S600x300.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1x600.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v9) S512x600.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg1) S512x600.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg16) S300x600.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v14) S1x300.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v15) S512x300.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v15) S512x300.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg18) S300x300.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v16) S1x300.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg5) S2048x300.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v11) S2048.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v13) S2048.size cc4_transform_5 reads4_5 false false 2 stage4_5 sem4_5
    hrank4 hreads4_5 hinb4_5 nbuf4_5 (Memref.isWhole_whole _) hwx4_5 hstage4_5

abbrev win4_6 : Pipeline.Window sig grid4 :=
  Pipeline.Window.ofSpec (Memref.whole main_v17) S512x300.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v17) S512x300.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_arg20) S600x300.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v18) S1x600.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v19) S512x600.size cc5_transform_3 reads5_3 true true 1 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v20) S1024x600.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg22) S300x600.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v26) S1x300.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v27) S1024x300.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v27) S1024x300.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_arg24) S300x300.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v28) S1x300.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg7) S1024x300.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v23) S1024.size cc7_transform_4 reads7_4 false false 2 stage7_4 sem7_4
    hrank7 hreads7_4 hinb7_4 nbuf7_4 (Memref.isWhole_whole _) hwx7_4 hstage7_4

abbrev win7_5 : Pipeline.Window sig grid7 :=
  Pipeline.Window.ofSpec (Memref.whole main_v25) S1024.size cc7_transform_5 reads7_5 false false 2 stage7_5 sem7_5
    hrank7 hreads7_5 hinb7_5 nbuf7_5 (Memref.isWhole_whole _) hwx7_5 hstage7_5

abbrev win7_6 : Pipeline.Window sig grid7 :=
  Pipeline.Window.ofSpec (Memref.whole main_v29) S1024x300.size cc7_transform_6 reads7_6 true true 1 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v29) S1024x300.size cc8_transform_0 reads8_0 false true 1 stage8_0 sem8_0
    hrank8 hreads8_0 hinb8_0 nbuf8_0 (Memref.isWhole_whole _) hwx8_0 hstage8_0

abbrev win8_1 : Pipeline.Window sig grid8 :=
  Pipeline.Window.ofSpec (Memref.whole main_arg26) S600x300.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v30) S1x600.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v31) S1024x600.size cc8_transform_3 reads8_3 true true 1 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v21) S1024x600.size cc9_transform_0 reads9_0 false true 1 stage9_0 sem9_0
    hrank9 hreads9_0 hinb9_0 nbuf9_0 (Memref.isWhole_whole _) hwx9_0 hstage9_0

abbrev win9_1 : Pipeline.Window sig grid9 :=
  Pipeline.Window.ofSpec (Memref.whole main_arg28) S300x600.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v36) S1x300.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v37) S1024x300.size cc9_transform_3 reads9_3 true true 1 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v37) S1024x300.size cc10_transform_0 reads10_0 false true 1 stage10_0 sem10_0
    hrank10 hreads10_0 hinb10_0 nbuf10_0 (Memref.isWhole_whole _) hwx10_0 hstage10_0

abbrev win10_1 : Pipeline.Window sig grid10 :=
  Pipeline.Window.ofSpec (Memref.whole main_arg30) S300x300.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v38) S1x300.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_arg9) S1024x300.size cc10_transform_3 reads10_3 false false 2 stage10_3 sem10_3
    hrank10 hreads10_3 hinb10_3 nbuf10_3 (Memref.isWhole_whole _) hwx10_3 hstage10_3

abbrev win10_4 : Pipeline.Window sig grid10 :=
  Pipeline.Window.ofSpec (Memref.whole main_v33) S1024.size cc10_transform_4 reads10_4 false false 2 stage10_4 sem10_4
    hrank10 hreads10_4 hinb10_4 nbuf10_4 (Memref.isWhole_whole _) hwx10_4 hstage10_4

abbrev win10_5 : Pipeline.Window sig grid10 :=
  Pipeline.Window.ofSpec (Memref.whole main_v35) S1024.size cc10_transform_5 reads10_5 false false 2 stage10_5 sem10_5
    hrank10 hreads10_5 hinb10_5 nbuf10_5 (Memref.isWhole_whole _) hwx10_5 hstage10_5

abbrev win10_6 : Pipeline.Window sig grid10 :=
  Pipeline.Window.ofSpec (Memref.whole main_v39) S1024x300.size cc10_transform_6 reads10_6 true true 1 stage10_6 sem10_6
    hrank10 hreads10_6 hinb10_6 nbuf10_6 (Memref.isWhole_whole _) hwx10_6 hstage10_6

abbrev win10 : Fin 7 → Pipeline.Window sig grid10 := fun | 0 => win10_0 | 1 => win10_1 | 2 => win10_2 | 3 => win10_3 | 4 => win10_4 | 5 => win10_5 | 6 => win10_6 | ⟨_ + 7, h⟩ => absurd h (Nat.not_lt.2 (Nat.le_add_left _ _))
abbrev spec10 : Fin 7 → Pipeline.WinSpec sig grid10.rank := fun w => (win10 w).toWinSpec

abbrev win11_0 : Pipeline.Window sig grid11 :=
  Pipeline.Window.ofSpec (Memref.whole main_v39) S1024x300.size cc11_transform_0 reads11_0 false true 1 stage11_0 sem11_0
    hrank11 hreads11_0 hinb11_0 nbuf11_0 (Memref.isWhole_whole _) hwx11_0 hstage11_0

abbrev win11_1 : Pipeline.Window sig grid11 :=
  Pipeline.Window.ofSpec (Memref.whole main_arg32) S600x300.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v40) S1x600.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v41) S1024x600.size cc11_transform_3 reads11_3 true true 1 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

class Facts : Prop extends Facts₀ where

variable [Facts]
-- ==== ReferenceIdeal.lean ====
abbrev S512x600 : Shape := ⟨2, ![512, 600]⟩
abbrev S2x16384 : Shape := ⟨2, ![2, 16384]⟩
abbrev S16384x300 : Shape := ⟨2, ![16384, 300]⟩
abbrev S2x262144 : Shape := ⟨2, ![2, 262144]⟩
abbrev S262144x300 : Shape := ⟨2, ![262144, 300]⟩
abbrev S300x600 : Shape := ⟨2, ![300, 600]⟩
abbrev S300 : Shape := ⟨1, ![300]⟩
abbrev S300x300 : Shape := ⟨2, ![300, 300]⟩
abbrev S600x300 : Shape := ⟨2, ![600, 300]⟩
abbrev S600 : Shape := ⟨1, ![600]⟩
abbrev S512x300 : Shape := ⟨2, ![512, 300]⟩
abbrev S1x300 : Shape := ⟨2, ![1, 300]⟩
abbrev S1x16384 : Shape := ⟨2, ![1, 16384]⟩
abbrev S16384 : Shape := ⟨1, ![16384]⟩
abbrev S_ : Shape := ⟨0, ![]⟩
abbrev S16384x1 : Shape := ⟨2, ![16384, 1]⟩
abbrev S1x600 : Shape := ⟨2, ![1, 600]⟩
abbrev S1024x600 : Shape := ⟨2, ![1024, 600]⟩
abbrev S1024x300 : Shape := ⟨2, ![1024, 300]⟩
abbrev S1x262144 : Shape := ⟨2, ![1, 262144]⟩
abbrev S262144 : Shape := ⟨1, ![262144]⟩
abbrev S262144x1 : Shape := ⟨2, ![262144, 1]⟩

abbrev nBuf : Space → Nat
  | .hbm => 210
  | .vmem => 0
  | .smem => 0
  | _ => 0

abbrev hbmTy0_0 (i : Nat) : BufTy := match i % 128 with
  | 0 => ⟨S512x600, .f32⟩
  | 1 => ⟨S512x600, .f32⟩
  | 2 => ⟨S2x16384, .i32⟩
  | 3 => ⟨S2x16384, .i32⟩
  | 4 => ⟨S16384x300, .f32⟩
  | 5 => ⟨S16384x300, .f32⟩
  | 6 => ⟨S2x262144, .i32⟩
  | 7 => ⟨S262144x300, .f32⟩
  | 8 => ⟨S2x262144, .i32⟩
  | 9 => ⟨S262144x300, .f32⟩
  | 10 => ⟨S300x600, .f32⟩
  | 11 => ⟨S300, .f32⟩
  | 12 => ⟨S300x300, .f32⟩
  | 13 => ⟨S300, .f32⟩
  | 14 => ⟨S600x300, .f32⟩
  | 15 => ⟨S600, .f32⟩
  | 16 => ⟨S300x600, .f32⟩
  | 17 => ⟨S300, .f32⟩
  | 18 => ⟨S300x300, .f32⟩
  | 19 => ⟨S300, .f32⟩
  | 20 => ⟨S600x300, .f32⟩
  | 21 => ⟨S600, .f32⟩
  | 22 => ⟨S300x600, .f32⟩
  | 23 => ⟨S300, .f32⟩
  | 24 => ⟨S300x300, .f32⟩
  | 25 => ⟨S300, .f32⟩
  | 26 => ⟨S600x300, .f32⟩
  | 27 => ⟨S600, .f32⟩
  | 28 => ⟨S300x600, .f32⟩
  | 29 => ⟨S300, .f32⟩
  | 30 => ⟨S300x300, .f32⟩
  | 31 => ⟨S300, .f32⟩
  | 32 => ⟨S600x300, .f32⟩
  | 33 => ⟨S600, .f32⟩
  | 34 => ⟨S600x300, .f32⟩
  | 35 => ⟨S512x300, .f32⟩
  | 36 => ⟨S1x300, .f32⟩
  | 37 => ⟨S512x300, .f32⟩
  | 38 => ⟨S512x300, .f32⟩
  | 39 => ⟨S300x300, .f32⟩
  | 40 => ⟨S16384x300, .f32⟩
  | 41 => ⟨S1x300, .f32⟩
  | 42 => ⟨S16384x300, .f32⟩
  | 43 => ⟨S16384x300, .f32⟩
  | 44 => ⟨S1x16384, .i32⟩
  | 45 => ⟨S16384, .i32⟩
  | 46 => ⟨S1x16384, .i32⟩
  | 47 => ⟨S16384, .i32⟩
  | 48 => ⟨S_, .i32⟩
  | 49 => ⟨S16384, .i32⟩
  | 50 => ⟨S16384, .i1⟩
  | 51 => ⟨S_, .i32⟩
  | 52 => ⟨S16384, .i32⟩
  | 53 => ⟨S16384, .i32⟩
  | 54 => ⟨S16384, .i32⟩
  | 55 => ⟨S16384x1, .i32⟩
  | 56 => ⟨S16384x300, .f32⟩
  | 57 => ⟨S_, .i32⟩
  | 58 => ⟨S16384, .i32⟩
  | 59 => ⟨S16384, .i1⟩
  | 60 => ⟨S_, .i32⟩
  | 61 => ⟨S16384, .i32⟩
  | 62 => ⟨S16384, .i32⟩
  | 63 => ⟨S16384, .i32⟩
  | 64 => ⟨S16384x1, .i32⟩
  | 65 => ⟨S16384x300, .f32⟩
  | 66 => ⟨S16384x300, .f32⟩
  | 67 => ⟨S16384x300, .f32⟩
  | 68 => ⟨S_, .f32⟩
  | 69 => ⟨S512x300, .f32⟩
  | 70 => ⟨S16384x1, .i32⟩
  | 71 => ⟨S512x300, .f32⟩
  | 72 => ⟨S300x600, .f32⟩
  | 73 => ⟨S512x600, .f32⟩
  | 74 => ⟨S1x600, .f32⟩
  | 75 => ⟨S512x600, .f32⟩
  | 76 => ⟨S512x600, .f32⟩
  | 77 => ⟨S600x300, .f32⟩
  | 78 => ⟨S512x300, .f32⟩
  | 79 => ⟨S1x300, .f32⟩
  | 80 => ⟨S512x300, .f32⟩
  | 81 => ⟨S512x300, .f32⟩
  | 82 => ⟨S300x300, .f32⟩
  | 83 => ⟨S16384x300, .f32⟩
  | 84 => ⟨S1x300, .f32⟩
  | 85 => ⟨S16384x300, .f32⟩
  | 86 => ⟨S16384x300, .f32⟩
  | 87 => ⟨S1x16384, .i32⟩
  | 88 => ⟨S16384, .i32⟩
  | 89 => ⟨S1x16384, .i32⟩
  | 90 => ⟨S16384, .i32⟩
  | 91 => ⟨S_, .i32⟩
  | 92 => ⟨S16384, .i32⟩
  | 93 => ⟨S16384, .i1⟩
  | 94 => ⟨S_, .i32⟩
  | 95 => ⟨S16384, .i32⟩
  | 96 => ⟨S16384, .i32⟩
  | 97 => ⟨S16384, .i32⟩
  | 98 => ⟨S16384x1, .i32⟩
  | 99 => ⟨S16384x300, .f32⟩
  | 100 => ⟨S_, .i32⟩
  | 101 => ⟨S16384, .i32⟩
  | 102 => ⟨S16384, .i1⟩
  | 103 => ⟨S_, .i32⟩
  | 104 => ⟨S16384, .i32⟩
  | 105 => ⟨S16384, .i32⟩
  | 106 => ⟨S16384, .i32⟩
  | 107 => ⟨S16384x1, .i32⟩
  | 108 => ⟨S16384x300, .f32⟩
  | 109 => ⟨S16384x300, .f32⟩
  | 110 => ⟨S16384x300, .f32⟩
  | 111 => ⟨S_, .f32⟩
  | 112 => ⟨S512x300, .f32⟩
  | 113 => ⟨S16384x1, .i32⟩
  | 114 => ⟨S512x300, .f32⟩
  | 115 => ⟨S300x600, .f32⟩
  | 116 => ⟨S512x600, .f32⟩
  | 117 => ⟨S1x600, .f32⟩
  | 118 => ⟨S512x600, .f32⟩
  | 119 => ⟨S512x600, .f32⟩
  | 120 => ⟨S1024x600, .f32⟩
  | 121 => ⟨S1024x600, .f32⟩
  | 122 => ⟨S600x300, .f32⟩
  | 123 => ⟨S1024x300, .f32⟩
  | 124 => ⟨S1x300, .f32⟩
  | 125 => ⟨S1024x300, .f32⟩
  | 126 => ⟨S1024x300, .f32⟩
  | 127 => ⟨S300x300, .f32⟩
  | _ => ⟨S512x600, .f32⟩

abbrev hbmTy0_1 (i : Nat) : BufTy := match i % 128 with
  | 0 => ⟨S262144x300, .f32⟩
  | 1 => ⟨S1x300, .f32⟩
  | 2 => ⟨S262144x300, .f32⟩
  | 3 => ⟨S262144x300, .f32⟩
  | 4 => ⟨S1x262144, .i32⟩
  | 5 => ⟨S262144, .i32⟩
  | 6 => ⟨S1x262144, .i32⟩
  | 7 => ⟨S262144, .i32⟩
  | 8 => ⟨S_, .i32⟩
  | 9 => ⟨S262144, .i32⟩
  | 10 => ⟨S262144, .i1⟩
  | 11 => ⟨S_, .i32⟩
  | 12 => ⟨S262144, .i32⟩
  | 13 => ⟨S262144, .i32⟩
  | 14 => ⟨S262144, .i32⟩
  | 15 => ⟨S262144x1, .i32⟩
  | 16 => ⟨S262144x300, .f32⟩
  | 17 => ⟨S_, .i32⟩
  | 18 => ⟨S262144, .i32⟩
  | 19 => ⟨S262144, .i1⟩
  | 20 => ⟨S_, .i32⟩
  | 21 => ⟨S262144, .i32⟩
  | 22 => ⟨S262144, .i32⟩
  | 23 => ⟨S262144, .i32⟩
  | 24 => ⟨S262144x1, .i32⟩
  | 25 => ⟨S262144x300, .f32⟩
  | 26 => ⟨S262144x300, .f32⟩
  | 27 => ⟨S262144x300, .f32⟩
  | 28 => ⟨S_, .f32⟩
  | 29 => ⟨S1024x300, .f32⟩
  | 30 => ⟨S262144x1, .i32⟩
  | 31 => ⟨S1024x300, .f32⟩
  | 32 => ⟨S300x600, .f32⟩
  | 33 => ⟨S1024x600, .f32⟩
  | 34 => ⟨S1x600, .f32⟩
  | 35 => ⟨S1024x600, .f32⟩
  | 36 => ⟨S1024x600, .f32⟩
  | 37 => ⟨S600x300, .f32⟩
  | 38 => ⟨S1024x300, .f32⟩
  | 39 => ⟨S1x300, .f32⟩
  | 40 => ⟨S1024x300, .f32⟩
  | 41 => ⟨S1024x300, .f32⟩
  | 42 => ⟨S300x300, .f32⟩
  | 43 => ⟨S262144x300, .f32⟩
  | 44 => ⟨S1x300, .f32⟩
  | 45 => ⟨S262144x300, .f32⟩
  | 46 => ⟨S262144x300, .f32⟩
  | 47 => ⟨S1x262144, .i32⟩
  | 48 => ⟨S262144, .i32⟩
  | 49 => ⟨S1x262144, .i32⟩
  | 50 => ⟨S262144, .i32⟩
  | 51 => ⟨S_, .i32⟩
  | 52 => ⟨S262144, .i32⟩
  | 53 => ⟨S262144, .i1⟩
  | 54 => ⟨S_, .i32⟩
  | 55 => ⟨S262144, .i32⟩
  | 56 => ⟨S262144, .i32⟩
  | 57 => ⟨S262144, .i32⟩
  | 58 => ⟨S262144x1, .i32⟩
  | 59 => ⟨S262144x300, .f32⟩
  | 60 => ⟨S_, .i32⟩
  | 61 => ⟨S262144, .i32⟩
  | 62 => ⟨S262144, .i1⟩
  | 63 => ⟨S_, .i32⟩
  | 64 => ⟨S262144, .i32⟩
  | 65 => ⟨S262144, .i32⟩
  | 66 => ⟨S262144, .i32⟩
  | 67 => ⟨S262144x1, .i32⟩
  | 68 => ⟨S262144x300, .f32⟩
  | 69 => ⟨S262144x300, .f32⟩
  | 70 => ⟨S262144x300, .f32⟩
  | 71 => ⟨S_, .f32⟩
  | 72 => ⟨S1024x300, .f32⟩
  | 73 => ⟨S262144x1, .i32⟩
  | 74 => ⟨S1024x300, .f32⟩
  | 75 => ⟨S300x600, .f32⟩
  | 76 => ⟨S1024x600, .f32⟩
  | 77 => ⟨S1x600, .f32⟩
  | 78 => ⟨S1024x600, .f32⟩
  | 79 => ⟨S1024x600, .f32⟩
  | 80 => ⟨S512x600, .f32⟩
  | 81 => ⟨S512x600, .f32⟩
  | _ => ⟨S512x600, .f32⟩

abbrev hbmTy (i : Nat) : BufTy := match i / 128 with
  | 0 => hbmTy0_0 i
  | 1 => hbmTy0_1 i
  | _ => ⟨S512x600, .f32⟩

abbrev bufTy : (tb : Table) → Fin (tcTables nBuf tb) → BufTy
  | .hbm, ⟨i, _⟩ => hbmTy i
  | _, _ => ⟨S512x600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_v0 : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_c : Ref sig .tc := ⟨.hbm, 48, rfl⟩
abbrev main_v14 : Ref sig .tc := ⟨.hbm, 49, rfl⟩
abbrev main_v15 : Ref sig .tc := ⟨.hbm, 50, rfl⟩
abbrev main_c_0 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_c_1 : Ref sig .tc := ⟨.hbm, 57, rfl⟩
abbrev main_v21 : Ref sig .tc := ⟨.hbm, 58, rfl⟩
abbrev main_v22 : Ref sig .tc := ⟨.hbm, 59, rfl⟩
abbrev main_c_2 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_cst : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_c_3 : Ref sig .tc := ⟨.hbm, 91, rfl⟩
abbrev main_v52 : Ref sig .tc := ⟨.hbm, 92, rfl⟩
abbrev main_v53 : Ref sig .tc := ⟨.hbm, 93, rfl⟩
abbrev main_c_4 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_c_5 : Ref sig .tc := ⟨.hbm, 100, rfl⟩
abbrev main_v59 : Ref sig .tc := ⟨.hbm, 101, rfl⟩
abbrev main_v60 : Ref sig .tc := ⟨.hbm, 102, rfl⟩
abbrev main_c_6 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_cst_7 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_c_8 : Ref sig .tc := ⟨.hbm, 136, rfl⟩
abbrev main_v92 : Ref sig .tc := ⟨.hbm, 137, rfl⟩
abbrev main_v93 : Ref sig .tc := ⟨.hbm, 138, rfl⟩
abbrev main_c_9 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_c_10 : Ref sig .tc := ⟨.hbm, 145, rfl⟩
abbrev main_v99 : Ref sig .tc := ⟨.hbm, 146, rfl⟩
abbrev main_v100 : Ref sig .tc := ⟨.hbm, 147, rfl⟩
abbrev main_c_11 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_cst_12 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_c_13 : Ref sig .tc := ⟨.hbm, 179, rfl⟩
abbrev main_v130 : Ref sig .tc := ⟨.hbm, 180, rfl⟩
abbrev main_v131 : Ref sig .tc := ⟨.hbm, 181, rfl⟩
abbrev main_c_14 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_c_15 : Ref sig .tc := ⟨.hbm, 188, rfl⟩
abbrev main_v137 : Ref sig .tc := ⟨.hbm, 189, rfl⟩
abbrev main_v138 : Ref sig .tc := ⟨.hbm, 190, rfl⟩
abbrev main_c_16 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_cst_17 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩

abbrev nD : Nat := 1
abbrev τ : Topo := Topo.v7x

variable {F : FTy → Type} [FloatOps F]

class Facts₀ : Prop where
  transposes_S300x600_S600x300_1_0 : S300x600.Transposes [1, 0] S600x300
  bcast_S300_S1x300_1 : S300.BroadcastsInDim S1x300 (![1] : Fin 1 → Fin S1x300.rank)
  bcast_S1x300_S512x300_0_1 : S1x300.BroadcastsInDim S512x300 (![0, 1] : Fin 2 → Fin S512x300.rank)
  transposes_S300x300_S300x300_1_0 : S300x300.Transposes [1, 0] S300x300
  bcast_S1x300_S16384x300_0_1 : S1x300.BroadcastsInDim S16384x300 (![0, 1] : Fin 2 → Fin S16384x300.rank)
  slices_S2x16384_S1x16384_0_0 : S2x16384.Slices ![0, 0] S1x16384
  shapeCasts_S1x16384_S16384 : S1x16384.ShapeCasts S16384
  slices_S2x16384_S1x16384_1_0 : S2x16384.Slices ![1, 0] S1x16384
  bcast_S_S16384 : S_.BroadcastsInDim S16384 (![] : Fin 0 → Fin S16384.rank)
  bcast_S16384_S16384x1_0 : S16384.BroadcastsInDim S16384x1 (![0] : Fin 1 → Fin S16384x1.rank)
  bcast_S_S512x300 : S_.BroadcastsInDim S512x300 (![] : Fin 0 → Fin S512x300.rank)
  transposes_S600x300_S300x600_1_0 : S600x300.Transposes [1, 0] S300x600
  bcast_S600_S1x600_1 : S600.BroadcastsInDim S1x600 (![1] : Fin 1 → Fin S1x600.rank)
  bcast_S1x600_S512x600_0_1 : S1x600.BroadcastsInDim S512x600 (![0, 1] : Fin 2 → Fin S512x600.rank)
  concatenates_S512x600_S512x600_S1024x600_d0 : Shape.Concatenates [S512x600, S512x600] S1024x600 0
  bcast_S1x300_S1024x300_0_1 : S1x300.BroadcastsInDim S1024x300 (![0, 1] : Fin 2 → Fin S1024x300.rank)
  bcast_S1x300_S262144x300_0_1 : S1x300.BroadcastsInDim S262144x300 (![0, 1] : Fin 2 → Fin S262144x300.rank)
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  bcast_S_S1024x300 : S_.BroadcastsInDim S1024x300 (![] : Fin 0 → Fin S1024x300.rank)
  bcast_S1x600_S1024x600_0_1 : S1x600.BroadcastsInDim S1024x600 (![0, 1] : Fin 2 → Fin S1024x600.rank)
  slices_S1024x600_S512x600_0_0 : S1024x600.Slices ![0, 0] S512x600
  dot_S512x600_S600x300_S512x300_1_0_0_1_n_n_wf : DotDims.WF S512x600 S600x300 S512x300 [1] [0] [0] [1] [] []
  dot_S16384x300_S300x300_S16384x300_1_0_0_1_n_n_wf : DotDims.WF S16384x300 S300x300 S16384x300 [1] [0] [0] [1] [] []
  gather_S512x300_S16384x1_S16384x300_1_0_n_n_0_1_1300_wf : GatherDims.WF S512x300 S16384x1 S16384x300 [1] [0] [] [0] [] 1 ![1, 300]
  scatter_S512x300_S16384x1_S16384x300_1_0_0_1_wf : ScatterDims.WF S512x300 S16384x1 S16384x300 [1] [0] [0] 1
  dot_S512x300_S300x600_S512x600_1_0_0_1_n_n_wf : DotDims.WF S512x300 S300x600 S512x600 [1] [0] [0] [1] [] []
  dot_S1024x600_S600x300_S1024x300_1_0_0_1_n_n_wf : DotDims.WF S1024x600 S600x300 S1024x300 [1] [0] [0] [1] [] []
  dot_S262144x300_S300x300_S262144x300_1_0_0_1_n_n_wf : DotDims.WF S262144x300 S300x300 S262144x300 [1] [0] [0] [1] [] []
  gather_S1024x300_S262144x1_S262144x300_1_0_n_n_0_1_1300_wf : GatherDims.WF S1024x300 S262144x1 S262144x300 [1] [0] [] [0] [] 1 ![1, 300]
  scatter_S1024x300_S262144x1_S262144x300_1_0_0_1_wf : ScatterDims.WF S1024x300 S262144x1 S262144x300 [1] [0] [0] 1
  dot_S1024x300_S300x600_S1024x600_1_0_0_1_n_n_wf : DotDims.WF S1024x300 S300x600 S1024x600 [1] [0] [0] [1] [] []

variable [Facts₀]

def dot_S512x600_S600x300_S512x300_1_0_0_1_n_n : DotDims S512x600 S600x300 S512x300 where
  lhsContracting := [1]
  rhsContracting := [0]
  lhsNonContracting := [0]
  rhsNonContracting := [1]
  lhsBatch := []
  rhsBatch := []
  wf := dot_S512x600_S600x300_S512x300_1_0_0_1_n_n_wf
def dot_S16384x300_S300x300_S16384x300_1_0_0_1_n_n : DotDims S16384x300 S300x300 S16384x300 where
  lhsContracting := [1]
  rhsContracting := [0]
  lhsNonContracting := [0]
  rhsNonContracting := [1]
  lhsBatch := []
  rhsBatch := []
  wf := dot_S16384x300_S300x300_S16384x300_1_0_0_1_n_n_wf
def gather_S512x300_S16384x1_S16384x300_1_0_n_n_0_1_1300 : GatherDims S512x300 S16384x1 S16384x300 where
  offsetDims := [1]
  collapsedSliceDims := [0]
  operandBatchingDims := []
  startIndicesBatchingDims := []
  startIndexMap := [0]
  indexVectorDim := 1
  sliceSizes := ![1, 300]
  wf := gather_S512x300_S16384x1_S16384x300_1_0_n_n_0_1_1300_wf
def scatter_S512x300_S16384x1_S16384x300_1_0_0_1 : ScatterDims S512x300 S16384x1 S16384x300 where
  updateWindowDims := [1]
  insertedWindowDims := [0]
  scatterDimsToOperandDims := [0]
  indexVectorDim := 1
  wf := scatter_S512x300_S16384x1_S16384x300_1_0_0_1_wf
def dot_S512x300_S300x600_S512x600_1_0_0_1_n_n : DotDims S512x300 S300x600 S512x600 where
  lhsContracting := [1]
  rhsContracting := [0]
  lhsNonContracting := [0]
  rhsNonContracting := [1]
  lhsBatch := []
  rhsBatch := []
  wf := dot_S512x300_S300x600_S512x600_1_0_0_1_n_n_wf
def dot_S1024x600_S600x300_S1024x300_1_0_0_1_n_n : DotDims S1024x600 S600x300 S1024x300 where
  lhsContracting := [1]
  rhsContracting := [0]
  lhsNonContracting := [0]
  rhsNonContracting := [1]
  lhsBatch := []
  rhsBatch := []
  wf := dot_S1024x600_S600x300_S1024x300_1_0_0_1_n_n_wf
def dot_S262144x300_S300x300_S262144x300_1_0_0_1_n_n : DotDims S262144x300 S300x300 S262144x300 where
  lhsContracting := [1]
  rhsContracting := [0]
  lhsNonContracting := [0]
  rhsNonContracting := [1]
  lhsBatch := []
  rhsBatch := []
  wf := dot_S262144x300_S300x300_S262144x300_1_0_0_1_n_n_wf
def gather_S1024x300_S262144x1_S262144x300_1_0_n_n_0_1_1300 : GatherDims S1024x300 S262144x1 S262144x300 where
  offsetDims := [1]
  collapsedSliceDims := [0]
  operandBatchingDims := []
  startIndicesBatchingDims := []
  startIndexMap := [0]
  indexVectorDim := 1
  sliceSizes := ![1, 300]
  wf := gather_S1024x300_S262144x1_S262144x300_1_0_n_n_0_1_1300_wf
def scatter_S1024x300_S262144x1_S262144x300_1_0_0_1 : ScatterDims S1024x300 S262144x1 S262144x300 where
  updateWindowDims := [1]
  insertedWindowDims := [0]
  scatterDimsToOperandDims := [0]
  indexVectorDim := 1
  wf := scatter_S1024x300_S262144x1_S262144x300_1_0_0_1_wf
def dot_S1024x300_S300x600_S1024x600_1_0_0_1_n_n : DotDims S1024x300 S300x600 S1024x600 where
  lhsContracting := [1]
  rhsContracting := [0]
  lhsNonContracting := [0]
  rhsNonContracting := [1]
  lhsBatch := []
  rhsBatch := []
  wf := dot_S1024x300_S300x600_S1024x600_1_0_0_1_n_n_wf

class Facts : Prop extends Facts₀ where

variable [Facts]
-- ==== Proof.Spec.lean ====
/-
  The mathematics of one message-passing layer, free of any program, over the extended reals.

  A layer is  lin ∘ agg ∘ lin :  node features are projected (x Wnᵀ + bn), every edge e sends the message
  px[src e] + px[dst e] + (ea[e] Weᵀ + be) to its destination node, each node sums what it receives, and the sums
  are projected back (aggr Woᵀ + bo).

  The aggregation is written twice.  In the ONE-HOT form a row lookup px[a] is the sum over all nodes n of
  [a = n] · px[n], and the sum a node n receives is the sum over ALL edges e of [dst e = n] · msg e.  In the
  LOOKUP form the row px[a] is read at the node the word a names (a negative word first raised by the node count,
  the result clipped into range), and node n sums the messages of exactly the edges whose destination word, read
  signed, is n.  The two agree as soon as every source word names a node: for an edge that reaches node n the
  destination word IS n, so its lookup needs no hypothesis, and edges that reach no node are dropped by both.
-/
import Idealize.ShloMosaic.PureOps.Ideal
import Idealize.ShloMosaic.Lib.ValueIdx
import Idealize.ShloMosaic.Lib.ValueIdxRank1

noncomputable section

open scoped BigOperators

namespace Cert.Spec

open Idealize.ShloMosaic Idealize.ShloMosaic.ValueIdx

/-- A matrix shape and a vector shape, spelt as the programs spell theirs. -/
abbrev Mat (a b : Nat) : Shape := ⟨2, ![a, b]⟩
abbrev Row (a : Nat) : Shape := ⟨1, ![a]⟩

/-- The linear layer: entry (i, j) is  ∑ₖ x[i,k] · W[j,k]  +  b[j]. -/
def lin {N Din Dout : Nat} (x : (Mat N Din).Idx → EReal) (W : (Mat Dout Din).Idx → EReal)
    (b : (Row Dout).Idx → EReal) : (Mat N Dout).Idx → EReal :=
  fun i => (∑ k : Fin Din, x (ix2 (i 0) k) * W (ix2 (i 1) k)) + b (ix1 (i 1))

/-- The same with the bias held as a one-row matrix. -/
def linRow {N Din Dout : Nat} (x : (Mat N Din).Idx → EReal) (W : (Mat Dout Din).Idx → EReal)
    (b : (Mat 1 Dout).Idx → EReal) : (Mat N Dout).Idx → EReal :=
  fun i => (∑ k : Fin Din, x (ix2 (i 0) k) * W (ix2 (i 1) k)) + b (ix2 0 (i 1))

theorem linRow_eq_lin {N Din Dout : Nat} (x : (Mat N Din).Idx → EReal) (W : (Mat Dout Din).Idx → EReal)
    (b : (Row Dout).Idx → EReal) : linRow x W (fun j => b (ix1 (j 1))) = lin x W b := rfl

/-- The indicator that the word a names node n. -/
def hot (a : BitVec 32) (n : Nat) : EReal := if a = BitVec.ofNat 32 n then 1 else 0

/-- The projected edge feature  ea[e] Weᵀ + be  at column h. -/
def edgeProj {E H De : Nat} (We : (Mat H De).Idx → EReal) (be : (Row H).Idx → EReal) (ea : (Mat E De).Idx → EReal)
    (e : Fin E) (h : Fin H) : EReal :=
  (∑ k : Fin De, ea (ix2 e k) * We (ix2 h k)) + be (ix1 h)

/-- ONE-HOT form of edge e's message at column h: both row lookups as sums against indicators. -/
def msgHot {N E H De : Nat} (px : (Mat N H).Idx → EReal) (We : (Mat H De).Idx → EReal) (be : (Row H).Idx → EReal)
    (ea : (Mat E De).Idx → EReal) (src dst : (Row E).Idx → BitVec 32) (e : Fin E) (h : Fin H) : EReal :=
  ((∑ n : Fin N, hot (src (ix1 e)) n.val * px (ix2 n h)) + (∑ n : Fin N, hot (dst (ix1 e)) n.val * px (ix2 n h)))
    + edgeProj We be ea e h

/-- ONE-HOT form of the aggregation: node i₀ sums, over all edges, the indicator of "dst e = i₀" times the message. -/
def aggHot {N E H De : Nat} (px : (Mat N H).Idx → EReal) (We : (Mat H De).Idx → EReal) (be : (Row H).Idx → EReal)
    (ea : (Mat E De).Idx → EReal) (src dst : (Row E).Idx → BitVec 32) : (Mat N H).Idx → EReal :=
  fun i => ∑ e : Fin E, hot (dst (ix1 e)) (i 0).val * msgHot px We be ea src dst e (i 1)

/-- The node a word names in a table of N rows: a negative word is first raised by N; the result, read signed, is
    clipped into 0 … N − 1. -/
def node (N : Nat) (a : BitVec 32) : Nat :=
  min (if a.slt 0#32 then a + BitVec.ofNat 32 N else a).toInt.toNat (N - 1)

theorem node_lt {N : Nat} (hN : 0 < N) (a : BitVec 32) : node N a < N := by
  unfold node; omega

/-- LOOKUP form of edge e's message at column h. -/
def msgLook {N E H De : Nat} (hN : 0 < N) (px : (Mat N H).Idx → EReal) (We : (Mat H De).Idx → EReal)
    (be : (Row H).Idx → EReal) (ea : (Mat E De).Idx → EReal) (src dst : (Row E).Idx → BitVec 32) (e : Fin E)
    (h : Fin H) : EReal :=
  (px (ix2 ⟨node N (dst (ix1 e)), node_lt hN _⟩ h) + px (ix2 ⟨node N (src (ix1 e)), node_lt hN _⟩ h))
    + edgeProj We be ea e h

/-- LOOKUP form of the aggregation: zero plus the messages of the edges whose destination word, read signed, is i₀. -/
def aggLook {N E H De : Nat} (hN : 0 < N) (px : (Mat N H).Idx → EReal) (We : (Mat H De).Idx → EReal)
    (be : (Row H).Idx → EReal) (ea : (Mat E De).Idx → EReal) (src dst : (Row E).Idx → BitVec 32) :
    (Mat N H).Idx → EReal :=
  fun i => 0 + ∑ e ∈ Finset.univ.filter (fun e : Fin E => (dst (ix1 e)).toInt = ((i 0).val : ℤ)),
    msgLook hN px We be ea src dst e (i 1)

/-- Every source word names a node of an N-node graph. -/
def SrcInRange {E : Nat} (N : Nat) (src : (Row E).Idx → BitVec 32) : Prop :=
  ∀ e : Fin E, 0 ≤ (src (ix1 e)).toInt ∧ (src (ix1 e)).toInt < (N : ℤ)

/-- One layer, with either aggregation. -/
def layerHot {N E Dn H De : Nat} (x : (Mat N Dn).Idx → EReal) (Wn : (Mat H Dn).Idx → EReal) (bn : (Row H).Idx → EReal)
    (We : (Mat H De).Idx → EReal) (be : (Row H).Idx → EReal) (Wo : (Mat Dn H).Idx → EReal) (bo : (Row Dn).Idx → EReal)
    (ea : (Mat E De).Idx → EReal) (src dst : (Row E).Idx → BitVec 32) : (Mat N Dn).Idx → EReal :=
  lin (aggHot (lin x Wn bn) We be ea src dst) Wo bo

def layerLook {N E Dn H De : Nat} (hN : 0 < N) (x : (Mat N Dn).Idx → EReal) (Wn : (Mat H Dn).Idx → EReal)
    (bn : (Row H).Idx → EReal) (We : (Mat H De).Idx → EReal) (be : (Row H).Idx → EReal) (Wo : (Mat Dn H).Idx → EReal)
    (bo : (Row Dn).Idx → EReal) (ea : (Mat E De).Idx → EReal) (src dst : (Row E).Idx → BitVec 32) :
    (Mat N Dn).Idx → EReal :=
  lin (aggLook hN (lin x Wn bn) We be ea src dst) Wo bo

/-! ## The whole network: two layers side by side, their results stacked, a third layer on the stack, the top rows kept -/

/-- Two N-row tables stacked into one of M = N + N rows: the first on top. -/
def stack {N D : Nat} (M : Nat) (hM : M = N + N) (a b : (Mat N D).Idx → EReal) : (Mat M D).Idx → EReal :=
  fun i => if h : (i 0).val < N then a (ix2 ⟨(i 0).val, h⟩ (i 1))
    else b (ix2 ⟨(i 0).val - N, by have := (i 0).isLt; simp only [Matrix.cons_val_zero] at this; omega⟩ (i 1))

/-- The first N rows of an M-row table. -/
def top {N M D : Nat} (hNM : N ≤ M) (a : (Mat M D).Idx → EReal) : (Mat N D).Idx → EReal :=
  fun i => a (ix2 ⟨(i 0).val, by have := (i 0).isLt; simp only [Matrix.cons_val_zero] at this; omega⟩ (i 1))

/-- Row r of a two-row table of edge endpoints. -/
def endpoints {E : Nat} (r : Fin 2) (ei : (Mat 2 E).Idx → BitVec 32) : (Row E).Idx → BitVec 32 :=
  fun j => ei (ix2 r (j 0))

/-- A layer's six parameter arrays. -/
structure Params (Dn H De : Nat) where
  Wn : (Mat H Dn).Idx → EReal
  bn : (Row H).Idx → EReal
  We : (Mat H De).Idx → EReal
  be : (Row H).Idx → EReal
  Wo : (Mat Dn H).Idx → EReal
  bo : (Row Dn).Idx → EReal

/-- A layer over a graph given by its two-row endpoint table, in the one-hot form. -/
def gnnHot {N E Dn H De : Nat} (x : (Mat N Dn).Idx → EReal) (ei : (Mat 2 E).Idx → BitVec 32)
    (ea : (Mat E De).Idx → EReal) (p : Params Dn H De) : (Mat N Dn).Idx → EReal :=
  layerHot x p.Wn p.bn p.We p.be p.Wo p.bo ea (endpoints 0 ei) (endpoints 1 ei)

/-- The same in the lookup form. -/
def gnnLook {N E Dn H De : Nat} (hN : 0 < N) (x : (Mat N Dn).Idx → EReal) (ei : (Mat 2 E).Idx → BitVec 32)
    (ea : (Mat E De).Idx → EReal) (p : Params Dn H De) : (Mat N Dn).Idx → EReal :=
  layerLook hN x p.Wn p.bn p.We p.be p.Wo p.bo ea (endpoints 0 ei) (endpoints 1 ei)

/-- One output of the network: layer a on graph a, layer b on graph b, the two results stacked (a on top), the cross
    layer on the stack, and the top N rows of that. (The other output is the same with a and b exchanged.) -/
def outHot {N M E Ec Dn H De : Nat} (hM : M = N + N) (xa xb : (Mat N Dn).Idx → EReal)
    (eia eib : (Mat 2 E).Idx → BitVec 32) (eaa eab : (Mat E De).Idx → EReal)
    (eic : (Mat 2 Ec).Idx → BitVec 32) (eac : (Mat Ec De).Idx → EReal) (pa pb pc : Params Dn H De) :
    (Mat N Dn).Idx → EReal :=
  top (by omega) (gnnHot (stack M hM (gnnHot xa eia eaa pa) (gnnHot xb eib eab pb)) eic eac pc)

def outLook {N M E Ec Dn H De : Nat} (hN : 0 < N) (hM : M = N + N) (xa xb : (Mat N Dn).Idx → EReal)
    (eia eib : (Mat 2 E).Idx → BitVec 32) (eaa eab : (Mat E De).Idx → EReal)
    (eic : (Mat 2 Ec).Idx → BitVec 32) (eac : (Mat Ec De).Idx → EReal) (pa pb pc : Params Dn H De) :
    (Mat N Dn).Idx → EReal :=
  top (by omega) (gnnLook (by omega) (stack M hM (gnnLook hN xa eia eaa pa) (gnnLook hN xb eib eab pb)) eic eac pc)

end Cert.Spec

end
-- ==== Proof.SpecLaw.lean ====
/-
  The one law that joins the two forms of the aggregation, and its lifts to a layer and to the network.

  For node n and column h the one-hot form sums, over ALL edges e, [dst e = n] · msg e; a term with dst e ≠ n is
  0 · (anything) = 0 on the extended reals, so only the edges with dst e = n remain.  For such an edge the
  destination word is the word of n < N, so read signed it is n, it is not negative, and the node it names is n:
  the indicator sum ∑ₘ [dst e = m] · px[m] is px[n], which is also what the lookup reads.  The source word names
  a node by hypothesis, so ∑ₘ [src e = m] · px[m] = px[src e], again what the lookup reads.  The two lookups are
  added in opposite orders, which commutativity mends; no distributivity and no finiteness is used.
-/
import proofs.«408848_j32693291057228_1_alg».proof.Proof.Spec

noncomputable section

open scoped BigOperators

namespace Cert.Spec

open Idealize.ShloMosaic Idealize.ShloMosaic.ValueIdx

/-- A sum over E = T · B edges, tile by tile: tile t holds the edges t·B … t·B + B − 1. -/
theorem sum_tiles {M : Type*} [AddCommMonoid M] (T B E : Nat) (hE : T * B = E) (f : Fin E → M) :
    ∑ e : Fin E, f e
      = ∑ t : Fin T, ∑ r : Fin B, f ⟨t.val * B + r.val, by
          have := t.isLt; have := r.isLt
          calc t.val * B + r.val < t.val * B + B := by omega
            _ = (t.val + 1) * B := by ring
            _ ≤ T * B := Nat.mul_le_mul_right B (by omega)
            _ = E := hE⟩ := by
  subst hE
  -- the pair (t, r) is sent to the edge r + B · t, a bijection of Fin T × Fin B with Fin (T · B)
  rw [← (finProdFinEquiv : Fin T × Fin B ≃ Fin (T * B)).sum_comp, Fintype.sum_prod_type]
  refine Finset.sum_congr rfl fun t _ => Finset.sum_congr rfl fun r _ => ?_
  congr 1
  apply Fin.ext
  simp only [finProdFinEquiv_apply_val]
  rw [Nat.mul_comm, Nat.add_comm]

/-- A running sum over tiles, started from zero, is the sum over all tiles. -/
theorem foldTiles_eq_sum {M : Type*} [AddCommMonoid M] (T : Nat) (g : Nat → M) (acc : Nat → M)
    (h0 : acc 0 = 0 + g 0) (hs : ∀ n, n + 1 < T → acc (n + 1) = acc n + g (n + 1)) (hT : 0 < T) :
    acc (T - 1) = ∑ t : Fin T, g t.val := by
  -- after tile n the running sum holds the tiles 0 … n
  have key : ∀ n, n < T → acc n = ∑ t ∈ Finset.range (n + 1), g t := by
    intro n
    induction n with
    | zero => intro _; rw [h0, zero_add, Finset.sum_range_one]
    | succ n ih =>
      intro hn
      rw [hs n hn, ih (by omega), Finset.sum_range_succ _ (n + 1)]
  rw [key (T - 1) (by omega), Nat.sub_add_cancel hT, Fin.sum_univ_eq_sum_range (fun t => g t) T]

/-! ## Words and the nodes they name -/

/-- The word of a number below 2³¹, read signed, is that number. -/
private theorem toInt_ofNat_lt (n : Nat) (hn : n < 2 ^ 31) : (BitVec.ofNat 32 n).toInt = (n : ℤ) := by
  have h : (BitVec.ofNat 32 n).toNat = n := by
    rw [BitVec.toNat_ofNat]; exact Nat.mod_eq_of_lt (by omega)
  rw [BitVec.toInt_eq_toNat_of_lt (by rw [h]; omega), h]

/-- A word that reads signed as a number below 2³¹ is the word of that number. -/
private theorem eq_ofNat_of_toInt (a : BitVec 32) (k : Nat) (hk : k < 2 ^ 31) (h : a.toInt = (k : ℤ)) :
    a = BitVec.ofNat 32 k := by
  apply BitVec.eq_of_toInt_eq
  rw [h, toInt_ofNat_lt k hk]

/-- Two numbers below 2³² with the same word are equal. -/
private theorem ofNat_inj_lt {m n : Nat} (hm : m < 2 ^ 32) (hn : n < 2 ^ 32)
    (h : BitVec.ofNat 32 m = BitVec.ofNat 32 n) : m = n := by
  have h' := congrArg BitVec.toNat h
  rw [BitVec.toNat_ofNat, BitVec.toNat_ofNat, Nat.mod_eq_of_lt hm, Nat.mod_eq_of_lt hn] at h'
  exact h'

private theorem hot_of_ne (a : BitVec 32) (n : Nat) (h : a ≠ BitVec.ofNat 32 n) : hot a n = 0 := if_neg h

private theorem hot_of_eq (a : BitVec 32) (n : Nat) (h : a = BitVec.ofNat 32 n) : hot a n = 1 := if_pos h

/-- A word that reads signed as a number in 0 … N − 1 names that node: it is not negative, so nothing is added,
    and the clip leaves it alone. -/
private theorem node_of_toInt {N : Nat} (a : BitVec 32) (h0 : 0 ≤ a.toInt) (h1 : a.toInt < (N : ℤ)) :
    node N a = a.toInt.toNat := by
  unfold node
  have hslt : a.slt 0#32 = false := by
    rw [BitVec.slt, BitVec.toInt_zero]
    exact decide_eq_false (by omega)
  rw [hslt]
  simp only [Bool.false_eq_true, if_false]
  omega

/-- The indicator sum against a word that names a node reads the row of that node. -/
private theorem sum_hot_node {N H : Nat} (hN : 0 < N) (hN31 : N < 2 ^ 31) (px : (Mat N H).Idx → EReal)
    (a : BitVec 32) (h0 : 0 ≤ a.toInt) (h1 : a.toInt < (N : ℤ)) (h : Fin H) :
    ∑ m : Fin N, hot a m.val * px (ix2 m h) = px (ix2 ⟨node N a, node_lt hN a⟩ h) := by
  have hk : node N a = a.toInt.toNat := node_of_toInt a h0 h1
  have hlt : node N a < N := node_lt hN a
  have ha : a = BitVec.ofNat 32 (node N a) := eq_ofNat_of_toInt a (node N a) (by omega) (by rw [hk]; omega)
  rw [Finset.sum_eq_single (⟨node N a, node_lt hN a⟩ : Fin N)]
  · -- the node the word names: indicator one
    rw [hot_of_eq a _ ha, one_mul]
  · -- any other node: indicator zero, and zero times anything is zero on the extended reals
    intro b _ hb
    have hne : a ≠ BitVec.ofNat 32 b.val := by
      intro hab
      apply hb
      apply Fin.ext
      have hb' : b.val < N := b.isLt
      exact ofNat_inj_lt (by omega) (by omega) (hab.symm.trans ha)
    rw [hot_of_ne a _ hne, zero_mul]
  · intro hm; exact absurd (Finset.mem_univ _) hm

/-- The law at one entry (n, h). -/
private theorem agg_entry {N E H De : Nat} (hN : 0 < N) (hN31 : N < 2 ^ 31) (px : (Mat N H).Idx → EReal)
    (We : (Mat H De).Idx → EReal) (be : (Row H).Idx → EReal) (ea : (Mat E De).Idx → EReal)
    (src dst : (Row E).Idx → BitVec 32) (hs : SrcInRange N src) (n : Fin N) (h : Fin H) :
    aggHot px We be ea src dst (ix2 n h) = aggLook hN px We be ea src dst (ix2 n h) := by
  unfold aggHot aggLook
  rw [zero_add, Finset.sum_filter]
  refine Finset.sum_congr rfl fun e _ => ?_
  change hot (dst (ix1 e)) n.val * msgHot px We be ea src dst e h
    = if (dst (ix1 e)).toInt = (n.val : ℤ) then msgLook hN px We be ea src dst e h else 0
  have hn : n.val < N := n.isLt
  by_cases hd : (dst (ix1 e)).toInt = (n.val : ℤ)
  · -- the edge reaches node n: its destination word is the word of n, and both lookups read the named rows
    rw [if_pos hd, hot_of_eq _ _ (eq_ofNat_of_toInt _ _ (by omega) hd), one_mul]
    unfold msgHot msgLook
    rw [sum_hot_node hN hN31 px (src (ix1 e)) (hs e).1 (hs e).2 h,
      sum_hot_node hN hN31 px (dst (ix1 e)) (by omega) (by omega) h]
    exact congrArg (· + edgeProj We be ea e h) (add_comm _ _)
  · -- the edge does not reach node n: the indicator is zero
    rw [if_neg hd, hot_of_ne, zero_mul]
    intro hdn
    apply hd
    rw [hdn, toInt_ofNat_lt n.val (by omega)]

/-- THE LAW: with every source word naming a node, the one-hot aggregation is the lookup aggregation. -/
theorem aggHot_eq_aggLook {N E H De : Nat} (hN : 0 < N) (hN31 : N < 2 ^ 31) (px : (Mat N H).Idx → EReal)
    (We : (Mat H De).Idx → EReal) (be : (Row H).Idx → EReal) (ea : (Mat E De).Idx → EReal)
    (src dst : (Row E).Idx → BitVec 32) (hs : SrcInRange N src) :
    aggHot px We be ea src dst = aggLook hN px We be ea src dst := by
  funext i
  rw [eq_ix2 i]
  exact agg_entry hN hN31 px We be ea src dst hs (i 0) (i 1)

theorem gnnHot_eq_gnnLook {N E Dn H De : Nat} (hN : 0 < N) (hN31 : N < 2 ^ 31) (x : (Mat N Dn).Idx → EReal)
    (ei : (Mat 2 E).Idx → BitVec 32) (ea : (Mat E De).Idx → EReal) (p : Params Dn H De)
    (hs : SrcInRange N (endpoints 0 ei)) : gnnHot x ei ea p = gnnLook hN x ei ea p := by
  unfold gnnHot gnnLook layerHot layerLook
  rw [aggHot_eq_aggLook hN hN31 _ _ _ _ _ _ hs]

theorem outHot_eq_outLook {N M E Ec Dn H De : Nat} (hN : 0 < N) (hM : M = N + N) (hM31 : M < 2 ^ 31)
    (xa xb : (Mat N Dn).Idx → EReal) (eia eib : (Mat 2 E).Idx → BitVec 32) (eaa eab : (Mat E De).Idx → EReal)
    (eic : (Mat 2 Ec).Idx → BitVec 32) (eac : (Mat Ec De).Idx → EReal) (pa pb pc : Params Dn H De)
    (ha : SrcInRange N (endpoints 0 eia)) (hb : SrcInRange N (endpoints 0 eib)) (hc : SrcInRange M (endpoints 0 eic)) :
    outHot hM xa xb eia eib eaa eab eic eac pa pb pc = outLook hN hM xa xb eia eib eaa eab eic eac pa pb pc := by
  unfold outHot outLook
  rw [gnnHot_eq_gnnLook hN (by omega) xa eia eaa pa ha, gnnHot_eq_gnnLook hN (by omega) xb eib eab pb hb,
    gnnHot_eq_gnnLook (by omega : 0 < M) hM31 _ eic eac pc hc]

end Cert.Spec

end
-- ==== Proof.KLin0.lean ====
/-
  Pallas call 0 is a linear layer on one grid point: its one block is the whole [512, 300] result, and entry (i, j)
  is the sum over k of x[i,k] · W[j,k] plus the bias row's entry j (the matrix unit's pass into a zero accumulator is
  that sum at the exact instance; the two roundings to the narrow format are the identity there).
-/
import proofs.«408848_j32693291057228_1_alg».proof.Proof.Gen.KernelIdeal.Frame
import proofs.«408848_j32693291057228_1_alg».proof.Proof.Spec
import Idealize.ShloMosaic.Lib.Pipeline.Value
import Idealize.ShloMosaic.Lib.ValueIdx
import Idealize.ShloMosaic.PureOps.Ideal.Laws

noncomputable section

namespace Cert.KernelIdeal.KLin0

open Idealize.ShloMosaic Idealize.ShloMosaic.TcCoe Idealize.SL.Sem Idealize.ShloMosaic.ValueIdx
open Cert.KernelIdeal Cert.KernelIdeal.Gen

/-! ## The contraction's operand indices

The product contracts axis 1 of x with axis 1 of W: at result entry (i, j) and contraction position k the left
operand is read at (i, k) and the right one at (j, k). One lemma per operand axis. -/

/-- Row axis of the left operand: the result's row. -/
theorem lhs_row (i : S512x300.Idx) (r : dot_S512x600_S300x600_S512x300_1_1_0_0_n_n.contr.Idx) :
    (dot_S512x600_S300x600_S512x300_1_1_0_0_n_n.lhsIdx i r 0).val = (i 0).val := by
  unfold DotDims.lhsIdx
  rw [dif_neg (show ¬(0 : Fin S512x600.rank) ∈ dot_S512x600_S300x600_S512x300_1_1_0_0_n_n.lhsBatch by decide), dif_pos (show (0 : Fin S512x600.rank) ∈ dot_S512x600_S300x600_S512x300_1_1_0_0_n_n.lhsNonContracting by decide)]
  rfl

/-- Column axis of the left operand: the contraction position. -/
theorem lhs_col (i : S512x300.Idx) (r : dot_S512x600_S300x600_S512x300_1_1_0_0_n_n.contr.Idx) :
    (dot_S512x600_S300x600_S512x300_1_1_0_0_n_n.lhsIdx i r 1).val = (r ⟨0, by decide⟩).val :=
  dot_S512x600_S300x600_S512x300_1_1_0_0_n_n.lhsIdx_val_of_single rfl i r

/-- Row axis of the right operand: the result's column. -/
theorem rhs_row (i : S512x300.Idx) (r : dot_S512x600_S300x600_S512x300_1_1_0_0_n_n.contr.Idx) :
    (dot_S512x600_S300x600_S512x300_1_1_0_0_n_n.rhsIdx i r 0).val = (i 1).val := by
  unfold DotDims.rhsIdx
  rw [dif_neg (show ¬(0 : Fin S300x600.rank) ∈ dot_S512x600_S300x600_S512x300_1_1_0_0_n_n.rhsBatch by decide), dif_pos (show (0 : Fin S300x600.rank) ∈ dot_S512x600_S300x600_S512x300_1_1_0_0_n_n.rhsNonContracting by decide)]
  rfl

/-- Column axis of the right operand: the contraction position. -/
theorem rhs_col (i : S512x300.Idx) (r : dot_S512x600_S300x600_S512x300_1_1_0_0_n_n.contr.Idx) :
    (dot_S512x600_S300x600_S512x300_1_1_0_0_n_n.rhsIdx i r 1).val = (r ⟨0, by decide⟩).val :=
  dot_S512x600_S300x600_S512x300_1_1_0_0_n_n.rhsIdx_val_of_single rfl i r

/-! ## The body's value at one entry -/

/-- Entry (p, q) of what the body stores: a reshaping to the same shape changes nothing, the two narrowings are the
    identity on exact values, the product into the zero accumulator is the plain sum of products over the 600
    contraction positions, and the one-row bias is repeated down the rows, so row p sees entry (0, q) of it. -/
theorem pay_apply (x0 : Vec Ideal S512x600 .f32) (x1 : Vec Ideal S300x600 .f32) (x2 : Vec Ideal S1x300 .f32)
    (p : Fin 512) (q : Fin 300) :
    k0_pay1 (F := Ideal) x0 x1 x2 (ix2 p q) = (∑ k : Fin 600, x0 (ix2 p k) * x1 (ix2 q k)) + x2 (ix2 0 q) := by
  unfold k0_pay1
  simp only [shapeCast_self]
  refine (addf_apply _ _ (ix2 p q)).trans ?_
  refine congrArg₂ (· + ·) ?_ ?_
  · refine (Ideal.matmul_constant_zero_apply dot_S512x600_S300x600_S512x300_1_1_0_0_n_n none _ _ (ix2 p q)).trans ?_
    rw [← Equiv.sum_comp (contrEquiv1 dot_S512x600_S300x600_S512x300_1_1_0_0_n_n 600 rfl rfl).symm]
    refine Finset.sum_congr rfl fun k _ => ?_
    have hk := contrEquiv1_symm_val dot_S512x600_S300x600_S512x300_1_1_0_0_n_n 600 rfl rfl k
    have el : dot_S512x600_S300x600_S512x300_1_1_0_0_n_n.lhsIdx (ix2 p q) ((contrEquiv1 dot_S512x600_S300x600_S512x300_1_1_0_0_n_n 600 rfl rfl).symm k) = ix2 p k := funext fun a => Fin.ext (by
      match a with
      | ⟨0, _⟩ => exact lhs_row _ _
      | ⟨1, _⟩ => exact (lhs_col _ _).trans hk)
    have er : dot_S512x600_S300x600_S512x300_1_1_0_0_n_n.rhsIdx (ix2 p q) ((contrEquiv1 dot_S512x600_S300x600_S512x300_1_1_0_0_n_n 600 rfl rfl).symm k) = ix2 q k := funext fun a => Fin.ext (by
      match a with
      | ⟨0, _⟩ => exact rhs_row _ _
      | ⟨1, _⟩ => exact (rhs_col _ _).trans hk)
    rw [el, er]
    rfl
  · exact broadcastTo_apply x2 broadcasts_S1x300_S512x300 (ix2 p q) (ix2 0 q) (fun a => match a with
      | ⟨0, _⟩ => by show 0 = if (1 : Nat) = 1 then 0 else _; rw [if_pos rfl]
      | ⟨1, _⟩ => by show q.val = if (300 : Nat) = 1 then 0 else q.val; rw [if_neg (by decide)])

variable (V : (c : Dev nD) → (b : Ref sig .tc) → Buf (Elt Ideal) ((c : Thread nD τ).loc b))

/-! ## From the one block to the array

The grid has one point and every window's block is its whole array, so each block sits at the origin of its array:
reading an array through such a block gives the array back, and the one write-back covers every entry. -/

/-- The origin, spelt as the accesses spell it. -/
theorem hz : (![0, 0] : Fin 2 → Nat) = fun _ => 0 := funext fun a => by fin_cases a <;> rfl

/-- Every window's block index is (0, 0) at the grid's point. -/
theorem origin : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The block of x is x. -/
theorem blk_x (c : Dev nD) (t : Fin cfg0.N) :
    (iblk0 (F := Ideal) V c 0 t : Vec Ideal S512x600 .f32) = V c main_arg0 := by
  obtain ⟨e0, e1, -⟩ := origin t
  have hz' : (fun a => win0_0.index t a * main_arg0.ty.shape.size a) = fun _ => 0 := funext fun a => by
    match a with
    | ⟨0, _⟩ => show win0_0.index t (0 : Fin 2) * 512 = 0; rw [e0]
    | ⟨1, _⟩ => show win0_0.index t (1 : Fin 2) * 600 = 0; rw [e1]
  exact Memref.read_access_unit_zero (Elt Ideal) main_arg0 hz' (fun a => by rw [congrFun hz' a]; simp) (V c main_arg0)

/-- The block of W is W. -/
theorem blk_w (c : Dev nD) (t : Fin cfg0.N) :
    (iblk0 (F := Ideal) V c 1 t : Vec Ideal S300x600 .f32) = V c main_arg10 := by
  obtain ⟨-, -, e0, e1, -⟩ := origin t
  have hz' : (fun a => win0_1.index t a * main_arg10.ty.shape.size a) = fun _ => 0 := funext fun a => by
    match a with
    | ⟨0, _⟩ => show win0_1.index t (0 : Fin 2) * 300 = 0; rw [e0]
    | ⟨1, _⟩ => show win0_1.index t (1 : Fin 2) * 600 = 0; rw [e1]
  exact Memref.read_access_unit_zero (Elt Ideal) main_arg10 hz' (fun a => by rw [congrFun hz' a]; simp) (V c main_arg10)

/-- The block of the bias row is the bias row. -/
theorem blk_b (c : Dev nD) (t : Fin cfg0.N) :
    (iblk0 (F := Ideal) V c 2 t : Vec Ideal S1x300 .f32) = V c main_v4 := by
  obtain ⟨-, -, -, -, e0, e1, -⟩ := origin t
  have hz' : (fun a => win0_2.index t a * main_v4.ty.shape.size a) = fun _ => 0 := funext fun a => by
    match a with
    | ⟨0, _⟩ => show win0_2.index t (0 : Fin 2) * 1 = 0; rw [e0]
    | ⟨1, _⟩ => show win0_2.index t (1 : Fin 2) * 300 = 0; rw [e1]
  exact Memref.read_access_unit_zero (Elt Ideal) main_v4 hz' (fun a => by rw [congrFun hz' a]; simp) (V c main_v4)

/-- The linear layer of the three arrays the call finds. -/
abbrev layer (c : Dev nD) : S512x300.Idx → EReal :=
  Cert.Spec.linRow (N := 512) (Din := 600) (Dout := 300) (V c main_arg0) (V c main_arg10) (V c main_v4)

/-- What the point writes back is the layer, read through the result's block. -/
theorem flushed_eq (c : Dev nD) (t : Fin cfg0.N) :
    (dat0 (F := Ideal) V c).flushed 3 t = ((cfg0.win 3).blk t).view.read (Elt Ideal) (layer V c) := by
  obtain ⟨-, -, -, -, -, -, e0, e1⟩ := origin t
  have hz' : (fun a => win0_3.index t a * main_v5.ty.shape.size a) = fun _ => 0 := funext fun a => by
    match a with
    | ⟨0, _⟩ => show win0_3.index t (0 : Fin 2) * 512 = 0; rw [e0]
    | ⟨1, _⟩ => show win0_3.index t (1 : Fin 2) * 300 = 0; rw [e1]
  refine Eq.trans ?_ (Memref.read_access_unit_zero (Elt Ideal) main_v5 hz' (fun a => by rw [congrFun hz' a]; simp) (layer V c)).symm
  show (cfg0.win 3).cut (grid0.coords t) ((dat0 V c).after 3 t) = _
  rw [after0_3]
  unfold out0_3
  rw [View.canon_unit_zero hz]
  simp only [View.ld_unit_zero (S := S512x600) hz, View.ld_unit_zero (S := S300x600) hz, View.ld_unit_zero (S := S1x300) hz]
  rw [blk_x V c t, blk_w V c t, blk_b V c t]
  funext i
  obtain ⟨p, q, rfl⟩ : ∃ (p : Fin 512) (q : Fin 300), i = ix2 p q := ⟨i 0, i 1, eq_ix2 i⟩
  exact pay_apply _ _ _ p q

/-- The grid's one point. -/
abbrev pt : Fin cfg0.N := ⟨0, by rw [show cfg0.N = 1 from N_0]; decide⟩

/-- Every entry of the result lies in the block that point writes back. -/
theorem cover (c : Dev nD) (i : ((cfg0.win 3).arr.view.loc (c.tc : Thread nD τ)).2.ty.Idx) :
    ∃ t : Fin cfg0.N, (cfg0.win 3).flush t = true ∧ i ∈ ((cfg0.win 3).blk t).view.set := by
  refine ⟨pt, flush0_3 pt, ?_⟩
  show i ∈ ((View.whole main_v5).slice (win0_3.rect pt)).set
  rw [View.set_slice_whole, Rect.mem_set_unit]
  intro a
  obtain ⟨-, -, -, -, -, -, e0, e1⟩ := origin pt
  have h0 : (i 0 : Nat) < 512 := (i 0).isLt
  have h1 : (i 1 : Nat) < 300 := (i 1).isLt
  match a with
  | ⟨0, _⟩ =>
    show win0_3.index pt (0 : Fin 2) * 512 ≤ (i 0 : Nat) ∧ (i 0 : Nat) < win0_3.index pt (0 : Fin 2) * 512 + 512
    rw [e0]; omega
  | ⟨1, _⟩ =>
    show win0_3.index pt (1 : Fin 2) * 300 ≤ (i 1 : Nat) ∧ (i 1 : Nat) < win0_3.index pt (1 : Fin 2) * 300 + 300
    rw [e1]; omega

/-- The array call 0 leaves is the linear layer of the three arrays it finds. -/
theorem final (c : Dev nD) :
    (dat0 (F := Ideal) V c).arrAt 3 cfg0.N
      = Cert.Spec.linRow (N := 512) (Din := 600) (Dout := 300) (V c main_arg0) (V c main_arg10) (V c main_v4) :=
  (dat0 (F := Ideal) V c).arrAt_eq_of_cover 3 (layer V c) (fun t _ => flushed_eq V c t) (cover c)

end Cert.KernelIdeal.KLin0

end
-- ==== Proof.KAgg1Pay.lean ====
/-
  The arithmetic of one grid point of the aggregation call 1, free of the memory: from the blocks a point sees (the
  node table px, the edge weight We and bias row be, one tile of 2048 edge features and of source and destination words)
  and the carried block acc, the stored value at (n, h) is acc[n, h] plus the sum over the tile's edges r of
  [dst r = n] times the message of r: the comparison of a broadcast word against an iota is the indicator (as 0 or 1,
  through a widening and an integer-to-float conversion), a matrix-unit pass into a zero accumulator is the plain
  sum of products, a rounding to the narrow format is the identity at the exact instance.
-/
import proofs.«408848_j32693291057228_1_alg».proof.Proof.Gen.KernelIdeal.Skeleton
import proofs.«408848_j32693291057228_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KAgg1Pay

open Idealize.ShloMosaic Idealize.ShloMosaic.TcCoe Idealize.SL.Sem Idealize.ShloMosaic.ValueIdx
open Cert.KernelIdeal Cert.KernelIdeal.Gen
open scoped BigOperators

/-! ## A vector as a column, and one column repeated over many -/

section Column
variable {α : Type}

/-- An `[a]` array cast to `[a, 1]` reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## The indicator: a comparison bit, widened and converted -/

/-- The comparison bit of two words, widened to a word and converted to a float, is 1 when the words are equal and 0
    otherwise. -/
theorem sitofp_cmpi_eq (a b : BitVec 32) :
    (FloatOps.sitofp (F := Ideal) .f32 ((IntOp.cmpi .eq a b).setWidth 32) : EReal) = if a = b then 1 else 0 := by
  by_cases h : a = b
  · subst h
    rw [if_pos rfl]
    have e : (IntOp.cmpi .eq a a).setWidth 32 = 1#32 := by simp [IntOp.cmpi]
    rw [e]
    show (((1#32 : BitVec 32).toInt : ℝ) : EReal) = 1
    have t : (1#32 : BitVec 32).toInt = 1 := by decide
    rw [t]; simp
  · rw [if_neg h]
    have hb : (a == b) = false := beq_eq_false_iff_ne.2 h
    have e : (IntOp.cmpi .eq a b).setWidth 32 = 0#32 := by simp [IntOp.cmpi, hb]
    rw [e]
    show (((0#32 : BitVec 32).toInt : ℝ) : EReal) = 0
    have t : (0#32 : BitVec 32).toInt = 0 := by decide
    rw [t]; simp

/-! ## The three matrix products, each into a zero accumulator, read at an entry

Each product sums over one axis. Which coordinate of each operand is the result's and which is the summation position
is read off the product's dimension numbers, axis by axis; the summation index, a one-axis multi-index, is exchanged
for its one coordinate. -/

/-- The left operand's row is the result's row. -/
theorem gatherL0 (i : S2048x300.Idx) (q : dot_S2048x512_S512x300_S2048x300_1_0_0_1_n_n.contr.Idx) :
    (dot_S2048x512_S512x300_S2048x300_1_0_0_1_n_n.lhsIdx i q 0).val = (i 0).val := by
  unfold DotDims.lhsIdx
  rw [dif_neg (show ¬(0 : Fin S2048x512.rank) ∈ dot_S2048x512_S512x300_S2048x300_1_0_0_1_n_n.lhsBatch by decide),
    dif_pos (show (0 : Fin S2048x512.rank) ∈ dot_S2048x512_S512x300_S2048x300_1_0_0_1_n_n.lhsNonContracting by decide)]
  rfl
/-- The left operand's column is the summation position. -/
theorem gatherL1 (i : S2048x300.Idx) (q : dot_S2048x512_S512x300_S2048x300_1_0_0_1_n_n.contr.Idx) :
    (dot_S2048x512_S512x300_S2048x300_1_0_0_1_n_n.lhsIdx i q 1).val = (q ⟨0, by decide⟩).val :=
  dot_S2048x512_S512x300_S2048x300_1_0_0_1_n_n.lhsIdx_val_of_single rfl i q
/-- The right operand's row is the summation position. -/
theorem gatherR0 (i : S2048x300.Idx) (q : dot_S2048x512_S512x300_S2048x300_1_0_0_1_n_n.contr.Idx) :
    (dot_S2048x512_S512x300_S2048x300_1_0_0_1_n_n.rhsIdx i q 0).val = (q ⟨0, by decide⟩).val :=
  dot_S2048x512_S512x300_S2048x300_1_0_0_1_n_n.rhsIdx_val_of_single rfl i q
/-- The right operand's column is the result's column. -/
theorem gatherR1 (i : S2048x300.Idx) (q : dot_S2048x512_S512x300_S2048x300_1_0_0_1_n_n.contr.Idx) :
    (dot_S2048x512_S512x300_S2048x300_1_0_0_1_n_n.rhsIdx i q 1).val = (i 1).val := by
  unfold DotDims.rhsIdx
  rw [dif_neg (show ¬(1 : Fin S512x300.rank) ∈ dot_S2048x512_S512x300_S2048x300_1_0_0_1_n_n.rhsBatch by decide),
    dif_pos (show (1 : Fin S512x300.rank) ∈ dot_S2048x512_S512x300_S2048x300_1_0_0_1_n_n.rhsNonContracting by decide)]
  rfl

/-- Indicator rows times the node table: entry (e, h) sums, over the nodes k, the left (e, k) times the right (k, h). -/
theorem gather_apply (l : FVec Ideal S2048x512 .bf16) (r : FVec Ideal S512x300 .bf16) (a : Fin 2048) (b : Fin 300) :
    matmul (F := Ideal) dot_S2048x512_S512x300_S2048x300_1_0_0_1_n_n none l r (constant (F := Ideal) S2048x300 .f32 0x00000000#32) (ix2 a b)
      = ∑ k : Fin 512, l (ix2 a k) * r (ix2 k b) := by
  simp only [matmul]
  rw [Ideal.matmul_constant_zero_apply,
    ← Equiv.sum_comp (contrEquiv1 dot_S2048x512_S512x300_S2048x300_1_0_0_1_n_n 512 rfl rfl).symm]
  refine Finset.sum_congr rfl fun k _ => ?_
  have hk := contrEquiv1_symm_val dot_S2048x512_S512x300_S2048x300_1_0_0_1_n_n 512 rfl rfl k
  have el : dot_S2048x512_S512x300_S2048x300_1_0_0_1_n_n.lhsIdx (ix2 a b) ((contrEquiv1 dot_S2048x512_S512x300_S2048x300_1_0_0_1_n_n 512 rfl rfl).symm k)
      = ix2 a k := funext fun d => Fin.ext (by
    match d with
    | ⟨0, _⟩ => exact gatherL0 _ _
    | ⟨1, _⟩ => exact (gatherL1 _ _).trans hk)
  have er : dot_S2048x512_S512x300_S2048x300_1_0_0_1_n_n.rhsIdx (ix2 a b) ((contrEquiv1 dot_S2048x512_S512x300_S2048x300_1_0_0_1_n_n 512 rfl rfl).symm k)
      = ix2 k b := funext fun d => Fin.ext (by
    match d with
    | ⟨0, _⟩ => exact (gatherR0 _ _).trans hk
    | ⟨1, _⟩ => exact gatherR1 _ _)
  rw [el, er]

/-- The left operand's row is the result's row. -/
theorem projL0 (i : S2048x300.Idx) (q : dot_S2048x300_S300x300_S2048x300_1_1_0_0_n_n.contr.Idx) :
    (dot_S2048x300_S300x300_S2048x300_1_1_0_0_n_n.lhsIdx i q 0).val = (i 0).val := by
  unfold DotDims.lhsIdx
  rw [dif_neg (show ¬(0 : Fin S2048x300.rank) ∈ dot_S2048x300_S300x300_S2048x300_1_1_0_0_n_n.lhsBatch by decide),
    dif_pos (show (0 : Fin S2048x300.rank) ∈ dot_S2048x300_S300x300_S2048x300_1_1_0_0_n_n.lhsNonContracting by decide)]
  rfl
/-- The left operand's column is the summation position. -/
theorem projL1 (i : S2048x300.Idx) (q : dot_S2048x300_S300x300_S2048x300_1_1_0_0_n_n.contr.Idx) :
    (dot_S2048x300_S300x300_S2048x300_1_1_0_0_n_n.lhsIdx i q 1).val = (q ⟨0, by decide⟩).val :=
  dot_S2048x300_S300x300_S2048x300_1_1_0_0_n_n.lhsIdx_val_of_single rfl i q
/-- The right operand's row is the result's column. -/
theorem projR0 (i : S2048x300.Idx) (q : dot_S2048x300_S300x300_S2048x300_1_1_0_0_n_n.contr.Idx) :
    (dot_S2048x300_S300x300_S2048x300_1_1_0_0_n_n.rhsIdx i q 0).val = (i 1).val := by
  unfold DotDims.rhsIdx
  rw [dif_neg (show ¬(0 : Fin S300x300.rank) ∈ dot_S2048x300_S300x300_S2048x300_1_1_0_0_n_n.rhsBatch by decide),
    dif_pos (show (0 : Fin S300x300.rank) ∈ dot_S2048x300_S300x300_S2048x300_1_1_0_0_n_n.rhsNonContracting by decide)]
  rfl
/-- The right operand's column is the summation position. -/
theorem projR1 (i : S2048x300.Idx) (q : dot_S2048x300_S300x300_S2048x300_1_1_0_0_n_n.contr.Idx) :
    (dot_S2048x300_S300x300_S2048x300_1_1_0_0_n_n.rhsIdx i q 1).val = (q ⟨0, by decide⟩).val :=
  dot_S2048x300_S300x300_S2048x300_1_1_0_0_n_n.rhsIdx_val_of_single rfl i q

/-- Edge features times the weight's transpose: entry (e, h) sums, over the feature columns k, the left (e, k) times the right (h, k). -/
theorem proj_apply (l : FVec Ideal S2048x300 .bf16) (r : FVec Ideal S300x300 .bf16) (a : Fin 2048) (b : Fin 300) :
    matmul (F := Ideal) dot_S2048x300_S300x300_S2048x300_1_1_0_0_n_n none l r (constant (F := Ideal) S2048x300 .f32 0x00000000#32) (ix2 a b)
      = ∑ k : Fin 300, l (ix2 a k) * r (ix2 b k) := by
  simp only [matmul]
  rw [Ideal.matmul_constant_zero_apply,
    ← Equiv.sum_comp (contrEquiv1 dot_S2048x300_S300x300_S2048x300_1_1_0_0_n_n 300 rfl rfl).symm]
  refine Finset.sum_congr rfl fun k _ => ?_
  have hk := contrEquiv1_symm_val dot_S2048x300_S300x300_S2048x300_1_1_0_0_n_n 300 rfl rfl k
  have el : dot_S2048x300_S300x300_S2048x300_1_1_0_0_n_n.lhsIdx (ix2 a b) ((contrEquiv1 dot_S2048x300_S300x300_S2048x300_1_1_0_0_n_n 300 rfl rfl).symm k)
      = ix2 a k := funext fun d => Fin.ext (by
    match d with
    | ⟨0, _⟩ => exact projL0 _ _
    | ⟨1, _⟩ => exact (projL1 _ _).trans hk)
  have er : dot_S2048x300_S300x300_S2048x300_1_1_0_0_n_n.rhsIdx (ix2 a b) ((contrEquiv1 dot_S2048x300_S300x300_S2048x300_1_1_0_0_n_n 300 rfl rfl).symm k)
      = ix2 b k := funext fun d => Fin.ext (by
    match d with
    | ⟨0, _⟩ => exact projR0 _ _
    | ⟨1, _⟩ => exact (projR1 _ _).trans hk)
  rw [el, er]

/-- The left operand's row is the result's row. -/
theorem scatterL0 (i : S512x300.Idx) (q : dot_S512x2048_S2048x300_S512x300_1_0_0_1_n_n.contr.Idx) :
    (dot_S512x2048_S2048x300_S512x300_1_0_0_1_n_n.lhsIdx i q 0).val = (i 0).val := by
  unfold DotDims.lhsIdx
  rw [dif_neg (show ¬(0 : Fin S512x2048.rank) ∈ dot_S512x2048_S2048x300_S512x300_1_0_0_1_n_n.lhsBatch by decide),
    dif_pos (show (0 : Fin S512x2048.rank) ∈ dot_S512x2048_S2048x300_S512x300_1_0_0_1_n_n.lhsNonContracting by decide)]
  rfl
/-- The left operand's column is the summation position. -/
theorem scatterL1 (i : S512x300.Idx) (q : dot_S512x2048_S2048x300_S512x300_1_0_0_1_n_n.contr.Idx) :
    (dot_S512x2048_S2048x300_S512x300_1_0_0_1_n_n.lhsIdx i q 1).val = (q ⟨0, by decide⟩).val :=
  dot_S512x2048_S2048x300_S512x300_1_0_0_1_n_n.lhsIdx_val_of_single rfl i q
/-- The right operand's row is the summation position. -/
theorem scatterR0 (i : S512x300.Idx) (q : dot_S512x2048_S2048x300_S512x300_1_0_0_1_n_n.contr.Idx) :
    (dot_S512x2048_S2048x300_S512x300_1_0_0_1_n_n.rhsIdx i q 0).val = (q ⟨0, by decide⟩).val :=
  dot_S512x2048_S2048x300_S512x300_1_0_0_1_n_n.rhsIdx_val_of_single rfl i q
/-- The right operand's column is the result's column. -/
theorem scatterR1 (i : S512x300.Idx) (q : dot_S512x2048_S2048x300_S512x300_1_0_0_1_n_n.contr.Idx) :
    (dot_S512x2048_S2048x300_S512x300_1_0_0_1_n_n.rhsIdx i q 1).val = (i 1).val := by
  unfold DotDims.rhsIdx
  rw [dif_neg (show ¬(1 : Fin S2048x300.rank) ∈ dot_S512x2048_S2048x300_S512x300_1_0_0_1_n_n.rhsBatch by decide),
    dif_pos (show (1 : Fin S2048x300.rank) ∈ dot_S512x2048_S2048x300_S512x300_1_0_0_1_n_n.rhsNonContracting by decide)]
  rfl

/-- Indicator columns times the messages: entry (n, h) sums, over the tile's edges k, the left (n, k) times the right (k, h). -/
theorem scatter_apply (l : FVec Ideal S512x2048 .bf16) (r : FVec Ideal S2048x300 .bf16) (a : Fin 512) (b : Fin 300) :
    matmul (F := Ideal) dot_S512x2048_S2048x300_S512x300_1_0_0_1_n_n none l r (constant (F := Ideal) S512x300 .f32 0x00000000#32) (ix2 a b)
      = ∑ k : Fin 2048, l (ix2 a k) * r (ix2 k b) := by
  simp only [matmul]
  rw [Ideal.matmul_constant_zero_apply,
    ← Equiv.sum_comp (contrEquiv1 dot_S512x2048_S2048x300_S512x300_1_0_0_1_n_n 2048 rfl rfl).symm]
  refine Finset.sum_congr rfl fun k _ => ?_
  have hk := contrEquiv1_symm_val dot_S512x2048_S2048x300_S512x300_1_0_0_1_n_n 2048 rfl rfl k
  have el : dot_S512x2048_S2048x300_S512x300_1_0_0_1_n_n.lhsIdx (ix2 a b) ((contrEquiv1 dot_S512x2048_S2048x300_S512x300_1_0_0_1_n_n 2048 rfl rfl).symm k)
      = ix2 a k := funext fun d => Fin.ext (by
    match d with
    | ⟨0, _⟩ => exact scatterL0 _ _
    | ⟨1, _⟩ => exact (scatterL1 _ _).trans hk)
  have er : dot_S512x2048_S2048x300_S512x300_1_0_0_1_n_n.rhsIdx (ix2 a b) ((contrEquiv1 dot_S512x2048_S2048x300_S512x300_1_0_0_1_n_n 2048 rfl rfl).symm k)
      = ix2 k b := funext fun d => Fin.ext (by
    match d with
    | ⟨0, _⟩ => exact (scatterR0 _ _).trans hk
    | ⟨1, _⟩ => exact scatterR1 _ _)
  rw [el, er]

/-! ## The indicators -/

/-- Entry (n, r) of the destination indicator: the word of edge r, laid as a row and repeated down the rows, against
    the row number. -/
theorem dstRow_apply (x5 : Vec Ideal S2048 .i32) (n : Fin 512) (r : Fin 2048) :
    k1_pay4 (F := Ideal) x5 (ix2 n r) = Cert.Spec.hot (x5 (ix1 r)) n.val := by
  unfold k1_pay4 k1_pay3
  have e1 : broadcastTo S512x2048 (shapeCast S1x2048 (shapeCast S2048 x5 shapeCasts_S2048_S2048) shapeCasts_S2048_S1x2048)
      broadcasts_S1x2048_S512x2048 (ix2 n r) = x5 (ix1 r) := by
    refine (broadcastTo_1b_ab_apply _ _ n r).trans ?_
    refine (shapeCast_a_1a_apply _ _ 0 r).trans ?_
    rw [shapeCast_self]
  have e2 : iota .tc S512x2048 32 [0] iota_S512x2048_d0_w32 (ix2 n r) = BitVec.ofNat 32 n.val :=
    iota_single_apply _ _ _ _ _ _
  refine (sitofp_cmpi_eq _ _).trans ?_
  rw [e1, e2]
  rfl

/-- The indicator of an endpoint word against the node numbers: the words as a column, repeated along the columns,
    compared with the column number, the bit widened, converted and rounded. -/
abbrev endCol (w : Vec Ideal S2048 .i32) : FVec Ideal S2048x512 .bf16 :=
  truncf .bf16 (sitofp (F := Ideal) .f32 (extui 32 (cmpi .eq
    (broadcastTo S2048x512 (shapeCast S2048x1 (shapeCast S2048 w shapeCasts_S2048_S2048) shapeCasts_S2048_S2048x1)
      broadcasts_S2048x1_S2048x512)
    (iota .tc S2048x512 32 [1] iota_S2048x512_d1_w32)) natLt_1_32)) bitsLt_bf16_f32

/-- Entry (e, k) of an endpoint indicator is 1 when edge e's word names node k, and 0 otherwise. -/
theorem endCol_apply (w : Vec Ideal S2048 .i32) (e : Fin 2048) (k : Fin 512) :
    endCol w (ix2 e k) = Cert.Spec.hot (w (ix1 e)) k.val := by
  have e1 : broadcastTo S2048x512 (shapeCast S2048x1 (shapeCast S2048 w shapeCasts_S2048_S2048) shapeCasts_S2048_S2048x1)
      broadcasts_S2048x1_S2048x512 (ix2 e k) = w (ix1 e) := by
    refine (broadcastTo_a1_ab_apply _ _ e k).trans ?_
    refine (shapeCast_a_a1_apply _ _ e 0).trans ?_
    rw [shapeCast_self]
  have e2 : iota .tc S2048x512 32 [1] iota_S2048x512_d1_w32 (ix2 e k) = BitVec.ofNat 32 k.val :=
    iota_single_apply _ _ _ _ _ _
  refine (sitofp_cmpi_eq _ _).trans ?_
  rw [e1, e2]
  rfl

/-! ## The message of an edge, and the update of the carried block -/

/-- A row lookup as a product: the indicator's row e against column h of the node table. -/
theorem gatherRow (w : Vec Ideal S2048 .i32) (x0 : Vec Ideal S512x300 .f32) (e : Fin 2048) (h : Fin 300) :
    matmul (F := Ideal) dot_S2048x512_S512x300_S2048x300_1_0_0_1_n_n none (endCol w)
        (truncf .bf16 (shapeCast S512x300 x0 shapeCasts_S512x300_S512x300) bitsLt_bf16_f32)
        (constant (F := Ideal) S2048x300 .f32 0x00000000#32) (ix2 e h)
      = ∑ n : Fin 512, Cert.Spec.hot (w (ix1 e)) n.val * x0 (ix2 n h) := by
  refine (gather_apply _ _ e h).trans (Finset.sum_congr rfl fun k _ => ?_)
  rw [endCol_apply, truncf_apply, shapeCast_self]

/-- The projected features of edge e at column h, before the bias. -/
theorem projRow (x3 : Vec Ideal S2048x300 .f32) (x1 : Vec Ideal S300x300 .f32) (e : Fin 2048) (h : Fin 300) :
    matmul (F := Ideal) dot_S2048x300_S300x300_S2048x300_1_1_0_0_n_n none (truncf .bf16 x3 bitsLt_bf16_f32)
        (truncf .bf16 x1 bitsLt_bf16_f32) (constant (F := Ideal) S2048x300 .f32 0x00000000#32) (ix2 e h)
      = ∑ k : Fin 300, x3 (ix2 e k) * x1 (ix2 h k) :=
  proj_apply _ _ e h

/-- The bias row repeated down the rows reads its column h. -/
theorem biasRow (x2 : Vec Ideal S1x300 .f32) (e : Fin 2048) (h : Fin 300) :
    broadcastTo S2048x300 (shapeCast S1x300 x2 shapeCasts_S1x300_S1x300) broadcasts_S1x300_S2048x300 (ix2 e h)
      = x2 (ix2 0 h) := by
  refine (broadcastTo_1b_ab_apply _ _ e h).trans ?_
  rw [shapeCast_self]

/-- The message of edge e at column h: both lookups, the projected features and the bias. -/
theorem msg_apply (x4 x5 : Vec Ideal S2048 .i32) (x0 : Vec Ideal S512x300 .f32) (x3 : Vec Ideal S2048x300 .f32)
    (x1 : Vec Ideal S300x300 .f32) (x2 : Vec Ideal S1x300 .f32) (e : Fin 2048) (h : Fin 300) :
    k1_pay5 (F := Ideal) x4 x5 x0 x3 x1 x2 (ix2 e h)
      = Cert.Spec.msgHot (N := 512) (E := 2048) (H := 300) (De := 300) x0 x1 (fun j => x2 (ix2 0 (j 0))) x3 x4 x5 e h := by
  unfold k1_pay5 k1_pay3
  show (matmul (F := Ideal) dot_S2048x512_S512x300_S2048x300_1_0_0_1_n_n none (endCol x4)
          (truncf .bf16 (shapeCast S512x300 x0 shapeCasts_S512x300_S512x300) bitsLt_bf16_f32)
          (constant (F := Ideal) S2048x300 .f32 0x00000000#32) (ix2 e h)
        + matmul (F := Ideal) dot_S2048x512_S512x300_S2048x300_1_0_0_1_n_n none (endCol x5)
          (truncf .bf16 (shapeCast S512x300 x0 shapeCasts_S512x300_S512x300) bitsLt_bf16_f32)
          (constant (F := Ideal) S2048x300 .f32 0x00000000#32) (ix2 e h))
      + (matmul (F := Ideal) dot_S2048x300_S300x300_S2048x300_1_1_0_0_n_n none (truncf .bf16 x3 bitsLt_bf16_f32)
          (truncf .bf16 x1 bitsLt_bf16_f32) (constant (F := Ideal) S2048x300 .f32 0x00000000#32) (ix2 e h)
        + broadcastTo S2048x300 (shapeCast S1x300 x2 shapeCasts_S1x300_S1x300) broadcasts_S1x300_S2048x300 (ix2 e h)) = _
  rw [gatherRow, gatherRow, projRow, biasRow]
  rfl

/-- The block a point starts from at point 0 is zero. -/
theorem reset (j : S512x300.Idx) : k1_pay2 (F := Ideal) j = 0 := by
  unfold k1_pay2
  exact Ideal.ofBits_zero_f32

/-- One point's update of the carried block, entry by entry. -/
theorem update (x0 : Vec Ideal S512x300 .f32) (x1 : Vec Ideal S300x300 .f32) (x2 : Vec Ideal S1x300 .f32)
    (x3 : Vec Ideal S2048x300 .f32) (x4 x5 : Vec Ideal S2048 .i32) (acc : Vec Ideal S512x300 .f32) (n : Fin 512) (h : Fin 300) :
    k1_pay1 (F := Ideal) (k1_pay4 (F := Ideal) x5) (k1_pay5 (F := Ideal) x4 x5 x0 x3 x1 x2) acc (ix2 n h)
      = acc (ix2 n h) + ∑ r : Fin 2048, Cert.Spec.hot (x5 (ix1 r)) n.val
          * Cert.Spec.msgHot (N := 512) (E := 2048) (H := 300) (De := 300) x0 x1 (fun j => x2 (ix2 0 (j 0))) x3 x4 x5 r h := by
  unfold k1_pay1
  show shapeCast S512x300 acc shapeCasts_S512x300_S512x300 (ix2 n h)
      + matmul (F := Ideal) dot_S512x2048_S2048x300_S512x300_1_0_0_1_n_n none (k1_pay4 (F := Ideal) x5)
          (truncf .bf16 (k1_pay5 (F := Ideal) x4 x5 x0 x3 x1 x2) bitsLt_bf16_f32)
          (constant (F := Ideal) S512x300 .f32 0x00000000#32) (ix2 n h) = _
  rw [shapeCast_self, scatter_apply]
  refine congrArg (acc (ix2 n h) + ·) (Finset.sum_congr rfl fun r _ => ?_)
  rw [dstRow_apply, truncf_apply, msg_apply]

end Cert.KernelIdeal.KAgg1Pay

end
-- ==== Proof.KAgg1.lean ====
/-
  Pallas call 1 is the aggregation, tiled over the edge axis: point t sees one tile of edges, builds the indicators
  [src e = n], [dst e = n] against the node numbers, forms each edge's message by two indicator matmuls and the edge
  projection, and adds the indicator-weighted messages into the [512, 300] block it carries from point to point (zeroed at
  point 0, written back once after the last point). The sum over the tiles in turn is the sum over all 16384 edges.

  The steps. What a point leaves in the carried block is one update of what it found there (of the zero block at the
  first point). The node table, the weight and the bias row are seen whole at every point; the edge features and the
  endpoint words are seen one tile at a time, row r of tile t being row 2048 t + r of the array. A message reads the
  edge arrays only at its own edge, so the update by tile t adds, at entry (p, q), the sum over the tile's edges of
  [dst e = p] times the message of e, all read off the whole arrays. The carried block after point n is therefore the
  sum of the first n + 1 tiles' contributions; after the last point it is the sum over all tiles, that is over all
  edges; and that point is the one that writes the block, which is the whole array, back.
-/
import proofs.«408848_j32693291057228_1_alg».proof.Proof.Gen.KernelIdeal.Frame
import proofs.«408848_j32693291057228_1_alg».proof.Proof.Spec
import proofs.«408848_j32693291057228_1_alg».proof.Proof.SpecLaw
import proofs.«408848_j32693291057228_1_alg».proof.Proof.KAgg1Pay
import Idealize.ShloMosaic.Lib.Pipeline.Value
import Idealize.ShloMosaic.Lib.Tactic

noncomputable section

namespace Cert.KernelIdeal.KAgg1

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

/-- Zero offsets, however they are spelt. -/
theorem hz : (![0, 0] : Fin 2 → Nat) = fun _ => 0 := funext fun a => by fin_cases a <;> rfl
theorem hz1 : (![0] : Fin 1 → Nat) = fun _ => 0 := funext fun a => by fin_cases a; rfl

section Pieces
variable {F : FTy → Type} [FloatOps F]

/-- At a point after the first, the carried block `xo` is read whole, the tile's contribution is added, and the one
    store covers the block: what is left is the update of `xo` by the blocks the point sees. -/
theorem out_B (c : Dev nD) (i : grid1.Coords) (a1 : Memref sig .tc .vmem S512x300 .f32) (h1 : a1.IsWhole)
    (a2 : Memref sig .tc .vmem S300x300 .f32) (h2 : a2.IsWhole) (a3 : Memref sig .tc .vmem S1x300 .f32) (h3 : a3.IsWhole)
    (a4 : Memref sig .tc .vmem S2048x300 .f32) (h4 : a4.IsWhole) (a5 : Memref sig .tc .vmem S2048 .i32) (h5 : a5.IsWhole)
    (a6 : Memref sig .tc .vmem S2048 .i32) (h6 : a6.IsWhole) (a7 : Memref sig .tc .vmem S512x300 .f32) (h7 : a7.IsWhole)
    (hc : ¬cond1_0 i) (x0 : Vec F S512x300 .f32) (x1 : Vec F S300x300 .f32) (x2 : Vec F S1x300 .f32)
    (x3 : Vec F S2048x300 .f32) (x4 x5 : Vec F S2048 .i32) (xo : Vec F S512x300 .f32) :
    out1_B_6 c i a1 h1 a2 h2 a3 h3 a4 h4 a5 h5 a6 h6 a7 h7 hc x0 x1 x2 x3 x4 x5 xo
      = k1_pay1 (k1_pay4 x5) (k1_pay5 x4 x5 x0 x3 x1 x2) xo := by
  unfold out1_B_6
  rw [View.read_writes_eq_canon _ _ _ (cover1_B_6 c i a1 h1 a2 h2 a3 h3 a4 h4 a5 h5 a6 h6 a7 h7 hc x0 x1 x2 x3 x4 x5 xo)]
  unfold kernelRun1_B
  dsimp only
  sl_unfold_words
  rw [View.canon_unit_zero (S := S512x300) hz]
  simp only [View.readAt_eq_ld, h1.read_unread, h2.read_unread, h3.read_unread, h4.read_unread, h5.read_unread,
    h6.read_unread, h7.read_unread, View.ld_unit_zero (S := S512x300) hz, View.ld_unit_zero (S := S300x300) hz,
    View.ld_unit_zero (S := S1x300) hz, View.ld_unit_zero (S := S2048x300) hz, View.ld_unit_zero (S := S2048) hz1]

/-- At the first point the block is first set to the zero block, that is read back, the tile's contribution is added
    and the second store covers the block again: what is left is the update of the zero block. -/
theorem out_A (c : Dev nD) (i : grid1.Coords) (a1 : Memref sig .tc .vmem S512x300 .f32) (h1 : a1.IsWhole)
    (a2 : Memref sig .tc .vmem S300x300 .f32) (h2 : a2.IsWhole) (a3 : Memref sig .tc .vmem S1x300 .f32) (h3 : a3.IsWhole)
    (a4 : Memref sig .tc .vmem S2048x300 .f32) (h4 : a4.IsWhole) (a5 : Memref sig .tc .vmem S2048 .i32) (h5 : a5.IsWhole)
    (a6 : Memref sig .tc .vmem S2048 .i32) (h6 : a6.IsWhole) (a7 : Memref sig .tc .vmem S512x300 .f32) (h7 : a7.IsWhole)
    (hc : cond1_0 i) (x0 : Vec F S512x300 .f32) (x1 : Vec F S300x300 .f32) (x2 : Vec F S1x300 .f32)
    (x3 : Vec F S2048x300 .f32) (x4 x5 : Vec F S2048 .i32) :
    out1_A_6 c i a1 h1 a2 h2 a3 h3 a4 h4 a5 h5 a6 h6 a7 h7 hc x0 x1 x2 x3 x4 x5
      = k1_pay1 (k1_pay4 x5) (k1_pay5 x4 x5 x0 x3 x1 x2) (k1_pay2 (F := F)) := by
  unfold out1_A_6
  rw [View.read_writes_eq_canon _ _ _ (cover1_A_6 c i a1 h1 a2 h2 a3 h3 a4 h4 a5 h5 a6 h6 a7 h7 hc x0 x1 x2 x3 x4 x5)]
  unfold kernelRun1_A
  dsimp only
  sl_unfold_words
  rw [View.canon_cons_unit_zero (S := S512x300) hz, View.readCov_unit_zero (S := S512x300) _ hz]
  simp only [View.readAt_eq_ld, h1.read_unread, h2.read_unread, h3.read_unread, h4.read_unread, h5.read_unread,
    h6.read_unread, View.ld_unit_zero (S := S512x300) hz, View.ld_unit_zero (S := S300x300) hz,
    View.ld_unit_zero (S := S1x300) hz, View.ld_unit_zero (S := S2048x300) hz, View.ld_unit_zero (S := S2048) hz1]

end Pieces

/-! ## The blocks a point sees, read off the arrays -/

section Blocks
variable (V : (c : Dev nD) → (b : Ref sig .tc) → Buf (Elt Ideal) ((c : Thread nD τ).loc b))

/-- The six arrays the call finds: the node table, the edge weight, the bias row, the edge features, the source and
    the destination words. -/
abbrev pxA (c : Dev nD) : Vec Ideal S512x300 .f32 := V c main_v5
abbrev weA (c : Dev nD) : Vec Ideal S300x300 .f32 := V c main_arg12
abbrev beA (c : Dev nD) : Vec Ideal S1x300 .f32 := V c main_v6
abbrev eaA (c : Dev nD) : Vec Ideal S16384x300 .f32 := V c main_arg4
abbrev srcA (c : Dev nD) : Vec Ideal S16384 .i32 := V c main_v1
abbrev dstA (c : Dev nD) : Vec Ideal S16384 .i32 := V c main_v3

/-- Their blocks at point `t`. -/
abbrev pxB (c : Dev nD) (t : Fin cfg1.N) : Vec Ideal S512x300 .f32 := iblk1 V c 0 t
abbrev weB (c : Dev nD) (t : Fin cfg1.N) : Vec Ideal S300x300 .f32 := iblk1 V c 1 t
abbrev beB (c : Dev nD) (t : Fin cfg1.N) : Vec Ideal S1x300 .f32 := iblk1 V c 2 t
abbrev eaB (c : Dev nD) (t : Fin cfg1.N) : Vec Ideal S2048x300 .f32 := iblk1 V c 3 t
abbrev srcB (c : Dev nD) (t : Fin cfg1.N) : Vec Ideal S2048 .i32 := iblk1 V c 4 t
abbrev dstB (c : Dev nD) (t : Fin cfg1.N) : Vec Ideal S2048 .i32 := iblk1 V c 5 t

/-- Where each window's block sits at point `t`: the first three never move, the last three are at tile `t`. -/
theorem idx_facts : ∀ t : Fin cfg1.N,
    (win1_0.index t 0 = 0 ∧ win1_0.index t 1 = 0) ∧ (win1_1.index t 0 = 0 ∧ win1_1.index t 1 = 0)
      ∧ (win1_2.index t 0 = 0 ∧ win1_2.index t 1 = 0) ∧ (win1_3.index t 0 = t.val ∧ win1_3.index t 1 = 0)
      ∧ win1_4.index t 0 = t.val ∧ win1_5.index t 0 = t.val :=
  (by decide +kernel : ∀ t : Fin grid1.N,
    (win1_0.index t 0 = 0 ∧ win1_0.index t 1 = 0) ∧ (win1_1.index t 0 = 0 ∧ win1_1.index t 1 = 0)
      ∧ (win1_2.index t 0 = 0 ∧ win1_2.index t 1 = 0) ∧ (win1_3.index t 0 = t.val ∧ win1_3.index t 1 = 0)
      ∧ win1_4.index t 0 = t.val ∧ win1_5.index t 0 = t.val)

/-- The carried block never moves. -/
theorem idx_out : ∀ t : Fin cfg1.N, win1_6.index t 0 = 0 ∧ win1_6.index t 1 = 0 :=
  (by decide +kernel : ∀ t : Fin grid1.N, win1_6.index t 0 = 0 ∧ win1_6.index t 1 = 0)

/-- and is never cut short. -/
theorem xsize_out : ∀ t : Fin cfg1.N, win1_6.xsize (grid1.coords t) 0 = 512 ∧ win1_6.xsize (grid1.coords t) 1 = 300 :=
  (by decide +kernel : ∀ t : Fin grid1.N, win1_6.xsize (grid1.coords t) 0 = 512 ∧ win1_6.xsize (grid1.coords t) 1 = 300)

/-- An edge of tile `t` is an edge of the graph. -/
theorem tile_lt (t : Fin cfg1.N) (r : Fin 2048) : t.val * 2048 + r.val < 16384 := by
  have hN : t.val < 8 := lt_of_lt_of_eq t.isLt (show cfg1.N = 8 from N_1)
  have := r.isLt
  omega

theorem pxB_eq (c : Dev nD) (t : Fin cfg1.N) : pxB V c t = pxA V c := by
  funext j
  unfold pxB iblk1
  rw [View.read_apply]
  show V c main_v5 _ = V c main_v5 j
  congr 1
  funext a
  apply Fin.ext
  match a with
  | ⟨0, _⟩ => show win1_0.index t 0 * 512 + 1 * (j 0).val = (j 0).val; rw [(idx_facts t).1.1]; omega
  | ⟨1, _⟩ => show win1_0.index t 1 * 300 + 1 * (j 1).val = (j 1).val; rw [(idx_facts t).1.2]; omega

theorem eaB_apply (c : Dev nD) (t : Fin cfg1.N) (r : Fin 2048) (k : Fin 300) :
    eaB V c t (ix2 r k) = eaA V c (ix2 ⟨t.val * 2048 + r.val, tile_lt t r⟩ k) := by
  unfold eaB iblk1
  rw [View.read_apply]
  show V c main_arg4 _ = V c main_arg4 _
  congr 1
  funext a
  apply Fin.ext
  match a with
  | ⟨0, _⟩ => show win1_3.index t 0 * 2048 + 1 * r.val = t.val * 2048 + r.val; rw [(idx_facts t).2.2.2.1.1]; omega
  | ⟨1, _⟩ => show win1_3.index t 1 * 300 + 1 * k.val = k.val; rw [(idx_facts t).2.2.2.1.2]; omega

theorem weB_eq (c : Dev nD) (t : Fin cfg1.N) : weB V c t = weA V c := by
  funext j
  unfold weB iblk1
  rw [View.read_apply]
  show V c main_arg12 _ = V c main_arg12 j
  congr 1
  funext a
  apply Fin.ext
  match a with
  | ⟨0, _⟩ => show win1_1.index t 0 * 300 + 1 * (j 0).val = (j 0).val; rw [(idx_facts t).2.1.1]; omega
  | ⟨1, _⟩ => show win1_1.index t 1 * 300 + 1 * (j 1).val = (j 1).val; rw [(idx_facts t).2.1.2]; omega

theorem beB_eq (c : Dev nD) (t : Fin cfg1.N) : beB V c t = beA V c := by
  funext j
  unfold beB iblk1
  rw [View.read_apply]
  show V c main_v6 _ = V c main_v6 j
  congr 1
  funext a
  apply Fin.ext
  match a with
  | ⟨0, _⟩ => show win1_2.index t 0 * 1 + 1 * (j 0).val = (j 0).val; rw [(idx_facts t).2.2.1.1]; omega
  | ⟨1, _⟩ => show win1_2.index t 1 * 300 + 1 * (j 1).val = (j 1).val; rw [(idx_facts t).2.2.1.2]; omega

theorem dstB_apply (c : Dev nD) (t : Fin cfg1.N) (r : Fin 2048) :
    dstB V c t (ix1 r) = dstA V c (ix1 ⟨t.val * 2048 + r.val, tile_lt t r⟩) := by
  unfold dstB iblk1
  rw [View.read_apply]
  show V c main_v3 _ = V c main_v3 _
  congr 1
  funext a
  apply Fin.ext
  match a with
  | ⟨0, _⟩ => show win1_5.index t 0 * 2048 + 1 * r.val = t.val * 2048 + r.val; rw [(idx_facts t).2.2.2.2.2]; omega

theorem srcB_apply (c : Dev nD) (t : Fin cfg1.N) (r : Fin 2048) :
    srcB V c t (ix1 r) = srcA V c (ix1 ⟨t.val * 2048 + r.val, tile_lt t r⟩) := by
  unfold srcB iblk1
  rw [View.read_apply]
  show V c main_v1 _ = V c main_v1 _
  congr 1
  funext a
  apply Fin.ext
  match a with
  | ⟨0, _⟩ => show win1_4.index t 0 * 2048 + 1 * r.val = t.val * 2048 + r.val; rw [(idx_facts t).2.2.2.2.1]; omega

end Blocks

/-! ## A message reads the edge arrays at its own edge only -/

/-- Two graphs' messages agree at edges `r` and `e` as soon as the node tables, weights and biases are the same and
    the edge arrays agree at those two edges. -/
theorem msgHot_tile {N B E H De : Nat} (pxT pxG : (Cert.Spec.Mat N H).Idx → EReal)
    (WeT WeG : (Cert.Spec.Mat H De).Idx → EReal) (beT beG : (Cert.Spec.Row H).Idx → EReal)
    (eaT : (Cert.Spec.Mat B De).Idx → EReal) (srcT dstT : (Cert.Spec.Row B).Idx → BitVec 32)
    (eaG : (Cert.Spec.Mat E De).Idx → EReal) (srcG dstG : (Cert.Spec.Row E).Idx → BitVec 32) (r : Fin B) (e : Fin E)
    (hpx : pxT = pxG) (hWe : WeT = WeG) (hbe : beT = beG)
    (hea : ∀ k : Fin De, eaT (ix2 r k) = eaG (ix2 e k)) (hsrc : srcT (ix1 r) = srcG (ix1 e))
    (hdst : dstT (ix1 r) = dstG (ix1 e)) (q : Fin H) :
    Cert.Spec.msgHot pxT WeT beT eaT srcT dstT r q = Cert.Spec.msgHot pxG WeG beG eaG srcG dstG e q := by
  subst hpx hWe hbe
  unfold Cert.Spec.msgHot Cert.Spec.edgeProj
  rw [hsrc, hdst]
  simp only [hea]

/-! ## The carried block, point by point -/

section Invariant
variable (V : (c : Dev nD) → (b : Ref sig .tc) → Buf (Elt Ideal) ((c : Thread nD τ).loc b))

/-- The contribution of tile `t` to entry (p, q): over its edges, [dst e = p] times the message of e, all read off
    the whole arrays (nothing past the last tile). -/
def tileSum (c : Dev nD) (p : Fin 512) (q : Fin 300) (t : Nat) : EReal :=
  if ht : t < 8 then
    ∑ r : Fin 2048, Cert.Spec.hot (dstA V c (ix1 ⟨t * 2048 + r.val, by have := r.isLt; omega⟩)) p.val
      * Cert.Spec.msgHot (N := 512) (E := 16384) (H := 300) (De := 300) (pxA V c) (weA V c)
          (fun j => beA V c (ix2 0 (j 0))) (eaA V c) (srcA V c) (dstA V c) ⟨t * 2048 + r.val, by have := r.isLt; omega⟩ q
  else 0

/-- One point's update of any carried block `acc`, by the blocks point `t` sees, adds tile `t`'s contribution. -/
theorem point_update (c : Dev nD) (t : Fin cfg1.N) (acc : Vec Ideal S512x300 .f32) (p : Fin 512) (q : Fin 300) :
    k1_pay1 (F := Ideal) (k1_pay4 (F := Ideal) (dstB V c t))
        (k1_pay5 (F := Ideal) (srcB V c t) (dstB V c t) (pxB V c t) (eaB V c t) (weB V c t) (beB V c t)) acc (ix2 p q)
      = acc (ix2 p q) + tileSum V c p q t.val := by
  have hN : t.val < 8 := lt_of_lt_of_eq t.isLt (show cfg1.N = 8 from N_1)
  refine (KAgg1Pay.update (pxB V c t) (weB V c t) (beB V c t) (eaB V c t) (srcB V c t) (dstB V c t) acc p q).trans ?_
  unfold tileSum
  rw [dif_pos hN]
  refine congrArg (acc (ix2 p q) + ·) (Finset.sum_congr rfl fun r _ => ?_)
  rw [dstB_apply V c t r]
  refine congrArg (Cert.Spec.hot (dstA V c (ix1 ⟨t.val * 2048 + r.val, tile_lt t r⟩)) p.val * ·) ?_
  exact msgHot_tile _ _ _ _ _ _ _ _ _ _ _ _ r ⟨t.val * 2048 + r.val, tile_lt t r⟩ (pxB_eq V c t) (weB_eq V c t)
    (funext fun j => congrFun (beB_eq V c t) _) (fun k => eaB_apply V c t r k) (srcB_apply V c t r)
    (dstB_apply V c t r) q

/-- After the first point the block holds the first tile's contribution, added to zero. -/
theorem outsAt_first (c : Dev nD) (t : Fin cfg1.N) (h0 : t.val % 8 = 0) (p : Fin 512) (q : Fin 300) :
    outsAt1 V c t.val t.isLt (ix2 p q) = 0 + tileSum V c p q t.val := by
  rw [outsAt1_A V c t h0]
  refine (congrFun (out_A (F := Ideal) c (grid1.coords t) (ms1_0 t) (hs1_0 t) (ms1_1 t) (hs1_1 t) (ms1_2 t) (hs1_2 t)
    (ms1_3 t) (hs1_3 t) (ms1_4 t) (hs1_4 t) (ms1_5 t) (hs1_5 t) (ms1_6 t) (hs1_6 t) ((hcond1_0 t).mpr h0)
    (iblk1 V c 0 t) (iblk1 V c 1 t) (iblk1 V c 2 t) (iblk1 V c 3 t) (iblk1 V c 4 t) (iblk1 V c 5 t)) (ix2 p q)).trans ?_
  refine (point_update V c t (k1_pay2 (F := Ideal)) p q).trans ?_
  rw [KAgg1Pay.reset]

/-- After any later point it holds what the point before left, plus the point's tile's contribution. -/
theorem outsAt_next (c : Dev nD) (t : Fin cfg1.N) (h0 : ¬t.val % 8 = 0) (p : Fin 512) (q : Fin 300) :
    outsAt1 V c t.val t.isLt (ix2 p q)
      = outsAt1 V c (t.val - 1) (Nat.lt_of_le_of_lt (Nat.sub_le _ _) t.isLt) (ix2 p q) + tileSum V c p q t.val := by
  rw [outsAt1_B V c t h0]
  refine (congrFun (out_B (F := Ideal) c (grid1.coords t) (ms1_0 t) (hs1_0 t) (ms1_1 t) (hs1_1 t) (ms1_2 t) (hs1_2 t)
    (ms1_3 t) (hs1_3 t) (ms1_4 t) (hs1_4 t) (ms1_5 t) (hs1_5 t) (ms1_6 t) (hs1_6 t) (fun h => h0 ((hcond1_0 t).mp h))
    (iblk1 V c 0 t) (iblk1 V c 1 t) (iblk1 V c 2 t) (iblk1 V c 3 t) (iblk1 V c 4 t) (iblk1 V c 5 t)
    (outsAt1 V c (t.val - 1) (Nat.lt_of_le_of_lt (Nat.sub_le _ _) t.isLt))) (ix2 p q)).trans ?_
  exact point_update V c t (outsAt1 V c (t.val - 1) (Nat.lt_of_le_of_lt (Nat.sub_le _ _) t.isLt)) p q

/-- The array the call is to leave. -/
abbrev result (c : Dev nD) : Buf (Elt Ideal) ((c : Thread nD τ).loc main_v7) :=
  Cert.Spec.aggHot (N := 512) (E := 16384) (H := 300) (De := 300) (V c main_v5) (V c main_arg12)
    (fun j => V c main_v6 (ix2 0 (j 0))) (V c main_arg4) (V c main_v1) (V c main_v3)

/-- After the last point the block holds the sum over all tiles, which is the sum over all edges. -/
theorem last_block (c : Dev nD) (t : Fin cfg1.N) (hend : t.val = 7) : outsAt1 V c t.val t.isLt = result V c := by
  funext j
  obtain ⟨p, q, rfl⟩ : ∃ (p : Fin 512) (q : Fin 300), j = ix2 p q := ⟨j 0, j 1, eq_ix2 j⟩
  have hN : cfg1.N = 8 := N_1
  have key := Cert.Spec.foldTiles_eq_sum 8 (tileSum V c p q)
    (fun n => if h : n < cfg1.N then outsAt1 V c n h (ix2 p q) else 0)
    (by
      have h : 0 < cfg1.N := by omega
      rw [dif_pos h]
      exact outsAt_first V c ⟨0, h⟩ rfl p q)
    (fun n hn => by
      have h1 : n + 1 < cfg1.N := by omega
      have h2 : n < cfg1.N := by omega
      rw [dif_pos h1, dif_pos h2]
      exact outsAt_next V c ⟨n + 1, h1⟩ (by dsimp only; omega) p q)
    (by omega)
  obtain ⟨n, hn⟩ := t
  dsimp only at hend
  subst hend
  dsimp only
  rw [dif_pos hn] at key
  refine key.trans ?_
  show _ = ∑ e : Fin 16384, Cert.Spec.hot (V c main_v3 (ix1 e)) p.val
    * Cert.Spec.msgHot (N := 512) (E := 16384) (H := 300) (De := 300) (V c main_v5) (V c main_arg12)
        (fun j => V c main_v6 (ix2 0 (j 0))) (V c main_arg4) (V c main_v1) (V c main_v3) e q
  rw [Cert.Spec.sum_tiles 8 2048 16384 rfl]
  refine Finset.sum_congr rfl fun t _ => ?_
  unfold tileSum
  rw [dif_pos t.isLt]

end Invariant

/-! ## The write-back -/

section Final
variable (V : (c : Dev nD) → (b : Ref sig .tc) → Buf (Elt Ideal) ((c : Thread nD τ).loc b))

/-- The one point that writes back is the last; its block, at offset zero and of the array's size, is the array. -/
theorem flushed_eq (c : Dev nD) (t : Fin cfg1.N) (hf : (cfg1.win 6).flush t = true) :
    (dat1 (F := Ideal) V c).flushed 6 t = ((cfg1.win 6).blk t).view.read (Elt Ideal) (result V c) := by
  have hN : cfg1.N = 8 := N_1
  have hend : t.val = 7 := by have := (flush1_6 t).mp hf; have := t.isLt; omega
  show (cfg1.win 6).cut (grid1.coords t) ((dat1 (F := Ideal) V c).after 6 t) = _
  rw [after1_6, last_block V c t hend]
  have hz' : (fun a => win1_6.index t a * main_v7.ty.shape.size a) = fun _ => 0 := funext fun a => by
    match a with
    | ⟨0, _⟩ => show win1_6.index t 0 * 512 = 0; rw [(idx_out t).1]
    | ⟨1, _⟩ => show win1_6.index t 1 * 300 = 0; rw [(idx_out t).2]
  exact (Memref.read_access_unit_zero (Elt Ideal) main_v7 hz' (fun a => by rw [congrFun hz' a]; simp) (result V c)).symm

/-- The array call 1 leaves is the one-hot aggregation of the six arrays it finds. -/
theorem final (c : Dev nD) :
    (dat1 (F := Ideal) V c).arrAt 6 cfg1.N
      = Cert.Spec.aggHot (N := 512) (E := 16384) (H := 300) (De := 300) (V c main_v5) (V c main_arg12)
          (fun j => V c main_v6 (ix2 0 (j 0))) (V c main_arg4) (V c main_v1) (V c main_v3) := by
  have hlast : 7 < cfg1.N := by rw [show cfg1.N = 8 from N_1]; decide
  refine (dat1 (F := Ideal) V c).arrAt_eq_of_cover 6 (result V c) (flushed_eq V c) fun i =>
    ⟨⟨7, hlast⟩, (flush1_6 _).mpr rfl, ?_⟩
  show i ∈ ((View.whole main_v7).slice (win1_6.rect ⟨7, hlast⟩)).set
  rw [View.set_slice_whole, Rect.mem_set_unit]
  intro a
  have h0 : (i 0 : Nat) < 512 := (i 0).isLt
  have h1 : (i 1 : Nat) < 300 := (i 1).isLt
  match a with
  | ⟨0, _⟩ =>
    show win1_6.index ⟨7, hlast⟩ 0 * win1_6.size 0 ≤ (i 0 : Nat)
      ∧ (i 0 : Nat) < win1_6.index ⟨7, hlast⟩ 0 * win1_6.size 0 + win1_6.xsize (grid1.coords ⟨7, hlast⟩) 0
    rw [(idx_out ⟨7, hlast⟩).1, (xsize_out ⟨7, hlast⟩).1]; omega
  | ⟨1, _⟩ =>
    show win1_6.index ⟨7, hlast⟩ 1 * win1_6.size 1 ≤ (i 1 : Nat)
      ∧ (i 1 : Nat) < win1_6.index ⟨7, hlast⟩ 1 * win1_6.size 1 + win1_6.xsize (grid1.coords ⟨7, hlast⟩) 1
    rw [(idx_out ⟨7, hlast⟩).2, (xsize_out ⟨7, hlast⟩).2]; omega

end Final

end Cert.KernelIdeal.KAgg1

end
-- ==== Proof.KLin2.lean ====
/-
  Pallas call 2 is a linear layer on one grid point: its one block is the whole [512, 600] result, and entry (i, j)
  is the sum over k of x[i,k] · W[j,k] plus the bias row's entry j (the matrix unit's pass into a zero accumulator is
  that sum at the exact instance; the two roundings to the narrow format are the identity there).
-/
import proofs.«408848_j32693291057228_1_alg».proof.Proof.Gen.KernelIdeal.Frame
import proofs.«408848_j32693291057228_1_alg».proof.Proof.Spec
import Idealize.ShloMosaic.Lib.Pipeline.Value
import Idealize.ShloMosaic.Lib.ValueIdx
import Idealize.ShloMosaic.PureOps.Ideal.Laws

noncomputable section

namespace Cert.KernelIdeal.KLin2

open Idealize.ShloMosaic Idealize.ShloMosaic.TcCoe Idealize.SL.Sem Idealize.ShloMosaic.ValueIdx
open Cert.KernelIdeal Cert.KernelIdeal.Gen

/-! ## The contraction's operand indices

The product contracts axis 1 of x with axis 1 of W: at result entry (i, j) and contraction position k the left
operand is read at (i, k) and the right one at (j, k). One lemma per operand axis. -/

/-- Row axis of the left operand: the result's row. -/
theorem lhs_row (i : S512x600.Idx) (r : dot_S512x300_S600x300_S512x600_1_1_0_0_n_n.contr.Idx) :
    (dot_S512x300_S600x300_S512x600_1_1_0_0_n_n.lhsIdx i r 0).val = (i 0).val := by
  unfold DotDims.lhsIdx
  rw [dif_neg (show ¬(0 : Fin S512x300.rank) ∈ dot_S512x300_S600x300_S512x600_1_1_0_0_n_n.lhsBatch by decide), dif_pos (show (0 : Fin S512x300.rank) ∈ dot_S512x300_S600x300_S512x600_1_1_0_0_n_n.lhsNonContracting by decide)]
  rfl

/-- Column axis of the left operand: the contraction position. -/
theorem lhs_col (i : S512x600.Idx) (r : dot_S512x300_S600x300_S512x600_1_1_0_0_n_n.contr.Idx) :
    (dot_S512x300_S600x300_S512x600_1_1_0_0_n_n.lhsIdx i r 1).val = (r ⟨0, by decide⟩).val :=
  dot_S512x300_S600x300_S512x600_1_1_0_0_n_n.lhsIdx_val_of_single rfl i r

/-- Row axis of the right operand: the result's column. -/
theorem rhs_row (i : S512x600.Idx) (r : dot_S512x300_S600x300_S512x600_1_1_0_0_n_n.contr.Idx) :
    (dot_S512x300_S600x300_S512x600_1_1_0_0_n_n.rhsIdx i r 0).val = (i 1).val := by
  unfold DotDims.rhsIdx
  rw [dif_neg (show ¬(0 : Fin S600x300.rank) ∈ dot_S512x300_S600x300_S512x600_1_1_0_0_n_n.rhsBatch by decide), dif_pos (show (0 : Fin S600x300.rank) ∈ dot_S512x300_S600x300_S512x600_1_1_0_0_n_n.rhsNonContracting by decide)]
  rfl

/-- Column axis of the right operand: the contraction position. -/
theorem rhs_col (i : S512x600.Idx) (r : dot_S512x300_S600x300_S512x600_1_1_0_0_n_n.contr.Idx) :
    (dot_S512x300_S600x300_S512x600_1_1_0_0_n_n.rhsIdx i r 1).val = (r ⟨0, by decide⟩).val :=
  dot_S512x300_S600x300_S512x600_1_1_0_0_n_n.rhsIdx_val_of_single rfl i r

/-! ## The body's value at one entry -/

/-- Entry (p, q) of what the body stores: a reshaping to the same shape changes nothing, the two narrowings are the
    identity on exact values, the product into the zero accumulator is the plain sum of products over the 300
    contraction positions, and the one-row bias is repeated down the rows, so row p sees entry (0, q) of it. -/
theorem pay_apply (x0 : Vec Ideal S512x300 .f32) (x1 : Vec Ideal S600x300 .f32) (x2 : Vec Ideal S1x600 .f32)
    (p : Fin 512) (q : Fin 600) :
    k2_pay1 (F := Ideal) x0 x1 x2 (ix2 p q) = (∑ k : Fin 300, x0 (ix2 p k) * x1 (ix2 q k)) + x2 (ix2 0 q) := by
  unfold k2_pay1
  simp only [shapeCast_self]
  refine (addf_apply _ _ (ix2 p q)).trans ?_
  refine congrArg₂ (· + ·) ?_ ?_
  · refine (Ideal.matmul_constant_zero_apply dot_S512x300_S600x300_S512x600_1_1_0_0_n_n none _ _ (ix2 p q)).trans ?_
    rw [← Equiv.sum_comp (contrEquiv1 dot_S512x300_S600x300_S512x600_1_1_0_0_n_n 300 rfl rfl).symm]
    refine Finset.sum_congr rfl fun k _ => ?_
    have hk := contrEquiv1_symm_val dot_S512x300_S600x300_S512x600_1_1_0_0_n_n 300 rfl rfl k
    have el : dot_S512x300_S600x300_S512x600_1_1_0_0_n_n.lhsIdx (ix2 p q) ((contrEquiv1 dot_S512x300_S600x300_S512x600_1_1_0_0_n_n 300 rfl rfl).symm k) = ix2 p k := funext fun a => Fin.ext (by
      match a with
      | ⟨0, _⟩ => exact lhs_row _ _
      | ⟨1, _⟩ => exact (lhs_col _ _).trans hk)
    have er : dot_S512x300_S600x300_S512x600_1_1_0_0_n_n.rhsIdx (ix2 p q) ((contrEquiv1 dot_S512x300_S600x300_S512x600_1_1_0_0_n_n 300 rfl rfl).symm k) = ix2 q k := funext fun a => Fin.ext (by
      match a with
      | ⟨0, _⟩ => exact rhs_row _ _
      | ⟨1, _⟩ => exact (rhs_col _ _).trans hk)
    rw [el, er]
    rfl
  · exact broadcastTo_apply x2 broadcasts_S1x600_S512x600 (ix2 p q) (ix2 0 q) (fun a => match a with
      | ⟨0, _⟩ => by show 0 = if (1 : Nat) = 1 then 0 else _; rw [if_pos rfl]
      | ⟨1, _⟩ => by show q.val = if (600 : Nat) = 1 then 0 else q.val; rw [if_neg (by decide)])

variable (V : (c : Dev nD) → (b : Ref sig .tc) → Buf (Elt Ideal) ((c : Thread nD τ).loc b))

/-! ## From the one block to the array

The grid has one point and every window's block is its whole array, so each block sits at the origin of its array:
reading an array through such a block gives the array back, and the one write-back covers every entry. -/

/-- The origin, spelt as the accesses spell it. -/
theorem hz : (![0, 0] : Fin 2 → Nat) = fun _ => 0 := funext fun a => by fin_cases a <;> rfl

/-- Every window's block index is (0, 0) at the grid's point. -/
theorem origin : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

/-- The block of x is x. -/
theorem blk_x (c : Dev nD) (t : Fin cfg2.N) :
    (iblk2 (F := Ideal) V c 0 t : Vec Ideal S512x300 .f32) = V c main_v7 := by
  obtain ⟨e0, e1, -⟩ := origin t
  have hz' : (fun a => win2_0.index t a * main_v7.ty.shape.size a) = fun _ => 0 := funext fun a => by
    match a with
    | ⟨0, _⟩ => show win2_0.index t (0 : Fin 2) * 512 = 0; rw [e0]
    | ⟨1, _⟩ => show win2_0.index t (1 : Fin 2) * 300 = 0; rw [e1]
  exact Memref.read_access_unit_zero (Elt Ideal) main_v7 hz' (fun a => by rw [congrFun hz' a]; simp) (V c main_v7)

/-- The block of W is W. -/
theorem blk_w (c : Dev nD) (t : Fin cfg2.N) :
    (iblk2 (F := Ideal) V c 1 t : Vec Ideal S600x300 .f32) = V c main_arg14 := by
  obtain ⟨-, -, e0, e1, -⟩ := origin t
  have hz' : (fun a => win2_1.index t a * main_arg14.ty.shape.size a) = fun _ => 0 := funext fun a => by
    match a with
    | ⟨0, _⟩ => show win2_1.index t (0 : Fin 2) * 600 = 0; rw [e0]
    | ⟨1, _⟩ => show win2_1.index t (1 : Fin 2) * 300 = 0; rw [e1]
  exact Memref.read_access_unit_zero (Elt Ideal) main_arg14 hz' (fun a => by rw [congrFun hz' a]; simp) (V c main_arg14)

/-- The block of the bias row is the bias row. -/
theorem blk_b (c : Dev nD) (t : Fin cfg2.N) :
    (iblk2 (F := Ideal) V c 2 t : Vec Ideal S1x600 .f32) = V c main_v8 := by
  obtain ⟨-, -, -, -, e0, e1, -⟩ := origin t
  have hz' : (fun a => win2_2.index t a * main_v8.ty.shape.size a) = fun _ => 0 := funext fun a => by
    match a with
    | ⟨0, _⟩ => show win2_2.index t (0 : Fin 2) * 1 = 0; rw [e0]
    | ⟨1, _⟩ => show win2_2.index t (1 : Fin 2) * 600 = 0; rw [e1]
  exact Memref.read_access_unit_zero (Elt Ideal) main_v8 hz' (fun a => by rw [congrFun hz' a]; simp) (V c main_v8)

/-- The linear layer of the three arrays the call finds. -/
abbrev layer (c : Dev nD) : S512x600.Idx → EReal :=
  Cert.Spec.linRow (N := 512) (Din := 300) (Dout := 600) (V c main_v7) (V c main_arg14) (V c main_v8)

/-- What the point writes back is the layer, read through the result's block. -/
theorem flushed_eq (c : Dev nD) (t : Fin cfg2.N) :
    (dat2 (F := Ideal) V c).flushed 3 t = ((cfg2.win 3).blk t).view.read (Elt Ideal) (layer V c) := by
  obtain ⟨-, -, -, -, -, -, e0, e1⟩ := origin t
  have hz' : (fun a => win2_3.index t a * main_v9.ty.shape.size a) = fun _ => 0 := funext fun a => by
    match a with
    | ⟨0, _⟩ => show win2_3.index t (0 : Fin 2) * 512 = 0; rw [e0]
    | ⟨1, _⟩ => show win2_3.index t (1 : Fin 2) * 600 = 0; rw [e1]
  refine Eq.trans ?_ (Memref.read_access_unit_zero (Elt Ideal) main_v9 hz' (fun a => by rw [congrFun hz' a]; simp) (layer V c)).symm
  show (cfg2.win 3).cut (grid2.coords t) ((dat2 V c).after 3 t) = _
  rw [after2_3]
  unfold out2_3
  rw [View.canon_unit_zero hz]
  simp only [View.ld_unit_zero (S := S512x300) hz, View.ld_unit_zero (S := S600x300) hz, View.ld_unit_zero (S := S1x600) hz]
  rw [blk_x V c t, blk_w V c t, blk_b V c t]
  funext i
  obtain ⟨p, q, rfl⟩ : ∃ (p : Fin 512) (q : Fin 600), i = ix2 p q := ⟨i 0, i 1, eq_ix2 i⟩
  exact pay_apply _ _ _ p q

/-- The grid's one point. -/
abbrev pt : Fin cfg2.N := ⟨0, by rw [show cfg2.N = 1 from N_2]; decide⟩

/-- Every entry of the result lies in the block that point writes back. -/
theorem cover (c : Dev nD) (i : ((cfg2.win 3).arr.view.loc (c.tc : Thread nD τ)).2.ty.Idx) :
    ∃ t : Fin cfg2.N, (cfg2.win 3).flush t = true ∧ i ∈ ((cfg2.win 3).blk t).view.set := by
  refine ⟨pt, flush2_3 pt, ?_⟩
  show i ∈ ((View.whole main_v9).slice (win2_3.rect pt)).set
  rw [View.set_slice_whole, Rect.mem_set_unit]
  intro a
  obtain ⟨-, -, -, -, -, -, e0, e1⟩ := origin pt
  have h0 : (i 0 : Nat) < 512 := (i 0).isLt
  have h1 : (i 1 : Nat) < 600 := (i 1).isLt
  match a with
  | ⟨0, _⟩ =>
    show win2_3.index pt (0 : Fin 2) * 512 ≤ (i 0 : Nat) ∧ (i 0 : Nat) < win2_3.index pt (0 : Fin 2) * 512 + 512
    rw [e0]; omega
  | ⟨1, _⟩ =>
    show win2_3.index pt (1 : Fin 2) * 600 ≤ (i 1 : Nat) ∧ (i 1 : Nat) < win2_3.index pt (1 : Fin 2) * 600 + 600
    rw [e1]; omega

/-- The array call 2 leaves is the linear layer of the three arrays it finds. -/
theorem final (c : Dev nD) :
    (dat2 (F := Ideal) V c).arrAt 3 cfg2.N
      = Cert.Spec.linRow (N := 512) (Din := 300) (Dout := 600) (V c main_v7) (V c main_arg14) (V c main_v8) :=
  (dat2 (F := Ideal) V c).arrAt_eq_of_cover 3 (layer V c) (fun t _ => flushed_eq V c t) (cover c)

end Cert.KernelIdeal.KLin2

end
-- ==== Proof.KLin3.lean ====
/-
  Pallas call 3 is a linear layer on one grid point: its one block is the whole [512, 300] result, and entry (i, j)
  is the sum over k of x[i,k] · W[j,k] plus the bias row's entry j (the matrix unit's pass into a zero accumulator is
  that sum at the exact instance; the two roundings to the narrow format are the identity there).
-/
import proofs.«408848_j32693291057228_1_alg».proof.Proof.Gen.KernelIdeal.Frame
import proofs.«408848_j32693291057228_1_alg».proof.Proof.Spec
import Idealize.ShloMosaic.Lib.Pipeline.Value
import Idealize.ShloMosaic.Lib.ValueIdx
import Idealize.ShloMosaic.PureOps.Ideal.Laws

noncomputable section

namespace Cert.KernelIdeal.KLin3

open Idealize.ShloMosaic Idealize.ShloMosaic.TcCoe Idealize.SL.Sem Idealize.ShloMosaic.ValueIdx
open Cert.KernelIdeal Cert.KernelIdeal.Gen

/-! ## The contraction's operand indices

The product contracts axis 1 of x with axis 1 of W: at result entry (i, j) and contraction position k the left
operand is read at (i, k) and the right one at (j, k). One lemma per operand axis. -/

/-- Row axis of the left operand: the result's row. -/
theorem lhs_row (i : S512x300.Idx) (r : dot_S512x600_S300x600_S512x300_1_1_0_0_n_n.contr.Idx) :
    (dot_S512x600_S300x600_S512x300_1_1_0_0_n_n.lhsIdx i r 0).val = (i 0).val := by
  unfold DotDims.lhsIdx
  rw [dif_neg (show ¬(0 : Fin S512x600.rank) ∈ dot_S512x600_S300x600_S512x300_1_1_0_0_n_n.lhsBatch by decide), dif_pos (show (0 : Fin S512x600.rank) ∈ dot_S512x600_S300x600_S512x300_1_1_0_0_n_n.lhsNonContracting by decide)]
  rfl

/-- Column axis of the left operand: the contraction position. -/
theorem lhs_col (i : S512x300.Idx) (r : dot_S512x600_S300x600_S512x300_1_1_0_0_n_n.contr.Idx) :
    (dot_S512x600_S300x600_S512x300_1_1_0_0_n_n.lhsIdx i r 1).val = (r ⟨0, by decide⟩).val :=
  dot_S512x600_S300x600_S512x300_1_1_0_0_n_n.lhsIdx_val_of_single rfl i r

/-- Row axis of the right operand: the result's column. -/
theorem rhs_row (i : S512x300.Idx) (r : dot_S512x600_S300x600_S512x300_1_1_0_0_n_n.contr.Idx) :
    (dot_S512x600_S300x600_S512x300_1_1_0_0_n_n.rhsIdx i r 0).val = (i 1).val := by
  unfold DotDims.rhsIdx
  rw [dif_neg (show ¬(0 : Fin S300x600.rank) ∈ dot_S512x600_S300x600_S512x300_1_1_0_0_n_n.rhsBatch by decide), dif_pos (show (0 : Fin S300x600.rank) ∈ dot_S512x600_S300x600_S512x300_1_1_0_0_n_n.rhsNonContracting by decide)]
  rfl

/-- Column axis of the right operand: the contraction position. -/
theorem rhs_col (i : S512x300.Idx) (r : dot_S512x600_S300x600_S512x300_1_1_0_0_n_n.contr.Idx) :
    (dot_S512x600_S300x600_S512x300_1_1_0_0_n_n.rhsIdx i r 1).val = (r ⟨0, by decide⟩).val :=
  dot_S512x600_S300x600_S512x300_1_1_0_0_n_n.rhsIdx_val_of_single rfl i r

/-! ## The body's value at one entry -/

/-- Entry (p, q) of what the body stores: a reshaping to the same shape changes nothing, the two narrowings are the
    identity on exact values, the product into the zero accumulator is the plain sum of products over the 600
    contraction positions, and the one-row bias is repeated down the rows, so row p sees entry (0, q) of it. -/
theorem pay_apply (x0 : Vec Ideal S512x600 .f32) (x1 : Vec Ideal S300x600 .f32) (x2 : Vec Ideal S1x300 .f32)
    (p : Fin 512) (q : Fin 300) :
    k3_pay1 (F := Ideal) x0 x1 x2 (ix2 p q) = (∑ k : Fin 600, x0 (ix2 p k) * x1 (ix2 q k)) + x2 (ix2 0 q) := by
  unfold k3_pay1
  simp only [shapeCast_self]
  refine (addf_apply _ _ (ix2 p q)).trans ?_
  refine congrArg₂ (· + ·) ?_ ?_
  · refine (Ideal.matmul_constant_zero_apply dot_S512x600_S300x600_S512x300_1_1_0_0_n_n none _ _ (ix2 p q)).trans ?_
    rw [← Equiv.sum_comp (contrEquiv1 dot_S512x600_S300x600_S512x300_1_1_0_0_n_n 600 rfl rfl).symm]
    refine Finset.sum_congr rfl fun k _ => ?_
    have hk := contrEquiv1_symm_val dot_S512x600_S300x600_S512x300_1_1_0_0_n_n 600 rfl rfl k
    have el : dot_S512x600_S300x600_S512x300_1_1_0_0_n_n.lhsIdx (ix2 p q) ((contrEquiv1 dot_S512x600_S300x600_S512x300_1_1_0_0_n_n 600 rfl rfl).symm k) = ix2 p k := funext fun a => Fin.ext (by
      match a with
      | ⟨0, _⟩ => exact lhs_row _ _
      | ⟨1, _⟩ => exact (lhs_col _ _).trans hk)
    have er : dot_S512x600_S300x600_S512x300_1_1_0_0_n_n.rhsIdx (ix2 p q) ((contrEquiv1 dot_S512x600_S300x600_S512x300_1_1_0_0_n_n 600 rfl rfl).symm k) = ix2 q k := funext fun a => Fin.ext (by
      match a with
      | ⟨0, _⟩ => exact rhs_row _ _
      | ⟨1, _⟩ => exact (rhs_col _ _).trans hk)
    rw [el, er]
    rfl
  · exact broadcastTo_apply x2 broadcasts_S1x300_S512x300 (ix2 p q) (ix2 0 q) (fun a => match a with
      | ⟨0, _⟩ => by show 0 = if (1 : Nat) = 1 then 0 else _; rw [if_pos rfl]
      | ⟨1, _⟩ => by show q.val = if (300 : Nat) = 1 then 0 else q.val; rw [if_neg (by decide)])

variable (V : (c : Dev nD) → (b : Ref sig .tc) → Buf (Elt Ideal) ((c : Thread nD τ).loc b))

/-! ## From the one block to the array

The grid has one point and every window's block is its whole array, so each block sits at the origin of its array:
reading an array through such a block gives the array back, and the one write-back covers every entry. -/

/-- The origin, spelt as the accesses spell it. -/
theorem hz : (![0, 0] : Fin 2 → Nat) = fun _ => 0 := funext fun a => by fin_cases a <;> rfl

/-- Every window's block index is (0, 0) at the grid's point. -/
theorem origin : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

/-- The block of x is x. -/
theorem blk_x (c : Dev nD) (t : Fin cfg3.N) :
    (iblk3 (F := Ideal) V c 0 t : Vec Ideal S512x600 .f32) = V c main_arg1 := by
  obtain ⟨e0, e1, -⟩ := origin t
  have hz' : (fun a => win3_0.index t a * main_arg1.ty.shape.size a) = fun _ => 0 := funext fun a => by
    match a with
    | ⟨0, _⟩ => show win3_0.index t (0 : Fin 2) * 512 = 0; rw [e0]
    | ⟨1, _⟩ => show win3_0.index t (1 : Fin 2) * 600 = 0; rw [e1]
  exact Memref.read_access_unit_zero (Elt Ideal) main_arg1 hz' (fun a => by rw [congrFun hz' a]; simp) (V c main_arg1)

/-- The block of W is W. -/
theorem blk_w (c : Dev nD) (t : Fin cfg3.N) :
    (iblk3 (F := Ideal) V c 1 t : Vec Ideal S300x600 .f32) = V c main_arg16 := by
  obtain ⟨-, -, e0, e1, -⟩ := origin t
  have hz' : (fun a => win3_1.index t a * main_arg16.ty.shape.size a) = fun _ => 0 := funext fun a => by
    match a with
    | ⟨0, _⟩ => show win3_1.index t (0 : Fin 2) * 300 = 0; rw [e0]
    | ⟨1, _⟩ => show win3_1.index t (1 : Fin 2) * 600 = 0; rw [e1]
  exact Memref.read_access_unit_zero (Elt Ideal) main_arg16 hz' (fun a => by rw [congrFun hz' a]; simp) (V c main_arg16)

/-- The block of the bias row is the bias row. -/
theorem blk_b (c : Dev nD) (t : Fin cfg3.N) :
    (iblk3 (F := Ideal) V c 2 t : Vec Ideal S1x300 .f32) = V c main_v14 := by
  obtain ⟨-, -, -, -, e0, e1, -⟩ := origin t
  have hz' : (fun a => win3_2.index t a * main_v14.ty.shape.size a) = fun _ => 0 := funext fun a => by
    match a with
    | ⟨0, _⟩ => show win3_2.index t (0 : Fin 2) * 1 = 0; rw [e0]
    | ⟨1, _⟩ => show win3_2.index t (1 : Fin 2) * 300 = 0; rw [e1]
  exact Memref.read_access_unit_zero (Elt Ideal) main_v14 hz' (fun a => by rw [congrFun hz' a]; simp) (V c main_v14)

/-- The linear layer of the three arrays the call finds. -/
abbrev layer (c : Dev nD) : S512x300.Idx → EReal :=
  Cert.Spec.linRow (N := 512) (Din := 600) (Dout := 300) (V c main_arg1) (V c main_arg16) (V c main_v14)

/-- What the point writes back is the layer, read through the result's block. -/
theorem flushed_eq (c : Dev nD) (t : Fin cfg3.N) :
    (dat3 (F := Ideal) V c).flushed 3 t = ((cfg3.win 3).blk t).view.read (Elt Ideal) (layer V c) := by
  obtain ⟨-, -, -, -, -, -, e0, e1⟩ := origin t
  have hz' : (fun a => win3_3.index t a * main_v15.ty.shape.size a) = fun _ => 0 := funext fun a => by
    match a with
    | ⟨0, _⟩ => show win3_3.index t (0 : Fin 2) * 512 = 0; rw [e0]
    | ⟨1, _⟩ => show win3_3.index t (1 : Fin 2) * 300 = 0; rw [e1]
  refine Eq.trans ?_ (Memref.read_access_unit_zero (Elt Ideal) main_v15 hz' (fun a => by rw [congrFun hz' a]; simp) (layer V c)).symm
  show (cfg3.win 3).cut (grid3.coords t) ((dat3 V c).after 3 t) = _
  rw [after3_3]
  unfold out3_3
  rw [View.canon_unit_zero hz]
  simp only [View.ld_unit_zero (S := S512x600) hz, View.ld_unit_zero (S := S300x600) hz, View.ld_unit_zero (S := S1x300) hz]
  rw [blk_x V c t, blk_w V c t, blk_b V c t]
  funext i
  obtain ⟨p, q, rfl⟩ : ∃ (p : Fin 512) (q : Fin 300), i = ix2 p q := ⟨i 0, i 1, eq_ix2 i⟩
  exact pay_apply _ _ _ p q

/-- The grid's one point. -/
abbrev pt : Fin cfg3.N := ⟨0, by rw [show cfg3.N = 1 from N_3]; decide⟩

/-- Every entry of the result lies in the block that point writes back. -/
theorem cover (c : Dev nD) (i : ((cfg3.win 3).arr.view.loc (c.tc : Thread nD τ)).2.ty.Idx) :
    ∃ t : Fin cfg3.N, (cfg3.win 3).flush t = true ∧ i ∈ ((cfg3.win 3).blk t).view.set := by
  refine ⟨pt, flush3_3 pt, ?_⟩
  show i ∈ ((View.whole main_v15).slice (win3_3.rect pt)).set
  rw [View.set_slice_whole, Rect.mem_set_unit]
  intro a
  obtain ⟨-, -, -, -, -, -, e0, e1⟩ := origin pt
  have h0 : (i 0 : Nat) < 512 := (i 0).isLt
  have h1 : (i 1 : Nat) < 300 := (i 1).isLt
  match a with
  | ⟨0, _⟩ =>
    show win3_3.index pt (0 : Fin 2) * 512 ≤ (i 0 : Nat) ∧ (i 0 : Nat) < win3_3.index pt (0 : Fin 2) * 512 + 512
    rw [e0]; omega
  | ⟨1, _⟩ =>
    show win3_3.index pt (1 : Fin 2) * 300 ≤ (i 1 : Nat) ∧ (i 1 : Nat) < win3_3.index pt (1 : Fin 2) * 300 + 300
    rw [e1]; omega

/-- The array call 3 leaves is the linear layer of the three arrays it finds. -/
theorem final (c : Dev nD) :
    (dat3 (F := Ideal) V c).arrAt 3 cfg3.N
      = Cert.Spec.linRow (N := 512) (Din := 600) (Dout := 300) (V c main_arg1) (V c main_arg16) (V c main_v14) :=
  (dat3 (F := Ideal) V c).arrAt_eq_of_cover 3 (layer V c) (fun t _ => flushed_eq V c t) (cover c)

end Cert.KernelIdeal.KLin3

end
-- ==== Proof.KAgg4Pay.lean ====
/-
  The arithmetic of one grid point of the aggregation call 4, free of the memory: from the blocks a point sees (the
  node table px, the edge weight We and bias row be, one tile of 2048 edge features and of source and destination words)
  and the carried block acc, the stored value at (n, h) is acc[n, h] plus the sum over the tile's edges r of
  [dst r = n] times the message of r: the comparison of a broadcast word against an iota is the indicator (as 0 or 1,
  through a widening and an integer-to-float conversion), a matrix-unit pass into a zero accumulator is the plain
  sum of products, a rounding to the narrow format is the identity at the exact instance.
-/
import proofs.«408848_j32693291057228_1_alg».proof.Proof.Gen.KernelIdeal.Skeleton
import proofs.«408848_j32693291057228_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KAgg4Pay

open Idealize.ShloMosaic Idealize.ShloMosaic.TcCoe Idealize.SL.Sem Idealize.ShloMosaic.ValueIdx
open Cert.KernelIdeal Cert.KernelIdeal.Gen
open scoped BigOperators

/-! ## A vector as a column, and one column repeated over many -/

section Column
variable {α : Type}

/-- An `[a]` array cast to `[a, 1]` reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## The indicator: a comparison bit, widened and converted -/

/-- The comparison bit of two words, widened to a word and converted to a float, is 1 when the words are equal and 0
    otherwise. -/
theorem sitofp_cmpi_eq (a b : BitVec 32) :
    (FloatOps.sitofp (F := Ideal) .f32 ((IntOp.cmpi .eq a b).setWidth 32) : EReal) = if a = b then 1 else 0 := by
  by_cases h : a = b
  · subst h
    rw [if_pos rfl]
    have e : (IntOp.cmpi .eq a a).setWidth 32 = 1#32 := by simp [IntOp.cmpi]
    rw [e]
    show (((1#32 : BitVec 32).toInt : ℝ) : EReal) = 1
    have t : (1#32 : BitVec 32).toInt = 1 := by decide
    rw [t]; simp
  · rw [if_neg h]
    have hb : (a == b) = false := beq_eq_false_iff_ne.2 h
    have e : (IntOp.cmpi .eq a b).setWidth 32 = 0#32 := by simp [IntOp.cmpi, hb]
    rw [e]
    show (((0#32 : BitVec 32).toInt : ℝ) : EReal) = 0
    have t : (0#32 : BitVec 32).toInt = 0 := by decide
    rw [t]; simp

/-! ## The three matrix products, each into a zero accumulator, read at an entry

Each product sums over one axis. Which coordinate of each operand is the result's and which is the summation position
is read off the product's dimension numbers, axis by axis; the summation index, a one-axis multi-index, is exchanged
for its one coordinate. -/

/-- The left operand's row is the result's row. -/
theorem gatherL0 (i : S2048x300.Idx) (q : dot_S2048x512_S512x300_S2048x300_1_0_0_1_n_n.contr.Idx) :
    (dot_S2048x512_S512x300_S2048x300_1_0_0_1_n_n.lhsIdx i q 0).val = (i 0).val := by
  unfold DotDims.lhsIdx
  rw [dif_neg (show ¬(0 : Fin S2048x512.rank) ∈ dot_S2048x512_S512x300_S2048x300_1_0_0_1_n_n.lhsBatch by decide),
    dif_pos (show (0 : Fin S2048x512.rank) ∈ dot_S2048x512_S512x300_S2048x300_1_0_0_1_n_n.lhsNonContracting by decide)]
  rfl
/-- The left operand's column is the summation position. -/
theorem gatherL1 (i : S2048x300.Idx) (q : dot_S2048x512_S512x300_S2048x300_1_0_0_1_n_n.contr.Idx) :
    (dot_S2048x512_S512x300_S2048x300_1_0_0_1_n_n.lhsIdx i q 1).val = (q ⟨0, by decide⟩).val :=
  dot_S2048x512_S512x300_S2048x300_1_0_0_1_n_n.lhsIdx_val_of_single rfl i q
/-- The right operand's row is the summation position. -/
theorem gatherR0 (i : S2048x300.Idx) (q : dot_S2048x512_S512x300_S2048x300_1_0_0_1_n_n.contr.Idx) :
    (dot_S2048x512_S512x300_S2048x300_1_0_0_1_n_n.rhsIdx i q 0).val = (q ⟨0, by decide⟩).val :=
  dot_S2048x512_S512x300_S2048x300_1_0_0_1_n_n.rhsIdx_val_of_single rfl i q
/-- The right operand's column is the result's column. -/
theorem gatherR1 (i : S2048x300.Idx) (q : dot_S2048x512_S512x300_S2048x300_1_0_0_1_n_n.contr.Idx) :
    (dot_S2048x512_S512x300_S2048x300_1_0_0_1_n_n.rhsIdx i q 1).val = (i 1).val := by
  unfold DotDims.rhsIdx
  rw [dif_neg (show ¬(1 : Fin S512x300.rank) ∈ dot_S2048x512_S512x300_S2048x300_1_0_0_1_n_n.rhsBatch by decide),
    dif_pos (show (1 : Fin S512x300.rank) ∈ dot_S2048x512_S512x300_S2048x300_1_0_0_1_n_n.rhsNonContracting by decide)]
  rfl

/-- Indicator rows times the node table: entry (e, h) sums, over the nodes k, the left (e, k) times the right (k, h). -/
theorem gather_apply (l : FVec Ideal S2048x512 .bf16) (r : FVec Ideal S512x300 .bf16) (a : Fin 2048) (b : Fin 300) :
    matmul (F := Ideal) dot_S2048x512_S512x300_S2048x300_1_0_0_1_n_n none l r (constant (F := Ideal) S2048x300 .f32 0x00000000#32) (ix2 a b)
      = ∑ k : Fin 512, l (ix2 a k) * r (ix2 k b) := by
  simp only [matmul]
  rw [Ideal.matmul_constant_zero_apply,
    ← Equiv.sum_comp (contrEquiv1 dot_S2048x512_S512x300_S2048x300_1_0_0_1_n_n 512 rfl rfl).symm]
  refine Finset.sum_congr rfl fun k _ => ?_
  have hk := contrEquiv1_symm_val dot_S2048x512_S512x300_S2048x300_1_0_0_1_n_n 512 rfl rfl k
  have el : dot_S2048x512_S512x300_S2048x300_1_0_0_1_n_n.lhsIdx (ix2 a b) ((contrEquiv1 dot_S2048x512_S512x300_S2048x300_1_0_0_1_n_n 512 rfl rfl).symm k)
      = ix2 a k := funext fun d => Fin.ext (by
    match d with
    | ⟨0, _⟩ => exact gatherL0 _ _
    | ⟨1, _⟩ => exact (gatherL1 _ _).trans hk)
  have er : dot_S2048x512_S512x300_S2048x300_1_0_0_1_n_n.rhsIdx (ix2 a b) ((contrEquiv1 dot_S2048x512_S512x300_S2048x300_1_0_0_1_n_n 512 rfl rfl).symm k)
      = ix2 k b := funext fun d => Fin.ext (by
    match d with
    | ⟨0, _⟩ => exact (gatherR0 _ _).trans hk
    | ⟨1, _⟩ => exact gatherR1 _ _)
  rw [el, er]

/-- The left operand's row is the result's row. -/
theorem projL0 (i : S2048x300.Idx) (q : dot_S2048x300_S300x300_S2048x300_1_1_0_0_n_n.contr.Idx) :
    (dot_S2048x300_S300x300_S2048x300_1_1_0_0_n_n.lhsIdx i q 0).val = (i 0).val := by
  unfold DotDims.lhsIdx
  rw [dif_neg (show ¬(0 : Fin S2048x300.rank) ∈ dot_S2048x300_S300x300_S2048x300_1_1_0_0_n_n.lhsBatch by decide),
    dif_pos (show (0 : Fin S2048x300.rank) ∈ dot_S2048x300_S300x300_S2048x300_1_1_0_0_n_n.lhsNonContracting by decide)]
  rfl
/-- The left operand's column is the summation position. -/
theorem projL1 (i : S2048x300.Idx) (q : dot_S2048x300_S300x300_S2048x300_1_1_0_0_n_n.contr.Idx) :
    (dot_S2048x300_S300x300_S2048x300_1_1_0_0_n_n.lhsIdx i q 1).val = (q ⟨0, by decide⟩).val :=
  dot_S2048x300_S300x300_S2048x300_1_1_0_0_n_n.lhsIdx_val_of_single rfl i q
/-- The right operand's row is the result's column. -/
theorem projR0 (i : S2048x300.Idx) (q : dot_S2048x300_S300x300_S2048x300_1_1_0_0_n_n.contr.Idx) :
    (dot_S2048x300_S300x300_S2048x300_1_1_0_0_n_n.rhsIdx i q 0).val = (i 1).val := by
  unfold DotDims.rhsIdx
  rw [dif_neg (show ¬(0 : Fin S300x300.rank) ∈ dot_S2048x300_S300x300_S2048x300_1_1_0_0_n_n.rhsBatch by decide),
    dif_pos (show (0 : Fin S300x300.rank) ∈ dot_S2048x300_S300x300_S2048x300_1_1_0_0_n_n.rhsNonContracting by decide)]
  rfl
/-- The right operand's column is the summation position. -/
theorem projR1 (i : S2048x300.Idx) (q : dot_S2048x300_S300x300_S2048x300_1_1_0_0_n_n.contr.Idx) :
    (dot_S2048x300_S300x300_S2048x300_1_1_0_0_n_n.rhsIdx i q 1).val = (q ⟨0, by decide⟩).val :=
  dot_S2048x300_S300x300_S2048x300_1_1_0_0_n_n.rhsIdx_val_of_single rfl i q

/-- Edge features times the weight's transpose: entry (e, h) sums, over the feature columns k, the left (e, k) times the right (h, k). -/
theorem proj_apply (l : FVec Ideal S2048x300 .bf16) (r : FVec Ideal S300x300 .bf16) (a : Fin 2048) (b : Fin 300) :
    matmul (F := Ideal) dot_S2048x300_S300x300_S2048x300_1_1_0_0_n_n none l r (constant (F := Ideal) S2048x300 .f32 0x00000000#32) (ix2 a b)
      = ∑ k : Fin 300, l (ix2 a k) * r (ix2 b k) := by
  simp only [matmul]
  rw [Ideal.matmul_constant_zero_apply,
    ← Equiv.sum_comp (contrEquiv1 dot_S2048x300_S300x300_S2048x300_1_1_0_0_n_n 300 rfl rfl).symm]
  refine Finset.sum_congr rfl fun k _ => ?_
  have hk := contrEquiv1_symm_val dot_S2048x300_S300x300_S2048x300_1_1_0_0_n_n 300 rfl rfl k
  have el : dot_S2048x300_S300x300_S2048x300_1_1_0_0_n_n.lhsIdx (ix2 a b) ((contrEquiv1 dot_S2048x300_S300x300_S2048x300_1_1_0_0_n_n 300 rfl rfl).symm k)
      = ix2 a k := funext fun d => Fin.ext (by
    match d with
    | ⟨0, _⟩ => exact projL0 _ _
    | ⟨1, _⟩ => exact (projL1 _ _).trans hk)
  have er : dot_S2048x300_S300x300_S2048x300_1_1_0_0_n_n.rhsIdx (ix2 a b) ((contrEquiv1 dot_S2048x300_S300x300_S2048x300_1_1_0_0_n_n 300 rfl rfl).symm k)
      = ix2 b k := funext fun d => Fin.ext (by
    match d with
    | ⟨0, _⟩ => exact projR0 _ _
    | ⟨1, _⟩ => exact (projR1 _ _).trans hk)
  rw [el, er]

/-- The left operand's row is the result's row. -/
theorem scatterL0 (i : S512x300.Idx) (q : dot_S512x2048_S2048x300_S512x300_1_0_0_1_n_n.contr.Idx) :
    (dot_S512x2048_S2048x300_S512x300_1_0_0_1_n_n.lhsIdx i q 0).val = (i 0).val := by
  unfold DotDims.lhsIdx
  rw [dif_neg (show ¬(0 : Fin S512x2048.rank) ∈ dot_S512x2048_S2048x300_S512x300_1_0_0_1_n_n.lhsBatch by decide),
    dif_pos (show (0 : Fin S512x2048.rank) ∈ dot_S512x2048_S2048x300_S512x300_1_0_0_1_n_n.lhsNonContracting by decide)]
  rfl
/-- The left operand's column is the summation position. -/
theorem scatterL1 (i : S512x300.Idx) (q : dot_S512x2048_S2048x300_S512x300_1_0_0_1_n_n.contr.Idx) :
    (dot_S512x2048_S2048x300_S512x300_1_0_0_1_n_n.lhsIdx i q 1).val = (q ⟨0, by decide⟩).val :=
  dot_S512x2048_S2048x300_S512x300_1_0_0_1_n_n.lhsIdx_val_of_single rfl i q
/-- The right operand's row is the summation position. -/
theorem scatterR0 (i : S512x300.Idx) (q : dot_S512x2048_S2048x300_S512x300_1_0_0_1_n_n.contr.Idx) :
    (dot_S512x2048_S2048x300_S512x300_1_0_0_1_n_n.rhsIdx i q 0).val = (q ⟨0, by decide⟩).val :=
  dot_S512x2048_S2048x300_S512x300_1_0_0_1_n_n.rhsIdx_val_of_single rfl i q
/-- The right operand's column is the result's column. -/
theorem scatterR1 (i : S512x300.Idx) (q : dot_S512x2048_S2048x300_S512x300_1_0_0_1_n_n.contr.Idx) :
    (dot_S512x2048_S2048x300_S512x300_1_0_0_1_n_n.rhsIdx i q 1).val = (i 1).val := by
  unfold DotDims.rhsIdx
  rw [dif_neg (show ¬(1 : Fin S2048x300.rank) ∈ dot_S512x2048_S2048x300_S512x300_1_0_0_1_n_n.rhsBatch by decide),
    dif_pos (show (1 : Fin S2048x300.rank) ∈ dot_S512x2048_S2048x300_S512x300_1_0_0_1_n_n.rhsNonContracting by decide)]
  rfl

/-- Indicator columns times the messages: entry (n, h) sums, over the tile's edges k, the left (n, k) times the right (k, h). -/
theorem scatter_apply (l : FVec Ideal S512x2048 .bf16) (r : FVec Ideal S2048x300 .bf16) (a : Fin 512) (b : Fin 300) :
    matmul (F := Ideal) dot_S512x2048_S2048x300_S512x300_1_0_0_1_n_n none l r (constant (F := Ideal) S512x300 .f32 0x00000000#32) (ix2 a b)
      = ∑ k : Fin 2048, l (ix2 a k) * r (ix2 k b) := by
  simp only [matmul]
  rw [Ideal.matmul_constant_zero_apply,
    ← Equiv.sum_comp (contrEquiv1 dot_S512x2048_S2048x300_S512x300_1_0_0_1_n_n 2048 rfl rfl).symm]
  refine Finset.sum_congr rfl fun k _ => ?_
  have hk := contrEquiv1_symm_val dot_S512x2048_S2048x300_S512x300_1_0_0_1_n_n 2048 rfl rfl k
  have el : dot_S512x2048_S2048x300_S512x300_1_0_0_1_n_n.lhsIdx (ix2 a b) ((contrEquiv1 dot_S512x2048_S2048x300_S512x300_1_0_0_1_n_n 2048 rfl rfl).symm k)
      = ix2 a k := funext fun d => Fin.ext (by
    match d with
    | ⟨0, _⟩ => exact scatterL0 _ _
    | ⟨1, _⟩ => exact (scatterL1 _ _).trans hk)
  have er : dot_S512x2048_S2048x300_S512x300_1_0_0_1_n_n.rhsIdx (ix2 a b) ((contrEquiv1 dot_S512x2048_S2048x300_S512x300_1_0_0_1_n_n 2048 rfl rfl).symm k)
      = ix2 k b := funext fun d => Fin.ext (by
    match d with
    | ⟨0, _⟩ => exact (scatterR0 _ _).trans hk
    | ⟨1, _⟩ => exact scatterR1 _ _)
  rw [el, er]

/-! ## The indicators -/

/-- Entry (n, r) of the destination indicator: the word of edge r, laid as a row and repeated down the rows, against
    the row number. -/
theorem dstRow_apply (x5 : Vec Ideal S2048 .i32) (n : Fin 512) (r : Fin 2048) :
    k4_pay4 (F := Ideal) x5 (ix2 n r) = Cert.Spec.hot (x5 (ix1 r)) n.val := by
  unfold k4_pay4 k4_pay3
  have e1 : broadcastTo S512x2048 (shapeCast S1x2048 (shapeCast S2048 x5 shapeCasts_S2048_S2048) shapeCasts_S2048_S1x2048)
      broadcasts_S1x2048_S512x2048 (ix2 n r) = x5 (ix1 r) := by
    refine (broadcastTo_1b_ab_apply _ _ n r).trans ?_
    refine (shapeCast_a_1a_apply _ _ 0 r).trans ?_
    rw [shapeCast_self]
  have e2 : iota .tc S512x2048 32 [0] iota_S512x2048_d0_w32 (ix2 n r) = BitVec.ofNat 32 n.val :=
    iota_single_apply _ _ _ _ _ _
  refine (sitofp_cmpi_eq _ _).trans ?_
  rw [e1, e2]
  rfl

/-- The indicator of an endpoint word against the node numbers: the words as a column, repeated along the columns,
    compared with the column number, the bit widened, converted and rounded. -/
abbrev endCol (w : Vec Ideal S2048 .i32) : FVec Ideal S2048x512 .bf16 :=
  truncf .bf16 (sitofp (F := Ideal) .f32 (extui 32 (cmpi .eq
    (broadcastTo S2048x512 (shapeCast S2048x1 (shapeCast S2048 w shapeCasts_S2048_S2048) shapeCasts_S2048_S2048x1)
      broadcasts_S2048x1_S2048x512)
    (iota .tc S2048x512 32 [1] iota_S2048x512_d1_w32)) natLt_1_32)) bitsLt_bf16_f32

/-- Entry (e, k) of an endpoint indicator is 1 when edge e's word names node k, and 0 otherwise. -/
theorem endCol_apply (w : Vec Ideal S2048 .i32) (e : Fin 2048) (k : Fin 512) :
    endCol w (ix2 e k) = Cert.Spec.hot (w (ix1 e)) k.val := by
  have e1 : broadcastTo S2048x512 (shapeCast S2048x1 (shapeCast S2048 w shapeCasts_S2048_S2048) shapeCasts_S2048_S2048x1)
      broadcasts_S2048x1_S2048x512 (ix2 e k) = w (ix1 e) := by
    refine (broadcastTo_a1_ab_apply _ _ e k).trans ?_
    refine (shapeCast_a_a1_apply _ _ e 0).trans ?_
    rw [shapeCast_self]
  have e2 : iota .tc S2048x512 32 [1] iota_S2048x512_d1_w32 (ix2 e k) = BitVec.ofNat 32 k.val :=
    iota_single_apply _ _ _ _ _ _
  refine (sitofp_cmpi_eq _ _).trans ?_
  rw [e1, e2]
  rfl

/-! ## The message of an edge, and the update of the carried block -/

/-- A row lookup as a product: the indicator's row e against column h of the node table. -/
theorem gatherRow (w : Vec Ideal S2048 .i32) (x0 : Vec Ideal S512x300 .f32) (e : Fin 2048) (h : Fin 300) :
    matmul (F := Ideal) dot_S2048x512_S512x300_S2048x300_1_0_0_1_n_n none (endCol w)
        (truncf .bf16 (shapeCast S512x300 x0 shapeCasts_S512x300_S512x300) bitsLt_bf16_f32)
        (constant (F := Ideal) S2048x300 .f32 0x00000000#32) (ix2 e h)
      = ∑ n : Fin 512, Cert.Spec.hot (w (ix1 e)) n.val * x0 (ix2 n h) := by
  refine (gather_apply _ _ e h).trans (Finset.sum_congr rfl fun k _ => ?_)
  rw [endCol_apply, truncf_apply, shapeCast_self]

/-- The projected features of edge e at column h, before the bias. -/
theorem projRow (x3 : Vec Ideal S2048x300 .f32) (x1 : Vec Ideal S300x300 .f32) (e : Fin 2048) (h : Fin 300) :
    matmul (F := Ideal) dot_S2048x300_S300x300_S2048x300_1_1_0_0_n_n none (truncf .bf16 x3 bitsLt_bf16_f32)
        (truncf .bf16 x1 bitsLt_bf16_f32) (constant (F := Ideal) S2048x300 .f32 0x00000000#32) (ix2 e h)
      = ∑ k : Fin 300, x3 (ix2 e k) * x1 (ix2 h k) :=
  proj_apply _ _ e h

/-- The bias row repeated down the rows reads its column h. -/
theorem biasRow (x2 : Vec Ideal S1x300 .f32) (e : Fin 2048) (h : Fin 300) :
    broadcastTo S2048x300 (shapeCast S1x300 x2 shapeCasts_S1x300_S1x300) broadcasts_S1x300_S2048x300 (ix2 e h)
      = x2 (ix2 0 h) := by
  refine (broadcastTo_1b_ab_apply _ _ e h).trans ?_
  rw [shapeCast_self]

/-- The message of edge e at column h: both lookups, the projected features and the bias. -/
theorem msg_apply (x4 x5 : Vec Ideal S2048 .i32) (x0 : Vec Ideal S512x300 .f32) (x3 : Vec Ideal S2048x300 .f32)
    (x1 : Vec Ideal S300x300 .f32) (x2 : Vec Ideal S1x300 .f32) (e : Fin 2048) (h : Fin 300) :
    k4_pay5 (F := Ideal) x4 x5 x0 x3 x1 x2 (ix2 e h)
      = Cert.Spec.msgHot (N := 512) (E := 2048) (H := 300) (De := 300) x0 x1 (fun j => x2 (ix2 0 (j 0))) x3 x4 x5 e h := by
  unfold k4_pay5 k4_pay3
  show (matmul (F := Ideal) dot_S2048x512_S512x300_S2048x300_1_0_0_1_n_n none (endCol x4)
          (truncf .bf16 (shapeCast S512x300 x0 shapeCasts_S512x300_S512x300) bitsLt_bf16_f32)
          (constant (F := Ideal) S2048x300 .f32 0x00000000#32) (ix2 e h)
        + matmul (F := Ideal) dot_S2048x512_S512x300_S2048x300_1_0_0_1_n_n none (endCol x5)
          (truncf .bf16 (shapeCast S512x300 x0 shapeCasts_S512x300_S512x300) bitsLt_bf16_f32)
          (constant (F := Ideal) S2048x300 .f32 0x00000000#32) (ix2 e h))
      + (matmul (F := Ideal) dot_S2048x300_S300x300_S2048x300_1_1_0_0_n_n none (truncf .bf16 x3 bitsLt_bf16_f32)
          (truncf .bf16 x1 bitsLt_bf16_f32) (constant (F := Ideal) S2048x300 .f32 0x00000000#32) (ix2 e h)
        + broadcastTo S2048x300 (shapeCast S1x300 x2 shapeCasts_S1x300_S1x300) broadcasts_S1x300_S2048x300 (ix2 e h)) = _
  rw [gatherRow, gatherRow, projRow, biasRow]
  rfl

/-- The block a point starts from at point 0 is zero. -/
theorem reset (j : S512x300.Idx) : k4_pay2 (F := Ideal) j = 0 := by
  unfold k4_pay2
  exact Ideal.ofBits_zero_f32

/-- One point's update of the carried block, entry by entry. -/
theorem update (x0 : Vec Ideal S512x300 .f32) (x1 : Vec Ideal S300x300 .f32) (x2 : Vec Ideal S1x300 .f32)
    (x3 : Vec Ideal S2048x300 .f32) (x4 x5 : Vec Ideal S2048 .i32) (acc : Vec Ideal S512x300 .f32) (n : Fin 512) (h : Fin 300) :
    k4_pay1 (F := Ideal) (k4_pay4 (F := Ideal) x5) (k4_pay5 (F := Ideal) x4 x5 x0 x3 x1 x2) acc (ix2 n h)
      = acc (ix2 n h) + ∑ r : Fin 2048, Cert.Spec.hot (x5 (ix1 r)) n.val
          * Cert.Spec.msgHot (N := 512) (E := 2048) (H := 300) (De := 300) x0 x1 (fun j => x2 (ix2 0 (j 0))) x3 x4 x5 r h := by
  unfold k4_pay1
  show shapeCast S512x300 acc shapeCasts_S512x300_S512x300 (ix2 n h)
      + matmul (F := Ideal) dot_S512x2048_S2048x300_S512x300_1_0_0_1_n_n none (k4_pay4 (F := Ideal) x5)
          (truncf .bf16 (k4_pay5 (F := Ideal) x4 x5 x0 x3 x1 x2) bitsLt_bf16_f32)
          (constant (F := Ideal) S512x300 .f32 0x00000000#32) (ix2 n h) = _
  rw [shapeCast_self, scatter_apply]
  refine congrArg (acc (ix2 n h) + ·) (Finset.sum_congr rfl fun r _ => ?_)
  rw [dstRow_apply, truncf_apply, msg_apply]

end Cert.KernelIdeal.KAgg4Pay

end
-- ==== Proof.KAgg4.lean ====
/-
  Pallas call 4 is the aggregation, tiled over the edge axis: point t sees one tile of edges, builds the indicators
  [src e = n], [dst e = n] against the node numbers, forms each edge's message by two indicator matmuls and the edge
  projection, and adds the indicator-weighted messages into the [512, 300] block it carries from point to point (zeroed at
  point 0, written back once after the last point). The sum over the tiles in turn is the sum over all 16384 edges.

  The steps. What a point leaves in the carried block is one update of what it found there (of the zero block at the
  first point). The node table, the weight and the bias row are seen whole at every point; the edge features and the
  endpoint words are seen one tile at a time, row r of tile t being row 2048 t + r of the array. A message reads the
  edge arrays only at its own edge, so the update by tile t adds, at entry (p, q), the sum over the tile's edges of
  [dst e = p] times the message of e, all read off the whole arrays. The carried block after point n is therefore the
  sum of the first n + 1 tiles' contributions; after the last point it is the sum over all tiles, that is over all
  edges; and that point is the one that writes the block, which is the whole array, back.
-/
import proofs.«408848_j32693291057228_1_alg».proof.Proof.Gen.KernelIdeal.Frame
import proofs.«408848_j32693291057228_1_alg».proof.Proof.Spec
import proofs.«408848_j32693291057228_1_alg».proof.Proof.SpecLaw
import proofs.«408848_j32693291057228_1_alg».proof.Proof.KAgg4Pay
import Idealize.ShloMosaic.Lib.Pipeline.Value
import Idealize.ShloMosaic.Lib.Tactic

noncomputable section

namespace Cert.KernelIdeal.KAgg4

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

/-- Zero offsets, however they are spelt. -/
theorem hz : (![0, 0] : Fin 2 → Nat) = fun _ => 0 := funext fun a => by fin_cases a <;> rfl
theorem hz1 : (![0] : Fin 1 → Nat) = fun _ => 0 := funext fun a => by fin_cases a; rfl

section Pieces
variable {F : FTy → Type} [FloatOps F]

/-- At a point after the first, the carried block `xo` is read whole, the tile's contribution is added, and the one
    store covers the block: what is left is the update of `xo` by the blocks the point sees. -/
theorem out_B (c : Dev nD) (i : grid4.Coords) (a1 : Memref sig .tc .vmem S512x300 .f32) (h1 : a1.IsWhole)
    (a2 : Memref sig .tc .vmem S300x300 .f32) (h2 : a2.IsWhole) (a3 : Memref sig .tc .vmem S1x300 .f32) (h3 : a3.IsWhole)
    (a4 : Memref sig .tc .vmem S2048x300 .f32) (h4 : a4.IsWhole) (a5 : Memref sig .tc .vmem S2048 .i32) (h5 : a5.IsWhole)
    (a6 : Memref sig .tc .vmem S2048 .i32) (h6 : a6.IsWhole) (a7 : Memref sig .tc .vmem S512x300 .f32) (h7 : a7.IsWhole)
    (hc : ¬cond4_0 i) (x0 : Vec F S512x300 .f32) (x1 : Vec F S300x300 .f32) (x2 : Vec F S1x300 .f32)
    (x3 : Vec F S2048x300 .f32) (x4 x5 : Vec F S2048 .i32) (xo : Vec F S512x300 .f32) :
    out4_B_6 c i a1 h1 a2 h2 a3 h3 a4 h4 a5 h5 a6 h6 a7 h7 hc x0 x1 x2 x3 x4 x5 xo
      = k4_pay1 (k4_pay4 x5) (k4_pay5 x4 x5 x0 x3 x1 x2) xo := by
  unfold out4_B_6
  rw [View.read_writes_eq_canon _ _ _ (cover4_B_6 c i a1 h1 a2 h2 a3 h3 a4 h4 a5 h5 a6 h6 a7 h7 hc x0 x1 x2 x3 x4 x5 xo)]
  unfold kernelRun4_B
  dsimp only
  sl_unfold_words
  rw [View.canon_unit_zero (S := S512x300) hz]
  simp only [View.readAt_eq_ld, h1.read_unread, h2.read_unread, h3.read_unread, h4.read_unread, h5.read_unread,
    h6.read_unread, h7.read_unread, View.ld_unit_zero (S := S512x300) hz, View.ld_unit_zero (S := S300x300) hz,
    View.ld_unit_zero (S := S1x300) hz, View.ld_unit_zero (S := S2048x300) hz, View.ld_unit_zero (S := S2048) hz1]

/-- At the first point the block is first set to the zero block, that is read back, the tile's contribution is added
    and the second store covers the block again: what is left is the update of the zero block. -/
theorem out_A (c : Dev nD) (i : grid4.Coords) (a1 : Memref sig .tc .vmem S512x300 .f32) (h1 : a1.IsWhole)
    (a2 : Memref sig .tc .vmem S300x300 .f32) (h2 : a2.IsWhole) (a3 : Memref sig .tc .vmem S1x300 .f32) (h3 : a3.IsWhole)
    (a4 : Memref sig .tc .vmem S2048x300 .f32) (h4 : a4.IsWhole) (a5 : Memref sig .tc .vmem S2048 .i32) (h5 : a5.IsWhole)
    (a6 : Memref sig .tc .vmem S2048 .i32) (h6 : a6.IsWhole) (a7 : Memref sig .tc .vmem S512x300 .f32) (h7 : a7.IsWhole)
    (hc : cond4_0 i) (x0 : Vec F S512x300 .f32) (x1 : Vec F S300x300 .f32) (x2 : Vec F S1x300 .f32)
    (x3 : Vec F S2048x300 .f32) (x4 x5 : Vec F S2048 .i32) :
    out4_A_6 c i a1 h1 a2 h2 a3 h3 a4 h4 a5 h5 a6 h6 a7 h7 hc x0 x1 x2 x3 x4 x5
      = k4_pay1 (k4_pay4 x5) (k4_pay5 x4 x5 x0 x3 x1 x2) (k4_pay2 (F := F)) := by
  unfold out4_A_6
  rw [View.read_writes_eq_canon _ _ _ (cover4_A_6 c i a1 h1 a2 h2 a3 h3 a4 h4 a5 h5 a6 h6 a7 h7 hc x0 x1 x2 x3 x4 x5)]
  unfold kernelRun4_A
  dsimp only
  sl_unfold_words
  rw [View.canon_cons_unit_zero (S := S512x300) hz, View.readCov_unit_zero (S := S512x300) _ hz]
  simp only [View.readAt_eq_ld, h1.read_unread, h2.read_unread, h3.read_unread, h4.read_unread, h5.read_unread,
    h6.read_unread, View.ld_unit_zero (S := S512x300) hz, View.ld_unit_zero (S := S300x300) hz,
    View.ld_unit_zero (S := S1x300) hz, View.ld_unit_zero (S := S2048x300) hz, View.ld_unit_zero (S := S2048) hz1]

end Pieces

/-! ## The blocks a point sees, read off the arrays -/

section Blocks
variable (V : (c : Dev nD) → (b : Ref sig .tc) → Buf (Elt Ideal) ((c : Thread nD τ).loc b))

/-- The six arrays the call finds: the node table, the edge weight, the bias row, the edge features, the source and
    the destination words. -/
abbrev pxA (c : Dev nD) : Vec Ideal S512x300 .f32 := V c main_v15
abbrev weA (c : Dev nD) : Vec Ideal S300x300 .f32 := V c main_arg18
abbrev beA (c : Dev nD) : Vec Ideal S1x300 .f32 := V c main_v16
abbrev eaA (c : Dev nD) : Vec Ideal S16384x300 .f32 := V c main_arg5
abbrev srcA (c : Dev nD) : Vec Ideal S16384 .i32 := V c main_v11
abbrev dstA (c : Dev nD) : Vec Ideal S16384 .i32 := V c main_v13

/-- Their blocks at point `t`. -/
abbrev pxB (c : Dev nD) (t : Fin cfg4.N) : Vec Ideal S512x300 .f32 := iblk4 V c 0 t
abbrev weB (c : Dev nD) (t : Fin cfg4.N) : Vec Ideal S300x300 .f32 := iblk4 V c 1 t
abbrev beB (c : Dev nD) (t : Fin cfg4.N) : Vec Ideal S1x300 .f32 := iblk4 V c 2 t
abbrev eaB (c : Dev nD) (t : Fin cfg4.N) : Vec Ideal S2048x300 .f32 := iblk4 V c 3 t
abbrev srcB (c : Dev nD) (t : Fin cfg4.N) : Vec Ideal S2048 .i32 := iblk4 V c 4 t
abbrev dstB (c : Dev nD) (t : Fin cfg4.N) : Vec Ideal S2048 .i32 := iblk4 V c 5 t

/-- Where each window's block sits at point `t`: the first three never move, the last three are at tile `t`. -/
theorem idx_facts : ∀ t : Fin cfg4.N,
    (win4_0.index t 0 = 0 ∧ win4_0.index t 1 = 0) ∧ (win4_1.index t 0 = 0 ∧ win4_1.index t 1 = 0)
      ∧ (win4_2.index t 0 = 0 ∧ win4_2.index t 1 = 0) ∧ (win4_3.index t 0 = t.val ∧ win4_3.index t 1 = 0)
      ∧ win4_4.index t 0 = t.val ∧ win4_5.index t 0 = t.val :=
  (by decide +kernel : ∀ t : Fin grid4.N,
    (win4_0.index t 0 = 0 ∧ win4_0.index t 1 = 0) ∧ (win4_1.index t 0 = 0 ∧ win4_1.index t 1 = 0)
      ∧ (win4_2.index t 0 = 0 ∧ win4_2.index t 1 = 0) ∧ (win4_3.index t 0 = t.val ∧ win4_3.index t 1 = 0)
      ∧ win4_4.index t 0 = t.val ∧ win4_5.index t 0 = t.val)

/-- The carried block never moves. -/
theorem idx_out : ∀ t : Fin cfg4.N, win4_6.index t 0 = 0 ∧ win4_6.index t 1 = 0 :=
  (by decide +kernel : ∀ t : Fin grid4.N, win4_6.index t 0 = 0 ∧ win4_6.index t 1 = 0)

/-- and is never cut short. -/
theorem xsize_out : ∀ t : Fin cfg4.N, win4_6.xsize (grid4.coords t) 0 = 512 ∧ win4_6.xsize (grid4.coords t) 1 = 300 :=
  (by decide +kernel : ∀ t : Fin grid4.N, win4_6.xsize (grid4.coords t) 0 = 512 ∧ win4_6.xsize (grid4.coords t) 1 = 300)

/-- An edge of tile `t` is an edge of the graph. -/
theorem tile_lt (t : Fin cfg4.N) (r : Fin 2048) : t.val * 2048 + r.val < 16384 := by
  have hN : t.val < 8 := lt_of_lt_of_eq t.isLt (show cfg4.N = 8 from N_4)
  have := r.isLt
  omega

theorem pxB_eq (c : Dev nD) (t : Fin cfg4.N) : pxB V c t = pxA V c := by
  funext j
  unfold pxB iblk4
  rw [View.read_apply]
  show V c main_v15 _ = V c main_v15 j
  congr 1
  funext a
  apply Fin.ext
  match a with
  | ⟨0, _⟩ => show win4_0.index t 0 * 512 + 1 * (j 0).val = (j 0).val; rw [(idx_facts t).1.1]; omega
  | ⟨1, _⟩ => show win4_0.index t 1 * 300 + 1 * (j 1).val = (j 1).val; rw [(idx_facts t).1.2]; omega

theorem eaB_apply (c : Dev nD) (t : Fin cfg4.N) (r : Fin 2048) (k : Fin 300) :
    eaB V c t (ix2 r k) = eaA V c (ix2 ⟨t.val * 2048 + r.val, tile_lt t r⟩ k) := by
  unfold eaB iblk4
  rw [View.read_apply]
  show V c main_arg5 _ = V c main_arg5 _
  congr 1
  funext a
  apply Fin.ext
  match a with
  | ⟨0, _⟩ => show win4_3.index t 0 * 2048 + 1 * r.val = t.val * 2048 + r.val; rw [(idx_facts t).2.2.2.1.1]; omega
  | ⟨1, _⟩ => show win4_3.index t 1 * 300 + 1 * k.val = k.val; rw [(idx_facts t).2.2.2.1.2]; omega

theorem weB_eq (c : Dev nD) (t : Fin cfg4.N) : weB V c t = weA V c := by
  funext j
  unfold weB iblk4
  rw [View.read_apply]
  show V c main_arg18 _ = V c main_arg18 j
  congr 1
  funext a
  apply Fin.ext
  match a with
  | ⟨0, _⟩ => show win4_1.index t 0 * 300 + 1 * (j 0).val = (j 0).val; rw [(idx_facts t).2.1.1]; omega
  | ⟨1, _⟩ => show win4_1.index t 1 * 300 + 1 * (j 1).val = (j 1).val; rw [(idx_facts t).2.1.2]; omega

theorem beB_eq (c : Dev nD) (t : Fin cfg4.N) : beB V c t = beA V c := by
  funext j
  unfold beB iblk4
  rw [View.read_apply]
  show V c main_v16 _ = V c main_v16 j
  congr 1
  funext a
  apply Fin.ext
  match a with
  | ⟨0, _⟩ => show win4_2.index t 0 * 1 + 1 * (j 0).val = (j 0).val; rw [(idx_facts t).2.2.1.1]; omega
  | ⟨1, _⟩ => show win4_2.index t 1 * 300 + 1 * (j 1).val = (j 1).val; rw [(idx_facts t).2.2.1.2]; omega

theorem dstB_apply (c : Dev nD) (t : Fin cfg4.N) (r : Fin 2048) :
    dstB V c t (ix1 r) = dstA V c (ix1 ⟨t.val * 2048 + r.val, tile_lt t r⟩) := by
  unfold dstB iblk4
  rw [View.read_apply]
  show V c main_v13 _ = V c main_v13 _
  congr 1
  funext a
  apply Fin.ext
  match a with
  | ⟨0, _⟩ => show win4_5.index t 0 * 2048 + 1 * r.val = t.val * 2048 + r.val; rw [(idx_facts t).2.2.2.2.2]; omega

theorem srcB_apply (c : Dev nD) (t : Fin cfg4.N) (r : Fin 2048) :
    srcB V c t (ix1 r) = srcA V c (ix1 ⟨t.val * 2048 + r.val, tile_lt t r⟩) := by
  unfold srcB iblk4
  rw [View.read_apply]
  show V c main_v11 _ = V c main_v11 _
  congr 1
  funext a
  apply Fin.ext
  match a with
  | ⟨0, _⟩ => show win4_4.index t 0 * 2048 + 1 * r.val = t.val * 2048 + r.val; rw [(idx_facts t).2.2.2.2.1]; omega

end Blocks

/-! ## A message reads the edge arrays at its own edge only -/

/-- Two graphs' messages agree at edges `r` and `e` as soon as the node tables, weights and biases are the same and
    the edge arrays agree at those two edges. -/
theorem msgHot_tile {N B E H De : Nat} (pxT pxG : (Cert.Spec.Mat N H).Idx → EReal)
    (WeT WeG : (Cert.Spec.Mat H De).Idx → EReal) (beT beG : (Cert.Spec.Row H).Idx → EReal)
    (eaT : (Cert.Spec.Mat B De).Idx → EReal) (srcT dstT : (Cert.Spec.Row B).Idx → BitVec 32)
    (eaG : (Cert.Spec.Mat E De).Idx → EReal) (srcG dstG : (Cert.Spec.Row E).Idx → BitVec 32) (r : Fin B) (e : Fin E)
    (hpx : pxT = pxG) (hWe : WeT = WeG) (hbe : beT = beG)
    (hea : ∀ k : Fin De, eaT (ix2 r k) = eaG (ix2 e k)) (hsrc : srcT (ix1 r) = srcG (ix1 e))
    (hdst : dstT (ix1 r) = dstG (ix1 e)) (q : Fin H) :
    Cert.Spec.msgHot pxT WeT beT eaT srcT dstT r q = Cert.Spec.msgHot pxG WeG beG eaG srcG dstG e q := by
  subst hpx hWe hbe
  unfold Cert.Spec.msgHot Cert.Spec.edgeProj
  rw [hsrc, hdst]
  simp only [hea]

/-! ## The carried block, point by point -/

section Invariant
variable (V : (c : Dev nD) → (b : Ref sig .tc) → Buf (Elt Ideal) ((c : Thread nD τ).loc b))

/-- The contribution of tile `t` to entry (p, q): over its edges, [dst e = p] times the message of e, all read off
    the whole arrays (nothing past the last tile). -/
def tileSum (c : Dev nD) (p : Fin 512) (q : Fin 300) (t : Nat) : EReal :=
  if ht : t < 8 then
    ∑ r : Fin 2048, Cert.Spec.hot (dstA V c (ix1 ⟨t * 2048 + r.val, by have := r.isLt; omega⟩)) p.val
      * Cert.Spec.msgHot (N := 512) (E := 16384) (H := 300) (De := 300) (pxA V c) (weA V c)
          (fun j => beA V c (ix2 0 (j 0))) (eaA V c) (srcA V c) (dstA V c) ⟨t * 2048 + r.val, by have := r.isLt; omega⟩ q
  else 0

/-- One point's update of any carried block `acc`, by the blocks point `t` sees, adds tile `t`'s contribution. -/
theorem point_update (c : Dev nD) (t : Fin cfg4.N) (acc : Vec Ideal S512x300 .f32) (p : Fin 512) (q : Fin 300) :
    k4_pay1 (F := Ideal) (k4_pay4 (F := Ideal) (dstB V c t))
        (k4_pay5 (F := Ideal) (srcB V c t) (dstB V c t) (pxB V c t) (eaB V c t) (weB V c t) (beB V c t)) acc (ix2 p q)
      = acc (ix2 p q) + tileSum V c p q t.val := by
  have hN : t.val < 8 := lt_of_lt_of_eq t.isLt (show cfg4.N = 8 from N_4)
  refine (KAgg4Pay.update (pxB V c t) (weB V c t) (beB V c t) (eaB V c t) (srcB V c t) (dstB V c t) acc p q).trans ?_
  unfold tileSum
  rw [dif_pos hN]
  refine congrArg (acc (ix2 p q) + ·) (Finset.sum_congr rfl fun r _ => ?_)
  rw [dstB_apply V c t r]
  refine congrArg (Cert.Spec.hot (dstA V c (ix1 ⟨t.val * 2048 + r.val, tile_lt t r⟩)) p.val * ·) ?_
  exact msgHot_tile _ _ _ _ _ _ _ _ _ _ _ _ r ⟨t.val * 2048 + r.val, tile_lt t r⟩ (pxB_eq V c t) (weB_eq V c t)
    (funext fun j => congrFun (beB_eq V c t) _) (fun k => eaB_apply V c t r k) (srcB_apply V c t r)
    (dstB_apply V c t r) q

/-- After the first point the block holds the first tile's contribution, added to zero. -/
theorem outsAt_first (c : Dev nD) (t : Fin cfg4.N) (h0 : t.val % 8 = 0) (p : Fin 512) (q : Fin 300) :
    outsAt4 V c t.val t.isLt (ix2 p q) = 0 + tileSum V c p q t.val := by
  rw [outsAt4_A V c t h0]
  refine (congrFun (out_A (F := Ideal) c (grid4.coords t) (ms4_0 t) (hs4_0 t) (ms4_1 t) (hs4_1 t) (ms4_2 t) (hs4_2 t)
    (ms4_3 t) (hs4_3 t) (ms4_4 t) (hs4_4 t) (ms4_5 t) (hs4_5 t) (ms4_6 t) (hs4_6 t) ((hcond4_0 t).mpr h0)
    (iblk4 V c 0 t) (iblk4 V c 1 t) (iblk4 V c 2 t) (iblk4 V c 3 t) (iblk4 V c 4 t) (iblk4 V c 5 t)) (ix2 p q)).trans ?_
  refine (point_update V c t (k4_pay2 (F := Ideal)) p q).trans ?_
  rw [KAgg4Pay.reset]

/-- After any later point it holds what the point before left, plus the point's tile's contribution. -/
theorem outsAt_next (c : Dev nD) (t : Fin cfg4.N) (h0 : ¬t.val % 8 = 0) (p : Fin 512) (q : Fin 300) :
    outsAt4 V c t.val t.isLt (ix2 p q)
      = outsAt4 V c (t.val - 1) (Nat.lt_of_le_of_lt (Nat.sub_le _ _) t.isLt) (ix2 p q) + tileSum V c p q t.val := by
  rw [outsAt4_B V c t h0]
  refine (congrFun (out_B (F := Ideal) c (grid4.coords t) (ms4_0 t) (hs4_0 t) (ms4_1 t) (hs4_1 t) (ms4_2 t) (hs4_2 t)
    (ms4_3 t) (hs4_3 t) (ms4_4 t) (hs4_4 t) (ms4_5 t) (hs4_5 t) (ms4_6 t) (hs4_6 t) (fun h => h0 ((hcond4_0 t).mp h))
    (iblk4 V c 0 t) (iblk4 V c 1 t) (iblk4 V c 2 t) (iblk4 V c 3 t) (iblk4 V c 4 t) (iblk4 V c 5 t)
    (outsAt4 V c (t.val - 1) (Nat.lt_of_le_of_lt (Nat.sub_le _ _) t.isLt))) (ix2 p q)).trans ?_
  exact point_update V c t (outsAt4 V c (t.val - 1) (Nat.lt_of_le_of_lt (Nat.sub_le _ _) t.isLt)) p q

/-- The array the call is to leave. -/
abbrev result (c : Dev nD) : Buf (Elt Ideal) ((c : Thread nD τ).loc main_v17) :=
  Cert.Spec.aggHot (N := 512) (E := 16384) (H := 300) (De := 300) (V c main_v15) (V c main_arg18)
    (fun j => V c main_v16 (ix2 0 (j 0))) (V c main_arg5) (V c main_v11) (V c main_v13)

/-- After the last point the block holds the sum over all tiles, which is the sum over all edges. -/
theorem last_block (c : Dev nD) (t : Fin cfg4.N) (hend : t.val = 7) : outsAt4 V c t.val t.isLt = result V c := by
  funext j
  obtain ⟨p, q, rfl⟩ : ∃ (p : Fin 512) (q : Fin 300), j = ix2 p q := ⟨j 0, j 1, eq_ix2 j⟩
  have hN : cfg4.N = 8 := N_4
  have key := Cert.Spec.foldTiles_eq_sum 8 (tileSum V c p q)
    (fun n => if h : n < cfg4.N then outsAt4 V c n h (ix2 p q) else 0)
    (by
      have h : 0 < cfg4.N := by omega
      rw [dif_pos h]
      exact outsAt_first V c ⟨0, h⟩ rfl p q)
    (fun n hn => by
      have h1 : n + 1 < cfg4.N := by omega
      have h2 : n < cfg4.N := by omega
      rw [dif_pos h1, dif_pos h2]
      exact outsAt_next V c ⟨n + 1, h1⟩ (by dsimp only; omega) p q)
    (by omega)
  obtain ⟨n, hn⟩ := t
  dsimp only at hend
  subst hend
  dsimp only
  rw [dif_pos hn] at key
  refine key.trans ?_
  show _ = ∑ e : Fin 16384, Cert.Spec.hot (V c main_v13 (ix1 e)) p.val
    * Cert.Spec.msgHot (N := 512) (E := 16384) (H := 300) (De := 300) (V c main_v15) (V c main_arg18)
        (fun j => V c main_v16 (ix2 0 (j 0))) (V c main_arg5) (V c main_v11) (V c main_v13) e q
  rw [Cert.Spec.sum_tiles 8 2048 16384 rfl]
  refine Finset.sum_congr rfl fun t _ => ?_
  unfold tileSum
  rw [dif_pos t.isLt]

end Invariant

/-! ## The write-back -/

section Final
variable (V : (c : Dev nD) → (b : Ref sig .tc) → Buf (Elt Ideal) ((c : Thread nD τ).loc b))

/-- The one point that writes back is the last; its block, at offset zero and of the array's size, is the array. -/
theorem flushed_eq (c : Dev nD) (t : Fin cfg4.N) (hf : (cfg4.win 6).flush t = true) :
    (dat4 (F := Ideal) V c).flushed 6 t = ((cfg4.win 6).blk t).view.read (Elt Ideal) (result V c) := by
  have hN : cfg4.N = 8 := N_4
  have hend : t.val = 7 := by have := (flush4_6 t).mp hf; have := t.isLt; omega
  show (cfg4.win 6).cut (grid4.coords t) ((dat4 (F := Ideal) V c).after 6 t) = _
  rw [after4_6, last_block V c t hend]
  have hz' : (fun a => win4_6.index t a * main_v17.ty.shape.size a) = fun _ => 0 := funext fun a => by
    match a with
    | ⟨0, _⟩ => show win4_6.index t 0 * 512 = 0; rw [(idx_out t).1]
    | ⟨1, _⟩ => show win4_6.index t 1 * 300 = 0; rw [(idx_out t).2]
  exact (Memref.read_access_unit_zero (Elt Ideal) main_v17 hz' (fun a => by rw [congrFun hz' a]; simp) (result V c)).symm

/-- The array call 4 leaves is the one-hot aggregation of the six arrays it finds. -/
theorem final (c : Dev nD) :
    (dat4 (F := Ideal) V c).arrAt 6 cfg4.N
      = Cert.Spec.aggHot (N := 512) (E := 16384) (H := 300) (De := 300) (V c main_v15) (V c main_arg18)
          (fun j => V c main_v16 (ix2 0 (j 0))) (V c main_arg5) (V c main_v11) (V c main_v13) := by
  have hlast : 7 < cfg4.N := by rw [show cfg4.N = 8 from N_4]; decide
  refine (dat4 (F := Ideal) V c).arrAt_eq_of_cover 6 (result V c) (flushed_eq V c) fun i =>
    ⟨⟨7, hlast⟩, (flush4_6 _).mpr rfl, ?_⟩
  show i ∈ ((View.whole main_v17).slice (win4_6.rect ⟨7, hlast⟩)).set
  rw [View.set_slice_whole, Rect.mem_set_unit]
  intro a
  have h0 : (i 0 : Nat) < 512 := (i 0).isLt
  have h1 : (i 1 : Nat) < 300 := (i 1).isLt
  match a with
  | ⟨0, _⟩ =>
    show win4_6.index ⟨7, hlast⟩ 0 * win4_6.size 0 ≤ (i 0 : Nat)
      ∧ (i 0 : Nat) < win4_6.index ⟨7, hlast⟩ 0 * win4_6.size 0 + win4_6.xsize (grid4.coords ⟨7, hlast⟩) 0
    rw [(idx_out ⟨7, hlast⟩).1, (xsize_out ⟨7, hlast⟩).1]; omega
  | ⟨1, _⟩ =>
    show win4_6.index ⟨7, hlast⟩ 1 * win4_6.size 1 ≤ (i 1 : Nat)
      ∧ (i 1 : Nat) < win4_6.index ⟨7, hlast⟩ 1 * win4_6.size 1 + win4_6.xsize (grid4.coords ⟨7, hlast⟩) 1
    rw [(idx_out ⟨7, hlast⟩).2, (xsize_out ⟨7, hlast⟩).2]; omega

end Final

end Cert.KernelIdeal.KAgg4

end
-- ==== Proof.KLin5.lean ====
/-
  Pallas call 5 is a linear layer on one grid point: its one block is the whole [512, 600] result, and entry (i, j)
  is the sum over k of x[i,k] · W[j,k] plus the bias row's entry j (the matrix unit's pass into a zero accumulator is
  that sum at the exact instance; the two roundings to the narrow format are the identity there).
-/
import proofs.«408848_j32693291057228_1_alg».proof.Proof.Gen.KernelIdeal.Frame
import proofs.«408848_j32693291057228_1_alg».proof.Proof.Spec
import Idealize.ShloMosaic.Lib.Pipeline.Value
import Idealize.ShloMosaic.Lib.ValueIdx
import Idealize.ShloMosaic.PureOps.Ideal.Laws

noncomputable section

namespace Cert.KernelIdeal.KLin5

open Idealize.ShloMosaic Idealize.ShloMosaic.TcCoe Idealize.SL.Sem Idealize.ShloMosaic.ValueIdx
open Cert.KernelIdeal Cert.KernelIdeal.Gen

/-! ## The contraction's operand indices

The product contracts axis 1 of x with axis 1 of W: at result entry (i, j) and contraction position k the left
operand is read at (i, k) and the right one at (j, k). One lemma per operand axis. -/

/-- Row axis of the left operand: the result's row. -/
theorem lhs_row (i : S512x600.Idx) (r : dot_S512x300_S600x300_S512x600_1_1_0_0_n_n.contr.Idx) :
    (dot_S512x300_S600x300_S512x600_1_1_0_0_n_n.lhsIdx i r 0).val = (i 0).val := by
  unfold DotDims.lhsIdx
  rw [dif_neg (show ¬(0 : Fin S512x300.rank) ∈ dot_S512x300_S600x300_S512x600_1_1_0_0_n_n.lhsBatch by decide), dif_pos (show (0 : Fin S512x300.rank) ∈ dot_S512x300_S600x300_S512x600_1_1_0_0_n_n.lhsNonContracting by decide)]
  rfl

/-- Column axis of the left operand: the contraction position. -/
theorem lhs_col (i : S512x600.Idx) (r : dot_S512x300_S600x300_S512x600_1_1_0_0_n_n.contr.Idx) :
    (dot_S512x300_S600x300_S512x600_1_1_0_0_n_n.lhsIdx i r 1).val = (r ⟨0, by decide⟩).val :=
  dot_S512x300_S600x300_S512x600_1_1_0_0_n_n.lhsIdx_val_of_single rfl i r

/-- Row axis of the right operand: the result's column. -/
theorem rhs_row (i : S512x600.Idx) (r : dot_S512x300_S600x300_S512x600_1_1_0_0_n_n.contr.Idx) :
    (dot_S512x300_S600x300_S512x600_1_1_0_0_n_n.rhsIdx i r 0).val = (i 1).val := by
  unfold DotDims.rhsIdx
  rw [dif_neg (show ¬(0 : Fin S600x300.rank) ∈ dot_S512x300_S600x300_S512x600_1_1_0_0_n_n.rhsBatch by decide), dif_pos (show (0 : Fin S600x300.rank) ∈ dot_S512x300_S600x300_S512x600_1_1_0_0_n_n.rhsNonContracting by decide)]
  rfl

/-- Column axis of the right operand: the contraction position. -/
theorem rhs_col (i : S512x600.Idx) (r : dot_S512x300_S600x300_S512x600_1_1_0_0_n_n.contr.Idx) :
    (dot_S512x300_S600x300_S512x600_1_1_0_0_n_n.rhsIdx i r 1).val = (r ⟨0, by decide⟩).val :=
  dot_S512x300_S600x300_S512x600_1_1_0_0_n_n.rhsIdx_val_of_single rfl i r

/-! ## The body's value at one entry -/

/-- Entry (p, q) of what the body stores: a reshaping to the same shape changes nothing, the two narrowings are the
    identity on exact values, the product into the zero accumulator is the plain sum of products over the 300
    contraction positions, and the one-row bias is repeated down the rows, so row p sees entry (0, q) of it. -/
theorem pay_apply (x0 : Vec Ideal S512x300 .f32) (x1 : Vec Ideal S600x300 .f32) (x2 : Vec Ideal S1x600 .f32)
    (p : Fin 512) (q : Fin 600) :
    k5_pay1 (F := Ideal) x0 x1 x2 (ix2 p q) = (∑ k : Fin 300, x0 (ix2 p k) * x1 (ix2 q k)) + x2 (ix2 0 q) := by
  unfold k5_pay1
  simp only [shapeCast_self]
  refine (addf_apply _ _ (ix2 p q)).trans ?_
  refine congrArg₂ (· + ·) ?_ ?_
  · refine (Ideal.matmul_constant_zero_apply dot_S512x300_S600x300_S512x600_1_1_0_0_n_n none _ _ (ix2 p q)).trans ?_
    rw [← Equiv.sum_comp (contrEquiv1 dot_S512x300_S600x300_S512x600_1_1_0_0_n_n 300 rfl rfl).symm]
    refine Finset.sum_congr rfl fun k _ => ?_
    have hk := contrEquiv1_symm_val dot_S512x300_S600x300_S512x600_1_1_0_0_n_n 300 rfl rfl k
    have el : dot_S512x300_S600x300_S512x600_1_1_0_0_n_n.lhsIdx (ix2 p q) ((contrEquiv1 dot_S512x300_S600x300_S512x600_1_1_0_0_n_n 300 rfl rfl).symm k) = ix2 p k := funext fun a => Fin.ext (by
      match a with
      | ⟨0, _⟩ => exact lhs_row _ _
      | ⟨1, _⟩ => exact (lhs_col _ _).trans hk)
    have er : dot_S512x300_S600x300_S512x600_1_1_0_0_n_n.rhsIdx (ix2 p q) ((contrEquiv1 dot_S512x300_S600x300_S512x600_1_1_0_0_n_n 300 rfl rfl).symm k) = ix2 q k := funext fun a => Fin.ext (by
      match a with
      | ⟨0, _⟩ => exact rhs_row _ _
      | ⟨1, _⟩ => exact (rhs_col _ _).trans hk)
    rw [el, er]
    rfl
  · exact broadcastTo_apply x2 broadcasts_S1x600_S512x600 (ix2 p q) (ix2 0 q) (fun a => match a with
      | ⟨0, _⟩ => by show 0 = if (1 : Nat) = 1 then 0 else _; rw [if_pos rfl]
      | ⟨1, _⟩ => by show q.val = if (600 : Nat) = 1 then 0 else q.val; rw [if_neg (by decide)])

variable (V : (c : Dev nD) → (b : Ref sig .tc) → Buf (Elt Ideal) ((c : Thread nD τ).loc b))

/-! ## From the one block to the array

The grid has one point and every window's block is its whole array, so each block sits at the origin of its array:
reading an array through such a block gives the array back, and the one write-back covers every entry. -/

/-- The origin, spelt as the accesses spell it. -/
theorem hz : (![0, 0] : Fin 2 → Nat) = fun _ => 0 := funext fun a => by fin_cases a <;> rfl

/-- Every window's block index is (0, 0) at the grid's point. -/
theorem origin : ∀ t : Fin cfg5.N,
    win5_0.index t (0 : Fin 2) = 0 ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0 :=
  (by decide +kernel : ∀ t : Fin grid5.N, _)

/-- The block of x is x. -/
theorem blk_x (c : Dev nD) (t : Fin cfg5.N) :
    (iblk5 (F := Ideal) V c 0 t : Vec Ideal S512x300 .f32) = V c main_v17 := by
  obtain ⟨e0, e1, -⟩ := origin t
  have hz' : (fun a => win5_0.index t a * main_v17.ty.shape.size a) = fun _ => 0 := funext fun a => by
    match a with
    | ⟨0, _⟩ => show win5_0.index t (0 : Fin 2) * 512 = 0; rw [e0]
    | ⟨1, _⟩ => show win5_0.index t (1 : Fin 2) * 300 = 0; rw [e1]
  exact Memref.read_access_unit_zero (Elt Ideal) main_v17 hz' (fun a => by rw [congrFun hz' a]; simp) (V c main_v17)

/-- The block of W is W. -/
theorem blk_w (c : Dev nD) (t : Fin cfg5.N) :
    (iblk5 (F := Ideal) V c 1 t : Vec Ideal S600x300 .f32) = V c main_arg20 := by
  obtain ⟨-, -, e0, e1, -⟩ := origin t
  have hz' : (fun a => win5_1.index t a * main_arg20.ty.shape.size a) = fun _ => 0 := funext fun a => by
    match a with
    | ⟨0, _⟩ => show win5_1.index t (0 : Fin 2) * 600 = 0; rw [e0]
    | ⟨1, _⟩ => show win5_1.index t (1 : Fin 2) * 300 = 0; rw [e1]
  exact Memref.read_access_unit_zero (Elt Ideal) main_arg20 hz' (fun a => by rw [congrFun hz' a]; simp) (V c main_arg20)

/-- The block of the bias row is the bias row. -/
theorem blk_b (c : Dev nD) (t : Fin cfg5.N) :
    (iblk5 (F := Ideal) V c 2 t : Vec Ideal S1x600 .f32) = V c main_v18 := by
  obtain ⟨-, -, -, -, e0, e1, -⟩ := origin t
  have hz' : (fun a => win5_2.index t a * main_v18.ty.shape.size a) = fun _ => 0 := funext fun a => by
    match a with
    | ⟨0, _⟩ => show win5_2.index t (0 : Fin 2) * 1 = 0; rw [e0]
    | ⟨1, _⟩ => show win5_2.index t (1 : Fin 2) * 600 = 0; rw [e1]
  exact Memref.read_access_unit_zero (Elt Ideal) main_v18 hz' (fun a => by rw [congrFun hz' a]; simp) (V c main_v18)

/-- The linear layer of the three arrays the call finds. -/
abbrev layer (c : Dev nD) : S512x600.Idx → EReal :=
  Cert.Spec.linRow (N := 512) (Din := 300) (Dout := 600) (V c main_v17) (V c main_arg20) (V c main_v18)

/-- What the point writes back is the layer, read through the result's block. -/
theorem flushed_eq (c : Dev nD) (t : Fin cfg5.N) :
    (dat5 (F := Ideal) V c).flushed 3 t = ((cfg5.win 3).blk t).view.read (Elt Ideal) (layer V c) := by
  obtain ⟨-, -, -, -, -, -, e0, e1⟩ := origin t
  have hz' : (fun a => win5_3.index t a * main_v19.ty.shape.size a) = fun _ => 0 := funext fun a => by
    match a with
    | ⟨0, _⟩ => show win5_3.index t (0 : Fin 2) * 512 = 0; rw [e0]
    | ⟨1, _⟩ => show win5_3.index t (1 : Fin 2) * 600 = 0; rw [e1]
  refine Eq.trans ?_ (Memref.read_access_unit_zero (Elt Ideal) main_v19 hz' (fun a => by rw [congrFun hz' a]; simp) (layer V c)).symm
  show (cfg5.win 3).cut (grid5.coords t) ((dat5 V c).after 3 t) = _
  rw [after5_3]
  unfold out5_3
  rw [View.canon_unit_zero hz]
  simp only [View.ld_unit_zero (S := S512x300) hz, View.ld_unit_zero (S := S600x300) hz, View.ld_unit_zero (S := S1x600) hz]
  rw [blk_x V c t, blk_w V c t, blk_b V c t]
  funext i
  obtain ⟨p, q, rfl⟩ : ∃ (p : Fin 512) (q : Fin 600), i = ix2 p q := ⟨i 0, i 1, eq_ix2 i⟩
  exact pay_apply _ _ _ p q

/-- The grid's one point. -/
abbrev pt : Fin cfg5.N := ⟨0, by rw [show cfg5.N = 1 from N_5]; decide⟩

/-- Every entry of the result lies in the block that point writes back. -/
theorem cover (c : Dev nD) (i : ((cfg5.win 3).arr.view.loc (c.tc : Thread nD τ)).2.ty.Idx) :
    ∃ t : Fin cfg5.N, (cfg5.win 3).flush t = true ∧ i ∈ ((cfg5.win 3).blk t).view.set := by
  refine ⟨pt, flush5_3 pt, ?_⟩
  show i ∈ ((View.whole main_v19).slice (win5_3.rect pt)).set
  rw [View.set_slice_whole, Rect.mem_set_unit]
  intro a
  obtain ⟨-, -, -, -, -, -, e0, e1⟩ := origin pt
  have h0 : (i 0 : Nat) < 512 := (i 0).isLt
  have h1 : (i 1 : Nat) < 600 := (i 1).isLt
  match a with
  | ⟨0, _⟩ =>
    show win5_3.index pt (0 : Fin 2) * 512 ≤ (i 0 : Nat) ∧ (i 0 : Nat) < win5_3.index pt (0 : Fin 2) * 512 + 512
    rw [e0]; omega
  | ⟨1, _⟩ =>
    show win5_3.index pt (1 : Fin 2) * 600 ≤ (i 1 : Nat) ∧ (i 1 : Nat) < win5_3.index pt (1 : Fin 2) * 600 + 600
    rw [e1]; omega

/-- The array call 5 leaves is the linear layer of the three arrays it finds. -/
theorem final (c : Dev nD) :
    (dat5 (F := Ideal) V c).arrAt 3 cfg5.N
      = Cert.Spec.linRow (N := 512) (Din := 300) (Dout := 600) (V c main_v17) (V c main_arg20) (V c main_v18) :=
  (dat5 (F := Ideal) V c).arrAt_eq_of_cover 3 (layer V c) (fun t _ => flushed_eq V c t) (cover c)

end Cert.KernelIdeal.KLin5

end
-- ==== Proof.KChainA.lean ====
/-
  The first half of the kernel program's run, read as values: the first layer on graph 1 (calls 0, 1, 2) and on
  graph 2 (calls 3, 4, 5). Between the calls the host only slices the two endpoint rows out of an edge table and
  reshapes a bias vector into a one-row matrix; every other buffer is carried unchanged from boundary to boundary.
  Each call's result is the specification's function of what it finds, so the two layers' results, still in place
  when the second half starts, are the one-hot layer of the arguments.
-/
import proofs.«408848_j32693291057228_1_alg».proof.Proof.Gen.KernelIdeal.Frame
import proofs.«408848_j32693291057228_1_alg».proof.Proof.Spec
import proofs.«408848_j32693291057228_1_alg».proof.Proof.KLin0
import proofs.«408848_j32693291057228_1_alg».proof.Proof.KAgg1
import proofs.«408848_j32693291057228_1_alg».proof.Proof.KLin2
import proofs.«408848_j32693291057228_1_alg».proof.Proof.KLin3
import proofs.«408848_j32693291057228_1_alg».proof.Proof.KAgg4
import proofs.«408848_j32693291057228_1_alg».proof.Proof.KLin5
import Idealize.ShloMosaic.Lib.Pipeline.Value
import Idealize.ShloMosaic.Lib.ValueLayout
import Idealize.ShloMosaic.Lib.StableHlo.Run

noncomputable section

namespace Cert.KernelIdeal.Chain

open Idealize.ShloMosaic Idealize.ShloMosaic.TcCoe Idealize.SL.Sem Idealize.ShloMosaic.ValueIdx
open Cert.KernelIdeal Cert.KernelIdeal.Gen

/-! ## Layout facts: a vector laid out as a one-row matrix, and a row of a two-row table laid out as a vector -/

section Layout
variable {α : Type}

/-- A vector recast as a one-row matrix holds, in column i of its only row, the vector's entry i. -/
theorem vec_as_row {a : ℕ} (x : (⟨1, ![a]⟩ : Shape).Idx → α) (h : (⟨1, ![a]⟩ : Shape).ShapeCasts ⟨2, ![1, a]⟩) :
    shapeCast ⟨2, ![1, a]⟩ x h = fun j => x (ix1 (j 1)) := by
  funext j
  obtain ⟨u, i, rfl⟩ : ∃ (u : Fin 1) (i : Fin a), j = ix2 u i := ⟨j 0, j 1, eq_ix2 j⟩
  exact shapeCast_a_1a_apply x h u i

/-- The same, for a vector known to be y. -/
theorem vec_as_row_of {a : ℕ} (x y : (⟨1, ![a]⟩ : Shape).Idx → α) (h : (⟨1, ![a]⟩ : Shape).ShapeCasts ⟨2, ![1, a]⟩)
    (hxy : x = y) : shapeCast ⟨2, ![1, a]⟩ x h = fun j => y (ix1 (j 1)) := by
  subst hxy; exact vec_as_row x h

/-- Reading the only row of such a one-row matrix column by column gives the vector back. -/
theorem row_as_vec {a : ℕ} (y : (⟨1, ![a]⟩ : Shape).Idx → α) (f : (⟨2, ![1, a]⟩ : Shape).Idx → α)
    (hf : f = fun i => y (ix1 (i 1))) : (fun j : (⟨1, ![a]⟩ : Shape).Idx => f (ix2 0 (j 0))) = y := by
  subst hf
  funext j
  exact congrArg y (eq_ix1 j).symm

/-- Row r of a two-row table, cut out as a one-row matrix and recast as a vector, holds at e the table's entry (r, e). -/
theorem table_row {E : ℕ} (o : ℕ) (r : Fin 2) (hr : r.val = o) (x : (⟨2, ![2, E]⟩ : Shape).Idx → α)
    (hs : (⟨2, ![2, E]⟩ : Shape).Slices ![o, 0] ⟨2, ![1, E]⟩) (hc : (⟨2, ![1, E]⟩ : Shape).ShapeCasts ⟨1, ![E]⟩) :
    shapeCast ⟨1, ![E]⟩ (extractStridedSlice ⟨2, ![1, E]⟩ ![o, 0] x hs) hc = fun j => x (ix2 r (j 0)) := by
  subst hr
  funext j
  obtain ⟨e, rfl⟩ : ∃ e : Fin E, j = ix1 e := ⟨j 0, eq_ix1 j⟩
  refine (shapeCast_1a_a_apply _ hc e).trans ?_
  exact extractStridedSlice_apply ![r.val, 0] x hs (ix2 (0 : Fin 1) e) (ix2 r e) (by
    intro a; fin_cases a <;> simp [ix2])

/-- The same, for a table known to be y. -/
theorem table_row_of {E : ℕ} (o : ℕ) (r : Fin 2) (hr : r.val = o) (x y : (⟨2, ![2, E]⟩ : Shape).Idx → α)
    (hs : (⟨2, ![2, E]⟩ : Shape).Slices ![o, 0] ⟨2, ![1, E]⟩) (hc : (⟨2, ![1, E]⟩ : Shape).ShapeCasts ⟨1, ![E]⟩)
    (hxy : x = y) :
    shapeCast ⟨1, ![E]⟩ (extractStridedSlice ⟨2, ![1, E]⟩ ![o, 0] x hs) hc = fun j => y (ix2 r (j 0)) := by
  subst hxy; exact table_row o r hr x hs hc

end Layout

/-! ## The specification's functions respect equality of their arguments -/

theorem linRow_congr {N Din Dout : ℕ} {x x' : (Cert.Spec.Mat N Din).Idx → EReal}
    {W W' : (Cert.Spec.Mat Dout Din).Idx → EReal} {b b' : (Cert.Spec.Mat 1 Dout).Idx → EReal}
    (hx : x = x') (hW : W = W') (hb : b = b') : Cert.Spec.linRow x W b = Cert.Spec.linRow x' W' b' := by
  subst hx hW hb; rfl

theorem aggHot_congr {N E H De : ℕ} {px px' : (Cert.Spec.Mat N H).Idx → EReal}
    {We We' : (Cert.Spec.Mat H De).Idx → EReal} {be be' : (Cert.Spec.Row H).Idx → EReal}
    {ea ea' : (Cert.Spec.Mat E De).Idx → EReal} {src src' dst dst' : (Cert.Spec.Row E).Idx → BitVec 32}
    (hpx : px = px') (hWe : We = We') (hbe : be = be') (hea : ea = ea') (hsrc : src = src') (hdst : dst = dst') :
    Cert.Spec.aggHot px We be ea src dst = Cert.Spec.aggHot px' We' be' ea' src' dst' := by
  subst hpx hWe hbe hea hsrc hdst; rfl

/-! ## The buffers each host stretch writes; it leaves every other buffer alone -/

abbrev wr0 : List (Ref sig .tc) := [main_v0, main_v1, main_v2, main_v3, main_v4]
abbrev wr1 : List (Ref sig .tc) := [main_v6]
abbrev wr2 : List (Ref sig .tc) := [main_v8]
abbrev wr3 : List (Ref sig .tc) := [main_v10, main_v11, main_v12, main_v13, main_v14]
abbrev wr4 : List (Ref sig .tc) := [main_v16]
abbrev wr5 : List (Ref sig .tc) := [main_v18]

local macro "writes_within" h:ident : tactic =>
  `(tactic| (simp only [$h:ident, List.Forall, StableHlo.unary_writes, StableHlo.reshape_writes,
      Finset.singleton_subset_iff, List.mem_toFinset]
             repeat' apply And.intro
             all_goals exact List.mem_map_of_mem (by decide)))

theorem writes0 : (hostOps0 : List (HloOp τ sig (Elt Ideal))).Forall fun op =>
    op.writes ⊆ (wr0.map (Proc.devRef (τ := τ) .tc)).toFinset := by writes_within hostOps0
theorem writes1 : (hostOps1 : List (HloOp τ sig (Elt Ideal))).Forall fun op =>
    op.writes ⊆ (wr1.map (Proc.devRef (τ := τ) .tc)).toFinset := by writes_within hostOps1
theorem writes2 : (hostOps2 : List (HloOp τ sig (Elt Ideal))).Forall fun op =>
    op.writes ⊆ (wr2.map (Proc.devRef (τ := τ) .tc)).toFinset := by writes_within hostOps2
theorem writes3 : (hostOps3 : List (HloOp τ sig (Elt Ideal))).Forall fun op =>
    op.writes ⊆ (wr3.map (Proc.devRef (τ := τ) .tc)).toFinset := by writes_within hostOps3
theorem writes4 : (hostOps4 : List (HloOp τ sig (Elt Ideal))).Forall fun op =>
    op.writes ⊆ (wr4.map (Proc.devRef (τ := τ) .tc)).toFinset := by writes_within hostOps4
theorem writes5 : (hostOps5 : List (HloOp τ sig (Elt Ideal))).Forall fun op =>
    op.writes ⊆ (wr5.map (Proc.devRef (τ := τ) .tc)).toFinset := by writes_within hostOps5

variable (m : (ℓ : Loc nD τ sig) → Buf (Elt Ideal) ℓ) (ρ : Dev nD → PrngReg)

/-- Over host stretch j a buffer outside the stretch's written list keeps its contents. -/
theorem over0 (c : Dev nD) (r : Ref sig .tc) (h : r ∉ wr0) :
    W1 m ρ c (Proc.devRef .tc r) = W0 m ρ c (Proc.devRef .tc r) := StableHlo.after_of_writes_sub hostOps0 _ writes0 h
theorem over1 (c : Dev nD) (r : Ref sig .tc) (h : r ∉ wr1) :
    W3 m ρ c (Proc.devRef .tc r) = W2 m ρ c (Proc.devRef .tc r) := StableHlo.after_of_writes_sub hostOps1 _ writes1 h
theorem over2 (c : Dev nD) (r : Ref sig .tc) (h : r ∉ wr2) :
    W5 m ρ c (Proc.devRef .tc r) = W4 m ρ c (Proc.devRef .tc r) := StableHlo.after_of_writes_sub hostOps2 _ writes2 h
theorem over3 (c : Dev nD) (r : Ref sig .tc) (h : r ∉ wr3) :
    W7 m ρ c (Proc.devRef .tc r) = W6 m ρ c (Proc.devRef .tc r) := StableHlo.after_of_writes_sub hostOps3 _ writes3 h
theorem over4 (c : Dev nD) (r : Ref sig .tc) (h : r ∉ wr4) :
    W9 m ρ c (Proc.devRef .tc r) = W8 m ρ c (Proc.devRef .tc r) := StableHlo.after_of_writes_sub hostOps4 _ writes4 h
theorem over5 (c : Dev nD) (r : Ref sig .tc) (h : r ∉ wr5) :
    W11 m ρ c (Proc.devRef .tc r) = W10 m ρ c (Proc.devRef .tc r) := StableHlo.after_of_writes_sub hostOps5 _ writes5 h

/-! ## A buffer that nothing up to a boundary writes still holds what it held at the launch

  Kept k r says: none of the first k items of the run (host stretch 0, call 0, host stretch 1, call 1, ...) writes r;
  a call writes at most the arrays of its windows. -/

abbrev Kept1 (r : Ref sig .tc) : Prop := r ∉ wr0
abbrev Kept2 (r : Ref sig .tc) : Prop := Kept1 r ∧ ∀ w, Pipeline.arrRef spec0 w ≠ r
abbrev Kept3 (r : Ref sig .tc) : Prop := Kept2 r ∧ r ∉ wr1
abbrev Kept4 (r : Ref sig .tc) : Prop := Kept3 r ∧ ∀ w, Pipeline.arrRef spec1 w ≠ r
abbrev Kept5 (r : Ref sig .tc) : Prop := Kept4 r ∧ r ∉ wr2
abbrev Kept6 (r : Ref sig .tc) : Prop := Kept5 r ∧ ∀ w, Pipeline.arrRef spec2 w ≠ r
abbrev Kept7 (r : Ref sig .tc) : Prop := Kept6 r ∧ r ∉ wr3
abbrev Kept8 (r : Ref sig .tc) : Prop := Kept7 r ∧ ∀ w, Pipeline.arrRef spec3 w ≠ r
abbrev Kept9 (r : Ref sig .tc) : Prop := Kept8 r ∧ r ∉ wr4
abbrev Kept10 (r : Ref sig .tc) : Prop := Kept9 r ∧ ∀ w, Pipeline.arrRef spec4 w ≠ r
abbrev Kept11 (r : Ref sig .tc) : Prop := Kept10 r ∧ r ∉ wr5

theorem at1 (c : Dev nD) (r : Ref sig .tc) (h : Kept1 r) :
    W1 m ρ c (Proc.devRef .tc r) = m ((c : Thread nD τ).loc r) := over0 m ρ c r h
theorem at2 (c : Dev nD) (r : Ref sig .tc) (h : Kept2 r) :
    W2 m ρ c (Proc.devRef .tc r) = m ((c : Thread nD τ).loc r) := (W2_of_ne m ρ c r h.2).trans (at1 m ρ c r h.1)
theorem at3 (c : Dev nD) (r : Ref sig .tc) (h : Kept3 r) :
    W3 m ρ c (Proc.devRef .tc r) = m ((c : Thread nD τ).loc r) := (over1 m ρ c r h.2).trans (at2 m ρ c r h.1)
theorem at4 (c : Dev nD) (r : Ref sig .tc) (h : Kept4 r) :
    W4 m ρ c (Proc.devRef .tc r) = m ((c : Thread nD τ).loc r) := (W4_of_ne m ρ c r h.2).trans (at3 m ρ c r h.1)
theorem at5 (c : Dev nD) (r : Ref sig .tc) (h : Kept5 r) :
    W5 m ρ c (Proc.devRef .tc r) = m ((c : Thread nD τ).loc r) := (over2 m ρ c r h.2).trans (at4 m ρ c r h.1)
theorem at6 (c : Dev nD) (r : Ref sig .tc) (h : Kept6 r) :
    W6 m ρ c (Proc.devRef .tc r) = m ((c : Thread nD τ).loc r) := (W6_of_ne m ρ c r h.2).trans (at5 m ρ c r h.1)
theorem at7 (c : Dev nD) (r : Ref sig .tc) (h : Kept7 r) :
    W7 m ρ c (Proc.devRef .tc r) = m ((c : Thread nD τ).loc r) := (over3 m ρ c r h.2).trans (at6 m ρ c r h.1)
theorem at8 (c : Dev nD) (r : Ref sig .tc) (h : Kept8 r) :
    W8 m ρ c (Proc.devRef .tc r) = m ((c : Thread nD τ).loc r) := (W8_of_ne m ρ c r h.2).trans (at7 m ρ c r h.1)
theorem at9 (c : Dev nD) (r : Ref sig .tc) (h : Kept9 r) :
    W9 m ρ c (Proc.devRef .tc r) = m ((c : Thread nD τ).loc r) := (over4 m ρ c r h.2).trans (at8 m ρ c r h.1)
theorem at10 (c : Dev nD) (r : Ref sig .tc) (h : Kept10 r) :
    W10 m ρ c (Proc.devRef .tc r) = m ((c : Thread nD τ).loc r) := (W10_of_ne m ρ c r h.2).trans (at9 m ρ c r h.1)
theorem at11 (c : Dev nD) (r : Ref sig .tc) (h : Kept11 r) :
    W11 m ρ c (Proc.devRef .tc r) = m ((c : Thread nD τ).loc r) := (over5 m ρ c r h.2).trans (at10 m ρ c r h.1)

/-! ## Graph 1: calls 0, 1, 2 -/

/-- Call 0's bias row: the host recast the bias vector bn. -/
theorem v4_at1 (c : Dev nD) :
    V1 m ρ c main_v4 = fun j : (Cert.Spec.Mat 1 300).Idx => (m ((c : Thread nD τ).loc main_arg11)) (ix1 (j 1)) := by
  show StableHlo.after hostOps0 (W0 m ρ c) (Proc.devRef .tc main_v4) = _
  after_results
  exact vec_as_row _ _

/-- Call 0's result, where call 1 finds it: the node projection x Wnᵀ + bn. -/
theorem v5_at3 (c : Dev nD) :
    V3 m ρ c main_v5 = Cert.Spec.lin (N := 512) (Din := 600) (Dout := 300) (m ((c : Thread nD τ).loc main_arg0))
      (m ((c : Thread nD τ).loc main_arg10)) (m ((c : Thread nD τ).loc main_arg11)) :=
  (over1 m ρ c main_v5 (by decide)).trans <| (W2_arr m ρ c 3).trans <| (KLin0.final (V1 m ρ) c).trans <|
    (linRow_congr (at1 m ρ c main_arg0 (by decide)) (at1 m ρ c main_arg10 (by decide)) (v4_at1 m ρ c)).trans
      (Cert.Spec.linRow_eq_lin _ _ _)

/-- Call 1's bias row: the host recast the bias vector be. -/
theorem v6_at3 (c : Dev nD) :
    V3 m ρ c main_v6 = fun j : (Cert.Spec.Mat 1 300).Idx => (m ((c : Thread nD τ).loc main_arg13)) (ix1 (j 1)) := by
  show StableHlo.after hostOps1 (W2 m ρ c) (Proc.devRef .tc main_v6) = _
  after_results
  exact vec_as_row_of _ _ _ (at2 m ρ c main_arg13 (by decide))

/-- Call 1's source words: row 0 of graph 1's endpoint table, cut out by the host before call 0. -/
theorem v1_at3 (c : Dev nD) : V3 m ρ c main_v1 = Cert.Spec.endpoints 0 (m ((c : Thread nD τ).loc main_arg2)) := by
  refine (over1 m ρ c main_v1 (by decide)).trans <| (W2_of_ne m ρ c main_v1 (by decide)).trans ?_
  show StableHlo.after hostOps0 (W0 m ρ c) (Proc.devRef .tc main_v1) = _
  after_results
  exact table_row 0 0 rfl _ _ _

/-- Call 1's destination words: row 1 of the same table. -/
theorem v3_at3 (c : Dev nD) : V3 m ρ c main_v3 = Cert.Spec.endpoints 1 (m ((c : Thread nD τ).loc main_arg2)) := by
  refine (over1 m ρ c main_v3 (by decide)).trans <| (W2_of_ne m ρ c main_v3 (by decide)).trans ?_
  show StableHlo.after hostOps0 (W0 m ρ c) (Proc.devRef .tc main_v3) = _
  after_results
  exact table_row 1 1 rfl _ _ _

/-- Call 1's result, where call 2 finds it: the aggregation of the projected nodes. -/
theorem v7_at5 (c : Dev nD) :
    V5 m ρ c main_v7 = Cert.Spec.aggHot (N := 512) (E := 16384) (H := 300) (De := 300)
      (Cert.Spec.lin (N := 512) (Din := 600) (Dout := 300) (m ((c : Thread nD τ).loc main_arg0)) (m ((c : Thread nD τ).loc main_arg10)) (m ((c : Thread nD τ).loc main_arg11)))
      (m ((c : Thread nD τ).loc main_arg12)) (m ((c : Thread nD τ).loc main_arg13)) (m ((c : Thread nD τ).loc main_arg4))
      (Cert.Spec.endpoints 0 (m ((c : Thread nD τ).loc main_arg2))) (Cert.Spec.endpoints 1 (m ((c : Thread nD τ).loc main_arg2))) :=
  (over2 m ρ c main_v7 (by decide)).trans <| (W4_arr m ρ c 6).trans <| (KAgg1.final (V3 m ρ) c).trans <|
    aggHot_congr (v5_at3 m ρ c) (at3 m ρ c main_arg12 (by decide)) (row_as_vec _ _ (v6_at3 m ρ c))
      (at3 m ρ c main_arg4 (by decide)) (v1_at3 m ρ c) (v3_at3 m ρ c)

/-- Call 2's bias row: the host recast the bias vector bo. -/
theorem v8_at5 (c : Dev nD) :
    V5 m ρ c main_v8 = fun j : (Cert.Spec.Mat 1 600).Idx => (m ((c : Thread nD τ).loc main_arg15)) (ix1 (j 1)) := by
  show StableHlo.after hostOps2 (W4 m ρ c) (Proc.devRef .tc main_v8) = _
  after_results
  exact vec_as_row_of _ _ _ (at4 m ρ c main_arg15 (by decide))

/-- Graph 1's layer, as held in its buffer when call 6's host stretch begins. -/
theorem y1_at (c : Dev nD) :
    W12 (F := Ideal) m ρ c (Proc.devRef .tc main_v9)
      = Cert.Spec.gnnHot (N := 512) (E := 16384) (Dn := 600) (H := 300) (De := 300) (m ((c : Thread nD τ).loc main_arg0)) (m ((c : Thread nD τ).loc main_arg2)) (m ((c : Thread nD τ).loc main_arg4)) ⟨(m ((c : Thread nD τ).loc main_arg10)), (m ((c : Thread nD τ).loc main_arg11)), (m ((c : Thread nD τ).loc main_arg12)), (m ((c : Thread nD τ).loc main_arg13)), (m ((c : Thread nD τ).loc main_arg14)), (m ((c : Thread nD τ).loc main_arg15))⟩ :=
  (W12_of_ne m ρ c main_v9 (by decide)).trans <| (over5 m ρ c main_v9 (by decide)).trans <|
  (W10_of_ne m ρ c main_v9 (by decide)).trans <| (over4 m ρ c main_v9 (by decide)).trans <|
  (W8_of_ne m ρ c main_v9 (by decide)).trans <| (over3 m ρ c main_v9 (by decide)).trans <|
  (W6_arr m ρ c 3).trans <| (KLin2.final (V5 m ρ) c).trans <|
    (linRow_congr (v7_at5 m ρ c) (at5 m ρ c main_arg14 (by decide)) (v8_at5 m ρ c)).trans
      (Cert.Spec.linRow_eq_lin _ _ _)

/-! ## Graph 2: calls 3, 4, 5 -/

/-- Call 3's bias row. -/
theorem v14_at7 (c : Dev nD) :
    V7 m ρ c main_v14 = fun j : (Cert.Spec.Mat 1 300).Idx => (m ((c : Thread nD τ).loc main_arg17)) (ix1 (j 1)) := by
  show StableHlo.after hostOps3 (W6 m ρ c) (Proc.devRef .tc main_v14) = _
  after_results
  exact vec_as_row_of _ _ _ (at6 m ρ c main_arg17 (by decide))

/-- Call 3's result, where call 4 finds it. -/
theorem v15_at9 (c : Dev nD) :
    V9 m ρ c main_v15 = Cert.Spec.lin (N := 512) (Din := 600) (Dout := 300) (m ((c : Thread nD τ).loc main_arg1))
      (m ((c : Thread nD τ).loc main_arg16)) (m ((c : Thread nD τ).loc main_arg17)) :=
  (over4 m ρ c main_v15 (by decide)).trans <| (W8_arr m ρ c 3).trans <| (KLin3.final (V7 m ρ) c).trans <|
    (linRow_congr (at7 m ρ c main_arg1 (by decide)) (at7 m ρ c main_arg16 (by decide)) (v14_at7 m ρ c)).trans
      (Cert.Spec.linRow_eq_lin _ _ _)

/-- Call 4's bias row. -/
theorem v16_at9 (c : Dev nD) :
    V9 m ρ c main_v16 = fun j : (Cert.Spec.Mat 1 300).Idx => (m ((c : Thread nD τ).loc main_arg19)) (ix1 (j 1)) := by
  show StableHlo.after hostOps4 (W8 m ρ c) (Proc.devRef .tc main_v16) = _
  after_results
  exact vec_as_row_of _ _ _ (at8 m ρ c main_arg19 (by decide))

/-- Call 4's source words: row 0 of graph 2's endpoint table, cut out by the host before call 3. -/
theorem v11_at9 (c : Dev nD) : V9 m ρ c main_v11 = Cert.Spec.endpoints 0 (m ((c : Thread nD τ).loc main_arg3)) := by
  refine (over4 m ρ c main_v11 (by decide)).trans <| (W8_of_ne m ρ c main_v11 (by decide)).trans ?_
  show StableHlo.after hostOps3 (W6 m ρ c) (Proc.devRef .tc main_v11) = _
  after_results
  exact table_row_of 0 0 rfl _ _ _ _ (at6 m ρ c main_arg3 (by decide))

/-- Call 4's destination words: row 1 of the same table. -/
theorem v13_at9 (c : Dev nD) : V9 m ρ c main_v13 = Cert.Spec.endpoints 1 (m ((c : Thread nD τ).loc main_arg3)) := by
  refine (over4 m ρ c main_v13 (by decide)).trans <| (W8_of_ne m ρ c main_v13 (by decide)).trans ?_
  show StableHlo.after hostOps3 (W6 m ρ c) (Proc.devRef .tc main_v13) = _
  after_results
  exact table_row_of 1 1 rfl _ _ _ _ (at6 m ρ c main_arg3 (by decide))

/-- Call 4's result, where call 5 finds it. -/
theorem v17_at11 (c : Dev nD) :
    V11 m ρ c main_v17 = Cert.Spec.aggHot (N := 512) (E := 16384) (H := 300) (De := 300)
      (Cert.Spec.lin (N := 512) (Din := 600) (Dout := 300) (m ((c : Thread nD τ).loc main_arg1)) (m ((c : Thread nD τ).loc main_arg16)) (m ((c : Thread nD τ).loc main_arg17)))
      (m ((c : Thread nD τ).loc main_arg18)) (m ((c : Thread nD τ).loc main_arg19)) (m ((c : Thread nD τ).loc main_arg5))
      (Cert.Spec.endpoints 0 (m ((c : Thread nD τ).loc main_arg3))) (Cert.Spec.endpoints 1 (m ((c : Thread nD τ).loc main_arg3))) :=
  (over5 m ρ c main_v17 (by decide)).trans <| (W10_arr m ρ c 6).trans <| (KAgg4.final (V9 m ρ) c).trans <|
    aggHot_congr (v15_at9 m ρ c) (at9 m ρ c main_arg18 (by decide)) (row_as_vec _ _ (v16_at9 m ρ c))
      (at9 m ρ c main_arg5 (by decide)) (v11_at9 m ρ c) (v13_at9 m ρ c)

/-- Call 5's bias row. -/
theorem v18_at11 (c : Dev nD) :
    V11 m ρ c main_v18 = fun j : (Cert.Spec.Mat 1 600).Idx => (m ((c : Thread nD τ).loc main_arg21)) (ix1 (j 1)) := by
  show StableHlo.after hostOps5 (W10 m ρ c) (Proc.devRef .tc main_v18) = _
  after_results
  exact vec_as_row_of _ _ _ (at10 m ρ c main_arg21 (by decide))

/-- Graph 2's layer, as held in its buffer when call 6's host stretch begins. -/
theorem y2_at (c : Dev nD) :
    W12 (F := Ideal) m ρ c (Proc.devRef .tc main_v19)
      = Cert.Spec.gnnHot (N := 512) (E := 16384) (Dn := 600) (H := 300) (De := 300) (m ((c : Thread nD τ).loc main_arg1)) (m ((c : Thread nD τ).loc main_arg3)) (m ((c : Thread nD τ).loc main_arg5)) ⟨(m ((c : Thread nD τ).loc main_arg16)), (m ((c : Thread nD τ).loc main_arg17)), (m ((c : Thread nD τ).loc main_arg18)), (m ((c : Thread nD τ).loc main_arg19)), (m ((c : Thread nD τ).loc main_arg20)), (m ((c : Thread nD τ).loc main_arg21))⟩ :=
  (W12_arr m ρ c 3).trans <| (KLin5.final (V11 m ρ) c).trans <|
    (linRow_congr (v17_at11 m ρ c) (at11 m ρ c main_arg20 (by decide)) (v18_at11 m ρ c)).trans
      (Cert.Spec.linRow_eq_lin _ _ _)

end Cert.KernelIdeal.Chain

end
-- ==== Proof.KLin6.lean ====
/-
  Pallas call 6 is a linear layer on one grid point: its one block is the whole [1024, 300] result, and entry (i, j)
  is the sum over k of x[i,k] · W[j,k] plus the bias row's entry j (the matrix unit's pass into a zero accumulator is
  that sum at the exact instance; the two roundings to the narrow format are the identity there).
-/
import proofs.«408848_j32693291057228_1_alg».proof.Proof.Gen.KernelIdeal.Frame
import proofs.«408848_j32693291057228_1_alg».proof.Proof.Spec
import Idealize.ShloMosaic.Lib.Pipeline.Value
import Idealize.ShloMosaic.Lib.ValueIdx
import Idealize.ShloMosaic.PureOps.Ideal.Laws

noncomputable section

namespace Cert.KernelIdeal.KLin6

open Idealize.ShloMosaic Idealize.ShloMosaic.TcCoe Idealize.SL.Sem Idealize.ShloMosaic.ValueIdx
open Cert.KernelIdeal Cert.KernelIdeal.Gen

/-! ## The contraction's operand indices

The product contracts axis 1 of x with axis 1 of W: at result entry (i, j) and contraction position k the left
operand is read at (i, k) and the right one at (j, k). One lemma per operand axis. -/

/-- Row axis of the left operand: the result's row. -/
theorem lhs_row (i : S1024x300.Idx) (r : dot_S1024x600_S300x600_S1024x300_1_1_0_0_n_n.contr.Idx) :
    (dot_S1024x600_S300x600_S1024x300_1_1_0_0_n_n.lhsIdx i r 0).val = (i 0).val := by
  unfold DotDims.lhsIdx
  rw [dif_neg (show ¬(0 : Fin S1024x600.rank) ∈ dot_S1024x600_S300x600_S1024x300_1_1_0_0_n_n.lhsBatch by decide), dif_pos (show (0 : Fin S1024x600.rank) ∈ dot_S1024x600_S300x600_S1024x300_1_1_0_0_n_n.lhsNonContracting by decide)]
  rfl

/-- Column axis of the left operand: the contraction position. -/
theorem lhs_col (i : S1024x300.Idx) (r : dot_S1024x600_S300x600_S1024x300_1_1_0_0_n_n.contr.Idx) :
    (dot_S1024x600_S300x600_S1024x300_1_1_0_0_n_n.lhsIdx i r 1).val = (r ⟨0, by decide⟩).val :=
  dot_S1024x600_S300x600_S1024x300_1_1_0_0_n_n.lhsIdx_val_of_single rfl i r

/-- Row axis of the right operand: the result's column. -/
theorem rhs_row (i : S1024x300.Idx) (r : dot_S1024x600_S300x600_S1024x300_1_1_0_0_n_n.contr.Idx) :
    (dot_S1024x600_S300x600_S1024x300_1_1_0_0_n_n.rhsIdx i r 0).val = (i 1).val := by
  unfold DotDims.rhsIdx
  rw [dif_neg (show ¬(0 : Fin S300x600.rank) ∈ dot_S1024x600_S300x600_S1024x300_1_1_0_0_n_n.rhsBatch by decide), dif_pos (show (0 : Fin S300x600.rank) ∈ dot_S1024x600_S300x600_S1024x300_1_1_0_0_n_n.rhsNonContracting by decide)]
  rfl

/-- Column axis of the right operand: the contraction position. -/
theorem rhs_col (i : S1024x300.Idx) (r : dot_S1024x600_S300x600_S1024x300_1_1_0_0_n_n.contr.Idx) :
    (dot_S1024x600_S300x600_S1024x300_1_1_0_0_n_n.rhsIdx i r 1).val = (r ⟨0, by decide⟩).val :=
  dot_S1024x600_S300x600_S1024x300_1_1_0_0_n_n.rhsIdx_val_of_single rfl i r

/-! ## The body's value at one entry -/

/-- Entry (p, q) of what the body stores: a reshaping to the same shape changes nothing, the two narrowings are the
    identity on exact values, the product into the zero accumulator is the plain sum of products over the 600
    contraction positions, and the one-row bias is repeated down the rows, so row p sees entry (0, q) of it. -/
theorem pay_apply (x0 : Vec Ideal S1024x600 .f32) (x1 : Vec Ideal S300x600 .f32) (x2 : Vec Ideal S1x300 .f32)
    (p : Fin 1024) (q : Fin 300) :
    k6_pay1 (F := Ideal) x0 x1 x2 (ix2 p q) = (∑ k : Fin 600, x0 (ix2 p k) * x1 (ix2 q k)) + x2 (ix2 0 q) := by
  unfold k6_pay1
  simp only [shapeCast_self]
  refine (addf_apply _ _ (ix2 p q)).trans ?_
  refine congrArg₂ (· + ·) ?_ ?_
  · refine (Ideal.matmul_constant_zero_apply dot_S1024x600_S300x600_S1024x300_1_1_0_0_n_n none _ _ (ix2 p q)).trans ?_
    rw [← Equiv.sum_comp (contrEquiv1 dot_S1024x600_S300x600_S1024x300_1_1_0_0_n_n 600 rfl rfl).symm]
    refine Finset.sum_congr rfl fun k _ => ?_
    have hk := contrEquiv1_symm_val dot_S1024x600_S300x600_S1024x300_1_1_0_0_n_n 600 rfl rfl k
    have el : dot_S1024x600_S300x600_S1024x300_1_1_0_0_n_n.lhsIdx (ix2 p q) ((contrEquiv1 dot_S1024x600_S300x600_S1024x300_1_1_0_0_n_n 600 rfl rfl).symm k) = ix2 p k := funext fun a => Fin.ext (by
      match a with
      | ⟨0, _⟩ => exact lhs_row _ _
      | ⟨1, _⟩ => exact (lhs_col _ _).trans hk)
    have er : dot_S1024x600_S300x600_S1024x300_1_1_0_0_n_n.rhsIdx (ix2 p q) ((contrEquiv1 dot_S1024x600_S300x600_S1024x300_1_1_0_0_n_n 600 rfl rfl).symm k) = ix2 q k := funext fun a => Fin.ext (by
      match a with
      | ⟨0, _⟩ => exact rhs_row _ _
      | ⟨1, _⟩ => exact (rhs_col _ _).trans hk)
    rw [el, er]
    rfl
  · exact broadcastTo_apply x2 broadcasts_S1x300_S1024x300 (ix2 p q) (ix2 0 q) (fun a => match a with
      | ⟨0, _⟩ => by show 0 = if (1 : Nat) = 1 then 0 else _; rw [if_pos rfl]
      | ⟨1, _⟩ => by show q.val = if (300 : Nat) = 1 then 0 else q.val; rw [if_neg (by decide)])

variable (V : (c : Dev nD) → (b : Ref sig .tc) → Buf (Elt Ideal) ((c : Thread nD τ).loc b))

/-! ## From the one block to the array

The grid has one point and every window's block is its whole array, so each block sits at the origin of its array:
reading an array through such a block gives the array back, and the one write-back covers every entry. -/

/-- The origin, spelt as the accesses spell it. -/
theorem hz : (![0, 0] : Fin 2 → Nat) = fun _ => 0 := funext fun a => by fin_cases a <;> rfl

/-- Every window's block index is (0, 0) at the grid's point. -/
theorem origin : ∀ t : Fin cfg6.N,
    win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0 :=
  (by decide +kernel : ∀ t : Fin grid6.N, _)

/-- The block of x is x. -/
theorem blk_x (c : Dev nD) (t : Fin cfg6.N) :
    (iblk6 (F := Ideal) V c 0 t : Vec Ideal S1024x600 .f32) = V c main_v20 := by
  obtain ⟨e0, e1, -⟩ := origin t
  have hz' : (fun a => win6_0.index t a * main_v20.ty.shape.size a) = fun _ => 0 := funext fun a => by
    match a with
    | ⟨0, _⟩ => show win6_0.index t (0 : Fin 2) * 1024 = 0; rw [e0]
    | ⟨1, _⟩ => show win6_0.index t (1 : Fin 2) * 600 = 0; rw [e1]
  exact Memref.read_access_unit_zero (Elt Ideal) main_v20 hz' (fun a => by rw [congrFun hz' a]; simp) (V c main_v20)

/-- The block of W is W. -/
theorem blk_w (c : Dev nD) (t : Fin cfg6.N) :
    (iblk6 (F := Ideal) V c 1 t : Vec Ideal S300x600 .f32) = V c main_arg22 := by
  obtain ⟨-, -, e0, e1, -⟩ := origin t
  have hz' : (fun a => win6_1.index t a * main_arg22.ty.shape.size a) = fun _ => 0 := funext fun a => by
    match a with
    | ⟨0, _⟩ => show win6_1.index t (0 : Fin 2) * 300 = 0; rw [e0]
    | ⟨1, _⟩ => show win6_1.index t (1 : Fin 2) * 600 = 0; rw [e1]
  exact Memref.read_access_unit_zero (Elt Ideal) main_arg22 hz' (fun a => by rw [congrFun hz' a]; simp) (V c main_arg22)

/-- The block of the bias row is the bias row. -/
theorem blk_b (c : Dev nD) (t : Fin cfg6.N) :
    (iblk6 (F := Ideal) V c 2 t : Vec Ideal S1x300 .f32) = V c main_v26 := by
  obtain ⟨-, -, -, -, e0, e1, -⟩ := origin t
  have hz' : (fun a => win6_2.index t a * main_v26.ty.shape.size a) = fun _ => 0 := funext fun a => by
    match a with
    | ⟨0, _⟩ => show win6_2.index t (0 : Fin 2) * 1 = 0; rw [e0]
    | ⟨1, _⟩ => show win6_2.index t (1 : Fin 2) * 300 = 0; rw [e1]
  exact Memref.read_access_unit_zero (Elt Ideal) main_v26 hz' (fun a => by rw [congrFun hz' a]; simp) (V c main_v26)

/-- The linear layer of the three arrays the call finds. -/
abbrev layer (c : Dev nD) : S1024x300.Idx → EReal :=
  Cert.Spec.linRow (N := 1024) (Din := 600) (Dout := 300) (V c main_v20) (V c main_arg22) (V c main_v26)

/-- What the point writes back is the layer, read through the result's block. -/
theorem flushed_eq (c : Dev nD) (t : Fin cfg6.N) :
    (dat6 (F := Ideal) V c).flushed 3 t = ((cfg6.win 3).blk t).view.read (Elt Ideal) (layer V c) := by
  obtain ⟨-, -, -, -, -, -, e0, e1⟩ := origin t
  have hz' : (fun a => win6_3.index t a * main_v27.ty.shape.size a) = fun _ => 0 := funext fun a => by
    match a with
    | ⟨0, _⟩ => show win6_3.index t (0 : Fin 2) * 1024 = 0; rw [e0]
    | ⟨1, _⟩ => show win6_3.index t (1 : Fin 2) * 300 = 0; rw [e1]
  refine Eq.trans ?_ (Memref.read_access_unit_zero (Elt Ideal) main_v27 hz' (fun a => by rw [congrFun hz' a]; simp) (layer V c)).symm
  show (cfg6.win 3).cut (grid6.coords t) ((dat6 V c).after 3 t) = _
  rw [after6_3]
  unfold out6_3
  rw [View.canon_unit_zero hz]
  simp only [View.ld_unit_zero (S := S1024x600) hz, View.ld_unit_zero (S := S300x600) hz, View.ld_unit_zero (S := S1x300) hz]
  rw [blk_x V c t, blk_w V c t, blk_b V c t]
  funext i
  obtain ⟨p, q, rfl⟩ : ∃ (p : Fin 1024) (q : Fin 300), i = ix2 p q := ⟨i 0, i 1, eq_ix2 i⟩
  exact pay_apply _ _ _ p q

/-- The grid's one point. -/
abbrev pt : Fin cfg6.N := ⟨0, by rw [show cfg6.N = 1 from N_6]; decide⟩

/-- Every entry of the result lies in the block that point writes back. -/
theorem cover (c : Dev nD) (i : ((cfg6.win 3).arr.view.loc (c.tc : Thread nD τ)).2.ty.Idx) :
    ∃ t : Fin cfg6.N, (cfg6.win 3).flush t = true ∧ i ∈ ((cfg6.win 3).blk t).view.set := by
  refine ⟨pt, flush6_3 pt, ?_⟩
  show i ∈ ((View.whole main_v27).slice (win6_3.rect pt)).set
  rw [View.set_slice_whole, Rect.mem_set_unit]
  intro a
  obtain ⟨-, -, -, -, -, -, e0, e1⟩ := origin pt
  have h0 : (i 0 : Nat) < 1024 := (i 0).isLt
  have h1 : (i 1 : Nat) < 300 := (i 1).isLt
  match a with
  | ⟨0, _⟩ =>
    show win6_3.index pt (0 : Fin 2) * 1024 ≤ (i 0 : Nat) ∧ (i 0 : Nat) < win6_3.index pt (0 : Fin 2) * 1024 + 1024
    rw [e0]; omega
  | ⟨1, _⟩ =>
    show win6_3.index pt (1 : Fin 2) * 300 ≤ (i 1 : Nat) ∧ (i 1 : Nat) < win6_3.index pt (1 : Fin 2) * 300 + 300
    rw [e1]; omega

/-- The array call 6 leaves is the linear layer of the three arrays it finds. -/
theorem final (c : Dev nD) :
    (dat6 (F := Ideal) V c).arrAt 3 cfg6.N
      = Cert.Spec.linRow (N := 1024) (Din := 600) (Dout := 300) (V c main_v20) (V c main_arg22) (V c main_v26) :=
  (dat6 (F := Ideal) V c).arrAt_eq_of_cover 3 (layer V c) (fun t _ => flushed_eq V c t) (cover c)

end Cert.KernelIdeal.KLin6

end
-- ==== Proof.KAgg7Pay.lean ====
/-
  The arithmetic of one grid point of the aggregation call 7, free of the memory: from the blocks a point sees (the
  node table px, the edge weight We and bias row be, one tile of 1024 edge features and of source and destination words)
  and the carried block acc, the stored value at (n, h) is acc[n, h] plus the sum over the tile's edges r of
  [dst r = n] times the message of r: the comparison of a broadcast word against an iota is the indicator (as 0 or 1,
  through a widening and an integer-to-float conversion), a matrix-unit pass into a zero accumulator is the plain
  sum of products, a rounding to the narrow format is the identity at the exact instance.
-/
import proofs.«408848_j32693291057228_1_alg».proof.Proof.Gen.KernelIdeal.Skeleton
import proofs.«408848_j32693291057228_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KAgg7Pay

open Idealize.ShloMosaic Idealize.ShloMosaic.TcCoe Idealize.SL.Sem Idealize.ShloMosaic.ValueIdx
open Cert.KernelIdeal Cert.KernelIdeal.Gen
open scoped BigOperators

/-! ## A vector as a column, and one column repeated over many -/

section Column
variable {α : Type}

/-- An `[a]` array cast to `[a, 1]` reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## The indicator: a comparison bit, widened and converted -/

/-- The comparison bit of two words, widened to a word and converted to a float, is 1 when the words are equal and 0
    otherwise. -/
theorem sitofp_cmpi_eq (a b : BitVec 32) :
    (FloatOps.sitofp (F := Ideal) .f32 ((IntOp.cmpi .eq a b).setWidth 32) : EReal) = if a = b then 1 else 0 := by
  by_cases h : a = b
  · subst h
    rw [if_pos rfl]
    have e : (IntOp.cmpi .eq a a).setWidth 32 = 1#32 := by simp [IntOp.cmpi]
    rw [e]
    show (((1#32 : BitVec 32).toInt : ℝ) : EReal) = 1
    have t : (1#32 : BitVec 32).toInt = 1 := by decide
    rw [t]; simp
  · rw [if_neg h]
    have hb : (a == b) = false := beq_eq_false_iff_ne.2 h
    have e : (IntOp.cmpi .eq a b).setWidth 32 = 0#32 := by simp [IntOp.cmpi, hb]
    rw [e]
    show (((0#32 : BitVec 32).toInt : ℝ) : EReal) = 0
    have t : (0#32 : BitVec 32).toInt = 0 := by decide
    rw [t]; simp

/-! ## The three matrix products, each into a zero accumulator, read at an entry

Each product sums over one axis. Which coordinate of each operand is the result's and which is the summation position
is read off the product's dimension numbers, axis by axis; the summation index, a one-axis multi-index, is exchanged
for its one coordinate. -/

/-- The left operand's row is the result's row. -/
theorem gatherL0 (i : S1024x300.Idx) (q : dot_S1024x1024_S1024x300_S1024x300_1_0_0_1_n_n.contr.Idx) :
    (dot_S1024x1024_S1024x300_S1024x300_1_0_0_1_n_n.lhsIdx i q 0).val = (i 0).val := by
  unfold DotDims.lhsIdx
  rw [dif_neg (show ¬(0 : Fin S1024x1024.rank) ∈ dot_S1024x1024_S1024x300_S1024x300_1_0_0_1_n_n.lhsBatch by decide),
    dif_pos (show (0 : Fin S1024x1024.rank) ∈ dot_S1024x1024_S1024x300_S1024x300_1_0_0_1_n_n.lhsNonContracting by decide)]
  rfl
/-- The left operand's column is the summation position. -/
theorem gatherL1 (i : S1024x300.Idx) (q : dot_S1024x1024_S1024x300_S1024x300_1_0_0_1_n_n.contr.Idx) :
    (dot_S1024x1024_S1024x300_S1024x300_1_0_0_1_n_n.lhsIdx i q 1).val = (q ⟨0, by decide⟩).val :=
  dot_S1024x1024_S1024x300_S1024x300_1_0_0_1_n_n.lhsIdx_val_of_single rfl i q
/-- The right operand's row is the summation position. -/
theorem gatherR0 (i : S1024x300.Idx) (q : dot_S1024x1024_S1024x300_S1024x300_1_0_0_1_n_n.contr.Idx) :
    (dot_S1024x1024_S1024x300_S1024x300_1_0_0_1_n_n.rhsIdx i q 0).val = (q ⟨0, by decide⟩).val :=
  dot_S1024x1024_S1024x300_S1024x300_1_0_0_1_n_n.rhsIdx_val_of_single rfl i q
/-- The right operand's column is the result's column. -/
theorem gatherR1 (i : S1024x300.Idx) (q : dot_S1024x1024_S1024x300_S1024x300_1_0_0_1_n_n.contr.Idx) :
    (dot_S1024x1024_S1024x300_S1024x300_1_0_0_1_n_n.rhsIdx i q 1).val = (i 1).val := by
  unfold DotDims.rhsIdx
  rw [dif_neg (show ¬(1 : Fin S1024x300.rank) ∈ dot_S1024x1024_S1024x300_S1024x300_1_0_0_1_n_n.rhsBatch by decide),
    dif_pos (show (1 : Fin S1024x300.rank) ∈ dot_S1024x1024_S1024x300_S1024x300_1_0_0_1_n_n.rhsNonContracting by decide)]
  rfl

/-- Indicator rows times the node table: entry (e, h) sums, over the nodes k, the left (e, k) times the right (k, h). -/
theorem gather_apply (l : FVec Ideal S1024x1024 .bf16) (r : FVec Ideal S1024x300 .bf16) (a : Fin 1024) (b : Fin 300) :
    matmul (F := Ideal) dot_S1024x1024_S1024x300_S1024x300_1_0_0_1_n_n none l r (constant (F := Ideal) S1024x300 .f32 0x00000000#32) (ix2 a b)
      = ∑ k : Fin 1024, l (ix2 a k) * r (ix2 k b) := by
  simp only [matmul]
  rw [Ideal.matmul_constant_zero_apply,
    ← Equiv.sum_comp (contrEquiv1 dot_S1024x1024_S1024x300_S1024x300_1_0_0_1_n_n 1024 rfl rfl).symm]
  refine Finset.sum_congr rfl fun k _ => ?_
  have hk := contrEquiv1_symm_val dot_S1024x1024_S1024x300_S1024x300_1_0_0_1_n_n 1024 rfl rfl k
  have el : dot_S1024x1024_S1024x300_S1024x300_1_0_0_1_n_n.lhsIdx (ix2 a b) ((contrEquiv1 dot_S1024x1024_S1024x300_S1024x300_1_0_0_1_n_n 1024 rfl rfl).symm k)
      = ix2 a k := funext fun d => Fin.ext (by
    match d with
    | ⟨0, _⟩ => exact gatherL0 _ _
    | ⟨1, _⟩ => exact (gatherL1 _ _).trans hk)
  have er : dot_S1024x1024_S1024x300_S1024x300_1_0_0_1_n_n.rhsIdx (ix2 a b) ((contrEquiv1 dot_S1024x1024_S1024x300_S1024x300_1_0_0_1_n_n 1024 rfl rfl).symm k)
      = ix2 k b := funext fun d => Fin.ext (by
    match d with
    | ⟨0, _⟩ => exact (gatherR0 _ _).trans hk
    | ⟨1, _⟩ => exact gatherR1 _ _)
  rw [el, er]

/-- The left operand's row is the result's row. -/
theorem projL0 (i : S1024x300.Idx) (q : dot_S1024x300_S300x300_S1024x300_1_1_0_0_n_n.contr.Idx) :
    (dot_S1024x300_S300x300_S1024x300_1_1_0_0_n_n.lhsIdx i q 0).val = (i 0).val := by
  unfold DotDims.lhsIdx
  rw [dif_neg (show ¬(0 : Fin S1024x300.rank) ∈ dot_S1024x300_S300x300_S1024x300_1_1_0_0_n_n.lhsBatch by decide),
    dif_pos (show (0 : Fin S1024x300.rank) ∈ dot_S1024x300_S300x300_S1024x300_1_1_0_0_n_n.lhsNonContracting by decide)]
  rfl
/-- The left operand's column is the summation position. -/
theorem projL1 (i : S1024x300.Idx) (q : dot_S1024x300_S300x300_S1024x300_1_1_0_0_n_n.contr.Idx) :
    (dot_S1024x300_S300x300_S1024x300_1_1_0_0_n_n.lhsIdx i q 1).val = (q ⟨0, by decide⟩).val :=
  dot_S1024x300_S300x300_S1024x300_1_1_0_0_n_n.lhsIdx_val_of_single rfl i q
/-- The right operand's row is the result's column. -/
theorem projR0 (i : S1024x300.Idx) (q : dot_S1024x300_S300x300_S1024x300_1_1_0_0_n_n.contr.Idx) :
    (dot_S1024x300_S300x300_S1024x300_1_1_0_0_n_n.rhsIdx i q 0).val = (i 1).val := by
  unfold DotDims.rhsIdx
  rw [dif_neg (show ¬(0 : Fin S300x300.rank) ∈ dot_S1024x300_S300x300_S1024x300_1_1_0_0_n_n.rhsBatch by decide),
    dif_pos (show (0 : Fin S300x300.rank) ∈ dot_S1024x300_S300x300_S1024x300_1_1_0_0_n_n.rhsNonContracting by decide)]
  rfl
/-- The right operand's column is the summation position. -/
theorem projR1 (i : S1024x300.Idx) (q : dot_S1024x300_S300x300_S1024x300_1_1_0_0_n_n.contr.Idx) :
    (dot_S1024x300_S300x300_S1024x300_1_1_0_0_n_n.rhsIdx i q 1).val = (q ⟨0, by decide⟩).val :=
  dot_S1024x300_S300x300_S1024x300_1_1_0_0_n_n.rhsIdx_val_of_single rfl i q

/-- Edge features times the weight's transpose: entry (e, h) sums, over the feature columns k, the left (e, k) times the right (h, k). -/
theorem proj_apply (l : FVec Ideal S1024x300 .bf16) (r : FVec Ideal S300x300 .bf16) (a : Fin 1024) (b : Fin 300) :
    matmul (F := Ideal) dot_S1024x300_S300x300_S1024x300_1_1_0_0_n_n none l r (constant (F := Ideal) S1024x300 .f32 0x00000000#32) (ix2 a b)
      = ∑ k : Fin 300, l (ix2 a k) * r (ix2 b k) := by
  simp only [matmul]
  rw [Ideal.matmul_constant_zero_apply,
    ← Equiv.sum_comp (contrEquiv1 dot_S1024x300_S300x300_S1024x300_1_1_0_0_n_n 300 rfl rfl).symm]
  refine Finset.sum_congr rfl fun k _ => ?_
  have hk := contrEquiv1_symm_val dot_S1024x300_S300x300_S1024x300_1_1_0_0_n_n 300 rfl rfl k
  have el : dot_S1024x300_S300x300_S1024x300_1_1_0_0_n_n.lhsIdx (ix2 a b) ((contrEquiv1 dot_S1024x300_S300x300_S1024x300_1_1_0_0_n_n 300 rfl rfl).symm k)
      = ix2 a k := funext fun d => Fin.ext (by
    match d with
    | ⟨0, _⟩ => exact projL0 _ _
    | ⟨1, _⟩ => exact (projL1 _ _).trans hk)
  have er : dot_S1024x300_S300x300_S1024x300_1_1_0_0_n_n.rhsIdx (ix2 a b) ((contrEquiv1 dot_S1024x300_S300x300_S1024x300_1_1_0_0_n_n 300 rfl rfl).symm k)
      = ix2 b k := funext fun d => Fin.ext (by
    match d with
    | ⟨0, _⟩ => exact projR0 _ _
    | ⟨1, _⟩ => exact (projR1 _ _).trans hk)
  rw [el, er]

/-- The left operand's row is the result's row. -/
theorem scatterL0 (i : S1024x300.Idx) (q : dot_S1024x1024_S1024x300_S1024x300_1_0_0_1_n_n.contr.Idx) :
    (dot_S1024x1024_S1024x300_S1024x300_1_0_0_1_n_n.lhsIdx i q 0).val = (i 0).val := by
  unfold DotDims.lhsIdx
  rw [dif_neg (show ¬(0 : Fin S1024x1024.rank) ∈ dot_S1024x1024_S1024x300_S1024x300_1_0_0_1_n_n.lhsBatch by decide),
    dif_pos (show (0 : Fin S1024x1024.rank) ∈ dot_S1024x1024_S1024x300_S1024x300_1_0_0_1_n_n.lhsNonContracting by decide)]
  rfl
/-- The left operand's column is the summation position. -/
theorem scatterL1 (i : S1024x300.Idx) (q : dot_S1024x1024_S1024x300_S1024x300_1_0_0_1_n_n.contr.Idx) :
    (dot_S1024x1024_S1024x300_S1024x300_1_0_0_1_n_n.lhsIdx i q 1).val = (q ⟨0, by decide⟩).val :=
  dot_S1024x1024_S1024x300_S1024x300_1_0_0_1_n_n.lhsIdx_val_of_single rfl i q
/-- The right operand's row is the summation position. -/
theorem scatterR0 (i : S1024x300.Idx) (q : dot_S1024x1024_S1024x300_S1024x300_1_0_0_1_n_n.contr.Idx) :
    (dot_S1024x1024_S1024x300_S1024x300_1_0_0_1_n_n.rhsIdx i q 0).val = (q ⟨0, by decide⟩).val :=
  dot_S1024x1024_S1024x300_S1024x300_1_0_0_1_n_n.rhsIdx_val_of_single rfl i q
/-- The right operand's column is the result's column. -/
theorem scatterR1 (i : S1024x300.Idx) (q : dot_S1024x1024_S1024x300_S1024x300_1_0_0_1_n_n.contr.Idx) :
    (dot_S1024x1024_S1024x300_S1024x300_1_0_0_1_n_n.rhsIdx i q 1).val = (i 1).val := by
  unfold DotDims.rhsIdx
  rw [dif_neg (show ¬(1 : Fin S1024x300.rank) ∈ dot_S1024x1024_S1024x300_S1024x300_1_0_0_1_n_n.rhsBatch by decide),
    dif_pos (show (1 : Fin S1024x300.rank) ∈ dot_S1024x1024_S1024x300_S1024x300_1_0_0_1_n_n.rhsNonContracting by decide)]
  rfl

/-- Indicator columns times the messages: entry (n, h) sums, over the tile's edges k, the left (n, k) times the right (k, h). -/
theorem scatter_apply (l : FVec Ideal S1024x1024 .bf16) (r : FVec Ideal S1024x300 .bf16) (a : Fin 1024) (b : Fin 300) :
    matmul (F := Ideal) dot_S1024x1024_S1024x300_S1024x300_1_0_0_1_n_n none l r (constant (F := Ideal) S1024x300 .f32 0x00000000#32) (ix2 a b)
      = ∑ k : Fin 1024, l (ix2 a k) * r (ix2 k b) := by
  simp only [matmul]
  rw [Ideal.matmul_constant_zero_apply,
    ← Equiv.sum_comp (contrEquiv1 dot_S1024x1024_S1024x300_S1024x300_1_0_0_1_n_n 1024 rfl rfl).symm]
  refine Finset.sum_congr rfl fun k _ => ?_
  have hk := contrEquiv1_symm_val dot_S1024x1024_S1024x300_S1024x300_1_0_0_1_n_n 1024 rfl rfl k
  have el : dot_S1024x1024_S1024x300_S1024x300_1_0_0_1_n_n.lhsIdx (ix2 a b) ((contrEquiv1 dot_S1024x1024_S1024x300_S1024x300_1_0_0_1_n_n 1024 rfl rfl).symm k)
      = ix2 a k := funext fun d => Fin.ext (by
    match d with
    | ⟨0, _⟩ => exact scatterL0 _ _
    | ⟨1, _⟩ => exact (scatterL1 _ _).trans hk)
  have er : dot_S1024x1024_S1024x300_S1024x300_1_0_0_1_n_n.rhsIdx (ix2 a b) ((contrEquiv1 dot_S1024x1024_S1024x300_S1024x300_1_0_0_1_n_n 1024 rfl rfl).symm k)
      = ix2 k b := funext fun d => Fin.ext (by
    match d with
    | ⟨0, _⟩ => exact (scatterR0 _ _).trans hk
    | ⟨1, _⟩ => exact scatterR1 _ _)
  rw [el, er]

/-! ## The indicators -/

/-- Entry (n, r) of the destination indicator: the word of edge r, laid as a row and repeated down the rows, against
    the row number. -/
theorem dstRow_apply (x5 : Vec Ideal S1024 .i32) (n : Fin 1024) (r : Fin 1024) :
    k7_pay4 (F := Ideal) x5 (ix2 n r) = Cert.Spec.hot (x5 (ix1 r)) n.val := by
  unfold k7_pay4 k7_pay3
  have e1 : broadcastTo S1024x1024 (shapeCast S1x1024 (shapeCast S1024 x5 shapeCasts_S1024_S1024) shapeCasts_S1024_S1x1024)
      broadcasts_S1x1024_S1024x1024 (ix2 n r) = x5 (ix1 r) := by
    refine (broadcastTo_1b_ab_apply _ _ n r).trans ?_
    refine (shapeCast_a_1a_apply _ _ 0 r).trans ?_
    rw [shapeCast_self]
  have e2 : iota .tc S1024x1024 32 [0] iota_S1024x1024_d0_w32 (ix2 n r) = BitVec.ofNat 32 n.val :=
    iota_single_apply _ _ _ _ _ _
  refine (sitofp_cmpi_eq _ _).trans ?_
  rw [e1, e2]
  rfl

/-- The indicator of an endpoint word against the node numbers: the words as a column, repeated along the columns,
    compared with the column number, the bit widened, converted and rounded. -/
abbrev endCol (w : Vec Ideal S1024 .i32) : FVec Ideal S1024x1024 .bf16 :=
  truncf .bf16 (sitofp (F := Ideal) .f32 (extui 32 (cmpi .eq
    (broadcastTo S1024x1024 (shapeCast S1024x1 (shapeCast S1024 w shapeCasts_S1024_S1024) shapeCasts_S1024_S1024x1)
      broadcasts_S1024x1_S1024x1024)
    (iota .tc S1024x1024 32 [1] iota_S1024x1024_d1_w32)) natLt_1_32)) bitsLt_bf16_f32

/-- Entry (e, k) of an endpoint indicator is 1 when edge e's word names node k, and 0 otherwise. -/
theorem endCol_apply (w : Vec Ideal S1024 .i32) (e : Fin 1024) (k : Fin 1024) :
    endCol w (ix2 e k) = Cert.Spec.hot (w (ix1 e)) k.val := by
  have e1 : broadcastTo S1024x1024 (shapeCast S1024x1 (shapeCast S1024 w shapeCasts_S1024_S1024) shapeCasts_S1024_S1024x1)
      broadcasts_S1024x1_S1024x1024 (ix2 e k) = w (ix1 e) := by
    refine (broadcastTo_a1_ab_apply _ _ e k).trans ?_
    refine (shapeCast_a_a1_apply _ _ e 0).trans ?_
    rw [shapeCast_self]
  have e2 : iota .tc S1024x1024 32 [1] iota_S1024x1024_d1_w32 (ix2 e k) = BitVec.ofNat 32 k.val :=
    iota_single_apply _ _ _ _ _ _
  refine (sitofp_cmpi_eq _ _).trans ?_
  rw [e1, e2]
  rfl

/-! ## The message of an edge, and the update of the carried block -/

/-- A row lookup as a product: the indicator's row e against column h of the node table. -/
theorem gatherRow (w : Vec Ideal S1024 .i32) (x0 : Vec Ideal S1024x300 .f32) (e : Fin 1024) (h : Fin 300) :
    matmul (F := Ideal) dot_S1024x1024_S1024x300_S1024x300_1_0_0_1_n_n none (endCol w)
        (truncf .bf16 (shapeCast S1024x300 x0 shapeCasts_S1024x300_S1024x300) bitsLt_bf16_f32)
        (constant (F := Ideal) S1024x300 .f32 0x00000000#32) (ix2 e h)
      = ∑ n : Fin 1024, Cert.Spec.hot (w (ix1 e)) n.val * x0 (ix2 n h) := by
  refine (gather_apply _ _ e h).trans (Finset.sum_congr rfl fun k _ => ?_)
  rw [endCol_apply, truncf_apply, shapeCast_self]

/-- The projected features of edge e at column h, before the bias. -/
theorem projRow (x3 : Vec Ideal S1024x300 .f32) (x1 : Vec Ideal S300x300 .f32) (e : Fin 1024) (h : Fin 300) :
    matmul (F := Ideal) dot_S1024x300_S300x300_S1024x300_1_1_0_0_n_n none (truncf .bf16 x3 bitsLt_bf16_f32)
        (truncf .bf16 x1 bitsLt_bf16_f32) (constant (F := Ideal) S1024x300 .f32 0x00000000#32) (ix2 e h)
      = ∑ k : Fin 300, x3 (ix2 e k) * x1 (ix2 h k) :=
  proj_apply _ _ e h

/-- The bias row repeated down the rows reads its column h. -/
theorem biasRow (x2 : Vec Ideal S1x300 .f32) (e : Fin 1024) (h : Fin 300) :
    broadcastTo S1024x300 (shapeCast S1x300 x2 shapeCasts_S1x300_S1x300) broadcasts_S1x300_S1024x300 (ix2 e h)
      = x2 (ix2 0 h) := by
  refine (broadcastTo_1b_ab_apply _ _ e h).trans ?_
  rw [shapeCast_self]

/-- The message of edge e at column h: both lookups, the projected features and the bias. -/
theorem msg_apply (x4 x5 : Vec Ideal S1024 .i32) (x0 : Vec Ideal S1024x300 .f32) (x3 : Vec Ideal S1024x300 .f32)
    (x1 : Vec Ideal S300x300 .f32) (x2 : Vec Ideal S1x300 .f32) (e : Fin 1024) (h : Fin 300) :
    k7_pay5 (F := Ideal) x4 x5 x0 x3 x1 x2 (ix2 e h)
      = Cert.Spec.msgHot (N := 1024) (E := 1024) (H := 300) (De := 300) x0 x1 (fun j => x2 (ix2 0 (j 0))) x3 x4 x5 e h := by
  unfold k7_pay5 k7_pay3
  show (matmul (F := Ideal) dot_S1024x1024_S1024x300_S1024x300_1_0_0_1_n_n none (endCol x4)
          (truncf .bf16 (shapeCast S1024x300 x0 shapeCasts_S1024x300_S1024x300) bitsLt_bf16_f32)
          (constant (F := Ideal) S1024x300 .f32 0x00000000#32) (ix2 e h)
        + matmul (F := Ideal) dot_S1024x1024_S1024x300_S1024x300_1_0_0_1_n_n none (endCol x5)
          (truncf .bf16 (shapeCast S1024x300 x0 shapeCasts_S1024x300_S1024x300) bitsLt_bf16_f32)
          (constant (F := Ideal) S1024x300 .f32 0x00000000#32) (ix2 e h))
      + (matmul (F := Ideal) dot_S1024x300_S300x300_S1024x300_1_1_0_0_n_n none (truncf .bf16 x3 bitsLt_bf16_f32)
          (truncf .bf16 x1 bitsLt_bf16_f32) (constant (F := Ideal) S1024x300 .f32 0x00000000#32) (ix2 e h)
        + broadcastTo S1024x300 (shapeCast S1x300 x2 shapeCasts_S1x300_S1x300) broadcasts_S1x300_S1024x300 (ix2 e h)) = _
  rw [gatherRow, gatherRow, projRow, biasRow]
  rfl

/-- The block a point starts from at point 0 is zero. -/
theorem reset (j : S1024x300.Idx) : k7_pay2 (F := Ideal) j = 0 := by
  unfold k7_pay2
  exact Ideal.ofBits_zero_f32

/-- One point's update of the carried block, entry by entry. -/
theorem update (x0 : Vec Ideal S1024x300 .f32) (x1 : Vec Ideal S300x300 .f32) (x2 : Vec Ideal S1x300 .f32)
    (x3 : Vec Ideal S1024x300 .f32) (x4 x5 : Vec Ideal S1024 .i32) (acc : Vec Ideal S1024x300 .f32) (n : Fin 1024) (h : Fin 300) :
    k7_pay1 (F := Ideal) (k7_pay4 (F := Ideal) x5) (k7_pay5 (F := Ideal) x4 x5 x0 x3 x1 x2) acc (ix2 n h)
      = acc (ix2 n h) + ∑ r : Fin 1024, Cert.Spec.hot (x5 (ix1 r)) n.val
          * Cert.Spec.msgHot (N := 1024) (E := 1024) (H := 300) (De := 300) x0 x1 (fun j => x2 (ix2 0 (j 0))) x3 x4 x5 r h := by
  unfold k7_pay1
  show shapeCast S1024x300 acc shapeCasts_S1024x300_S1024x300 (ix2 n h)
      + matmul (F := Ideal) dot_S1024x1024_S1024x300_S1024x300_1_0_0_1_n_n none (k7_pay4 (F := Ideal) x5)
          (truncf .bf16 (k7_pay5 (F := Ideal) x4 x5 x0 x3 x1 x2) bitsLt_bf16_f32)
          (constant (F := Ideal) S1024x300 .f32 0x00000000#32) (ix2 n h) = _
  rw [shapeCast_self, scatter_apply]
  refine congrArg (acc (ix2 n h) + ·) (Finset.sum_congr rfl fun r _ => ?_)
  rw [dstRow_apply, truncf_apply, msg_apply]

end Cert.KernelIdeal.KAgg7Pay

end
-- ==== Proof.KAgg7.lean ====
/-
  Pallas call 7 is the aggregation, tiled over the edge axis: point t sees one tile of edges, builds the indicators
  [src e = n], [dst e = n] against the node numbers, forms each edge's message by two indicator matmuls and the edge
  projection, and adds the indicator-weighted messages into the [1024, 300] block it carries from point to point (zeroed at
  point 0, written back once after the last point). The sum over the tiles in turn is the sum over all 262144 edges.

  The steps. What a point leaves in the carried block is one update of what it found there (of the zero block at the
  first point). The node table, the weight and the bias row are seen whole at every point; the edge features and the
  endpoint words are seen one tile at a time, row r of tile t being row 1024 t + r of the array. A message reads the
  edge arrays only at its own edge, so the update by tile t adds, at entry (p, q), the sum over the tile's edges of
  [dst e = p] times the message of e, all read off the whole arrays. The carried block after point n is therefore the
  sum of the first n + 1 tiles' contributions; after the last point it is the sum over all tiles, that is over all
  edges; and that point is the one that writes the block, which is the whole array, back.
-/
import proofs.«408848_j32693291057228_1_alg».proof.Proof.Gen.KernelIdeal.Frame
import proofs.«408848_j32693291057228_1_alg».proof.Proof.Spec
import proofs.«408848_j32693291057228_1_alg».proof.Proof.SpecLaw
import proofs.«408848_j32693291057228_1_alg».proof.Proof.KAgg7Pay
import Idealize.ShloMosaic.Lib.Pipeline.Value
import Idealize.ShloMosaic.Lib.Tactic

noncomputable section

namespace Cert.KernelIdeal.KAgg7

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

/-- Zero offsets, however they are spelt. -/
theorem hz : (![0, 0] : Fin 2 → Nat) = fun _ => 0 := funext fun a => by fin_cases a <;> rfl
theorem hz1 : (![0] : Fin 1 → Nat) = fun _ => 0 := funext fun a => by fin_cases a; rfl

section Pieces
variable {F : FTy → Type} [FloatOps F]

/-- At a point after the first, the carried block `xo` is read whole, the tile's contribution is added, and the one
    store covers the block: what is left is the update of `xo` by the blocks the point sees. -/
theorem out_B (c : Dev nD) (i : grid7.Coords) (a1 : Memref sig .tc .vmem S1024x300 .f32) (h1 : a1.IsWhole)
    (a2 : Memref sig .tc .vmem S300x300 .f32) (h2 : a2.IsWhole) (a3 : Memref sig .tc .vmem S1x300 .f32) (h3 : a3.IsWhole)
    (a4 : Memref sig .tc .vmem S1024x300 .f32) (h4 : a4.IsWhole) (a5 : Memref sig .tc .vmem S1024 .i32) (h5 : a5.IsWhole)
    (a6 : Memref sig .tc .vmem S1024 .i32) (h6 : a6.IsWhole) (a7 : Memref sig .tc .vmem S1024x300 .f32) (h7 : a7.IsWhole)
    (hc : ¬cond7_0 i) (x0 : Vec F S1024x300 .f32) (x1 : Vec F S300x300 .f32) (x2 : Vec F S1x300 .f32)
    (x3 : Vec F S1024x300 .f32) (x4 x5 : Vec F S1024 .i32) (xo : Vec F S1024x300 .f32) :
    out7_B_6 c i a1 h1 a2 h2 a3 h3 a4 h4 a5 h5 a6 h6 a7 h7 hc x0 x1 x2 x3 x4 x5 xo
      = k7_pay1 (k7_pay4 x5) (k7_pay5 x4 x5 x0 x3 x1 x2) xo := by
  unfold out7_B_6
  rw [View.read_writes_eq_canon _ _ _ (cover7_B_6 c i a1 h1 a2 h2 a3 h3 a4 h4 a5 h5 a6 h6 a7 h7 hc x0 x1 x2 x3 x4 x5 xo)]
  unfold kernelRun7_B
  dsimp only
  sl_unfold_words
  rw [View.canon_unit_zero (S := S1024x300) hz]
  simp only [View.readAt_eq_ld, h1.read_unread, h2.read_unread, h3.read_unread, h4.read_unread, h5.read_unread,
    h6.read_unread, h7.read_unread, View.ld_unit_zero (S := S1024x300) hz, View.ld_unit_zero (S := S300x300) hz,
    View.ld_unit_zero (S := S1x300) hz, View.ld_unit_zero (S := S1024x300) hz, View.ld_unit_zero (S := S1024) hz1]

/-- At the first point the block is first set to the zero block, that is read back, the tile's contribution is added
    and the second store covers the block again: what is left is the update of the zero block. -/
theorem out_A (c : Dev nD) (i : grid7.Coords) (a1 : Memref sig .tc .vmem S1024x300 .f32) (h1 : a1.IsWhole)
    (a2 : Memref sig .tc .vmem S300x300 .f32) (h2 : a2.IsWhole) (a3 : Memref sig .tc .vmem S1x300 .f32) (h3 : a3.IsWhole)
    (a4 : Memref sig .tc .vmem S1024x300 .f32) (h4 : a4.IsWhole) (a5 : Memref sig .tc .vmem S1024 .i32) (h5 : a5.IsWhole)
    (a6 : Memref sig .tc .vmem S1024 .i32) (h6 : a6.IsWhole) (a7 : Memref sig .tc .vmem S1024x300 .f32) (h7 : a7.IsWhole)
    (hc : cond7_0 i) (x0 : Vec F S1024x300 .f32) (x1 : Vec F S300x300 .f32) (x2 : Vec F S1x300 .f32)
    (x3 : Vec F S1024x300 .f32) (x4 x5 : Vec F S1024 .i32) :
    out7_A_6 c i a1 h1 a2 h2 a3 h3 a4 h4 a5 h5 a6 h6 a7 h7 hc x0 x1 x2 x3 x4 x5
      = k7_pay1 (k7_pay4 x5) (k7_pay5 x4 x5 x0 x3 x1 x2) (k7_pay2 (F := F)) := by
  unfold out7_A_6
  rw [View.read_writes_eq_canon _ _ _ (cover7_A_6 c i a1 h1 a2 h2 a3 h3 a4 h4 a5 h5 a6 h6 a7 h7 hc x0 x1 x2 x3 x4 x5)]
  unfold kernelRun7_A
  dsimp only
  sl_unfold_words
  rw [View.canon_cons_unit_zero (S := S1024x300) hz, View.readCov_unit_zero (S := S1024x300) _ hz]
  simp only [View.readAt_eq_ld, h1.read_unread, h2.read_unread, h3.read_unread, h4.read_unread, h5.read_unread,
    h6.read_unread, View.ld_unit_zero (S := S1024x300) hz, View.ld_unit_zero (S := S300x300) hz,
    View.ld_unit_zero (S := S1x300) hz, View.ld_unit_zero (S := S1024x300) hz, View.ld_unit_zero (S := S1024) hz1]

end Pieces

/-! ## The blocks a point sees, read off the arrays -/

section Blocks
variable (V : (c : Dev nD) → (b : Ref sig .tc) → Buf (Elt Ideal) ((c : Thread nD τ).loc b))

/-- The six arrays the call finds: the node table, the edge weight, the bias row, the edge features, the source and
    the destination words. -/
abbrev pxA (c : Dev nD) : Vec Ideal S1024x300 .f32 := V c main_v27
abbrev weA (c : Dev nD) : Vec Ideal S300x300 .f32 := V c main_arg24
abbrev beA (c : Dev nD) : Vec Ideal S1x300 .f32 := V c main_v28
abbrev eaA (c : Dev nD) : Vec Ideal S262144x300 .f32 := V c main_arg7
abbrev srcA (c : Dev nD) : Vec Ideal S262144 .i32 := V c main_v23
abbrev dstA (c : Dev nD) : Vec Ideal S262144 .i32 := V c main_v25

/-- Their blocks at point `t`. -/
abbrev pxB (c : Dev nD) (t : Fin cfg7.N) : Vec Ideal S1024x300 .f32 := iblk7 V c 0 t
abbrev weB (c : Dev nD) (t : Fin cfg7.N) : Vec Ideal S300x300 .f32 := iblk7 V c 1 t
abbrev beB (c : Dev nD) (t : Fin cfg7.N) : Vec Ideal S1x300 .f32 := iblk7 V c 2 t
abbrev eaB (c : Dev nD) (t : Fin cfg7.N) : Vec Ideal S1024x300 .f32 := iblk7 V c 3 t
abbrev srcB (c : Dev nD) (t : Fin cfg7.N) : Vec Ideal S1024 .i32 := iblk7 V c 4 t
abbrev dstB (c : Dev nD) (t : Fin cfg7.N) : Vec Ideal S1024 .i32 := iblk7 V c 5 t

/-- Where each window's block sits at point `t`: the first three never move, the last three are at tile `t`. -/
theorem idx_facts : ∀ t : Fin cfg7.N,
    (win7_0.index t 0 = 0 ∧ win7_0.index t 1 = 0) ∧ (win7_1.index t 0 = 0 ∧ win7_1.index t 1 = 0)
      ∧ (win7_2.index t 0 = 0 ∧ win7_2.index t 1 = 0) ∧ (win7_3.index t 0 = t.val ∧ win7_3.index t 1 = 0)
      ∧ win7_4.index t 0 = t.val ∧ win7_5.index t 0 = t.val :=
  (by decide +kernel : ∀ t : Fin grid7.N,
    (win7_0.index t 0 = 0 ∧ win7_0.index t 1 = 0) ∧ (win7_1.index t 0 = 0 ∧ win7_1.index t 1 = 0)
      ∧ (win7_2.index t 0 = 0 ∧ win7_2.index t 1 = 0) ∧ (win7_3.index t 0 = t.val ∧ win7_3.index t 1 = 0)
      ∧ win7_4.index t 0 = t.val ∧ win7_5.index t 0 = t.val)

/-- The carried block never moves. -/
theorem idx_out : ∀ t : Fin cfg7.N, win7_6.index t 0 = 0 ∧ win7_6.index t 1 = 0 :=
  (by decide +kernel : ∀ t : Fin grid7.N, win7_6.index t 0 = 0 ∧ win7_6.index t 1 = 0)

/-- and is never cut short. -/
theorem xsize_out : ∀ t : Fin cfg7.N, win7_6.xsize (grid7.coords t) 0 = 1024 ∧ win7_6.xsize (grid7.coords t) 1 = 300 :=
  (by decide +kernel : ∀ t : Fin grid7.N, win7_6.xsize (grid7.coords t) 0 = 1024 ∧ win7_6.xsize (grid7.coords t) 1 = 300)

/-- An edge of tile `t` is an edge of the graph. -/
theorem tile_lt (t : Fin cfg7.N) (r : Fin 1024) : t.val * 1024 + r.val < 262144 := by
  have hN : t.val < 256 := lt_of_lt_of_eq t.isLt (show cfg7.N = 256 from N_7)
  have := r.isLt
  omega

theorem pxB_eq (c : Dev nD) (t : Fin cfg7.N) : pxB V c t = pxA V c := by
  funext j
  unfold pxB iblk7
  rw [View.read_apply]
  show V c main_v27 _ = V c main_v27 j
  congr 1
  funext a
  apply Fin.ext
  match a with
  | ⟨0, _⟩ => show win7_0.index t 0 * 1024 + 1 * (j 0).val = (j 0).val; rw [(idx_facts t).1.1]; omega
  | ⟨1, _⟩ => show win7_0.index t 1 * 300 + 1 * (j 1).val = (j 1).val; rw [(idx_facts t).1.2]; omega

theorem eaB_apply (c : Dev nD) (t : Fin cfg7.N) (r : Fin 1024) (k : Fin 300) :
    eaB V c t (ix2 r k) = eaA V c (ix2 ⟨t.val * 1024 + r.val, tile_lt t r⟩ k) := by
  unfold eaB iblk7
  rw [View.read_apply]
  show V c main_arg7 _ = V c main_arg7 _
  congr 1
  funext a
  apply Fin.ext
  match a with
  | ⟨0, _⟩ => show win7_3.index t 0 * 1024 + 1 * r.val = t.val * 1024 + r.val; rw [(idx_facts t).2.2.2.1.1]; omega
  | ⟨1, _⟩ => show win7_3.index t 1 * 300 + 1 * k.val = k.val; rw [(idx_facts t).2.2.2.1.2]; omega

theorem weB_eq (c : Dev nD) (t : Fin cfg7.N) : weB V c t = weA V c := by
  funext j
  unfold weB iblk7
  rw [View.read_apply]
  show V c main_arg24 _ = V c main_arg24 j
  congr 1
  funext a
  apply Fin.ext
  match a with
  | ⟨0, _⟩ => show win7_1.index t 0 * 300 + 1 * (j 0).val = (j 0).val; rw [(idx_facts t).2.1.1]; omega
  | ⟨1, _⟩ => show win7_1.index t 1 * 300 + 1 * (j 1).val = (j 1).val; rw [(idx_facts t).2.1.2]; omega

theorem beB_eq (c : Dev nD) (t : Fin cfg7.N) : beB V c t = beA V c := by
  funext j
  unfold beB iblk7
  rw [View.read_apply]
  show V c main_v28 _ = V c main_v28 j
  congr 1
  funext a
  apply Fin.ext
  match a with
  | ⟨0, _⟩ => show win7_2.index t 0 * 1 + 1 * (j 0).val = (j 0).val; rw [(idx_facts t).2.2.1.1]; omega
  | ⟨1, _⟩ => show win7_2.index t 1 * 300 + 1 * (j 1).val = (j 1).val; rw [(idx_facts t).2.2.1.2]; omega

theorem dstB_apply (c : Dev nD) (t : Fin cfg7.N) (r : Fin 1024) :
    dstB V c t (ix1 r) = dstA V c (ix1 ⟨t.val * 1024 + r.val, tile_lt t r⟩) := by
  unfold dstB iblk7
  rw [View.read_apply]
  show V c main_v25 _ = V c main_v25 _
  congr 1
  funext a
  apply Fin.ext
  match a with
  | ⟨0, _⟩ => show win7_5.index t 0 * 1024 + 1 * r.val = t.val * 1024 + r.val; rw [(idx_facts t).2.2.2.2.2]; omega

theorem srcB_apply (c : Dev nD) (t : Fin cfg7.N) (r : Fin 1024) :
    srcB V c t (ix1 r) = srcA V c (ix1 ⟨t.val * 1024 + r.val, tile_lt t r⟩) := by
  unfold srcB iblk7
  rw [View.read_apply]
  show V c main_v23 _ = V c main_v23 _
  congr 1
  funext a
  apply Fin.ext
  match a with
  | ⟨0, _⟩ => show win7_4.index t 0 * 1024 + 1 * r.val = t.val * 1024 + r.val; rw [(idx_facts t).2.2.2.2.1]; omega

end Blocks

/-! ## A message reads the edge arrays at its own edge only -/

/-- Two graphs' messages agree at edges `r` and `e` as soon as the node tables, weights and biases are the same and
    the edge arrays agree at those two edges. -/
theorem msgHot_tile {N B E H De : Nat} (pxT pxG : (Cert.Spec.Mat N H).Idx → EReal)
    (WeT WeG : (Cert.Spec.Mat H De).Idx → EReal) (beT beG : (Cert.Spec.Row H).Idx → EReal)
    (eaT : (Cert.Spec.Mat B De).Idx → EReal) (srcT dstT : (Cert.Spec.Row B).Idx → BitVec 32)
    (eaG : (Cert.Spec.Mat E De).Idx → EReal) (srcG dstG : (Cert.Spec.Row E).Idx → BitVec 32) (r : Fin B) (e : Fin E)
    (hpx : pxT = pxG) (hWe : WeT = WeG) (hbe : beT = beG)
    (hea : ∀ k : Fin De, eaT (ix2 r k) = eaG (ix2 e k)) (hsrc : srcT (ix1 r) = srcG (ix1 e))
    (hdst : dstT (ix1 r) = dstG (ix1 e)) (q : Fin H) :
    Cert.Spec.msgHot pxT WeT beT eaT srcT dstT r q = Cert.Spec.msgHot pxG WeG beG eaG srcG dstG e q := by
  subst hpx hWe hbe
  unfold Cert.Spec.msgHot Cert.Spec.edgeProj
  rw [hsrc, hdst]
  simp only [hea]

/-! ## The carried block, point by point -/

section Invariant
variable (V : (c : Dev nD) → (b : Ref sig .tc) → Buf (Elt Ideal) ((c : Thread nD τ).loc b))

/-- The contribution of tile `t` to entry (p, q): over its edges, [dst e = p] times the message of e, all read off
    the whole arrays (nothing past the last tile). -/
def tileSum (c : Dev nD) (p : Fin 1024) (q : Fin 300) (t : Nat) : EReal :=
  if ht : t < 256 then
    ∑ r : Fin 1024, Cert.Spec.hot (dstA V c (ix1 ⟨t * 1024 + r.val, by have := r.isLt; omega⟩)) p.val
      * Cert.Spec.msgHot (N := 1024) (E := 262144) (H := 300) (De := 300) (pxA V c) (weA V c)
          (fun j => beA V c (ix2 0 (j 0))) (eaA V c) (srcA V c) (dstA V c) ⟨t * 1024 + r.val, by have := r.isLt; omega⟩ q
  else 0

/-- One point's update of any carried block `acc`, by the blocks point `t` sees, adds tile `t`'s contribution. -/
theorem point_update (c : Dev nD) (t : Fin cfg7.N) (acc : Vec Ideal S1024x300 .f32) (p : Fin 1024) (q : Fin 300) :
    k7_pay1 (F := Ideal) (k7_pay4 (F := Ideal) (dstB V c t))
        (k7_pay5 (F := Ideal) (srcB V c t) (dstB V c t) (pxB V c t) (eaB V c t) (weB V c t) (beB V c t)) acc (ix2 p q)
      = acc (ix2 p q) + tileSum V c p q t.val := by
  have hN : t.val < 256 := lt_of_lt_of_eq t.isLt (show cfg7.N = 256 from N_7)
  refine (KAgg7Pay.update (pxB V c t) (weB V c t) (beB V c t) (eaB V c t) (srcB V c t) (dstB V c t) acc p q).trans ?_
  unfold tileSum
  rw [dif_pos hN]
  refine congrArg (acc (ix2 p q) + ·) (Finset.sum_congr rfl fun r _ => ?_)
  rw [dstB_apply V c t r]
  refine congrArg (Cert.Spec.hot (dstA V c (ix1 ⟨t.val * 1024 + r.val, tile_lt t r⟩)) p.val * ·) ?_
  exact msgHot_tile _ _ _ _ _ _ _ _ _ _ _ _ r ⟨t.val * 1024 + r.val, tile_lt t r⟩ (pxB_eq V c t) (weB_eq V c t)
    (funext fun j => congrFun (beB_eq V c t) _) (fun k => eaB_apply V c t r k) (srcB_apply V c t r)
    (dstB_apply V c t r) q

/-- After the first point the block holds the first tile's contribution, added to zero. -/
theorem outsAt_first (c : Dev nD) (t : Fin cfg7.N) (h0 : t.val % 256 = 0) (p : Fin 1024) (q : Fin 300) :
    outsAt7 V c t.val t.isLt (ix2 p q) = 0 + tileSum V c p q t.val := by
  rw [outsAt7_A V c t h0]
  refine (congrFun (out_A (F := Ideal) c (grid7.coords t) (ms7_0 t) (hs7_0 t) (ms7_1 t) (hs7_1 t) (ms7_2 t) (hs7_2 t)
    (ms7_3 t) (hs7_3 t) (ms7_4 t) (hs7_4 t) (ms7_5 t) (hs7_5 t) (ms7_6 t) (hs7_6 t) ((hcond7_0 t).mpr h0)
    (iblk7 V c 0 t) (iblk7 V c 1 t) (iblk7 V c 2 t) (iblk7 V c 3 t) (iblk7 V c 4 t) (iblk7 V c 5 t)) (ix2 p q)).trans ?_
  refine (point_update V c t (k7_pay2 (F := Ideal)) p q).trans ?_
  rw [KAgg7Pay.reset]

/-- After any later point it holds what the point before left, plus the point's tile's contribution. -/
theorem outsAt_next (c : Dev nD) (t : Fin cfg7.N) (h0 : ¬t.val % 256 = 0) (p : Fin 1024) (q : Fin 300) :
    outsAt7 V c t.val t.isLt (ix2 p q)
      = outsAt7 V c (t.val - 1) (Nat.lt_of_le_of_lt (Nat.sub_le _ _) t.isLt) (ix2 p q) + tileSum V c p q t.val := by
  rw [outsAt7_B V c t h0]
  refine (congrFun (out_B (F := Ideal) c (grid7.coords t) (ms7_0 t) (hs7_0 t) (ms7_1 t) (hs7_1 t) (ms7_2 t) (hs7_2 t)
    (ms7_3 t) (hs7_3 t) (ms7_4 t) (hs7_4 t) (ms7_5 t) (hs7_5 t) (ms7_6 t) (hs7_6 t) (fun h => h0 ((hcond7_0 t).mp h))
    (iblk7 V c 0 t) (iblk7 V c 1 t) (iblk7 V c 2 t) (iblk7 V c 3 t) (iblk7 V c 4 t) (iblk7 V c 5 t)
    (outsAt7 V c (t.val - 1) (Nat.lt_of_le_of_lt (Nat.sub_le _ _) t.isLt))) (ix2 p q)).trans ?_
  exact point_update V c t (outsAt7 V c (t.val - 1) (Nat.lt_of_le_of_lt (Nat.sub_le _ _) t.isLt)) p q

/-- The array the call is to leave. -/
abbrev result (c : Dev nD) : Buf (Elt Ideal) ((c : Thread nD τ).loc main_v29) :=
  Cert.Spec.aggHot (N := 1024) (E := 262144) (H := 300) (De := 300) (V c main_v27) (V c main_arg24)
    (fun j => V c main_v28 (ix2 0 (j 0))) (V c main_arg7) (V c main_v23) (V c main_v25)

/-- After the last point the block holds the sum over all tiles, which is the sum over all edges. -/
theorem last_block (c : Dev nD) (t : Fin cfg7.N) (hend : t.val = 255) : outsAt7 V c t.val t.isLt = result V c := by
  funext j
  obtain ⟨p, q, rfl⟩ : ∃ (p : Fin 1024) (q : Fin 300), j = ix2 p q := ⟨j 0, j 1, eq_ix2 j⟩
  have hN : cfg7.N = 256 := N_7
  have key := Cert.Spec.foldTiles_eq_sum 256 (tileSum V c p q)
    (fun n => if h : n < cfg7.N then outsAt7 V c n h (ix2 p q) else 0)
    (by
      have h : 0 < cfg7.N := by omega
      rw [dif_pos h]
      exact outsAt_first V c ⟨0, h⟩ rfl p q)
    (fun n hn => by
      have h1 : n + 1 < cfg7.N := by omega
      have h2 : n < cfg7.N := by omega
      rw [dif_pos h1, dif_pos h2]
      exact outsAt_next V c ⟨n + 1, h1⟩ (by dsimp only; omega) p q)
    (by omega)
  obtain ⟨n, hn⟩ := t
  dsimp only at hend
  subst hend
  dsimp only
  rw [dif_pos hn] at key
  refine key.trans ?_
  show _ = ∑ e : Fin 262144, Cert.Spec.hot (V c main_v25 (ix1 e)) p.val
    * Cert.Spec.msgHot (N := 1024) (E := 262144) (H := 300) (De := 300) (V c main_v27) (V c main_arg24)
        (fun j => V c main_v28 (ix2 0 (j 0))) (V c main_arg7) (V c main_v23) (V c main_v25) e q
  rw [Cert.Spec.sum_tiles 256 1024 262144 rfl]
  refine Finset.sum_congr rfl fun t _ => ?_
  unfold tileSum
  rw [dif_pos t.isLt]

end Invariant

/-! ## The write-back -/

section Final
variable (V : (c : Dev nD) → (b : Ref sig .tc) → Buf (Elt Ideal) ((c : Thread nD τ).loc b))

/-- The one point that writes back is the last; its block, at offset zero and of the array's size, is the array. -/
theorem flushed_eq (c : Dev nD) (t : Fin cfg7.N) (hf : (cfg7.win 6).flush t = true) :
    (dat7 (F := Ideal) V c).flushed 6 t = ((cfg7.win 6).blk t).view.read (Elt Ideal) (result V c) := by
  have hN : cfg7.N = 256 := N_7
  have hend : t.val = 255 := by have := (flush7_6 t).mp hf; have := t.isLt; omega
  show (cfg7.win 6).cut (grid7.coords t) ((dat7 (F := Ideal) V c).after 6 t) = _
  rw [after7_6, last_block V c t hend]
  have hz' : (fun a => win7_6.index t a * main_v29.ty.shape.size a) = fun _ => 0 := funext fun a => by
    match a with
    | ⟨0, _⟩ => show win7_6.index t 0 * 1024 = 0; rw [(idx_out t).1]
    | ⟨1, _⟩ => show win7_6.index t 1 * 300 = 0; rw [(idx_out t).2]
  exact (Memref.read_access_unit_zero (Elt Ideal) main_v29 hz' (fun a => by rw [congrFun hz' a]; simp) (result V c)).symm

/-- The array call 7 leaves is the one-hot aggregation of the six arrays it finds. -/
theorem final (c : Dev nD) :
    (dat7 (F := Ideal) V c).arrAt 6 cfg7.N
      = Cert.Spec.aggHot (N := 1024) (E := 262144) (H := 300) (De := 300) (V c main_v27) (V c main_arg24)
          (fun j => V c main_v28 (ix2 0 (j 0))) (V c main_arg7) (V c main_v23) (V c main_v25) := by
  have hlast : 255 < cfg7.N := by rw [show cfg7.N = 256 from N_7]; decide
  refine (dat7 (F := Ideal) V c).arrAt_eq_of_cover 6 (result V c) (flushed_eq V c) fun i =>
    ⟨⟨255, hlast⟩, (flush7_6 _).mpr rfl, ?_⟩
  show i ∈ ((View.whole main_v29).slice (win7_6.rect ⟨255, hlast⟩)).set
  rw [View.set_slice_whole, Rect.mem_set_unit]
  intro a
  have h0 : (i 0 : Nat) < 1024 := (i 0).isLt
  have h1 : (i 1 : Nat) < 300 := (i 1).isLt
  match a with
  | ⟨0, _⟩ =>
    show win7_6.index ⟨255, hlast⟩ 0 * win7_6.size 0 ≤ (i 0 : Nat)
      ∧ (i 0 : Nat) < win7_6.index ⟨255, hlast⟩ 0 * win7_6.size 0 + win7_6.xsize (grid7.coords ⟨255, hlast⟩) 0
    rw [(idx_out ⟨255, hlast⟩).1, (xsize_out ⟨255, hlast⟩).1]; omega
  | ⟨1, _⟩ =>
    show win7_6.index ⟨255, hlast⟩ 1 * win7_6.size 1 ≤ (i 1 : Nat)
      ∧ (i 1 : Nat) < win7_6.index ⟨255, hlast⟩ 1 * win7_6.size 1 + win7_6.xsize (grid7.coords ⟨255, hlast⟩) 1
    rw [(idx_out ⟨255, hlast⟩).2, (xsize_out ⟨255, hlast⟩).2]; omega

end Final

end Cert.KernelIdeal.KAgg7

end
-- ==== Proof.KLin8.lean ====
/-
  Pallas call 8 is a linear layer on one grid point: its one block is the whole [1024, 600] result, and entry (i, j)
  is the sum over k of x[i,k] · W[j,k] plus the bias row's entry j (the matrix unit's pass into a zero accumulator is
  that sum at the exact instance; the two roundings to the narrow format are the identity there).
-/
import proofs.«408848_j32693291057228_1_alg».proof.Proof.Gen.KernelIdeal.Frame
import proofs.«408848_j32693291057228_1_alg».proof.Proof.Spec
import Idealize.ShloMosaic.Lib.Pipeline.Value
import Idealize.ShloMosaic.Lib.ValueIdx
import Idealize.ShloMosaic.PureOps.Ideal.Laws

noncomputable section

namespace Cert.KernelIdeal.KLin8

open Idealize.ShloMosaic Idealize.ShloMosaic.TcCoe Idealize.SL.Sem Idealize.ShloMosaic.ValueIdx
open Cert.KernelIdeal Cert.KernelIdeal.Gen

/-! ## The contraction's operand indices

The product contracts axis 1 of x with axis 1 of W: at result entry (i, j) and contraction position k the left
operand is read at (i, k) and the right one at (j, k). One lemma per operand axis. -/

/-- Row axis of the left operand: the result's row. -/
theorem lhs_row (i : S1024x600.Idx) (r : dot_S1024x300_S600x300_S1024x600_1_1_0_0_n_n.contr.Idx) :
    (dot_S1024x300_S600x300_S1024x600_1_1_0_0_n_n.lhsIdx i r 0).val = (i 0).val := by
  unfold DotDims.lhsIdx
  rw [dif_neg (show ¬(0 : Fin S1024x300.rank) ∈ dot_S1024x300_S600x300_S1024x600_1_1_0_0_n_n.lhsBatch by decide), dif_pos (show (0 : Fin S1024x300.rank) ∈ dot_S1024x300_S600x300_S1024x600_1_1_0_0_n_n.lhsNonContracting by decide)]
  rfl

/-- Column axis of the left operand: the contraction position. -/
theorem lhs_col (i : S1024x600.Idx) (r : dot_S1024x300_S600x300_S1024x600_1_1_0_0_n_n.contr.Idx) :
    (dot_S1024x300_S600x300_S1024x600_1_1_0_0_n_n.lhsIdx i r 1).val = (r ⟨0, by decide⟩).val :=
  dot_S1024x300_S600x300_S1024x600_1_1_0_0_n_n.lhsIdx_val_of_single rfl i r

/-- Row axis of the right operand: the result's column. -/
theorem rhs_row (i : S1024x600.Idx) (r : dot_S1024x300_S600x300_S1024x600_1_1_0_0_n_n.contr.Idx) :
    (dot_S1024x300_S600x300_S1024x600_1_1_0_0_n_n.rhsIdx i r 0).val = (i 1).val := by
  unfold DotDims.rhsIdx
  rw [dif_neg (show ¬(0 : Fin S600x300.rank) ∈ dot_S1024x300_S600x300_S1024x600_1_1_0_0_n_n.rhsBatch by decide), dif_pos (show (0 : Fin S600x300.rank) ∈ dot_S1024x300_S600x300_S1024x600_1_1_0_0_n_n.rhsNonContracting by decide)]
  rfl

/-- Column axis of the right operand: the contraction position. -/
theorem rhs_col (i : S1024x600.Idx) (r : dot_S1024x300_S600x300_S1024x600_1_1_0_0_n_n.contr.Idx) :
    (dot_S1024x300_S600x300_S1024x600_1_1_0_0_n_n.rhsIdx i r 1).val = (r ⟨0, by decide⟩).val :=
  dot_S1024x300_S600x300_S1024x600_1_1_0_0_n_n.rhsIdx_val_of_single rfl i r

/-! ## The body's value at one entry -/

/-- Entry (p, q) of what the body stores: a reshaping to the same shape changes nothing, the two narrowings are the
    identity on exact values, the product into the zero accumulator is the plain sum of products over the 300
    contraction positions, and the one-row bias is repeated down the rows, so row p sees entry (0, q) of it. -/
theorem pay_apply (x0 : Vec Ideal S1024x300 .f32) (x1 : Vec Ideal S600x300 .f32) (x2 : Vec Ideal S1x600 .f32)
    (p : Fin 1024) (q : Fin 600) :
    k8_pay1 (F := Ideal) x0 x1 x2 (ix2 p q) = (∑ k : Fin 300, x0 (ix2 p k) * x1 (ix2 q k)) + x2 (ix2 0 q) := by
  unfold k8_pay1
  simp only [shapeCast_self]
  refine (addf_apply _ _ (ix2 p q)).trans ?_
  refine congrArg₂ (· + ·) ?_ ?_
  · refine (Ideal.matmul_constant_zero_apply dot_S1024x300_S600x300_S1024x600_1_1_0_0_n_n none _ _ (ix2 p q)).trans ?_
    rw [← Equiv.sum_comp (contrEquiv1 dot_S1024x300_S600x300_S1024x600_1_1_0_0_n_n 300 rfl rfl).symm]
    refine Finset.sum_congr rfl fun k _ => ?_
    have hk := contrEquiv1_symm_val dot_S1024x300_S600x300_S1024x600_1_1_0_0_n_n 300 rfl rfl k
    have el : dot_S1024x300_S600x300_S1024x600_1_1_0_0_n_n.lhsIdx (ix2 p q) ((contrEquiv1 dot_S1024x300_S600x300_S1024x600_1_1_0_0_n_n 300 rfl rfl).symm k) = ix2 p k := funext fun a => Fin.ext (by
      match a with
      | ⟨0, _⟩ => exact lhs_row _ _
      | ⟨1, _⟩ => exact (lhs_col _ _).trans hk)
    have er : dot_S1024x300_S600x300_S1024x600_1_1_0_0_n_n.rhsIdx (ix2 p q) ((contrEquiv1 dot_S1024x300_S600x300_S1024x600_1_1_0_0_n_n 300 rfl rfl).symm k) = ix2 q k := funext fun a => Fin.ext (by
      match a with
      | ⟨0, _⟩ => exact rhs_row _ _
      | ⟨1, _⟩ => exact (rhs_col _ _).trans hk)
    rw [el, er]
    rfl
  · exact broadcastTo_apply x2 broadcasts_S1x600_S1024x600 (ix2 p q) (ix2 0 q) (fun a => match a with
      | ⟨0, _⟩ => by show 0 = if (1 : Nat) = 1 then 0 else _; rw [if_pos rfl]
      | ⟨1, _⟩ => by show q.val = if (600 : Nat) = 1 then 0 else q.val; rw [if_neg (by decide)])

variable (V : (c : Dev nD) → (b : Ref sig .tc) → Buf (Elt Ideal) ((c : Thread nD τ).loc b))

/-! ## From the one block to the array

The grid has one point and every window's block is its whole array, so each block sits at the origin of its array:
reading an array through such a block gives the array back, and the one write-back covers every entry. -/

/-- The origin, spelt as the accesses spell it. -/
theorem hz : (![0, 0] : Fin 2 → Nat) = fun _ => 0 := funext fun a => by fin_cases a <;> rfl

/-- Every window's block index is (0, 0) at the grid's point. -/
theorem origin : ∀ t : Fin cfg8.N,
    win8_0.index t (0 : Fin 2) = 0 ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0 :=
  (by decide +kernel : ∀ t : Fin grid8.N, _)

/-- The block of x is x. -/
theorem blk_x (c : Dev nD) (t : Fin cfg8.N) :
    (iblk8 (F := Ideal) V c 0 t : Vec Ideal S1024x300 .f32) = V c main_v29 := by
  obtain ⟨e0, e1, -⟩ := origin t
  have hz' : (fun a => win8_0.index t a * main_v29.ty.shape.size a) = fun _ => 0 := funext fun a => by
    match a with
    | ⟨0, _⟩ => show win8_0.index t (0 : Fin 2) * 1024 = 0; rw [e0]
    | ⟨1, _⟩ => show win8_0.index t (1 : Fin 2) * 300 = 0; rw [e1]
  exact Memref.read_access_unit_zero (Elt Ideal) main_v29 hz' (fun a => by rw [congrFun hz' a]; simp) (V c main_v29)

/-- The block of W is W. -/
theorem blk_w (c : Dev nD) (t : Fin cfg8.N) :
    (iblk8 (F := Ideal) V c 1 t : Vec Ideal S600x300 .f32) = V c main_arg26 := by
  obtain ⟨-, -, e0, e1, -⟩ := origin t
  have hz' : (fun a => win8_1.index t a * main_arg26.ty.shape.size a) = fun _ => 0 := funext fun a => by
    match a with
    | ⟨0, _⟩ => show win8_1.index t (0 : Fin 2) * 600 = 0; rw [e0]
    | ⟨1, _⟩ => show win8_1.index t (1 : Fin 2) * 300 = 0; rw [e1]
  exact Memref.read_access_unit_zero (Elt Ideal) main_arg26 hz' (fun a => by rw [congrFun hz' a]; simp) (V c main_arg26)

/-- The block of the bias row is the bias row. -/
theorem blk_b (c : Dev nD) (t : Fin cfg8.N) :
    (iblk8 (F := Ideal) V c 2 t : Vec Ideal S1x600 .f32) = V c main_v30 := by
  obtain ⟨-, -, -, -, e0, e1, -⟩ := origin t
  have hz' : (fun a => win8_2.index t a * main_v30.ty.shape.size a) = fun _ => 0 := funext fun a => by
    match a with
    | ⟨0, _⟩ => show win8_2.index t (0 : Fin 2) * 1 = 0; rw [e0]
    | ⟨1, _⟩ => show win8_2.index t (1 : Fin 2) * 600 = 0; rw [e1]
  exact Memref.read_access_unit_zero (Elt Ideal) main_v30 hz' (fun a => by rw [congrFun hz' a]; simp) (V c main_v30)

/-- The linear layer of the three arrays the call finds. -/
abbrev layer (c : Dev nD) : S1024x600.Idx → EReal :=
  Cert.Spec.linRow (N := 1024) (Din := 300) (Dout := 600) (V c main_v29) (V c main_arg26) (V c main_v30)

/-- What the point writes back is the layer, read through the result's block. -/
theorem flushed_eq (c : Dev nD) (t : Fin cfg8.N) :
    (dat8 (F := Ideal) V c).flushed 3 t = ((cfg8.win 3).blk t).view.read (Elt Ideal) (layer V c) := by
  obtain ⟨-, -, -, -, -, -, e0, e1⟩ := origin t
  have hz' : (fun a => win8_3.index t a * main_v31.ty.shape.size a) = fun _ => 0 := funext fun a => by
    match a with
    | ⟨0, _⟩ => show win8_3.index t (0 : Fin 2) * 1024 = 0; rw [e0]
    | ⟨1, _⟩ => show win8_3.index t (1 : Fin 2) * 600 = 0; rw [e1]
  refine Eq.trans ?_ (Memref.read_access_unit_zero (Elt Ideal) main_v31 hz' (fun a => by rw [congrFun hz' a]; simp) (layer V c)).symm
  show (cfg8.win 3).cut (grid8.coords t) ((dat8 V c).after 3 t) = _
  rw [after8_3]
  unfold out8_3
  rw [View.canon_unit_zero hz]
  simp only [View.ld_unit_zero (S := S1024x300) hz, View.ld_unit_zero (S := S600x300) hz, View.ld_unit_zero (S := S1x600) hz]
  rw [blk_x V c t, blk_w V c t, blk_b V c t]
  funext i
  obtain ⟨p, q, rfl⟩ : ∃ (p : Fin 1024) (q : Fin 600), i = ix2 p q := ⟨i 0, i 1, eq_ix2 i⟩
  exact pay_apply _ _ _ p q

/-- The grid's one point. -/
abbrev pt : Fin cfg8.N := ⟨0, by rw [show cfg8.N = 1 from N_8]; decide⟩

/-- Every entry of the result lies in the block that point writes back. -/
theorem cover (c : Dev nD) (i : ((cfg8.win 3).arr.view.loc (c.tc : Thread nD τ)).2.ty.Idx) :
    ∃ t : Fin cfg8.N, (cfg8.win 3).flush t = true ∧ i ∈ ((cfg8.win 3).blk t).view.set := by
  refine ⟨pt, flush8_3 pt, ?_⟩
  show i ∈ ((View.whole main_v31).slice (win8_3.rect pt)).set
  rw [View.set_slice_whole, Rect.mem_set_unit]
  intro a
  obtain ⟨-, -, -, -, -, -, e0, e1⟩ := origin pt
  have h0 : (i 0 : Nat) < 1024 := (i 0).isLt
  have h1 : (i 1 : Nat) < 600 := (i 1).isLt
  match a with
  | ⟨0, _⟩ =>
    show win8_3.index pt (0 : Fin 2) * 1024 ≤ (i 0 : Nat) ∧ (i 0 : Nat) < win8_3.index pt (0 : Fin 2) * 1024 + 1024
    rw [e0]; omega
  | ⟨1, _⟩ =>
    show win8_3.index pt (1 : Fin 2) * 600 ≤ (i 1 : Nat) ∧ (i 1 : Nat) < win8_3.index pt (1 : Fin 2) * 600 + 600
    rw [e1]; omega

/-- The array call 8 leaves is the linear layer of the three arrays it finds. -/
theorem final (c : Dev nD) :
    (dat8 (F := Ideal) V c).arrAt 3 cfg8.N
      = Cert.Spec.linRow (N := 1024) (Din := 300) (Dout := 600) (V c main_v29) (V c main_arg26) (V c main_v30) :=
  (dat8 (F := Ideal) V c).arrAt_eq_of_cover 3 (layer V c) (fun t _ => flushed_eq V c t) (cover c)

end Cert.KernelIdeal.KLin8

end
-- ==== Proof.KLin9.lean ====
/-
  Pallas call 9 is a linear layer on one grid point: its one block is the whole [1024, 300] result, and entry (i, j)
  is the sum over k of x[i,k] · W[j,k] plus the bias row's entry j (the matrix unit's pass into a zero accumulator is
  that sum at the exact instance; the two roundings to the narrow format are the identity there).
-/
import proofs.«408848_j32693291057228_1_alg».proof.Proof.Gen.KernelIdeal.Frame
import proofs.«408848_j32693291057228_1_alg».proof.Proof.Spec
import Idealize.ShloMosaic.Lib.Pipeline.Value
import Idealize.ShloMosaic.Lib.ValueIdx
import Idealize.ShloMosaic.PureOps.Ideal.Laws

noncomputable section

namespace Cert.KernelIdeal.KLin9

open Idealize.ShloMosaic Idealize.ShloMosaic.TcCoe Idealize.SL.Sem Idealize.ShloMosaic.ValueIdx
open Cert.KernelIdeal Cert.KernelIdeal.Gen

/-! ## The contraction's operand indices

The product contracts axis 1 of x with axis 1 of W: at result entry (i, j) and contraction position k the left
operand is read at (i, k) and the right one at (j, k). One lemma per operand axis. -/

/-- Row axis of the left operand: the result's row. -/
theorem lhs_row (i : S1024x300.Idx) (r : dot_S1024x600_S300x600_S1024x300_1_1_0_0_n_n.contr.Idx) :
    (dot_S1024x600_S300x600_S1024x300_1_1_0_0_n_n.lhsIdx i r 0).val = (i 0).val := by
  unfold DotDims.lhsIdx
  rw [dif_neg (show ¬(0 : Fin S1024x600.rank) ∈ dot_S1024x600_S300x600_S1024x300_1_1_0_0_n_n.lhsBatch by decide), dif_pos (show (0 : Fin S1024x600.rank) ∈ dot_S1024x600_S300x600_S1024x300_1_1_0_0_n_n.lhsNonContracting by decide)]
  rfl

/-- Column axis of the left operand: the contraction position. -/
theorem lhs_col (i : S1024x300.Idx) (r : dot_S1024x600_S300x600_S1024x300_1_1_0_0_n_n.contr.Idx) :
    (dot_S1024x600_S300x600_S1024x300_1_1_0_0_n_n.lhsIdx i r 1).val = (r ⟨0, by decide⟩).val :=
  dot_S1024x600_S300x600_S1024x300_1_1_0_0_n_n.lhsIdx_val_of_single rfl i r

/-- Row axis of the right operand: the result's column. -/
theorem rhs_row (i : S1024x300.Idx) (r : dot_S1024x600_S300x600_S1024x300_1_1_0_0_n_n.contr.Idx) :
    (dot_S1024x600_S300x600_S1024x300_1_1_0_0_n_n.rhsIdx i r 0).val = (i 1).val := by
  unfold DotDims.rhsIdx
  rw [dif_neg (show ¬(0 : Fin S300x600.rank) ∈ dot_S1024x600_S300x600_S1024x300_1_1_0_0_n_n.rhsBatch by decide), dif_pos (show (0 : Fin S300x600.rank) ∈ dot_S1024x600_S300x600_S1024x300_1_1_0_0_n_n.rhsNonContracting by decide)]
  rfl

/-- Column axis of the right operand: the contraction position. -/
theorem rhs_col (i : S1024x300.Idx) (r : dot_S1024x600_S300x600_S1024x300_1_1_0_0_n_n.contr.Idx) :
    (dot_S1024x600_S300x600_S1024x300_1_1_0_0_n_n.rhsIdx i r 1).val = (r ⟨0, by decide⟩).val :=
  dot_S1024x600_S300x600_S1024x300_1_1_0_0_n_n.rhsIdx_val_of_single rfl i r

/-! ## The body's value at one entry -/

/-- Entry (p, q) of what the body stores: a reshaping to the same shape changes nothing, the two narrowings are the
    identity on exact values, the product into the zero accumulator is the plain sum of products over the 600
    contraction positions, and the one-row bias is repeated down the rows, so row p sees entry (0, q) of it. -/
theorem pay_apply (x0 : Vec Ideal S1024x600 .f32) (x1 : Vec Ideal S300x600 .f32) (x2 : Vec Ideal S1x300 .f32)
    (p : Fin 1024) (q : Fin 300) :
    k9_pay1 (F := Ideal) x0 x1 x2 (ix2 p q) = (∑ k : Fin 600, x0 (ix2 p k) * x1 (ix2 q k)) + x2 (ix2 0 q) := by
  unfold k9_pay1
  simp only [shapeCast_self]
  refine (addf_apply _ _ (ix2 p q)).trans ?_
  refine congrArg₂ (· + ·) ?_ ?_
  · refine (Ideal.matmul_constant_zero_apply dot_S1024x600_S300x600_S1024x300_1_1_0_0_n_n none _ _ (ix2 p q)).trans ?_
    rw [← Equiv.sum_comp (contrEquiv1 dot_S1024x600_S300x600_S1024x300_1_1_0_0_n_n 600 rfl rfl).symm]
    refine Finset.sum_congr rfl fun k _ => ?_
    have hk := contrEquiv1_symm_val dot_S1024x600_S300x600_S1024x300_1_1_0_0_n_n 600 rfl rfl k
    have el : dot_S1024x600_S300x600_S1024x300_1_1_0_0_n_n.lhsIdx (ix2 p q) ((contrEquiv1 dot_S1024x600_S300x600_S1024x300_1_1_0_0_n_n 600 rfl rfl).symm k) = ix2 p k := funext fun a => Fin.ext (by
      match a with
      | ⟨0, _⟩ => exact lhs_row _ _
      | ⟨1, _⟩ => exact (lhs_col _ _).trans hk)
    have er : dot_S1024x600_S300x600_S1024x300_1_1_0_0_n_n.rhsIdx (ix2 p q) ((contrEquiv1 dot_S1024x600_S300x600_S1024x300_1_1_0_0_n_n 600 rfl rfl).symm k) = ix2 q k := funext fun a => Fin.ext (by
      match a with
      | ⟨0, _⟩ => exact rhs_row _ _
      | ⟨1, _⟩ => exact (rhs_col _ _).trans hk)
    rw [el, er]
    rfl
  · exact broadcastTo_apply x2 broadcasts_S1x300_S1024x300 (ix2 p q) (ix2 0 q) (fun a => match a with
      | ⟨0, _⟩ => by show 0 = if (1 : Nat) = 1 then 0 else _; rw [if_pos rfl]
      | ⟨1, _⟩ => by show q.val = if (300 : Nat) = 1 then 0 else q.val; rw [if_neg (by decide)])

variable (V : (c : Dev nD) → (b : Ref sig .tc) → Buf (Elt Ideal) ((c : Thread nD τ).loc b))

/-! ## From the one block to the array

The grid has one point and every window's block is its whole array, so each block sits at the origin of its array:
reading an array through such a block gives the array back, and the one write-back covers every entry. -/

/-- The origin, spelt as the accesses spell it. -/
theorem hz : (![0, 0] : Fin 2 → Nat) = fun _ => 0 := funext fun a => by fin_cases a <;> rfl

/-- Every window's block index is (0, 0) at the grid's point. -/
theorem origin : ∀ t : Fin cfg9.N,
    win9_0.index t (0 : Fin 2) = 0 ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0 :=
  (by decide +kernel : ∀ t : Fin grid9.N, _)

/-- The block of x is x. -/
theorem blk_x (c : Dev nD) (t : Fin cfg9.N) :
    (iblk9 (F := Ideal) V c 0 t : Vec Ideal S1024x600 .f32) = V c main_v21 := by
  obtain ⟨e0, e1, -⟩ := origin t
  have hz' : (fun a => win9_0.index t a * main_v21.ty.shape.size a) = fun _ => 0 := funext fun a => by
    match a with
    | ⟨0, _⟩ => show win9_0.index t (0 : Fin 2) * 1024 = 0; rw [e0]
    | ⟨1, _⟩ => show win9_0.index t (1 : Fin 2) * 600 = 0; rw [e1]
  exact Memref.read_access_unit_zero (Elt Ideal) main_v21 hz' (fun a => by rw [congrFun hz' a]; simp) (V c main_v21)

/-- The block of W is W. -/
theorem blk_w (c : Dev nD) (t : Fin cfg9.N) :
    (iblk9 (F := Ideal) V c 1 t : Vec Ideal S300x600 .f32) = V c main_arg28 := by
  obtain ⟨-, -, e0, e1, -⟩ := origin t
  have hz' : (fun a => win9_1.index t a * main_arg28.ty.shape.size a) = fun _ => 0 := funext fun a => by
    match a with
    | ⟨0, _⟩ => show win9_1.index t (0 : Fin 2) * 300 = 0; rw [e0]
    | ⟨1, _⟩ => show win9_1.index t (1 : Fin 2) * 600 = 0; rw [e1]
  exact Memref.read_access_unit_zero (Elt Ideal) main_arg28 hz' (fun a => by rw [congrFun hz' a]; simp) (V c main_arg28)

/-- The block of the bias row is the bias row. -/
theorem blk_b (c : Dev nD) (t : Fin cfg9.N) :
    (iblk9 (F := Ideal) V c 2 t : Vec Ideal S1x300 .f32) = V c main_v36 := by
  obtain ⟨-, -, -, -, e0, e1, -⟩ := origin t
  have hz' : (fun a => win9_2.index t a * main_v36.ty.shape.size a) = fun _ => 0 := funext fun a => by
    match a with
    | ⟨0, _⟩ => show win9_2.index t (0 : Fin 2) * 1 = 0; rw [e0]
    | ⟨1, _⟩ => show win9_2.index t (1 : Fin 2) * 300 = 0; rw [e1]
  exact Memref.read_access_unit_zero (Elt Ideal) main_v36 hz' (fun a => by rw [congrFun hz' a]; simp) (V c main_v36)

/-- The linear layer of the three arrays the call finds. -/
abbrev layer (c : Dev nD) : S1024x300.Idx → EReal :=
  Cert.Spec.linRow (N := 1024) (Din := 600) (Dout := 300) (V c main_v21) (V c main_arg28) (V c main_v36)

/-- What the point writes back is the layer, read through the result's block. -/
theorem flushed_eq (c : Dev nD) (t : Fin cfg9.N) :
    (dat9 (F := Ideal) V c).flushed 3 t = ((cfg9.win 3).blk t).view.read (Elt Ideal) (layer V c) := by
  obtain ⟨-, -, -, -, -, -, e0, e1⟩ := origin t
  have hz' : (fun a => win9_3.index t a * main_v37.ty.shape.size a) = fun _ => 0 := funext fun a => by
    match a with
    | ⟨0, _⟩ => show win9_3.index t (0 : Fin 2) * 1024 = 0; rw [e0]
    | ⟨1, _⟩ => show win9_3.index t (1 : Fin 2) * 300 = 0; rw [e1]
  refine Eq.trans ?_ (Memref.read_access_unit_zero (Elt Ideal) main_v37 hz' (fun a => by rw [congrFun hz' a]; simp) (layer V c)).symm
  show (cfg9.win 3).cut (grid9.coords t) ((dat9 V c).after 3 t) = _
  rw [after9_3]
  unfold out9_3
  rw [View.canon_unit_zero hz]
  simp only [View.ld_unit_zero (S := S1024x600) hz, View.ld_unit_zero (S := S300x600) hz, View.ld_unit_zero (S := S1x300) hz]
  rw [blk_x V c t, blk_w V c t, blk_b V c t]
  funext i
  obtain ⟨p, q, rfl⟩ : ∃ (p : Fin 1024) (q : Fin 300), i = ix2 p q := ⟨i 0, i 1, eq_ix2 i⟩
  exact pay_apply _ _ _ p q

/-- The grid's one point. -/
abbrev pt : Fin cfg9.N := ⟨0, by rw [show cfg9.N = 1 from N_9]; decide⟩

/-- Every entry of the result lies in the block that point writes back. -/
theorem cover (c : Dev nD) (i : ((cfg9.win 3).arr.view.loc (c.tc : Thread nD τ)).2.ty.Idx) :
    ∃ t : Fin cfg9.N, (cfg9.win 3).flush t = true ∧ i ∈ ((cfg9.win 3).blk t).view.set := by
  refine ⟨pt, flush9_3 pt, ?_⟩
  show i ∈ ((View.whole main_v37).slice (win9_3.rect pt)).set
  rw [View.set_slice_whole, Rect.mem_set_unit]
  intro a
  obtain ⟨-, -, -, -, -, -, e0, e1⟩ := origin pt
  have h0 : (i 0 : Nat) < 1024 := (i 0).isLt
  have h1 : (i 1 : Nat) < 300 := (i 1).isLt
  match a with
  | ⟨0, _⟩ =>
    show win9_3.index pt (0 : Fin 2) * 1024 ≤ (i 0 : Nat) ∧ (i 0 : Nat) < win9_3.index pt (0 : Fin 2) * 1024 + 1024
    rw [e0]; omega
  | ⟨1, _⟩ =>
    show win9_3.index pt (1 : Fin 2) * 300 ≤ (i 1 : Nat) ∧ (i 1 : Nat) < win9_3.index pt (1 : Fin 2) * 300 + 300
    rw [e1]; omega

/-- The array call 9 leaves is the linear layer of the three arrays it finds. -/
theorem final (c : Dev nD) :
    (dat9 (F := Ideal) V c).arrAt 3 cfg9.N
      = Cert.Spec.linRow (N := 1024) (Din := 600) (Dout := 300) (V c main_v21) (V c main_arg28) (V c main_v36) :=
  (dat9 (F := Ideal) V c).arrAt_eq_of_cover 3 (layer V c) (fun t _ => flushed_eq V c t) (cover c)

end Cert.KernelIdeal.KLin9

end
-- ==== Proof.KAgg10Pay.lean ====
/-
  The arithmetic of one grid point of the aggregation call 10, free of the memory: from the blocks a point sees (the
  node table px, the edge weight We and bias row be, one tile of 1024 edge features and of source and destination words)
  and the carried block acc, the stored value at (n, h) is acc[n, h] plus the sum over the tile's edges r of
  [dst r = n] times the message of r: the comparison of a broadcast word against an iota is the indicator (as 0 or 1,
  through a widening and an integer-to-float conversion), a matrix-unit pass into a zero accumulator is the plain
  sum of products, a rounding to the narrow format is the identity at the exact instance.
-/
import proofs.«408848_j32693291057228_1_alg».proof.Proof.Gen.KernelIdeal.Skeleton
import proofs.«408848_j32693291057228_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KAgg10Pay

open Idealize.ShloMosaic Idealize.ShloMosaic.TcCoe Idealize.SL.Sem Idealize.ShloMosaic.ValueIdx
open Cert.KernelIdeal Cert.KernelIdeal.Gen
open scoped BigOperators

/-! ## A vector as a column, and one column repeated over many -/

section Column
variable {α : Type}

/-- An `[a]` array cast to `[a, 1]` reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## The indicator: a comparison bit, widened and converted -/

/-- The comparison bit of two words, widened to a word and converted to a float, is 1 when the words are equal and 0
    otherwise. -/
theorem sitofp_cmpi_eq (a b : BitVec 32) :
    (FloatOps.sitofp (F := Ideal) .f32 ((IntOp.cmpi .eq a b).setWidth 32) : EReal) = if a = b then 1 else 0 := by
  by_cases h : a = b
  · subst h
    rw [if_pos rfl]
    have e : (IntOp.cmpi .eq a a).setWidth 32 = 1#32 := by simp [IntOp.cmpi]
    rw [e]
    show (((1#32 : BitVec 32).toInt : ℝ) : EReal) = 1
    have t : (1#32 : BitVec 32).toInt = 1 := by decide
    rw [t]; simp
  · rw [if_neg h]
    have hb : (a == b) = false := beq_eq_false_iff_ne.2 h
    have e : (IntOp.cmpi .eq a b).setWidth 32 = 0#32 := by simp [IntOp.cmpi, hb]
    rw [e]
    show (((0#32 : BitVec 32).toInt : ℝ) : EReal) = 0
    have t : (0#32 : BitVec 32).toInt = 0 := by decide
    rw [t]; simp

/-! ## The three matrix products, each into a zero accumulator, read at an entry

Each product sums over one axis. Which coordinate of each operand is the result's and which is the summation position
is read off the product's dimension numbers, axis by axis; the summation index, a one-axis multi-index, is exchanged
for its one coordinate. -/

/-- The left operand's row is the result's row. -/
theorem gatherL0 (i : S1024x300.Idx) (q : dot_S1024x1024_S1024x300_S1024x300_1_0_0_1_n_n.contr.Idx) :
    (dot_S1024x1024_S1024x300_S1024x300_1_0_0_1_n_n.lhsIdx i q 0).val = (i 0).val := by
  unfold DotDims.lhsIdx
  rw [dif_neg (show ¬(0 : Fin S1024x1024.rank) ∈ dot_S1024x1024_S1024x300_S1024x300_1_0_0_1_n_n.lhsBatch by decide),
    dif_pos (show (0 : Fin S1024x1024.rank) ∈ dot_S1024x1024_S1024x300_S1024x300_1_0_0_1_n_n.lhsNonContracting by decide)]
  rfl
/-- The left operand's column is the summation position. -/
theorem gatherL1 (i : S1024x300.Idx) (q : dot_S1024x1024_S1024x300_S1024x300_1_0_0_1_n_n.contr.Idx) :
    (dot_S1024x1024_S1024x300_S1024x300_1_0_0_1_n_n.lhsIdx i q 1).val = (q ⟨0, by decide⟩).val :=
  dot_S1024x1024_S1024x300_S1024x300_1_0_0_1_n_n.lhsIdx_val_of_single rfl i q
/-- The right operand's row is the summation position. -/
theorem gatherR0 (i : S1024x300.Idx) (q : dot_S1024x1024_S1024x300_S1024x300_1_0_0_1_n_n.contr.Idx) :
    (dot_S1024x1024_S1024x300_S1024x300_1_0_0_1_n_n.rhsIdx i q 0).val = (q ⟨0, by decide⟩).val :=
  dot_S1024x1024_S1024x300_S1024x300_1_0_0_1_n_n.rhsIdx_val_of_single rfl i q
/-- The right operand's column is the result's column. -/
theorem gatherR1 (i : S1024x300.Idx) (q : dot_S1024x1024_S1024x300_S1024x300_1_0_0_1_n_n.contr.Idx) :
    (dot_S1024x1024_S1024x300_S1024x300_1_0_0_1_n_n.rhsIdx i q 1).val = (i 1).val := by
  unfold DotDims.rhsIdx
  rw [dif_neg (show ¬(1 : Fin S1024x300.rank) ∈ dot_S1024x1024_S1024x300_S1024x300_1_0_0_1_n_n.rhsBatch by decide),
    dif_pos (show (1 : Fin S1024x300.rank) ∈ dot_S1024x1024_S1024x300_S1024x300_1_0_0_1_n_n.rhsNonContracting by decide)]
  rfl

/-- Indicator rows times the node table: entry (e, h) sums, over the nodes k, the left (e, k) times the right (k, h). -/
theorem gather_apply (l : FVec Ideal S1024x1024 .bf16) (r : FVec Ideal S1024x300 .bf16) (a : Fin 1024) (b : Fin 300) :
    matmul (F := Ideal) dot_S1024x1024_S1024x300_S1024x300_1_0_0_1_n_n none l r (constant (F := Ideal) S1024x300 .f32 0x00000000#32) (ix2 a b)
      = ∑ k : Fin 1024, l (ix2 a k) * r (ix2 k b) := by
  simp only [matmul]
  rw [Ideal.matmul_constant_zero_apply,
    ← Equiv.sum_comp (contrEquiv1 dot_S1024x1024_S1024x300_S1024x300_1_0_0_1_n_n 1024 rfl rfl).symm]
  refine Finset.sum_congr rfl fun k _ => ?_
  have hk := contrEquiv1_symm_val dot_S1024x1024_S1024x300_S1024x300_1_0_0_1_n_n 1024 rfl rfl k
  have el : dot_S1024x1024_S1024x300_S1024x300_1_0_0_1_n_n.lhsIdx (ix2 a b) ((contrEquiv1 dot_S1024x1024_S1024x300_S1024x300_1_0_0_1_n_n 1024 rfl rfl).symm k)
      = ix2 a k := funext fun d => Fin.ext (by
    match d with
    | ⟨0, _⟩ => exact gatherL0 _ _
    | ⟨1, _⟩ => exact (gatherL1 _ _).trans hk)
  have er : dot_S1024x1024_S1024x300_S1024x300_1_0_0_1_n_n.rhsIdx (ix2 a b) ((contrEquiv1 dot_S1024x1024_S1024x300_S1024x300_1_0_0_1_n_n 1024 rfl rfl).symm k)
      = ix2 k b := funext fun d => Fin.ext (by
    match d with
    | ⟨0, _⟩ => exact (gatherR0 _ _).trans hk
    | ⟨1, _⟩ => exact gatherR1 _ _)
  rw [el, er]

/-- The left operand's row is the result's row. -/
theorem projL0 (i : S1024x300.Idx) (q : dot_S1024x300_S300x300_S1024x300_1_1_0_0_n_n.contr.Idx) :
    (dot_S1024x300_S300x300_S1024x300_1_1_0_0_n_n.lhsIdx i q 0).val = (i 0).val := by
  unfold DotDims.lhsIdx
  rw [dif_neg (show ¬(0 : Fin S1024x300.rank) ∈ dot_S1024x300_S300x300_S1024x300_1_1_0_0_n_n.lhsBatch by decide),
    dif_pos (show (0 : Fin S1024x300.rank) ∈ dot_S1024x300_S300x300_S1024x300_1_1_0_0_n_n.lhsNonContracting by decide)]
  rfl
/-- The left operand's column is the summation position. -/
theorem projL1 (i : S1024x300.Idx) (q : dot_S1024x300_S300x300_S1024x300_1_1_0_0_n_n.contr.Idx) :
    (dot_S1024x300_S300x300_S1024x300_1_1_0_0_n_n.lhsIdx i q 1).val = (q ⟨0, by decide⟩).val :=
  dot_S1024x300_S300x300_S1024x300_1_1_0_0_n_n.lhsIdx_val_of_single rfl i q
/-- The right operand's row is the result's column. -/
theorem projR0 (i : S1024x300.Idx) (q : dot_S1024x300_S300x300_S1024x300_1_1_0_0_n_n.contr.Idx) :
    (dot_S1024x300_S300x300_S1024x300_1_1_0_0_n_n.rhsIdx i q 0).val = (i 1).val := by
  unfold DotDims.rhsIdx
  rw [dif_neg (show ¬(0 : Fin S300x300.rank) ∈ dot_S1024x300_S300x300_S1024x300_1_1_0_0_n_n.rhsBatch by decide),
    dif_pos (show (0 : Fin S300x300.rank) ∈ dot_S1024x300_S300x300_S1024x300_1_1_0_0_n_n.rhsNonContracting by decide)]
  rfl
/-- The right operand's column is the summation position. -/
theorem projR1 (i : S1024x300.Idx) (q : dot_S1024x300_S300x300_S1024x300_1_1_0_0_n_n.contr.Idx) :
    (dot_S1024x300_S300x300_S1024x300_1_1_0_0_n_n.rhsIdx i q 1).val = (q ⟨0, by decide⟩).val :=
  dot_S1024x300_S300x300_S1024x300_1_1_0_0_n_n.rhsIdx_val_of_single rfl i q

/-- Edge features times the weight's transpose: entry (e, h) sums, over the feature columns k, the left (e, k) times the right (h, k). -/
theorem proj_apply (l : FVec Ideal S1024x300 .bf16) (r : FVec Ideal S300x300 .bf16) (a : Fin 1024) (b : Fin 300) :
    matmul (F := Ideal) dot_S1024x300_S300x300_S1024x300_1_1_0_0_n_n none l r (constant (F := Ideal) S1024x300 .f32 0x00000000#32) (ix2 a b)
      = ∑ k : Fin 300, l (ix2 a k) * r (ix2 b k) := by
  simp only [matmul]
  rw [Ideal.matmul_constant_zero_apply,
    ← Equiv.sum_comp (contrEquiv1 dot_S1024x300_S300x300_S1024x300_1_1_0_0_n_n 300 rfl rfl).symm]
  refine Finset.sum_congr rfl fun k _ => ?_
  have hk := contrEquiv1_symm_val dot_S1024x300_S300x300_S1024x300_1_1_0_0_n_n 300 rfl rfl k
  have el : dot_S1024x300_S300x300_S1024x300_1_1_0_0_n_n.lhsIdx (ix2 a b) ((contrEquiv1 dot_S1024x300_S300x300_S1024x300_1_1_0_0_n_n 300 rfl rfl).symm k)
      = ix2 a k := funext fun d => Fin.ext (by
    match d with
    | ⟨0, _⟩ => exact projL0 _ _
    | ⟨1, _⟩ => exact (projL1 _ _).trans hk)
  have er : dot_S1024x300_S300x300_S1024x300_1_1_0_0_n_n.rhsIdx (ix2 a b) ((contrEquiv1 dot_S1024x300_S300x300_S1024x300_1_1_0_0_n_n 300 rfl rfl).symm k)
      = ix2 b k := funext fun d => Fin.ext (by
    match d with
    | ⟨0, _⟩ => exact projR0 _ _
    | ⟨1, _⟩ => exact (projR1 _ _).trans hk)
  rw [el, er]

/-- The left operand's row is the result's row. -/
theorem scatterL0 (i : S1024x300.Idx) (q : dot_S1024x1024_S1024x300_S1024x300_1_0_0_1_n_n.contr.Idx) :
    (dot_S1024x1024_S1024x300_S1024x300_1_0_0_1_n_n.lhsIdx i q 0).val = (i 0).val := by
  unfold DotDims.lhsIdx
  rw [dif_neg (show ¬(0 : Fin S1024x1024.rank) ∈ dot_S1024x1024_S1024x300_S1024x300_1_0_0_1_n_n.lhsBatch by decide),
    dif_pos (show (0 : Fin S1024x1024.rank) ∈ dot_S1024x1024_S1024x300_S1024x300_1_0_0_1_n_n.lhsNonContracting by decide)]
  rfl
/-- The left operand's column is the summation position. -/
theorem scatterL1 (i : S1024x300.Idx) (q : dot_S1024x1024_S1024x300_S1024x300_1_0_0_1_n_n.contr.Idx) :
    (dot_S1024x1024_S1024x300_S1024x300_1_0_0_1_n_n.lhsIdx i q 1).val = (q ⟨0, by decide⟩).val :=
  dot_S1024x1024_S1024x300_S1024x300_1_0_0_1_n_n.lhsIdx_val_of_single rfl i q
/-- The right operand's row is the summation position. -/
theorem scatterR0 (i : S1024x300.Idx) (q : dot_S1024x1024_S1024x300_S1024x300_1_0_0_1_n_n.contr.Idx) :
    (dot_S1024x1024_S1024x300_S1024x300_1_0_0_1_n_n.rhsIdx i q 0).val = (q ⟨0, by decide⟩).val :=
  dot_S1024x1024_S1024x300_S1024x300_1_0_0_1_n_n.rhsIdx_val_of_single rfl i q
/-- The right operand's column is the result's column. -/
theorem scatterR1 (i : S1024x300.Idx) (q : dot_S1024x1024_S1024x300_S1024x300_1_0_0_1_n_n.contr.Idx) :
    (dot_S1024x1024_S1024x300_S1024x300_1_0_0_1_n_n.rhsIdx i q 1).val = (i 1).val := by
  unfold DotDims.rhsIdx
  rw [dif_neg (show ¬(1 : Fin S1024x300.rank) ∈ dot_S1024x1024_S1024x300_S1024x300_1_0_0_1_n_n.rhsBatch by decide),
    dif_pos (show (1 : Fin S1024x300.rank) ∈ dot_S1024x1024_S1024x300_S1024x300_1_0_0_1_n_n.rhsNonContracting by decide)]
  rfl

/-- Indicator columns times the messages: entry (n, h) sums, over the tile's edges k, the left (n, k) times the right (k, h). -/
theorem scatter_apply (l : FVec Ideal S1024x1024 .bf16) (r : FVec Ideal S1024x300 .bf16) (a : Fin 1024) (b : Fin 300) :
    matmul (F := Ideal) dot_S1024x1024_S1024x300_S1024x300_1_0_0_1_n_n none l r (constant (F := Ideal) S1024x300 .f32 0x00000000#32) (ix2 a b)
      = ∑ k : Fin 1024, l (ix2 a k) * r (ix2 k b) := by
  simp only [matmul]
  rw [Ideal.matmul_constant_zero_apply,
    ← Equiv.sum_comp (contrEquiv1 dot_S1024x1024_S1024x300_S1024x300_1_0_0_1_n_n 1024 rfl rfl).symm]
  refine Finset.sum_congr rfl fun k _ => ?_
  have hk := contrEquiv1_symm_val dot_S1024x1024_S1024x300_S1024x300_1_0_0_1_n_n 1024 rfl rfl k
  have el : dot_S1024x1024_S1024x300_S1024x300_1_0_0_1_n_n.lhsIdx (ix2 a b) ((contrEquiv1 dot_S1024x1024_S1024x300_S1024x300_1_0_0_1_n_n 1024 rfl rfl).symm k)
      = ix2 a k := funext fun d => Fin.ext (by
    match d with
    | ⟨0, _⟩ => exact scatterL0 _ _
    | ⟨1, _⟩ => exact (scatterL1 _ _).trans hk)
  have er : dot_S1024x1024_S1024x300_S1024x300_1_0_0_1_n_n.rhsIdx (ix2 a b) ((contrEquiv1 dot_S1024x1024_S1024x300_S1024x300_1_0_0_1_n_n 1024 rfl rfl).symm k)
      = ix2 k b := funext fun d => Fin.ext (by
    match d with
    | ⟨0, _⟩ => exact (scatterR0 _ _).trans hk
    | ⟨1, _⟩ => exact scatterR1 _ _)
  rw [el, er]

/-! ## The indicators -/

/-- Entry (n, r) of the destination indicator: the word of edge r, laid as a row and repeated down the rows, against
    the row number. -/
theorem dstRow_apply (x5 : Vec Ideal S1024 .i32) (n : Fin 1024) (r : Fin 1024) :
    k10_pay4 (F := Ideal) x5 (ix2 n r) = Cert.Spec.hot (x5 (ix1 r)) n.val := by
  unfold k10_pay4 k10_pay3
  have e1 : broadcastTo S1024x1024 (shapeCast S1x1024 (shapeCast S1024 x5 shapeCasts_S1024_S1024) shapeCasts_S1024_S1x1024)
      broadcasts_S1x1024_S1024x1024 (ix2 n r) = x5 (ix1 r) := by
    refine (broadcastTo_1b_ab_apply _ _ n r).trans ?_
    refine (shapeCast_a_1a_apply _ _ 0 r).trans ?_
    rw [shapeCast_self]
  have e2 : iota .tc S1024x1024 32 [0] iota_S1024x1024_d0_w32 (ix2 n r) = BitVec.ofNat 32 n.val :=
    iota_single_apply _ _ _ _ _ _
  refine (sitofp_cmpi_eq _ _).trans ?_
  rw [e1, e2]
  rfl

/-- The indicator of an endpoint word against the node numbers: the words as a column, repeated along the columns,
    compared with the column number, the bit widened, converted and rounded. -/
abbrev endCol (w : Vec Ideal S1024 .i32) : FVec Ideal S1024x1024 .bf16 :=
  truncf .bf16 (sitofp (F := Ideal) .f32 (extui 32 (cmpi .eq
    (broadcastTo S1024x1024 (shapeCast S1024x1 (shapeCast S1024 w shapeCasts_S1024_S1024) shapeCasts_S1024_S1024x1)
      broadcasts_S1024x1_S1024x1024)
    (iota .tc S1024x1024 32 [1] iota_S1024x1024_d1_w32)) natLt_1_32)) bitsLt_bf16_f32

/-- Entry (e, k) of an endpoint indicator is 1 when edge e's word names node k, and 0 otherwise. -/
theorem endCol_apply (w : Vec Ideal S1024 .i32) (e : Fin 1024) (k : Fin 1024) :
    endCol w (ix2 e k) = Cert.Spec.hot (w (ix1 e)) k.val := by
  have e1 : broadcastTo S1024x1024 (shapeCast S1024x1 (shapeCast S1024 w shapeCasts_S1024_S1024) shapeCasts_S1024_S1024x1)
      broadcasts_S1024x1_S1024x1024 (ix2 e k) = w (ix1 e) := by
    refine (broadcastTo_a1_ab_apply _ _ e k).trans ?_
    refine (shapeCast_a_a1_apply _ _ e 0).trans ?_
    rw [shapeCast_self]
  have e2 : iota .tc S1024x1024 32 [1] iota_S1024x1024_d1_w32 (ix2 e k) = BitVec.ofNat 32 k.val :=
    iota_single_apply _ _ _ _ _ _
  refine (sitofp_cmpi_eq _ _).trans ?_
  rw [e1, e2]
  rfl

/-! ## The message of an edge, and the update of the carried block -/

/-- A row lookup as a product: the indicator's row e against column h of the node table. -/
theorem gatherRow (w : Vec Ideal S1024 .i32) (x0 : Vec Ideal S1024x300 .f32) (e : Fin 1024) (h : Fin 300) :
    matmul (F := Ideal) dot_S1024x1024_S1024x300_S1024x300_1_0_0_1_n_n none (endCol w)
        (truncf .bf16 (shapeCast S1024x300 x0 shapeCasts_S1024x300_S1024x300) bitsLt_bf16_f32)
        (constant (F := Ideal) S1024x300 .f32 0x00000000#32) (ix2 e h)
      = ∑ n : Fin 1024, Cert.Spec.hot (w (ix1 e)) n.val * x0 (ix2 n h) := by
  refine (gather_apply _ _ e h).trans (Finset.sum_congr rfl fun k _ => ?_)
  rw [endCol_apply, truncf_apply, shapeCast_self]

/-- The projected features of edge e at column h, before the bias. -/
theorem projRow (x3 : Vec Ideal S1024x300 .f32) (x1 : Vec Ideal S300x300 .f32) (e : Fin 1024) (h : Fin 300) :
    matmul (F := Ideal) dot_S1024x300_S300x300_S1024x300_1_1_0_0_n_n none (truncf .bf16 x3 bitsLt_bf16_f32)
        (truncf .bf16 x1 bitsLt_bf16_f32) (constant (F := Ideal) S1024x300 .f32 0x00000000#32) (ix2 e h)
      = ∑ k : Fin 300, x3 (ix2 e k) * x1 (ix2 h k) :=
  proj_apply _ _ e h

/-- The bias row repeated down the rows reads its column h. -/
theorem biasRow (x2 : Vec Ideal S1x300 .f32) (e : Fin 1024) (h : Fin 300) :
    broadcastTo S1024x300 (shapeCast S1x300 x2 shapeCasts_S1x300_S1x300) broadcasts_S1x300_S1024x300 (ix2 e h)
      = x2 (ix2 0 h) := by
  refine (broadcastTo_1b_ab_apply _ _ e h).trans ?_
  rw [shapeCast_self]

/-- The message of edge e at column h: both lookups, the projected features and the bias. -/
theorem msg_apply (x4 x5 : Vec Ideal S1024 .i32) (x0 : Vec Ideal S1024x300 .f32) (x3 : Vec Ideal S1024x300 .f32)
    (x1 : Vec Ideal S300x300 .f32) (x2 : Vec Ideal S1x300 .f32) (e : Fin 1024) (h : Fin 300) :
    k10_pay5 (F := Ideal) x4 x5 x0 x3 x1 x2 (ix2 e h)
      = Cert.Spec.msgHot (N := 1024) (E := 1024) (H := 300) (De := 300) x0 x1 (fun j => x2 (ix2 0 (j 0))) x3 x4 x5 e h := by
  unfold k10_pay5 k10_pay3
  show (matmul (F := Ideal) dot_S1024x1024_S1024x300_S1024x300_1_0_0_1_n_n none (endCol x4)
          (truncf .bf16 (shapeCast S1024x300 x0 shapeCasts_S1024x300_S1024x300) bitsLt_bf16_f32)
          (constant (F := Ideal) S1024x300 .f32 0x00000000#32) (ix2 e h)
        + matmul (F := Ideal) dot_S1024x1024_S1024x300_S1024x300_1_0_0_1_n_n none (endCol x5)
          (truncf .bf16 (shapeCast S1024x300 x0 shapeCasts_S1024x300_S1024x300) bitsLt_bf16_f32)
          (constant (F := Ideal) S1024x300 .f32 0x00000000#32) (ix2 e h))
      + (matmul (F := Ideal) dot_S1024x300_S300x300_S1024x300_1_1_0_0_n_n none (truncf .bf16 x3 bitsLt_bf16_f32)
          (truncf .bf16 x1 bitsLt_bf16_f32) (constant (F := Ideal) S1024x300 .f32 0x00000000#32) (ix2 e h)
        + broadcastTo S1024x300 (shapeCast S1x300 x2 shapeCasts_S1x300_S1x300) broadcasts_S1x300_S1024x300 (ix2 e h)) = _
  rw [gatherRow, gatherRow, projRow, biasRow]
  rfl

/-- The block a point starts from at point 0 is zero. -/
theorem reset (j : S1024x300.Idx) : k10_pay2 (F := Ideal) j = 0 := by
  unfold k10_pay2
  exact Ideal.ofBits_zero_f32

/-- One point's update of the carried block, entry by entry. -/
theorem update (x0 : Vec Ideal S1024x300 .f32) (x1 : Vec Ideal S300x300 .f32) (x2 : Vec Ideal S1x300 .f32)
    (x3 : Vec Ideal S1024x300 .f32) (x4 x5 : Vec Ideal S1024 .i32) (acc : Vec Ideal S1024x300 .f32) (n : Fin 1024) (h : Fin 300) :
    k10_pay1 (F := Ideal) (k10_pay4 (F := Ideal) x5) (k10_pay5 (F := Ideal) x4 x5 x0 x3 x1 x2) acc (ix2 n h)
      = acc (ix2 n h) + ∑ r : Fin 1024, Cert.Spec.hot (x5 (ix1 r)) n.val
          * Cert.Spec.msgHot (N := 1024) (E := 1024) (H := 300) (De := 300) x0 x1 (fun j => x2 (ix2 0 (j 0))) x3 x4 x5 r h := by
  unfold k10_pay1
  show shapeCast S1024x300 acc shapeCasts_S1024x300_S1024x300 (ix2 n h)
      + matmul (F := Ideal) dot_S1024x1024_S1024x300_S1024x300_1_0_0_1_n_n none (k10_pay4 (F := Ideal) x5)
          (truncf .bf16 (k10_pay5 (F := Ideal) x4 x5 x0 x3 x1 x2) bitsLt_bf16_f32)
          (constant (F := Ideal) S1024x300 .f32 0x00000000#32) (ix2 n h) = _
  rw [shapeCast_self, scatter_apply]
  refine congrArg (acc (ix2 n h) + ·) (Finset.sum_congr rfl fun r _ => ?_)
  rw [dstRow_apply, truncf_apply, msg_apply]

end Cert.KernelIdeal.KAgg10Pay

end
-- ==== Proof.KAgg10.lean ====
/-
  Pallas call 10 is the aggregation, tiled over the edge axis: point t sees one tile of edges, builds the indicators
  [src e = n], [dst e = n] against the node numbers, forms each edge's message by two indicator matmuls and the edge
  projection, and adds the indicator-weighted messages into the [1024, 300] block it carries from point to point (zeroed at
  point 0, written back once after the last point). The sum over the tiles in turn is the sum over all 262144 edges.

  The steps. What a point leaves in the carried block is one update of what it found there (of the zero block at the
  first point). The node table, the weight and the bias row are seen whole at every point; the edge features and the
  endpoint words are seen one tile at a time, row r of tile t being row 1024 t + r of the array. A message reads the
  edge arrays only at its own edge, so the update by tile t adds, at entry (p, q), the sum over the tile's edges of
  [dst e = p] times the message of e, all read off the whole arrays. The carried block after point n is therefore the
  sum of the first n + 1 tiles' contributions; after the last point it is the sum over all tiles, that is over all
  edges; and that point is the one that writes the block, which is the whole array, back.
-/
import proofs.«408848_j32693291057228_1_alg».proof.Proof.Gen.KernelIdeal.Frame
import proofs.«408848_j32693291057228_1_alg».proof.Proof.Spec
import proofs.«408848_j32693291057228_1_alg».proof.Proof.SpecLaw
import proofs.«408848_j32693291057228_1_alg».proof.Proof.KAgg10Pay
import Idealize.ShloMosaic.Lib.Pipeline.Value
import Idealize.ShloMosaic.Lib.Tactic

noncomputable section

namespace Cert.KernelIdeal.KAgg10

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

/-- Zero offsets, however they are spelt. -/
theorem hz : (![0, 0] : Fin 2 → Nat) = fun _ => 0 := funext fun a => by fin_cases a <;> rfl
theorem hz1 : (![0] : Fin 1 → Nat) = fun _ => 0 := funext fun a => by fin_cases a; rfl

section Pieces
variable {F : FTy → Type} [FloatOps F]

/-- At a point after the first, the carried block `xo` is read whole, the tile's contribution is added, and the one
    store covers the block: what is left is the update of `xo` by the blocks the point sees. -/
theorem out_B (c : Dev nD) (i : grid10.Coords) (a1 : Memref sig .tc .vmem S1024x300 .f32) (h1 : a1.IsWhole)
    (a2 : Memref sig .tc .vmem S300x300 .f32) (h2 : a2.IsWhole) (a3 : Memref sig .tc .vmem S1x300 .f32) (h3 : a3.IsWhole)
    (a4 : Memref sig .tc .vmem S1024x300 .f32) (h4 : a4.IsWhole) (a5 : Memref sig .tc .vmem S1024 .i32) (h5 : a5.IsWhole)
    (a6 : Memref sig .tc .vmem S1024 .i32) (h6 : a6.IsWhole) (a7 : Memref sig .tc .vmem S1024x300 .f32) (h7 : a7.IsWhole)
    (hc : ¬cond10_0 i) (x0 : Vec F S1024x300 .f32) (x1 : Vec F S300x300 .f32) (x2 : Vec F S1x300 .f32)
    (x3 : Vec F S1024x300 .f32) (x4 x5 : Vec F S1024 .i32) (xo : Vec F S1024x300 .f32) :
    out10_B_6 c i a1 h1 a2 h2 a3 h3 a4 h4 a5 h5 a6 h6 a7 h7 hc x0 x1 x2 x3 x4 x5 xo
      = k10_pay1 (k10_pay4 x5) (k10_pay5 x4 x5 x0 x3 x1 x2) xo := by
  unfold out10_B_6
  rw [View.read_writes_eq_canon _ _ _ (cover10_B_6 c i a1 h1 a2 h2 a3 h3 a4 h4 a5 h5 a6 h6 a7 h7 hc x0 x1 x2 x3 x4 x5 xo)]
  unfold kernelRun10_B
  dsimp only
  sl_unfold_words
  rw [View.canon_unit_zero (S := S1024x300) hz]
  simp only [View.readAt_eq_ld, h1.read_unread, h2.read_unread, h3.read_unread, h4.read_unread, h5.read_unread,
    h6.read_unread, h7.read_unread, View.ld_unit_zero (S := S1024x300) hz, View.ld_unit_zero (S := S300x300) hz,
    View.ld_unit_zero (S := S1x300) hz, View.ld_unit_zero (S := S1024x300) hz, View.ld_unit_zero (S := S1024) hz1]

/-- At the first point the block is first set to the zero block, that is read back, the tile's contribution is added
    and the second store covers the block again: what is left is the update of the zero block. -/
theorem out_A (c : Dev nD) (i : grid10.Coords) (a1 : Memref sig .tc .vmem S1024x300 .f32) (h1 : a1.IsWhole)
    (a2 : Memref sig .tc .vmem S300x300 .f32) (h2 : a2.IsWhole) (a3 : Memref sig .tc .vmem S1x300 .f32) (h3 : a3.IsWhole)
    (a4 : Memref sig .tc .vmem S1024x300 .f32) (h4 : a4.IsWhole) (a5 : Memref sig .tc .vmem S1024 .i32) (h5 : a5.IsWhole)
    (a6 : Memref sig .tc .vmem S1024 .i32) (h6 : a6.IsWhole) (a7 : Memref sig .tc .vmem S1024x300 .f32) (h7 : a7.IsWhole)
    (hc : cond10_0 i) (x0 : Vec F S1024x300 .f32) (x1 : Vec F S300x300 .f32) (x2 : Vec F S1x300 .f32)
    (x3 : Vec F S1024x300 .f32) (x4 x5 : Vec F S1024 .i32) :
    out10_A_6 c i a1 h1 a2 h2 a3 h3 a4 h4 a5 h5 a6 h6 a7 h7 hc x0 x1 x2 x3 x4 x5
      = k10_pay1 (k10_pay4 x5) (k10_pay5 x4 x5 x0 x3 x1 x2) (k10_pay2 (F := F)) := by
  unfold out10_A_6
  rw [View.read_writes_eq_canon _ _ _ (cover10_A_6 c i a1 h1 a2 h2 a3 h3 a4 h4 a5 h5 a6 h6 a7 h7 hc x0 x1 x2 x3 x4 x5)]
  unfold kernelRun10_A
  dsimp only
  sl_unfold_words
  rw [View.canon_cons_unit_zero (S := S1024x300) hz, View.readCov_unit_zero (S := S1024x300) _ hz]
  simp only [View.readAt_eq_ld, h1.read_unread, h2.read_unread, h3.read_unread, h4.read_unread, h5.read_unread,
    h6.read_unread, View.ld_unit_zero (S := S1024x300) hz, View.ld_unit_zero (S := S300x300) hz,
    View.ld_unit_zero (S := S1x300) hz, View.ld_unit_zero (S := S1024x300) hz, View.ld_unit_zero (S := S1024) hz1]

end Pieces

/-! ## The blocks a point sees, read off the arrays -/

section Blocks
variable (V : (c : Dev nD) → (b : Ref sig .tc) → Buf (Elt Ideal) ((c : Thread nD τ).loc b))

/-- The six arrays the call finds: the node table, the edge weight, the bias row, the edge features, the source and
    the destination words. -/
abbrev pxA (c : Dev nD) : Vec Ideal S1024x300 .f32 := V c main_v37
abbrev weA (c : Dev nD) : Vec Ideal S300x300 .f32 := V c main_arg30
abbrev beA (c : Dev nD) : Vec Ideal S1x300 .f32 := V c main_v38
abbrev eaA (c : Dev nD) : Vec Ideal S262144x300 .f32 := V c main_arg9
abbrev srcA (c : Dev nD) : Vec Ideal S262144 .i32 := V c main_v33
abbrev dstA (c : Dev nD) : Vec Ideal S262144 .i32 := V c main_v35

/-- Their blocks at point `t`. -/
abbrev pxB (c : Dev nD) (t : Fin cfg10.N) : Vec Ideal S1024x300 .f32 := iblk10 V c 0 t
abbrev weB (c : Dev nD) (t : Fin cfg10.N) : Vec Ideal S300x300 .f32 := iblk10 V c 1 t
abbrev beB (c : Dev nD) (t : Fin cfg10.N) : Vec Ideal S1x300 .f32 := iblk10 V c 2 t
abbrev eaB (c : Dev nD) (t : Fin cfg10.N) : Vec Ideal S1024x300 .f32 := iblk10 V c 3 t
abbrev srcB (c : Dev nD) (t : Fin cfg10.N) : Vec Ideal S1024 .i32 := iblk10 V c 4 t
abbrev dstB (c : Dev nD) (t : Fin cfg10.N) : Vec Ideal S1024 .i32 := iblk10 V c 5 t

/-- Where each window's block sits at point `t`: the first three never move, the last three are at tile `t`. -/
theorem idx_facts : ∀ t : Fin cfg10.N,
    (win10_0.index t 0 = 0 ∧ win10_0.index t 1 = 0) ∧ (win10_1.index t 0 = 0 ∧ win10_1.index t 1 = 0)
      ∧ (win10_2.index t 0 = 0 ∧ win10_2.index t 1 = 0) ∧ (win10_3.index t 0 = t.val ∧ win10_3.index t 1 = 0)
      ∧ win10_4.index t 0 = t.val ∧ win10_5.index t 0 = t.val :=
  (by decide +kernel : ∀ t : Fin grid10.N,
    (win10_0.index t 0 = 0 ∧ win10_0.index t 1 = 0) ∧ (win10_1.index t 0 = 0 ∧ win10_1.index t 1 = 0)
      ∧ (win10_2.index t 0 = 0 ∧ win10_2.index t 1 = 0) ∧ (win10_3.index t 0 = t.val ∧ win10_3.index t 1 = 0)
      ∧ win10_4.index t 0 = t.val ∧ win10_5.index t 0 = t.val)

/-- The carried block never moves. -/
theorem idx_out : ∀ t : Fin cfg10.N, win10_6.index t 0 = 0 ∧ win10_6.index t 1 = 0 :=
  (by decide +kernel : ∀ t : Fin grid10.N, win10_6.index t 0 = 0 ∧ win10_6.index t 1 = 0)

/-- and is never cut short. -/
theorem xsize_out : ∀ t : Fin cfg10.N, win10_6.xsize (grid10.coords t) 0 = 1024 ∧ win10_6.xsize (grid10.coords t) 1 = 300 :=
  (by decide +kernel : ∀ t : Fin grid10.N, win10_6.xsize (grid10.coords t) 0 = 1024 ∧ win10_6.xsize (grid10.coords t) 1 = 300)

/-- An edge of tile `t` is an edge of the graph. -/
theorem tile_lt (t : Fin cfg10.N) (r : Fin 1024) : t.val * 1024 + r.val < 262144 := by
  have hN : t.val < 256 := lt_of_lt_of_eq t.isLt (show cfg10.N = 256 from N_10)
  have := r.isLt
  omega

theorem pxB_eq (c : Dev nD) (t : Fin cfg10.N) : pxB V c t = pxA V c := by
  funext j
  unfold pxB iblk10
  rw [View.read_apply]
  show V c main_v37 _ = V c main_v37 j
  congr 1
  funext a
  apply Fin.ext
  match a with
  | ⟨0, _⟩ => show win10_0.index t 0 * 1024 + 1 * (j 0).val = (j 0).val; rw [(idx_facts t).1.1]; omega
  | ⟨1, _⟩ => show win10_0.index t 1 * 300 + 1 * (j 1).val = (j 1).val; rw [(idx_facts t).1.2]; omega

theorem eaB_apply (c : Dev nD) (t : Fin cfg10.N) (r : Fin 1024) (k : Fin 300) :
    eaB V c t (ix2 r k) = eaA V c (ix2 ⟨t.val * 1024 + r.val, tile_lt t r⟩ k) := by
  unfold eaB iblk10
  rw [View.read_apply]
  show V c main_arg9 _ = V c main_arg9 _
  congr 1
  funext a
  apply Fin.ext
  match a with
  | ⟨0, _⟩ => show win10_3.index t 0 * 1024 + 1 * r.val = t.val * 1024 + r.val; rw [(idx_facts t).2.2.2.1.1]; omega
  | ⟨1, _⟩ => show win10_3.index t 1 * 300 + 1 * k.val = k.val; rw [(idx_facts t).2.2.2.1.2]; omega

theorem weB_eq (c : Dev nD) (t : Fin cfg10.N) : weB V c t = weA V c := by
  funext j
  unfold weB iblk10
  rw [View.read_apply]
  show V c main_arg30 _ = V c main_arg30 j
  congr 1
  funext a
  apply Fin.ext
  match a with
  | ⟨0, _⟩ => show win10_1.index t 0 * 300 + 1 * (j 0).val = (j 0).val; rw [(idx_facts t).2.1.1]; omega
  | ⟨1, _⟩ => show win10_1.index t 1 * 300 + 1 * (j 1).val = (j 1).val; rw [(idx_facts t).2.1.2]; omega

theorem beB_eq (c : Dev nD) (t : Fin cfg10.N) : beB V c t = beA V c := by
  funext j
  unfold beB iblk10
  rw [View.read_apply]
  show V c main_v38 _ = V c main_v38 j
  congr 1
  funext a
  apply Fin.ext
  match a with
  | ⟨0, _⟩ => show win10_2.index t 0 * 1 + 1 * (j 0).val = (j 0).val; rw [(idx_facts t).2.2.1.1]; omega
  | ⟨1, _⟩ => show win10_2.index t 1 * 300 + 1 * (j 1).val = (j 1).val; rw [(idx_facts t).2.2.1.2]; omega

theorem dstB_apply (c : Dev nD) (t : Fin cfg10.N) (r : Fin 1024) :
    dstB V c t (ix1 r) = dstA V c (ix1 ⟨t.val * 1024 + r.val, tile_lt t r⟩) := by
  unfold dstB iblk10
  rw [View.read_apply]
  show V c main_v35 _ = V c main_v35 _
  congr 1
  funext a
  apply Fin.ext
  match a with
  | ⟨0, _⟩ => show win10_5.index t 0 * 1024 + 1 * r.val = t.val * 1024 + r.val; rw [(idx_facts t).2.2.2.2.2]; omega

theorem srcB_apply (c : Dev nD) (t : Fin cfg10.N) (r : Fin 1024) :
    srcB V c t (ix1 r) = srcA V c (ix1 ⟨t.val * 1024 + r.val, tile_lt t r⟩) := by
  unfold srcB iblk10
  rw [View.read_apply]
  show V c main_v33 _ = V c main_v33 _
  congr 1
  funext a
  apply Fin.ext
  match a with
  | ⟨0, _⟩ => show win10_4.index t 0 * 1024 + 1 * r.val = t.val * 1024 + r.val; rw [(idx_facts t).2.2.2.2.1]; omega

end Blocks

/-! ## A message reads the edge arrays at its own edge only -/

/-- Two graphs' messages agree at edges `r` and `e` as soon as the node tables, weights and biases are the same and
    the edge arrays agree at those two edges. -/
theorem msgHot_tile {N B E H De : Nat} (pxT pxG : (Cert.Spec.Mat N H).Idx → EReal)
    (WeT WeG : (Cert.Spec.Mat H De).Idx → EReal) (beT beG : (Cert.Spec.Row H).Idx → EReal)
    (eaT : (Cert.Spec.Mat B De).Idx → EReal) (srcT dstT : (Cert.Spec.Row B).Idx → BitVec 32)
    (eaG : (Cert.Spec.Mat E De).Idx → EReal) (srcG dstG : (Cert.Spec.Row E).Idx → BitVec 32) (r : Fin B) (e : Fin E)
    (hpx : pxT = pxG) (hWe : WeT = WeG) (hbe : beT = beG)
    (hea : ∀ k : Fin De, eaT (ix2 r k) = eaG (ix2 e k)) (hsrc : srcT (ix1 r) = srcG (ix1 e))
    (hdst : dstT (ix1 r) = dstG (ix1 e)) (q : Fin H) :
    Cert.Spec.msgHot pxT WeT beT eaT srcT dstT r q = Cert.Spec.msgHot pxG WeG beG eaG srcG dstG e q := by
  subst hpx hWe hbe
  unfold Cert.Spec.msgHot Cert.Spec.edgeProj
  rw [hsrc, hdst]
  simp only [hea]

/-! ## The carried block, point by point -/

section Invariant
variable (V : (c : Dev nD) → (b : Ref sig .tc) → Buf (Elt Ideal) ((c : Thread nD τ).loc b))

/-- The contribution of tile `t` to entry (p, q): over its edges, [dst e = p] times the message of e, all read off
    the whole arrays (nothing past the last tile). -/
def tileSum (c : Dev nD) (p : Fin 1024) (q : Fin 300) (t : Nat) : EReal :=
  if ht : t < 256 then
    ∑ r : Fin 1024, Cert.Spec.hot (dstA V c (ix1 ⟨t * 1024 + r.val, by have := r.isLt; omega⟩)) p.val
      * Cert.Spec.msgHot (N := 1024) (E := 262144) (H := 300) (De := 300) (pxA V c) (weA V c)
          (fun j => beA V c (ix2 0 (j 0))) (eaA V c) (srcA V c) (dstA V c) ⟨t * 1024 + r.val, by have := r.isLt; omega⟩ q
  else 0

/-- One point's update of any carried block `acc`, by the blocks point `t` sees, adds tile `t`'s contribution. -/
theorem point_update (c : Dev nD) (t : Fin cfg10.N) (acc : Vec Ideal S1024x300 .f32) (p : Fin 1024) (q : Fin 300) :
    k10_pay1 (F := Ideal) (k10_pay4 (F := Ideal) (dstB V c t))
        (k10_pay5 (F := Ideal) (srcB V c t) (dstB V c t) (pxB V c t) (eaB V c t) (weB V c t) (beB V c t)) acc (ix2 p q)
      = acc (ix2 p q) + tileSum V c p q t.val := by
  have hN : t.val < 256 := lt_of_lt_of_eq t.isLt (show cfg10.N = 256 from N_10)
  refine (KAgg10Pay.update (pxB V c t) (weB V c t) (beB V c t) (eaB V c t) (srcB V c t) (dstB V c t) acc p q).trans ?_
  unfold tileSum
  rw [dif_pos hN]
  refine congrArg (acc (ix2 p q) + ·) (Finset.sum_congr rfl fun r _ => ?_)
  rw [dstB_apply V c t r]
  refine congrArg (Cert.Spec.hot (dstA V c (ix1 ⟨t.val * 1024 + r.val, tile_lt t r⟩)) p.val * ·) ?_
  exact msgHot_tile _ _ _ _ _ _ _ _ _ _ _ _ r ⟨t.val * 1024 + r.val, tile_lt t r⟩ (pxB_eq V c t) (weB_eq V c t)
    (funext fun j => congrFun (beB_eq V c t) _) (fun k => eaB_apply V c t r k) (srcB_apply V c t r)
    (dstB_apply V c t r) q

/-- After the first point the block holds the first tile's contribution, added to zero. -/
theorem outsAt_first (c : Dev nD) (t : Fin cfg10.N) (h0 : t.val % 256 = 0) (p : Fin 1024) (q : Fin 300) :
    outsAt10 V c t.val t.isLt (ix2 p q) = 0 + tileSum V c p q t.val := by
  rw [outsAt10_A V c t h0]
  refine (congrFun (out_A (F := Ideal) c (grid10.coords t) (ms10_0 t) (hs10_0 t) (ms10_1 t) (hs10_1 t) (ms10_2 t) (hs10_2 t)
    (ms10_3 t) (hs10_3 t) (ms10_4 t) (hs10_4 t) (ms10_5 t) (hs10_5 t) (ms10_6 t) (hs10_6 t) ((hcond10_0 t).mpr h0)
    (iblk10 V c 0 t) (iblk10 V c 1 t) (iblk10 V c 2 t) (iblk10 V c 3 t) (iblk10 V c 4 t) (iblk10 V c 5 t)) (ix2 p q)).trans ?_
  refine (point_update V c t (k10_pay2 (F := Ideal)) p q).trans ?_
  rw [KAgg10Pay.reset]

/-- After any later point it holds what the point before left, plus the point's tile's contribution. -/
theorem outsAt_next (c : Dev nD) (t : Fin cfg10.N) (h0 : ¬t.val % 256 = 0) (p : Fin 1024) (q : Fin 300) :
    outsAt10 V c t.val t.isLt (ix2 p q)
      = outsAt10 V c (t.val - 1) (Nat.lt_of_le_of_lt (Nat.sub_le _ _) t.isLt) (ix2 p q) + tileSum V c p q t.val := by
  rw [outsAt10_B V c t h0]
  refine (congrFun (out_B (F := Ideal) c (grid10.coords t) (ms10_0 t) (hs10_0 t) (ms10_1 t) (hs10_1 t) (ms10_2 t) (hs10_2 t)
    (ms10_3 t) (hs10_3 t) (ms10_4 t) (hs10_4 t) (ms10_5 t) (hs10_5 t) (ms10_6 t) (hs10_6 t) (fun h => h0 ((hcond10_0 t).mp h))
    (iblk10 V c 0 t) (iblk10 V c 1 t) (iblk10 V c 2 t) (iblk10 V c 3 t) (iblk10 V c 4 t) (iblk10 V c 5 t)
    (outsAt10 V c (t.val - 1) (Nat.lt_of_le_of_lt (Nat.sub_le _ _) t.isLt))) (ix2 p q)).trans ?_
  exact point_update V c t (outsAt10 V c (t.val - 1) (Nat.lt_of_le_of_lt (Nat.sub_le _ _) t.isLt)) p q

/-- The array the call is to leave. -/
abbrev result (c : Dev nD) : Buf (Elt Ideal) ((c : Thread nD τ).loc main_v39) :=
  Cert.Spec.aggHot (N := 1024) (E := 262144) (H := 300) (De := 300) (V c main_v37) (V c main_arg30)
    (fun j => V c main_v38 (ix2 0 (j 0))) (V c main_arg9) (V c main_v33) (V c main_v35)

/-- After the last point the block holds the sum over all tiles, which is the sum over all edges. -/
theorem last_block (c : Dev nD) (t : Fin cfg10.N) (hend : t.val = 255) : outsAt10 V c t.val t.isLt = result V c := by
  funext j
  obtain ⟨p, q, rfl⟩ : ∃ (p : Fin 1024) (q : Fin 300), j = ix2 p q := ⟨j 0, j 1, eq_ix2 j⟩
  have hN : cfg10.N = 256 := N_10
  have key := Cert.Spec.foldTiles_eq_sum 256 (tileSum V c p q)
    (fun n => if h : n < cfg10.N then outsAt10 V c n h (ix2 p q) else 0)
    (by
      have h : 0 < cfg10.N := by omega
      rw [dif_pos h]
      exact outsAt_first V c ⟨0, h⟩ rfl p q)
    (fun n hn => by
      have h1 : n + 1 < cfg10.N := by omega
      have h2 : n < cfg10.N := by omega
      rw [dif_pos h1, dif_pos h2]
      exact outsAt_next V c ⟨n + 1, h1⟩ (by dsimp only; omega) p q)
    (by omega)
  obtain ⟨n, hn⟩ := t
  dsimp only at hend
  subst hend
  dsimp only
  rw [dif_pos hn] at key
  refine key.trans ?_
  show _ = ∑ e : Fin 262144, Cert.Spec.hot (V c main_v35 (ix1 e)) p.val
    * Cert.Spec.msgHot (N := 1024) (E := 262144) (H := 300) (De := 300) (V c main_v37) (V c main_arg30)
        (fun j => V c main_v38 (ix2 0 (j 0))) (V c main_arg9) (V c main_v33) (V c main_v35) e q
  rw [Cert.Spec.sum_tiles 256 1024 262144 rfl]
  refine Finset.sum_congr rfl fun t _ => ?_
  unfold tileSum
  rw [dif_pos t.isLt]

end Invariant

/-! ## The write-back -/

section Final
variable (V : (c : Dev nD) → (b : Ref sig .tc) → Buf (Elt Ideal) ((c : Thread nD τ).loc b))

/-- The one point that writes back is the last; its block, at offset zero and of the array's size, is the array. -/
theorem flushed_eq (c : Dev nD) (t : Fin cfg10.N) (hf : (cfg10.win 6).flush t = true) :
    (dat10 (F := Ideal) V c).flushed 6 t = ((cfg10.win 6).blk t).view.read (Elt Ideal) (result V c) := by
  have hN : cfg10.N = 256 := N_10
  have hend : t.val = 255 := by have := (flush10_6 t).mp hf; have := t.isLt; omega
  show (cfg10.win 6).cut (grid10.coords t) ((dat10 (F := Ideal) V c).after 6 t) = _
  rw [after10_6, last_block V c t hend]
  have hz' : (fun a => win10_6.index t a * main_v39.ty.shape.size a) = fun _ => 0 := funext fun a => by
    match a with
    | ⟨0, _⟩ => show win10_6.index t 0 * 1024 = 0; rw [(idx_out t).1]
    | ⟨1, _⟩ => show win10_6.index t 1 * 300 = 0; rw [(idx_out t).2]
  exact (Memref.read_access_unit_zero (Elt Ideal) main_v39 hz' (fun a => by rw [congrFun hz' a]; simp) (result V c)).symm

/-- The array call 10 leaves is the one-hot aggregation of the six arrays it finds. -/
theorem final (c : Dev nD) :
    (dat10 (F := Ideal) V c).arrAt 6 cfg10.N
      = Cert.Spec.aggHot (N := 1024) (E := 262144) (H := 300) (De := 300) (V c main_v37) (V c main_arg30)
          (fun j => V c main_v38 (ix2 0 (j 0))) (V c main_arg9) (V c main_v33) (V c main_v35) := by
  have hlast : 255 < cfg10.N := by rw [show cfg10.N = 256 from N_10]; decide
  refine (dat10 (F := Ideal) V c).arrAt_eq_of_cover 6 (result V c) (flushed_eq V c) fun i =>
    ⟨⟨255, hlast⟩, (flush10_6 _).mpr rfl, ?_⟩
  show i ∈ ((View.whole main_v39).slice (win10_6.rect ⟨255, hlast⟩)).set
  rw [View.set_slice_whole, Rect.mem_set_unit]
  intro a
  have h0 : (i 0 : Nat) < 1024 := (i 0).isLt
  have h1 : (i 1 : Nat) < 300 := (i 1).isLt
  match a with
  | ⟨0, _⟩ =>
    show win10_6.index ⟨255, hlast⟩ 0 * win10_6.size 0 ≤ (i 0 : Nat)
      ∧ (i 0 : Nat) < win10_6.index ⟨255, hlast⟩ 0 * win10_6.size 0 + win10_6.xsize (grid10.coords ⟨255, hlast⟩) 0
    rw [(idx_out ⟨255, hlast⟩).1, (xsize_out ⟨255, hlast⟩).1]; omega
  | ⟨1, _⟩ =>
    show win10_6.index ⟨255, hlast⟩ 1 * win10_6.size 1 ≤ (i 1 : Nat)
      ∧ (i 1 : Nat) < win10_6.index ⟨255, hlast⟩ 1 * win10_6.size 1 + win10_6.xsize (grid10.coords ⟨255, hlast⟩) 1
    rw [(idx_out ⟨255, hlast⟩).2, (xsize_out ⟨255, hlast⟩).2]; omega

end Final

end Cert.KernelIdeal.KAgg10

end
-- ==== Proof.KLin11.lean ====
/-
  Pallas call 11 is a linear layer on one grid point: its one block is the whole [1024, 600] result, and entry (i, j)
  is the sum over k of x[i,k] · W[j,k] plus the bias row's entry j (the matrix unit's pass into a zero accumulator is
  that sum at the exact instance; the two roundings to the narrow format are the identity there).
-/
import proofs.«408848_j32693291057228_1_alg».proof.Proof.Gen.KernelIdeal.Frame
import proofs.«408848_j32693291057228_1_alg».proof.Proof.Spec
import Idealize.ShloMosaic.Lib.Pipeline.Value
import Idealize.ShloMosaic.Lib.ValueIdx
import Idealize.ShloMosaic.PureOps.Ideal.Laws

noncomputable section

namespace Cert.KernelIdeal.KLin11

open Idealize.ShloMosaic Idealize.ShloMosaic.TcCoe Idealize.SL.Sem Idealize.ShloMosaic.ValueIdx
open Cert.KernelIdeal Cert.KernelIdeal.Gen

/-! ## The contraction's operand indices

The product contracts axis 1 of x with axis 1 of W: at result entry (i, j) and contraction position k the left
operand is read at (i, k) and the right one at (j, k). One lemma per operand axis. -/

/-- Row axis of the left operand: the result's row. -/
theorem lhs_row (i : S1024x600.Idx) (r : dot_S1024x300_S600x300_S1024x600_1_1_0_0_n_n.contr.Idx) :
    (dot_S1024x300_S600x300_S1024x600_1_1_0_0_n_n.lhsIdx i r 0).val = (i 0).val := by
  unfold DotDims.lhsIdx
  rw [dif_neg (show ¬(0 : Fin S1024x300.rank) ∈ dot_S1024x300_S600x300_S1024x600_1_1_0_0_n_n.lhsBatch by decide), dif_pos (show (0 : Fin S1024x300.rank) ∈ dot_S1024x300_S600x300_S1024x600_1_1_0_0_n_n.lhsNonContracting by decide)]
  rfl

/-- Column axis of the left operand: the contraction position. -/
theorem lhs_col (i : S1024x600.Idx) (r : dot_S1024x300_S600x300_S1024x600_1_1_0_0_n_n.contr.Idx) :
    (dot_S1024x300_S600x300_S1024x600_1_1_0_0_n_n.lhsIdx i r 1).val = (r ⟨0, by decide⟩).val :=
  dot_S1024x300_S600x300_S1024x600_1_1_0_0_n_n.lhsIdx_val_of_single rfl i r

/-- Row axis of the right operand: the result's column. -/
theorem rhs_row (i : S1024x600.Idx) (r : dot_S1024x300_S600x300_S1024x600_1_1_0_0_n_n.contr.Idx) :
    (dot_S1024x300_S600x300_S1024x600_1_1_0_0_n_n.rhsIdx i r 0).val = (i 1).val := by
  unfold DotDims.rhsIdx
  rw [dif_neg (show ¬(0 : Fin S600x300.rank) ∈ dot_S1024x300_S600x300_S1024x600_1_1_0_0_n_n.rhsBatch by decide), dif_pos (show (0 : Fin S600x300.rank) ∈ dot_S1024x300_S600x300_S1024x600_1_1_0_0_n_n.rhsNonContracting by decide)]
  rfl

/-- Column axis of the right operand: the contraction position. -/
theorem rhs_col (i : S1024x600.Idx) (r : dot_S1024x300_S600x300_S1024x600_1_1_0_0_n_n.contr.Idx) :
    (dot_S1024x300_S600x300_S1024x600_1_1_0_0_n_n.rhsIdx i r 1).val = (r ⟨0, by decide⟩).val :=
  dot_S1024x300_S600x300_S1024x600_1_1_0_0_n_n.rhsIdx_val_of_single rfl i r

/-! ## The body's value at one entry -/

/-- Entry (p, q) of what the body stores: a reshaping to the same shape changes nothing, the two narrowings are the
    identity on exact values, the product into the zero accumulator is the plain sum of products over the 300
    contraction positions, and the one-row bias is repeated down the rows, so row p sees entry (0, q) of it. -/
theorem pay_apply (x0 : Vec Ideal S1024x300 .f32) (x1 : Vec Ideal S600x300 .f32) (x2 : Vec Ideal S1x600 .f32)
    (p : Fin 1024) (q : Fin 600) :
    k11_pay1 (F := Ideal) x0 x1 x2 (ix2 p q) = (∑ k : Fin 300, x0 (ix2 p k) * x1 (ix2 q k)) + x2 (ix2 0 q) := by
  unfold k11_pay1
  simp only [shapeCast_self]
  refine (addf_apply _ _ (ix2 p q)).trans ?_
  refine congrArg₂ (· + ·) ?_ ?_
  · refine (Ideal.matmul_constant_zero_apply dot_S1024x300_S600x300_S1024x600_1_1_0_0_n_n none _ _ (ix2 p q)).trans ?_
    rw [← Equiv.sum_comp (contrEquiv1 dot_S1024x300_S600x300_S1024x600_1_1_0_0_n_n 300 rfl rfl).symm]
    refine Finset.sum_congr rfl fun k _ => ?_
    have hk := contrEquiv1_symm_val dot_S1024x300_S600x300_S1024x600_1_1_0_0_n_n 300 rfl rfl k
    have el : dot_S1024x300_S600x300_S1024x600_1_1_0_0_n_n.lhsIdx (ix2 p q) ((contrEquiv1 dot_S1024x300_S600x300_S1024x600_1_1_0_0_n_n 300 rfl rfl).symm k) = ix2 p k := funext fun a => Fin.ext (by
      match a with
      | ⟨0, _⟩ => exact lhs_row _ _
      | ⟨1, _⟩ => exact (lhs_col _ _).trans hk)
    have er : dot_S1024x300_S600x300_S1024x600_1_1_0_0_n_n.rhsIdx (ix2 p q) ((contrEquiv1 dot_S1024x300_S600x300_S1024x600_1_1_0_0_n_n 300 rfl rfl).symm k) = ix2 q k := funext fun a => Fin.ext (by
      match a with
      | ⟨0, _⟩ => exact rhs_row _ _
      | ⟨1, _⟩ => exact (rhs_col _ _).trans hk)
    rw [el, er]
    rfl
  · exact broadcastTo_apply x2 broadcasts_S1x600_S1024x600 (ix2 p q) (ix2 0 q) (fun a => match a with
      | ⟨0, _⟩ => by show 0 = if (1 : Nat) = 1 then 0 else _; rw [if_pos rfl]
      | ⟨1, _⟩ => by show q.val = if (600 : Nat) = 1 then 0 else q.val; rw [if_neg (by decide)])

variable (V : (c : Dev nD) → (b : Ref sig .tc) → Buf (Elt Ideal) ((c : Thread nD τ).loc b))

/-! ## From the one block to the array

The grid has one point and every window's block is its whole array, so each block sits at the origin of its array:
reading an array through such a block gives the array back, and the one write-back covers every entry. -/

/-- The origin, spelt as the accesses spell it. -/
theorem hz : (![0, 0] : Fin 2 → Nat) = fun _ => 0 := funext fun a => by fin_cases a <;> rfl

/-- Every window's block index is (0, 0) at the grid's point. -/
theorem origin : ∀ t : Fin cfg11.N,
    win11_0.index t (0 : Fin 2) = 0 ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0 :=
  (by decide +kernel : ∀ t : Fin grid11.N, _)

/-- The block of x is x. -/
theorem blk_x (c : Dev nD) (t : Fin cfg11.N) :
    (iblk11 (F := Ideal) V c 0 t : Vec Ideal S1024x300 .f32) = V c main_v39 := by
  obtain ⟨e0, e1, -⟩ := origin t
  have hz' : (fun a => win11_0.index t a * main_v39.ty.shape.size a) = fun _ => 0 := funext fun a => by
    match a with
    | ⟨0, _⟩ => show win11_0.index t (0 : Fin 2) * 1024 = 0; rw [e0]
    | ⟨1, _⟩ => show win11_0.index t (1 : Fin 2) * 300 = 0; rw [e1]
  exact Memref.read_access_unit_zero (Elt Ideal) main_v39 hz' (fun a => by rw [congrFun hz' a]; simp) (V c main_v39)

/-- The block of W is W. -/
theorem blk_w (c : Dev nD) (t : Fin cfg11.N) :
    (iblk11 (F := Ideal) V c 1 t : Vec Ideal S600x300 .f32) = V c main_arg32 := by
  obtain ⟨-, -, e0, e1, -⟩ := origin t
  have hz' : (fun a => win11_1.index t a * main_arg32.ty.shape.size a) = fun _ => 0 := funext fun a => by
    match a with
    | ⟨0, _⟩ => show win11_1.index t (0 : Fin 2) * 600 = 0; rw [e0]
    | ⟨1, _⟩ => show win11_1.index t (1 : Fin 2) * 300 = 0; rw [e1]
  exact Memref.read_access_unit_zero (Elt Ideal) main_arg32 hz' (fun a => by rw [congrFun hz' a]; simp) (V c main_arg32)

/-- The block of the bias row is the bias row. -/
theorem blk_b (c : Dev nD) (t : Fin cfg11.N) :
    (iblk11 (F := Ideal) V c 2 t : Vec Ideal S1x600 .f32) = V c main_v40 := by
  obtain ⟨-, -, -, -, e0, e1, -⟩ := origin t
  have hz' : (fun a => win11_2.index t a * main_v40.ty.shape.size a) = fun _ => 0 := funext fun a => by
    match a with
    | ⟨0, _⟩ => show win11_2.index t (0 : Fin 2) * 1 = 0; rw [e0]
    | ⟨1, _⟩ => show win11_2.index t (1 : Fin 2) * 600 = 0; rw [e1]
  exact Memref.read_access_unit_zero (Elt Ideal) main_v40 hz' (fun a => by rw [congrFun hz' a]; simp) (V c main_v40)

/-- The linear layer of the three arrays the call finds. -/
abbrev layer (c : Dev nD) : S1024x600.Idx → EReal :=
  Cert.Spec.linRow (N := 1024) (Din := 300) (Dout := 600) (V c main_v39) (V c main_arg32) (V c main_v40)

/-- What the point writes back is the layer, read through the result's block. -/
theorem flushed_eq (c : Dev nD) (t : Fin cfg11.N) :
    (dat11 (F := Ideal) V c).flushed 3 t = ((cfg11.win 3).blk t).view.read (Elt Ideal) (layer V c) := by
  obtain ⟨-, -, -, -, -, -, e0, e1⟩ := origin t
  have hz' : (fun a => win11_3.index t a * main_v41.ty.shape.size a) = fun _ => 0 := funext fun a => by
    match a with
    | ⟨0, _⟩ => show win11_3.index t (0 : Fin 2) * 1024 = 0; rw [e0]
    | ⟨1, _⟩ => show win11_3.index t (1 : Fin 2) * 600 = 0; rw [e1]
  refine Eq.trans ?_ (Memref.read_access_unit_zero (Elt Ideal) main_v41 hz' (fun a => by rw [congrFun hz' a]; simp) (layer V c)).symm
  show (cfg11.win 3).cut (grid11.coords t) ((dat11 V c).after 3 t) = _
  rw [after11_3]
  unfold out11_3
  rw [View.canon_unit_zero hz]
  simp only [View.ld_unit_zero (S := S1024x300) hz, View.ld_unit_zero (S := S600x300) hz, View.ld_unit_zero (S := S1x600) hz]
  rw [blk_x V c t, blk_w V c t, blk_b V c t]
  funext i
  obtain ⟨p, q, rfl⟩ : ∃ (p : Fin 1024) (q : Fin 600), i = ix2 p q := ⟨i 0, i 1, eq_ix2 i⟩
  exact pay_apply _ _ _ p q

/-- The grid's one point. -/
abbrev pt : Fin cfg11.N := ⟨0, by rw [show cfg11.N = 1 from N_11]; decide⟩

/-- Every entry of the result lies in the block that point writes back. -/
theorem cover (c : Dev nD) (i : ((cfg11.win 3).arr.view.loc (c.tc : Thread nD τ)).2.ty.Idx) :
    ∃ t : Fin cfg11.N, (cfg11.win 3).flush t = true ∧ i ∈ ((cfg11.win 3).blk t).view.set := by
  refine ⟨pt, flush11_3 pt, ?_⟩
  show i ∈ ((View.whole main_v41).slice (win11_3.rect pt)).set
  rw [View.set_slice_whole, Rect.mem_set_unit]
  intro a
  obtain ⟨-, -, -, -, -, -, e0, e1⟩ := origin pt
  have h0 : (i 0 : Nat) < 1024 := (i 0).isLt
  have h1 : (i 1 : Nat) < 600 := (i 1).isLt
  match a with
  | ⟨0, _⟩ =>
    show win11_3.index pt (0 : Fin 2) * 1024 ≤ (i 0 : Nat) ∧ (i 0 : Nat) < win11_3.index pt (0 : Fin 2) * 1024 + 1024
    rw [e0]; omega
  | ⟨1, _⟩ =>
    show win11_3.index pt (1 : Fin 2) * 600 ≤ (i 1 : Nat) ∧ (i 1 : Nat) < win11_3.index pt (1 : Fin 2) * 600 + 600
    rw [e1]; omega

/-- The array call 11 leaves is the linear layer of the three arrays it finds. -/
theorem final (c : Dev nD) :
    (dat11 (F := Ideal) V c).arrAt 3 cfg11.N
      = Cert.Spec.linRow (N := 1024) (Din := 300) (Dout := 600) (V c main_v39) (V c main_arg32) (V c main_v40) :=
  (dat11 (F := Ideal) V c).arrAt_eq_of_cover 3 (layer V c) (fun t _ => flushed_eq V c t) (cover c)

end Cert.KernelIdeal.KLin11

end
-- ==== Proof.KChainB.lean ====
/-
  The second half of the kernel program's run, read as values: the two first-layer results are stacked both ways
  by the host (graph 1 on top for the first cross layer, graph 2 on top for the second), each cross layer runs as
  three calls (6, 7, 8 and 9, 10, 11), and the host keeps the top 512 rows of each. Again the host stretches only
  slice endpoint rows and reshape bias vectors, and all other buffers are carried unchanged.
-/
import proofs.«408848_j32693291057228_1_alg».proof.Proof.Gen.KernelIdeal.Frame
import proofs.«408848_j32693291057228_1_alg».proof.Proof.Spec
import proofs.«408848_j32693291057228_1_alg».proof.Proof.KChainA
import proofs.«408848_j32693291057228_1_alg».proof.Proof.KLin6
import proofs.«408848_j32693291057228_1_alg».proof.Proof.KAgg7
import proofs.«408848_j32693291057228_1_alg».proof.Proof.KLin8
import proofs.«408848_j32693291057228_1_alg».proof.Proof.KLin9
import proofs.«408848_j32693291057228_1_alg».proof.Proof.KAgg10
import proofs.«408848_j32693291057228_1_alg».proof.Proof.KLin11
import Idealize.ShloMosaic.Lib.Pipeline.Value

noncomputable section

namespace Cert.KernelIdeal.Chain.Cross

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-! ## Pure facts: the host's layout operations against the specification's words -/

/-- Stacking by the host's concatenation along the rows is the specification's stack: a row below 512 is read
    from the first table, any other from the second, 512 rows up. -/
theorem concat_eq_stack (a b : S512x600.Idx → EReal) :
    concatenate S1024x600 0 [⟨S512x600, a⟩, ⟨S512x600, b⟩] concatenates_S512x600_S512x600_S1024x600_d0
      = Cert.Spec.stack 1024 rfl a b := by
  funext j
  obtain ⟨p, q, rfl⟩ : ∃ (p : Fin 1024) (q : Fin 600), j = ix2 p q := ⟨j 0, j 1, eq_ix2 j⟩
  unfold Cert.Spec.stack
  by_cases h : p.val < 512
  · have h' : ((ix2 p q : (Cert.Spec.Mat 1024 600).Idx) 0).val < 512 := h
    rw [dif_pos h']
    exact concatenate_pair_apply_left 0 a b _ (ix2 p q) rfl (ix2 ⟨p.val, h⟩ q)
      (fun d => match d with | ⟨0, _⟩ => rfl | ⟨1, _⟩ => rfl)
  · have h' : ¬ ((ix2 p q : (Cert.Spec.Mat 1024 600).Idx) 0).val < 512 := h
    rw [dif_neg h']
    exact concatenate_pair_apply_right 0 a b _ (ix2 p q) rfl rfl (ix2 ⟨p.val - 512, by have := p.isLt; omega⟩ q)
      (fun d hd => match d, hd with | ⟨0, _⟩, hd => absurd rfl hd | ⟨1, _⟩, _ => rfl)
      (by show p.val - 512 + 512 = p.val; omega)

/-- The slice of the first 512 rows is the specification's top. -/
theorem slice_eq_top (a : S1024x600.Idx → EReal) :
    extractStridedSlice S512x600 ![0, 0] a slices_S1024x600_S512x600_0_0 = Cert.Spec.top (by omega) a := by
  funext j
  obtain ⟨p, q, rfl⟩ : ∃ (p : Fin 512) (q : Fin 600), j = ix2 p q := ⟨j 0, j 1, eq_ix2 j⟩
  unfold Cert.Spec.top
  exact extractStridedSlice_apply _ _ _ (ix2 p q) _ (fun d => match d with
    | ⟨0, _⟩ => by show p.val = 0 + p.val; omega
    | ⟨1, _⟩ => by show q.val = 0 + q.val; omega)

/-- A 300-vector recast as a one-row matrix, read at a column. -/
theorem row300_apply (v : S300.Idx → EReal) (q : Fin 300) :
    shapeCast S1x300 v shapeCasts_S300_S1x300 (ix2 0 q) = v (ix1 q) :=
  shapeCast_apply _ _ _ _ (by
    show ((⟨1, ![300]⟩ : Shape).rowMajor (ix1 q)).val = ((⟨2, ![1, 300]⟩ : Shape).rowMajor (ix2 0 q)).val
    rw [Shape.rowMajor_val_one, Shape.rowMajor_val_two]
    show q.val = 0 * 300 + q.val
    omega)

/-- A 600-vector recast as a one-row matrix, read at a column. -/
theorem row600_apply (v : S600.Idx → EReal) (q : Fin 600) :
    shapeCast S1x600 v shapeCasts_S600_S1x600 (ix2 0 q) = v (ix1 q) :=
  shapeCast_apply _ _ _ _ (by
    show ((⟨1, ![600]⟩ : Shape).rowMajor (ix1 q)).val = ((⟨2, ![1, 600]⟩ : Shape).rowMajor (ix2 0 q)).val
    rw [Shape.rowMajor_val_one, Shape.rowMajor_val_two]
    show q.val = 0 * 600 + q.val
    omega)

/-- Row 0 of a two-row word table, sliced out and flattened, read at an edge. -/
theorem endrow0_apply (t : S2x262144.Idx → BitVec 32) (q : Fin 262144) :
    shapeCast S262144 (extractStridedSlice S1x262144 ![0, 0] t slices_S2x262144_S1x262144_0_0) shapeCasts_S1x262144_S262144 (ix1 q)
      = t (ix2 0 q) := by
  refine (shapeCast_apply _ _ (ix1 q) (ix2 0 q) (by
    show ((⟨2, ![1, 262144]⟩ : Shape).rowMajor (ix2 0 q)).val = ((⟨1, ![262144]⟩ : Shape).rowMajor (ix1 q)).val
    rw [Shape.rowMajor_val_one, Shape.rowMajor_val_two]
    show 0 * 262144 + q.val = q.val
    omega)).trans ?_
  exact extractStridedSlice_apply _ _ _ (ix2 0 q) (ix2 0 q) (fun a => match a with
    | ⟨0, _⟩ => by show (0 : Nat) = 0 + 0; rfl
    | ⟨1, _⟩ => by show q.val = 0 + q.val; omega)

/-- Row 1 of a two-row word table, sliced out and flattened, read at an edge. -/
theorem endrow1_apply (t : S2x262144.Idx → BitVec 32) (q : Fin 262144) :
    shapeCast S262144 (extractStridedSlice S1x262144 ![1, 0] t slices_S2x262144_S1x262144_1_0) shapeCasts_S1x262144_S262144 (ix1 q)
      = t (ix2 1 q) := by
  refine (shapeCast_apply _ _ (ix1 q) (ix2 0 q) (by
    show ((⟨2, ![1, 262144]⟩ : Shape).rowMajor (ix2 0 q)).val = ((⟨1, ![262144]⟩ : Shape).rowMajor (ix1 q)).val
    rw [Shape.rowMajor_val_one, Shape.rowMajor_val_two]
    show 0 * 262144 + q.val = q.val
    omega)).trans ?_
  exact extractStridedSlice_apply _ _ _ (ix2 0 q) (ix2 1 q) (fun a => match a with
    | ⟨0, _⟩ => by show (1 : Nat) = 1 + 0; rfl
    | ⟨1, _⟩ => by show q.val = 0 + q.val; omega)

/-- A linear layer whose bias is held as a one-row matrix is the linear layer of the vector that row spells. -/
theorem linRow_of_row {N Din Dout : Nat} (x : (Cert.Spec.Mat N Din).Idx → EReal) (W : (Cert.Spec.Mat Dout Din).Idx → EReal)
    (b : (Cert.Spec.Mat 1 Dout).Idx → EReal) (b' : (Cert.Spec.Row Dout).Idx → EReal)
    (h : ∀ q : Fin Dout, b (ix2 0 q) = b' (ix1 q)) : Cert.Spec.linRow x W b = Cert.Spec.lin x W b' :=
  funext fun i => congrArg (fun t => (∑ k : Fin Din, x (ix2 (i 0) k) * W (ix2 (i 1) k)) + t) (h (i 1))

/-- The aggregation depends on its six arrays only through their values. -/
theorem aggHot_congr {N E H De : Nat} {px px' : (Cert.Spec.Mat N H).Idx → EReal} {We We' : (Cert.Spec.Mat H De).Idx → EReal}
    {be be' : (Cert.Spec.Row H).Idx → EReal} {ea ea' : (Cert.Spec.Mat E De).Idx → EReal}
    {src src' dst dst' : (Cert.Spec.Row E).Idx → BitVec 32}
    (h0 : px = px') (h1 : We = We') (h2 : be = be') (h3 : ea = ea') (h4 : src = src') (h5 : dst = dst') :
    Cert.Spec.aggHot px We be ea src dst = Cert.Spec.aggHot px' We' be' ea' src' dst' := by
  subst h0 h1 h2 h3 h4 h5; rfl

/-! ## What is carried: a host stretch changes only the buffers its operations write, a call only its result -/

theorem host6_keep (c : Dev nD) (b : Ref sig .tc)
    (hb : b ∉ [main_v20, main_v21, main_v22, main_v23, main_v24, main_v25, main_v26]) :
    W13 m ρ c (Proc.devRef .tc b) = W12 m ρ c (Proc.devRef .tc b) :=
  StableHlo.after_of_writes_sub hostOps6 _ (by
    simp only [hostOps6, List.Forall, StableHlo.unary_writes, StableHlo.binary_writes, StableHlo.reshape_writes,
      Finset.singleton_subset_iff, List.mem_toFinset]
    refine ⟨?_, ?_, ?_, ?_, ?_, ?_, ?_⟩ <;> exact List.mem_map_of_mem (by decide)) hb

theorem host7_keep (c : Dev nD) (b : Ref sig .tc) (hb : b ∉ [main_v28]) :
    W15 m ρ c (Proc.devRef .tc b) = W14 m ρ c (Proc.devRef .tc b) :=
  StableHlo.after_of_writes_sub hostOps7 _ (by
    simp only [hostOps7, List.Forall, StableHlo.reshape_writes, Finset.singleton_subset_iff, List.mem_toFinset]
    exact List.mem_map_of_mem (by decide)) hb

theorem host8_keep (c : Dev nD) (b : Ref sig .tc) (hb : b ∉ [main_v30]) :
    W17 m ρ c (Proc.devRef .tc b) = W16 m ρ c (Proc.devRef .tc b) :=
  StableHlo.after_of_writes_sub hostOps8 _ (by
    simp only [hostOps8, List.Forall, StableHlo.reshape_writes, Finset.singleton_subset_iff, List.mem_toFinset]
    exact List.mem_map_of_mem (by decide)) hb

theorem host9_keep (c : Dev nD) (b : Ref sig .tc)
    (hb : b ∉ [main_v32, main_v33, main_v34, main_v35, main_v36]) :
    W19 m ρ c (Proc.devRef .tc b) = W18 m ρ c (Proc.devRef .tc b) :=
  StableHlo.after_of_writes_sub hostOps9 _ (by
    simp only [hostOps9, List.Forall, StableHlo.unary_writes, StableHlo.reshape_writes,
      Finset.singleton_subset_iff, List.mem_toFinset]
    refine ⟨?_, ?_, ?_, ?_, ?_⟩ <;> exact List.mem_map_of_mem (by decide)) hb

theorem host10_keep (c : Dev nD) (b : Ref sig .tc) (hb : b ∉ [main_v38]) :
    W21 m ρ c (Proc.devRef .tc b) = W20 m ρ c (Proc.devRef .tc b) :=
  StableHlo.after_of_writes_sub hostOps10 _ (by
    simp only [hostOps10, List.Forall, StableHlo.reshape_writes, Finset.singleton_subset_iff, List.mem_toFinset]
    exact List.mem_map_of_mem (by decide)) hb

theorem host11_keep (c : Dev nD) (b : Ref sig .tc) (hb : b ∉ [main_v40]) :
    W23 m ρ c (Proc.devRef .tc b) = W22 m ρ c (Proc.devRef .tc b) :=
  StableHlo.after_of_writes_sub hostOps11 _ (by
    simp only [hostOps11, List.Forall, StableHlo.reshape_writes, Finset.singleton_subset_iff, List.mem_toFinset]
    exact List.mem_map_of_mem (by decide)) hb

theorem host12_keep (c : Dev nD) (b : Ref sig .tc) (hb : b ∉ [main_v42, main_v43]) :
    W25 m ρ c (Proc.devRef .tc b) = W24 m ρ c (Proc.devRef .tc b) :=
  StableHlo.after_of_writes_sub hostOps12 _ (by
    simp only [hostOps12, List.Forall, StableHlo.unary_writes, Finset.singleton_subset_iff, List.mem_toFinset]
    refine ⟨?_, ?_⟩ <;> exact List.mem_map_of_mem (by decide)) hb

/-- Over a call every buffer but the call's result is as it was: a buffer the call does not stage is not touched,
    and an input it stages is handed back as found. -/
theorem region6_keep (c : Dev nD) (b : Ref sig .tc) (hb : b ≠ main_v27) :
    W14 m ρ c (Proc.devRef .tc b) = W13 m ρ c (Proc.devRef .tc b) := by
  by_cases h : ∀ w, Pipeline.arrRef spec6 w ≠ b
  · exact W14_of_ne m ρ c b h
  · obtain ⟨w, hw⟩ := not_forall.mp h
    obtain rfl := not_not.mp hw
    have hin : (cfg6.win w).isOut = false := by
      match w with
      | ⟨0, _⟩ => rfl
      | ⟨1, _⟩ => rfl
      | ⟨2, _⟩ => rfl
      | ⟨3, _⟩ => exact absurd rfl hb
    exact (W14_arr m ρ c w).trans (((dat6 (V13 m ρ) c).arrAt_in w hin _).trans (A_eq6 (V13 m ρ) c w))

theorem region7_keep (c : Dev nD) (b : Ref sig .tc) (hb : b ≠ main_v29) :
    W16 m ρ c (Proc.devRef .tc b) = W15 m ρ c (Proc.devRef .tc b) := by
  by_cases h : ∀ w, Pipeline.arrRef spec7 w ≠ b
  · exact W16_of_ne m ρ c b h
  · obtain ⟨w, hw⟩ := not_forall.mp h
    obtain rfl := not_not.mp hw
    have hin : (cfg7.win w).isOut = false := by
      match w with
      | ⟨0, _⟩ => rfl
      | ⟨1, _⟩ => rfl
      | ⟨2, _⟩ => rfl
      | ⟨3, _⟩ => rfl
      | ⟨4, _⟩ => rfl
      | ⟨5, _⟩ => rfl
      | ⟨6, _⟩ => exact absurd rfl hb
    exact (W16_arr m ρ c w).trans (((dat7 (V15 m ρ) c).arrAt_in w hin _).trans (A_eq7 (V15 m ρ) c w))

theorem region8_keep (c : Dev nD) (b : Ref sig .tc) (hb : b ≠ main_v31) :
    W18 m ρ c (Proc.devRef .tc b) = W17 m ρ c (Proc.devRef .tc b) := by
  by_cases h : ∀ w, Pipeline.arrRef spec8 w ≠ b
  · exact W18_of_ne m ρ c b h
  · obtain ⟨w, hw⟩ := not_forall.mp h
    obtain rfl := not_not.mp hw
    have hin : (cfg8.win w).isOut = false := by
      match w with
      | ⟨0, _⟩ => rfl
      | ⟨1, _⟩ => rfl
      | ⟨2, _⟩ => rfl
      | ⟨3, _⟩ => exact absurd rfl hb
    exact (W18_arr m ρ c w).trans (((dat8 (V17 m ρ) c).arrAt_in w hin _).trans (A_eq8 (V17 m ρ) c w))

theorem region9_keep (c : Dev nD) (b : Ref sig .tc) (hb : b ≠ main_v37) :
    W20 m ρ c (Proc.devRef .tc b) = W19 m ρ c (Proc.devRef .tc b) := by
  by_cases h : ∀ w, Pipeline.arrRef spec9 w ≠ b
  · exact W20_of_ne m ρ c b h
  · obtain ⟨w, hw⟩ := not_forall.mp h
    obtain rfl := not_not.mp hw
    have hin : (cfg9.win w).isOut = false := by
      match w with
      | ⟨0, _⟩ => rfl
      | ⟨1, _⟩ => rfl
      | ⟨2, _⟩ => rfl
      | ⟨3, _⟩ => exact absurd rfl hb
    exact (W20_arr m ρ c w).trans (((dat9 (V19 m ρ) c).arrAt_in w hin _).trans (A_eq9 (V19 m ρ) c w))

theorem region10_keep (c : Dev nD) (b : Ref sig .tc) (hb : b ≠ main_v39) :
    W22 m ρ c (Proc.devRef .tc b) = W21 m ρ c (Proc.devRef .tc b) := by
  by_cases h : ∀ w, Pipeline.arrRef spec10 w ≠ b
  · exact W22_of_ne m ρ c b h
  · obtain ⟨w, hw⟩ := not_forall.mp h
    obtain rfl := not_not.mp hw
    have hin : (cfg10.win w).isOut = false := by
      match w with
      | ⟨0, _⟩ => rfl
      | ⟨1, _⟩ => rfl
      | ⟨2, _⟩ => rfl
      | ⟨3, _⟩ => rfl
      | ⟨4, _⟩ => rfl
      | ⟨5, _⟩ => rfl
      | ⟨6, _⟩ => exact absurd rfl hb
    exact (W22_arr m ρ c w).trans (((dat10 (V21 m ρ) c).arrAt_in w hin _).trans (A_eq10 (V21 m ρ) c w))

theorem region11_keep (c : Dev nD) (b : Ref sig .tc) (hb : b ≠ main_v41) :
    W24 m ρ c (Proc.devRef .tc b) = W23 m ρ c (Proc.devRef .tc b) := by
  by_cases h : ∀ w, Pipeline.arrRef spec11 w ≠ b
  · exact W24_of_ne m ρ c b h
  · obtain ⟨w, hw⟩ := not_forall.mp h
    obtain rfl := not_not.mp hw
    have hin : (cfg11.win w).isOut = false := by
      match w with
      | ⟨0, _⟩ => rfl
      | ⟨1, _⟩ => rfl
      | ⟨2, _⟩ => rfl
      | ⟨3, _⟩ => exact absurd rfl hb
    exact (W24_arr m ρ c w).trans (((dat11 (V23 m ρ) c).arrAt_in w hin _).trans (A_eq11 (V23 m ρ) c w))

/-! ## A buffer nothing writes from the stacking on holds at every later boundary what it holds at the end -/

/-- Everything the second half writes: the host's buffers and the six calls' results. -/
def late : List (Ref sig .tc) :=
  [main_v20, main_v21, main_v22, main_v23, main_v24, main_v25, main_v26, main_v27, main_v28, main_v29, main_v30, main_v31,
   main_v32, main_v33, main_v34, main_v35, main_v36, main_v37, main_v38, main_v39, main_v40, main_v41, main_v42, main_v43]

theorem ne_late {b x : Ref sig .tc} (hb : b ∉ late) (hx : x ∈ late) : b ≠ x := fun e => hb (e ▸ hx)

theorem notin_late {b : Ref sig .tc} (hb : b ∉ late) (L : List (Ref sig .tc)) (hL : ∀ x ∈ L, x ∈ late) : b ∉ L :=
  fun h => hb (hL b h)

theorem end24 (c : Dev nD) (b : Ref sig .tc) (hb : b ∉ late) :
    W24 m ρ c (Proc.devRef .tc b) = W25 m ρ c (Proc.devRef .tc b) :=
  (host12_keep m ρ c b (notin_late hb _ (by decide))).symm
theorem end23 (c : Dev nD) (b : Ref sig .tc) (hb : b ∉ late) :
    W23 m ρ c (Proc.devRef .tc b) = W25 m ρ c (Proc.devRef .tc b) :=
  (region11_keep m ρ c b (ne_late hb (by decide))).symm.trans (end24 m ρ c b hb)
theorem end22 (c : Dev nD) (b : Ref sig .tc) (hb : b ∉ late) :
    W22 m ρ c (Proc.devRef .tc b) = W25 m ρ c (Proc.devRef .tc b) :=
  (host11_keep m ρ c b (notin_late hb _ (by decide))).symm.trans (end23 m ρ c b hb)
theorem end21 (c : Dev nD) (b : Ref sig .tc) (hb : b ∉ late) :
    W21 m ρ c (Proc.devRef .tc b) = W25 m ρ c (Proc.devRef .tc b) :=
  (region10_keep m ρ c b (ne_late hb (by decide))).symm.trans (end22 m ρ c b hb)
theorem end20 (c : Dev nD) (b : Ref sig .tc) (hb : b ∉ late) :
    W20 m ρ c (Proc.devRef .tc b) = W25 m ρ c (Proc.devRef .tc b) :=
  (host10_keep m ρ c b (notin_late hb _ (by decide))).symm.trans (end21 m ρ c b hb)
theorem end19 (c : Dev nD) (b : Ref sig .tc) (hb : b ∉ late) :
    W19 m ρ c (Proc.devRef .tc b) = W25 m ρ c (Proc.devRef .tc b) :=
  (region9_keep m ρ c b (ne_late hb (by decide))).symm.trans (end20 m ρ c b hb)
theorem end18 (c : Dev nD) (b : Ref sig .tc) (hb : b ∉ late) :
    W18 m ρ c (Proc.devRef .tc b) = W25 m ρ c (Proc.devRef .tc b) :=
  (host9_keep m ρ c b (notin_late hb _ (by decide))).symm.trans (end19 m ρ c b hb)
theorem end17 (c : Dev nD) (b : Ref sig .tc) (hb : b ∉ late) :
    W17 m ρ c (Proc.devRef .tc b) = W25 m ρ c (Proc.devRef .tc b) :=
  (region8_keep m ρ c b (ne_late hb (by decide))).symm.trans (end18 m ρ c b hb)
theorem end16 (c : Dev nD) (b : Ref sig .tc) (hb : b ∉ late) :
    W16 m ρ c (Proc.devRef .tc b) = W25 m ρ c (Proc.devRef .tc b) :=
  (host8_keep m ρ c b (notin_late hb _ (by decide))).symm.trans (end17 m ρ c b hb)
theorem end15 (c : Dev nD) (b : Ref sig .tc) (hb : b ∉ late) :
    W15 m ρ c (Proc.devRef .tc b) = W25 m ρ c (Proc.devRef .tc b) :=
  (region7_keep m ρ c b (ne_late hb (by decide))).symm.trans (end16 m ρ c b hb)
theorem end14 (c : Dev nD) (b : Ref sig .tc) (hb : b ∉ late) :
    W14 m ρ c (Proc.devRef .tc b) = W25 m ρ c (Proc.devRef .tc b) :=
  (host7_keep m ρ c b (notin_late hb _ (by decide))).symm.trans (end15 m ρ c b hb)
theorem end13 (c : Dev nD) (b : Ref sig .tc) (hb : b ∉ late) :
    W13 m ρ c (Proc.devRef .tc b) = W25 m ρ c (Proc.devRef .tc b) :=
  (region6_keep m ρ c b (ne_late hb (by decide))).symm.trans (end14 m ρ c b hb)
theorem end12 (c : Dev nD) (b : Ref sig .tc) (hb : b ∉ late) :
    W12 m ρ c (Proc.devRef .tc b) = W25 m ρ c (Proc.devRef .tc b) :=
  (host6_keep m ρ c b (notin_late hb _ (by decide))).symm.trans (end13 m ρ c b hb)

/-! ## The first cross layer: calls 6, 7, 8 on the stack with graph 1 on top -/

/-- The stack the host builds for call 6, in terms of the two first-layer buffers. -/
theorem v20_at13 (c : Dev nD) :
    V13 m ρ c main_v20
      = Cert.Spec.stack 1024 rfl (W12 m ρ c (Proc.devRef .tc main_v9)) (W12 m ρ c (Proc.devRef .tc main_v19)) := by
  refine Eq.trans ?_ (concat_eq_stack _ _)
  show StableHlo.after hostOps6 (W12 m ρ c) (Proc.devRef .tc main_v20) = _
  after_results

/-- The same with graph 2 on top, for call 9. -/
theorem v21_at13 (c : Dev nD) :
    W13 m ρ c (Proc.devRef .tc main_v21)
      = Cert.Spec.stack 1024 rfl (W12 m ρ c (Proc.devRef .tc main_v19)) (W12 m ρ c (Proc.devRef .tc main_v9)) := by
  refine Eq.trans ?_ (concat_eq_stack _ _)
  show StableHlo.after hostOps6 (W12 m ρ c) (Proc.devRef .tc main_v21) = _
  after_results

/-- Call 6's bias row spells the node bias of the cross layer's first parameter set. -/
theorem v26_at13 (c : Dev nD) (q : Fin 300) :
    V13 m ρ c main_v26 (ix2 0 q) = m ((c : Thread nD τ).loc main_arg23) (ix1 q) := by
  have e : W13 m ρ c (Proc.devRef .tc main_v26)
      = shapeCast S1x300 (W12 m ρ c (Proc.devRef .tc main_arg23)) shapeCasts_S300_S1x300 := by
    show StableHlo.after hostOps6 (W12 m ρ c) (Proc.devRef .tc main_v26) = _
    after_results
    rfl
  have a : W12 m ρ c (Proc.devRef .tc main_arg23) = m ((c : Thread nD τ).loc main_arg23) :=
    (end12 m ρ c main_arg23 (by decide)).trans (W25_main_arg23 m ρ c)
  exact (congrFun e _).trans ((row300_apply _ q).trans (congrFun a _))

/-- The source words of the cross graph, as the host slices them out before call 6. -/
theorem v23_at13 (c : Dev nD) (q : Fin 262144) :
    W13 m ρ c (Proc.devRef .tc main_v23) (ix1 q) = m ((c : Thread nD τ).loc main_arg6) (ix2 0 q) := by
  have e : W13 m ρ c (Proc.devRef .tc main_v23)
      = shapeCast S262144 (extractStridedSlice S1x262144 ![0, 0] (W12 m ρ c (Proc.devRef .tc main_arg6)) slices_S2x262144_S1x262144_0_0) shapeCasts_S1x262144_S262144 := by
    show StableHlo.after hostOps6 (W12 m ρ c) (Proc.devRef .tc main_v23) = _
    after_results
    rfl
  have a : W12 m ρ c (Proc.devRef .tc main_arg6) = m ((c : Thread nD τ).loc main_arg6) :=
    (end12 m ρ c main_arg6 (by decide)).trans (W25_main_arg6 m ρ c)
  exact (congrFun e _).trans ((endrow0_apply _ q).trans (congrFun a _))

/-- The destination words of the cross graph. -/
theorem v25_at13 (c : Dev nD) (q : Fin 262144) :
    W13 m ρ c (Proc.devRef .tc main_v25) (ix1 q) = m ((c : Thread nD τ).loc main_arg6) (ix2 1 q) := by
  have e : W13 m ρ c (Proc.devRef .tc main_v25)
      = shapeCast S262144 (extractStridedSlice S1x262144 ![1, 0] (W12 m ρ c (Proc.devRef .tc main_arg6)) slices_S2x262144_S1x262144_1_0) shapeCasts_S1x262144_S262144 := by
    show StableHlo.after hostOps6 (W12 m ρ c) (Proc.devRef .tc main_v25) = _
    after_results
    rfl
  have a : W12 m ρ c (Proc.devRef .tc main_arg6) = m ((c : Thread nD τ).loc main_arg6) :=
    (end12 m ρ c main_arg6 (by decide)).trans (W25_main_arg6 m ρ c)
  exact (congrFun e _).trans ((endrow1_apply _ q).trans (congrFun a _))

/-- Call 6 leaves the node projection of the stack. -/
theorem v27_at14 (c : Dev nD) :
    W14 m ρ c (Proc.devRef .tc main_v27)
      = Cert.Spec.lin (Cert.Spec.stack 1024 rfl (W12 m ρ c (Proc.devRef .tc main_v9)) (W12 m ρ c (Proc.devRef .tc main_v19)))
          (m ((c : Thread nD τ).loc main_arg22)) (m ((c : Thread nD τ).loc main_arg23)) := by
  have hW : V13 m ρ c main_arg22 = m ((c : Thread nD τ).loc main_arg22) :=
    (end13 m ρ c main_arg22 (by decide)).trans (W25_main_arg22 m ρ c)
  refine (W14_arr m ρ c 3).trans ((KLin6.final (V13 m ρ) c).trans ?_)
  rw [v20_at13 m ρ c, hW]
  exact linRow_of_row _ _ _ _ (v26_at13 m ρ c)

/-- Call 7's edge-bias row. -/
theorem v28_at15 (c : Dev nD) (q : Fin 300) :
    V15 m ρ c main_v28 (ix2 0 q) = m ((c : Thread nD τ).loc main_arg25) (ix1 q) := by
  have e : W15 m ρ c (Proc.devRef .tc main_v28)
      = shapeCast S1x300 (W14 m ρ c (Proc.devRef .tc main_arg25)) shapeCasts_S300_S1x300 := by
    show StableHlo.after hostOps7 (W14 m ρ c) (Proc.devRef .tc main_v28) = _
    after_results
    rfl
  have a : W14 m ρ c (Proc.devRef .tc main_arg25) = m ((c : Thread nD τ).loc main_arg25) :=
    (end14 m ρ c main_arg25 (by decide)).trans (W25_main_arg25 m ρ c)
  exact (congrFun e _).trans ((row300_apply _ q).trans (congrFun a _))

/-- The endpoint words are still in place when call 7 starts. -/
theorem v23_at15 (c : Dev nD) :
    V15 m ρ c main_v23 = Cert.Spec.endpoints 0 (m ((c : Thread nD τ).loc main_arg6)) := by
  have k : W15 m ρ c (Proc.devRef .tc main_v23) = W13 m ρ c (Proc.devRef .tc main_v23) :=
    (host7_keep m ρ c main_v23 (by decide)).trans (region6_keep m ρ c main_v23 (by decide))
  funext j
  exact (congrFun k j).trans ((congrArg (W13 m ρ c (Proc.devRef .tc main_v23)) (eq_ix1 j)).trans (v23_at13 m ρ c (j 0)))

theorem v25_at15 (c : Dev nD) :
    V15 m ρ c main_v25 = Cert.Spec.endpoints 1 (m ((c : Thread nD τ).loc main_arg6)) := by
  have k : W15 m ρ c (Proc.devRef .tc main_v25) = W13 m ρ c (Proc.devRef .tc main_v25) :=
    (host7_keep m ρ c main_v25 (by decide)).trans (region6_keep m ρ c main_v25 (by decide))
  funext j
  exact (congrFun k j).trans ((congrArg (W13 m ρ c (Proc.devRef .tc main_v25)) (eq_ix1 j)).trans (v25_at13 m ρ c (j 0)))

/-- Call 7 leaves the one-hot aggregation of the projected stack over the cross graph. -/
theorem v29_at16 (c : Dev nD) :
    W16 m ρ c (Proc.devRef .tc main_v29)
      = Cert.Spec.aggHot
          (Cert.Spec.lin (Cert.Spec.stack 1024 rfl (W12 m ρ c (Proc.devRef .tc main_v9)) (W12 m ρ c (Proc.devRef .tc main_v19)))
            (m ((c : Thread nD τ).loc main_arg22)) (m ((c : Thread nD τ).loc main_arg23)))
          (m ((c : Thread nD τ).loc main_arg24)) (m ((c : Thread nD τ).loc main_arg25)) (m ((c : Thread nD τ).loc main_arg7))
          (Cert.Spec.endpoints 0 (m ((c : Thread nD τ).loc main_arg6))) (Cert.Spec.endpoints 1 (m ((c : Thread nD τ).loc main_arg6))) := by
  have hpx : V15 m ρ c main_v27 = _ := (host7_keep m ρ c main_v27 (by decide)).trans (v27_at14 m ρ c)
  have hWe : V15 m ρ c main_arg24 = m ((c : Thread nD τ).loc main_arg24) :=
    (end15 m ρ c main_arg24 (by decide)).trans (W25_main_arg24 m ρ c)
  have hea : V15 m ρ c main_arg7 = m ((c : Thread nD τ).loc main_arg7) :=
    (end15 m ρ c main_arg7 (by decide)).trans (W25_main_arg7 m ρ c)
  have hbe : (fun j : (Cert.Spec.Row 300).Idx => V15 m ρ c main_v28 (ix2 0 (j 0))) = m ((c : Thread nD τ).loc main_arg25) :=
    funext fun j => (v28_at15 m ρ c (j 0)).trans (congrArg (m ((c : Thread nD τ).loc main_arg25)) (eq_ix1 j).symm)
  exact (W16_arr m ρ c 6).trans ((KAgg7.final (V15 m ρ) c).trans
    (aggHot_congr hpx hWe hbe hea (v23_at15 m ρ c) (v25_at15 m ρ c)))

/-- Call 8's bias row. -/
theorem v30_at17 (c : Dev nD) (q : Fin 600) :
    V17 m ρ c main_v30 (ix2 0 q) = m ((c : Thread nD τ).loc main_arg27) (ix1 q) := by
  have e : W17 m ρ c (Proc.devRef .tc main_v30)
      = shapeCast S1x600 (W16 m ρ c (Proc.devRef .tc main_arg27)) shapeCasts_S600_S1x600 := by
    show StableHlo.after hostOps8 (W16 m ρ c) (Proc.devRef .tc main_v30) = _
    after_results
    rfl
  have a : W16 m ρ c (Proc.devRef .tc main_arg27) = m ((c : Thread nD τ).loc main_arg27) :=
    (end16 m ρ c main_arg27 (by decide)).trans (W25_main_arg27 m ρ c)
  exact (congrFun e _).trans ((row600_apply _ q).trans (congrFun a _))

/-- Call 8 leaves the whole layer of the stack. -/
theorem v31_at18 (c : Dev nD) :
    W18 m ρ c (Proc.devRef .tc main_v31)
      = Cert.Spec.gnnHot (N := 1024) (E := 262144) (Dn := 600) (H := 300) (De := 300)
          (Cert.Spec.stack 1024 rfl (W12 m ρ c (Proc.devRef .tc main_v9)) (W12 m ρ c (Proc.devRef .tc main_v19)))
          (m ((c : Thread nD τ).loc main_arg6)) (m ((c : Thread nD τ).loc main_arg7))
          ⟨(m ((c : Thread nD τ).loc main_arg22)), (m ((c : Thread nD τ).loc main_arg23)), (m ((c : Thread nD τ).loc main_arg24)), (m ((c : Thread nD τ).loc main_arg25)), (m ((c : Thread nD τ).loc main_arg26)), (m ((c : Thread nD τ).loc main_arg27))⟩ := by
  have hx : V17 m ρ c main_v29 = _ := (host8_keep m ρ c main_v29 (by decide)).trans (v29_at16 m ρ c)
  have hW : V17 m ρ c main_arg26 = m ((c : Thread nD τ).loc main_arg26) :=
    (end17 m ρ c main_arg26 (by decide)).trans (W25_main_arg26 m ρ c)
  refine (W18_arr m ρ c 3).trans ((KLin8.final (V17 m ρ) c).trans ?_)
  rw [hx, hW]
  exact linRow_of_row _ _ _ _ (v30_at17 m ρ c)

/-! ## The second cross layer: calls 9, 10, 11 on the stack with graph 2 on top -/

/-- The second stack waits untouched through the first cross layer. -/
theorem v21_at19 (c : Dev nD) :
    V19 m ρ c main_v21
      = Cert.Spec.stack 1024 rfl (W12 m ρ c (Proc.devRef .tc main_v19)) (W12 m ρ c (Proc.devRef .tc main_v9)) :=
  (host9_keep m ρ c main_v21 (by decide)).trans ((region8_keep m ρ c main_v21 (by decide)).trans
    ((host8_keep m ρ c main_v21 (by decide)).trans ((region7_keep m ρ c main_v21 (by decide)).trans
      ((host7_keep m ρ c main_v21 (by decide)).trans ((region6_keep m ρ c main_v21 (by decide)).trans
        (v21_at13 m ρ c))))))

/-- Call 9's bias row. -/
theorem v36_at19 (c : Dev nD) (q : Fin 300) :
    V19 m ρ c main_v36 (ix2 0 q) = m ((c : Thread nD τ).loc main_arg29) (ix1 q) := by
  have e : W19 m ρ c (Proc.devRef .tc main_v36)
      = shapeCast S1x300 (W18 m ρ c (Proc.devRef .tc main_arg29)) shapeCasts_S300_S1x300 := by
    show StableHlo.after hostOps9 (W18 m ρ c) (Proc.devRef .tc main_v36) = _
    after_results
    rfl
  have a : W18 m ρ c (Proc.devRef .tc main_arg29) = m ((c : Thread nD τ).loc main_arg29) :=
    (end18 m ρ c main_arg29 (by decide)).trans (W25_main_arg29 m ρ c)
  exact (congrFun e _).trans ((row300_apply _ q).trans (congrFun a _))

/-- The source words of the second cross graph. -/
theorem v33_at19 (c : Dev nD) (q : Fin 262144) :
    W19 m ρ c (Proc.devRef .tc main_v33) (ix1 q) = m ((c : Thread nD τ).loc main_arg8) (ix2 0 q) := by
  have e : W19 m ρ c (Proc.devRef .tc main_v33)
      = shapeCast S262144 (extractStridedSlice S1x262144 ![0, 0] (W18 m ρ c (Proc.devRef .tc main_arg8)) slices_S2x262144_S1x262144_0_0) shapeCasts_S1x262144_S262144 := by
    show StableHlo.after hostOps9 (W18 m ρ c) (Proc.devRef .tc main_v33) = _
    after_results
    rfl
  have a : W18 m ρ c (Proc.devRef .tc main_arg8) = m ((c : Thread nD τ).loc main_arg8) :=
    (end18 m ρ c main_arg8 (by decide)).trans (W25_main_arg8 m ρ c)
  exact (congrFun e _).trans ((endrow0_apply _ q).trans (congrFun a _))

/-- Its destination words. -/
theorem v35_at19 (c : Dev nD) (q : Fin 262144) :
    W19 m ρ c (Proc.devRef .tc main_v35) (ix1 q) = m ((c : Thread nD τ).loc main_arg8) (ix2 1 q) := by
  have e : W19 m ρ c (Proc.devRef .tc main_v35)
      = shapeCast S262144 (extractStridedSlice S1x262144 ![1, 0] (W18 m ρ c (Proc.devRef .tc main_arg8)) slices_S2x262144_S1x262144_1_0) shapeCasts_S1x262144_S262144 := by
    show StableHlo.after hostOps9 (W18 m ρ c) (Proc.devRef .tc main_v35) = _
    after_results
    rfl
  have a : W18 m ρ c (Proc.devRef .tc main_arg8) = m ((c : Thread nD τ).loc main_arg8) :=
    (end18 m ρ c main_arg8 (by decide)).trans (W25_main_arg8 m ρ c)
  exact (congrFun e _).trans ((endrow1_apply _ q).trans (congrFun a _))

/-- Call 9 leaves the node projection of the second stack. -/
theorem v37_at20 (c : Dev nD) :
    W20 m ρ c (Proc.devRef .tc main_v37)
      = Cert.Spec.lin (Cert.Spec.stack 1024 rfl (W12 m ρ c (Proc.devRef .tc main_v19)) (W12 m ρ c (Proc.devRef .tc main_v9)))
          (m ((c : Thread nD τ).loc main_arg28)) (m ((c : Thread nD τ).loc main_arg29)) := by
  have hW : V19 m ρ c main_arg28 = m ((c : Thread nD τ).loc main_arg28) :=
    (end19 m ρ c main_arg28 (by decide)).trans (W25_main_arg28 m ρ c)
  refine (W20_arr m ρ c 3).trans ((KLin9.final (V19 m ρ) c).trans ?_)
  rw [v21_at19 m ρ c, hW]
  exact linRow_of_row _ _ _ _ (v36_at19 m ρ c)

/-- Call 10's edge-bias row. -/
theorem v38_at21 (c : Dev nD) (q : Fin 300) :
    V21 m ρ c main_v38 (ix2 0 q) = m ((c : Thread nD τ).loc main_arg31) (ix1 q) := by
  have e : W21 m ρ c (Proc.devRef .tc main_v38)
      = shapeCast S1x300 (W20 m ρ c (Proc.devRef .tc main_arg31)) shapeCasts_S300_S1x300 := by
    show StableHlo.after hostOps10 (W20 m ρ c) (Proc.devRef .tc main_v38) = _
    after_results
    rfl
  have a : W20 m ρ c (Proc.devRef .tc main_arg31) = m ((c : Thread nD τ).loc main_arg31) :=
    (end20 m ρ c main_arg31 (by decide)).trans (W25_main_arg31 m ρ c)
  exact (congrFun e _).trans ((row300_apply _ q).trans (congrFun a _))

theorem v33_at21 (c : Dev nD) :
    V21 m ρ c main_v33 = Cert.Spec.endpoints 0 (m ((c : Thread nD τ).loc main_arg8)) := by
  have k : W21 m ρ c (Proc.devRef .tc main_v33) = W19 m ρ c (Proc.devRef .tc main_v33) :=
    (host10_keep m ρ c main_v33 (by decide)).trans (region9_keep m ρ c main_v33 (by decide))
  funext j
  exact (congrFun k j).trans ((congrArg (W19 m ρ c (Proc.devRef .tc main_v33)) (eq_ix1 j)).trans (v33_at19 m ρ c (j 0)))

theorem v35_at21 (c : Dev nD) :
    V21 m ρ c main_v35 = Cert.Spec.endpoints 1 (m ((c : Thread nD τ).loc main_arg8)) := by
  have k : W21 m ρ c (Proc.devRef .tc main_v35) = W19 m ρ c (Proc.devRef .tc main_v35) :=
    (host10_keep m ρ c main_v35 (by decide)).trans (region9_keep m ρ c main_v35 (by decide))
  funext j
  exact (congrFun k j).trans ((congrArg (W19 m ρ c (Proc.devRef .tc main_v35)) (eq_ix1 j)).trans (v35_at19 m ρ c (j 0)))

/-- Call 10 leaves the one-hot aggregation of the projected second stack over the second cross graph. -/
theorem v39_at22 (c : Dev nD) :
    W22 m ρ c (Proc.devRef .tc main_v39)
      = Cert.Spec.aggHot
          (Cert.Spec.lin (Cert.Spec.stack 1024 rfl (W12 m ρ c (Proc.devRef .tc main_v19)) (W12 m ρ c (Proc.devRef .tc main_v9)))
            (m ((c : Thread nD τ).loc main_arg28)) (m ((c : Thread nD τ).loc main_arg29)))
          (m ((c : Thread nD τ).loc main_arg30)) (m ((c : Thread nD τ).loc main_arg31)) (m ((c : Thread nD τ).loc main_arg9))
          (Cert.Spec.endpoints 0 (m ((c : Thread nD τ).loc main_arg8))) (Cert.Spec.endpoints 1 (m ((c : Thread nD τ).loc main_arg8))) := by
  have hpx : V21 m ρ c main_v37 = _ := (host10_keep m ρ c main_v37 (by decide)).trans (v37_at20 m ρ c)
  have hWe : V21 m ρ c main_arg30 = m ((c : Thread nD τ).loc main_arg30) :=
    (end21 m ρ c main_arg30 (by decide)).trans (W25_main_arg30 m ρ c)
  have hea : V21 m ρ c main_arg9 = m ((c : Thread nD τ).loc main_arg9) :=
    (end21 m ρ c main_arg9 (by decide)).trans (W25_main_arg9 m ρ c)
  have hbe : (fun j : (Cert.Spec.Row 300).Idx => V21 m ρ c main_v38 (ix2 0 (j 0))) = m ((c : Thread nD τ).loc main_arg31) :=
    funext fun j => (v38_at21 m ρ c (j 0)).trans (congrArg (m ((c : Thread nD τ).loc main_arg31)) (eq_ix1 j).symm)
  exact (W22_arr m ρ c 6).trans ((KAgg10.final (V21 m ρ) c).trans
    (aggHot_congr hpx hWe hbe hea (v33_at21 m ρ c) (v35_at21 m ρ c)))

/-- Call 11's bias row. -/
theorem v40_at23 (c : Dev nD) (q : Fin 600) :
    V23 m ρ c main_v40 (ix2 0 q) = m ((c : Thread nD τ).loc main_arg33) (ix1 q) := by
  have e : W23 m ρ c (Proc.devRef .tc main_v40)
      = shapeCast S1x600 (W22 m ρ c (Proc.devRef .tc main_arg33)) shapeCasts_S600_S1x600 := by
    show StableHlo.after hostOps11 (W22 m ρ c) (Proc.devRef .tc main_v40) = _
    after_results
    rfl
  have a : W22 m ρ c (Proc.devRef .tc main_arg33) = m ((c : Thread nD τ).loc main_arg33) :=
    (end22 m ρ c main_arg33 (by decide)).trans (W25_main_arg33 m ρ c)
  exact (congrFun e _).trans ((row600_apply _ q).trans (congrFun a _))

/-- Call 11 leaves the whole layer of the second stack. -/
theorem v41_at24 (c : Dev nD) :
    W24 m ρ c (Proc.devRef .tc main_v41)
      = Cert.Spec.gnnHot (N := 1024) (E := 262144) (Dn := 600) (H := 300) (De := 300)
          (Cert.Spec.stack 1024 rfl (W12 m ρ c (Proc.devRef .tc main_v19)) (W12 m ρ c (Proc.devRef .tc main_v9)))
          (m ((c : Thread nD τ).loc main_arg8)) (m ((c : Thread nD τ).loc main_arg9))
          ⟨(m ((c : Thread nD τ).loc main_arg28)), (m ((c : Thread nD τ).loc main_arg29)), (m ((c : Thread nD τ).loc main_arg30)), (m ((c : Thread nD τ).loc main_arg31)), (m ((c : Thread nD τ).loc main_arg32)), (m ((c : Thread nD τ).loc main_arg33))⟩ := by
  have hx : V23 m ρ c main_v39 = _ := (host11_keep m ρ c main_v39 (by decide)).trans (v39_at22 m ρ c)
  have hW : V23 m ρ c main_arg32 = m ((c : Thread nD τ).loc main_arg32) :=
    (end23 m ρ c main_arg32 (by decide)).trans (W25_main_arg32 m ρ c)
  refine (W24_arr m ρ c 3).trans ((KLin11.final (V23 m ρ) c).trans ?_)
  rw [hx, hW]
  exact linRow_of_row _ _ _ _ (v40_at23 m ρ c)

/-- The first cross layer's result is still in its buffer after the second. -/
theorem v31_at24 (c : Dev nD) :
    W24 m ρ c (Proc.devRef .tc main_v31) = W18 m ρ c (Proc.devRef .tc main_v31) :=
  (region11_keep m ρ c main_v31 (by decide)).trans ((host11_keep m ρ c main_v31 (by decide)).trans
    ((region10_keep m ρ c main_v31 (by decide)).trans ((host10_keep m ρ c main_v31 (by decide)).trans
      ((region9_keep m ρ c main_v31 (by decide)).trans (host9_keep m ρ c main_v31 (by decide))))))

end Cert.KernelIdeal.Chain.Cross

namespace Cert.KernelIdeal.Chain

open Idealize.ShloMosaic Idealize.ShloMosaic.TcCoe Idealize.SL.Sem Idealize.ShloMosaic.ValueIdx
open Cert.KernelIdeal Cert.KernelIdeal.Gen Cert.KernelIdeal.Chain.Cross

variable (m : (ℓ : Loc nD τ sig) → Buf (Elt Ideal) ℓ) (ρ : Dev nD → PrngReg)

/-- The first cross layer's result, in its buffer after the last call. -/
theorem z1_at (c : Dev nD) :
    W24 (F := Ideal) m ρ c (Proc.devRef .tc main_v31)
      = Cert.Spec.gnnHot (N := 1024) (E := 262144) (Dn := 600) (H := 300) (De := 300)
          (Cert.Spec.stack 1024 rfl (Cert.Spec.gnnHot (N := 512) (E := 16384) (Dn := 600) (H := 300) (De := 300) (m ((c : Thread nD τ).loc main_arg0)) (m ((c : Thread nD τ).loc main_arg2)) (m ((c : Thread nD τ).loc main_arg4)) ⟨(m ((c : Thread nD τ).loc main_arg10)), (m ((c : Thread nD τ).loc main_arg11)), (m ((c : Thread nD τ).loc main_arg12)), (m ((c : Thread nD τ).loc main_arg13)), (m ((c : Thread nD τ).loc main_arg14)), (m ((c : Thread nD τ).loc main_arg15))⟩)
            (Cert.Spec.gnnHot (N := 512) (E := 16384) (Dn := 600) (H := 300) (De := 300) (m ((c : Thread nD τ).loc main_arg1)) (m ((c : Thread nD τ).loc main_arg3)) (m ((c : Thread nD τ).loc main_arg5)) ⟨(m ((c : Thread nD τ).loc main_arg16)), (m ((c : Thread nD τ).loc main_arg17)), (m ((c : Thread nD τ).loc main_arg18)), (m ((c : Thread nD τ).loc main_arg19)), (m ((c : Thread nD τ).loc main_arg20)), (m ((c : Thread nD τ).loc main_arg21))⟩))
          (m ((c : Thread nD τ).loc main_arg6)) (m ((c : Thread nD τ).loc main_arg7)) ⟨(m ((c : Thread nD τ).loc main_arg22)), (m ((c : Thread nD τ).loc main_arg23)), (m ((c : Thread nD τ).loc main_arg24)), (m ((c : Thread nD τ).loc main_arg25)), (m ((c : Thread nD τ).loc main_arg26)), (m ((c : Thread nD τ).loc main_arg27))⟩ := by
  rw [← y1_at m ρ c, ← y2_at m ρ c]
  exact (v31_at24 m ρ c).trans (v31_at18 m ρ c)

/-- The second cross layer's result, in its buffer after the last call. -/
theorem z2_at (c : Dev nD) :
    W24 (F := Ideal) m ρ c (Proc.devRef .tc main_v41)
      = Cert.Spec.gnnHot (N := 1024) (E := 262144) (Dn := 600) (H := 300) (De := 300)
          (Cert.Spec.stack 1024 rfl (Cert.Spec.gnnHot (N := 512) (E := 16384) (Dn := 600) (H := 300) (De := 300) (m ((c : Thread nD τ).loc main_arg1)) (m ((c : Thread nD τ).loc main_arg3)) (m ((c : Thread nD τ).loc main_arg5)) ⟨(m ((c : Thread nD τ).loc main_arg16)), (m ((c : Thread nD τ).loc main_arg17)), (m ((c : Thread nD τ).loc main_arg18)), (m ((c : Thread nD τ).loc main_arg19)), (m ((c : Thread nD τ).loc main_arg20)), (m ((c : Thread nD τ).loc main_arg21))⟩)
            (Cert.Spec.gnnHot (N := 512) (E := 16384) (Dn := 600) (H := 300) (De := 300) (m ((c : Thread nD τ).loc main_arg0)) (m ((c : Thread nD τ).loc main_arg2)) (m ((c : Thread nD τ).loc main_arg4)) ⟨(m ((c : Thread nD τ).loc main_arg10)), (m ((c : Thread nD τ).loc main_arg11)), (m ((c : Thread nD τ).loc main_arg12)), (m ((c : Thread nD τ).loc main_arg13)), (m ((c : Thread nD τ).loc main_arg14)), (m ((c : Thread nD τ).loc main_arg15))⟩))
          (m ((c : Thread nD τ).loc main_arg8)) (m ((c : Thread nD τ).loc main_arg9)) ⟨(m ((c : Thread nD τ).loc main_arg28)), (m ((c : Thread nD τ).loc main_arg29)), (m ((c : Thread nD τ).loc main_arg30)), (m ((c : Thread nD τ).loc main_arg31)), (m ((c : Thread nD τ).loc main_arg32)), (m ((c : Thread nD τ).loc main_arg33))⟩ := by
  rw [← y1_at m ρ c, ← y2_at m ρ c]
  exact v41_at24 m ρ c

/-- The program's first result: the top rows of the first cross layer. -/
theorem out0 (c : Dev nD) :
    W25 (F := Ideal) m ρ c (Proc.devRef .tc main_v42)
      = Cert.Spec.outHot (N := 512) (M := 1024) (E := 16384) (Ec := 262144) (Dn := 600) (H := 300) (De := 300) rfl
          (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
          ⟨(m ((c : Thread nD τ).loc main_arg10)), (m ((c : Thread nD τ).loc main_arg11)), (m ((c : Thread nD τ).loc main_arg12)), (m ((c : Thread nD τ).loc main_arg13)), (m ((c : Thread nD τ).loc main_arg14)), (m ((c : Thread nD τ).loc main_arg15))⟩
          ⟨(m ((c : Thread nD τ).loc main_arg16)), (m ((c : Thread nD τ).loc main_arg17)), (m ((c : Thread nD τ).loc main_arg18)), (m ((c : Thread nD τ).loc main_arg19)), (m ((c : Thread nD τ).loc main_arg20)), (m ((c : Thread nD τ).loc main_arg21))⟩
          ⟨(m ((c : Thread nD τ).loc main_arg22)), (m ((c : Thread nD τ).loc main_arg23)), (m ((c : Thread nD τ).loc main_arg24)), (m ((c : Thread nD τ).loc main_arg25)), (m ((c : Thread nD τ).loc main_arg26)), (m ((c : Thread nD τ).loc main_arg27))⟩ := by
  have e : W25 m ρ c (Proc.devRef .tc main_v42)
      = extractStridedSlice S512x600 ![0, 0] (W24 m ρ c (Proc.devRef .tc main_v31)) slices_S1024x600_S512x600_0_0 := by
    show StableHlo.after hostOps12 (W24 m ρ c) (Proc.devRef .tc main_v42) = _
    after_results
  unfold Cert.Spec.outHot
  rw [← z1_at m ρ c]
  exact e.trans (slice_eq_top _)

/-- The program's second result: the top rows of the second cross layer. -/
theorem out1 (c : Dev nD) :
    W25 (F := Ideal) m ρ c (Proc.devRef .tc main_v43)
      = Cert.Spec.outHot (N := 512) (M := 1024) (E := 16384) (Ec := 262144) (Dn := 600) (H := 300) (De := 300) rfl
          (m ((c : Thread nD τ).loc main_arg1)) (m ((c : Thread nD τ).loc main_arg0)) (m ((c : Thread nD τ).loc main_arg3)) (m ((c : Thread nD τ).loc main_arg2)) (m ((c : Thread nD τ).loc main_arg5)) (m ((c : Thread nD τ).loc main_arg4)) (m ((c : Thread nD τ).loc main_arg8)) (m ((c : Thread nD τ).loc main_arg9))
          ⟨(m ((c : Thread nD τ).loc main_arg16)), (m ((c : Thread nD τ).loc main_arg17)), (m ((c : Thread nD τ).loc main_arg18)), (m ((c : Thread nD τ).loc main_arg19)), (m ((c : Thread nD τ).loc main_arg20)), (m ((c : Thread nD τ).loc main_arg21))⟩
          ⟨(m ((c : Thread nD τ).loc main_arg10)), (m ((c : Thread nD τ).loc main_arg11)), (m ((c : Thread nD τ).loc main_arg12)), (m ((c : Thread nD τ).loc main_arg13)), (m ((c : Thread nD τ).loc main_arg14)), (m ((c : Thread nD τ).loc main_arg15))⟩
          ⟨(m ((c : Thread nD τ).loc main_arg28)), (m ((c : Thread nD τ).loc main_arg29)), (m ((c : Thread nD τ).loc main_arg30)), (m ((c : Thread nD τ).loc main_arg31)), (m ((c : Thread nD τ).loc main_arg32)), (m ((c : Thread nD τ).loc main_arg33))⟩ := by
  have e : W25 m ρ c (Proc.devRef .tc main_v43)
      = extractStridedSlice S512x600 ![0, 0] (W24 m ρ c (Proc.devRef .tc main_v41)) slices_S1024x600_S512x600_0_0 := by
    show StableHlo.after hostOps12 (W24 m ρ c) (Proc.devRef .tc main_v43) = _
    after_results
  unfold Cert.Spec.outHot
  rw [← z2_at m ρ c]
  exact e.trans (slice_eq_top _)

end Cert.KernelIdeal.Chain

end
-- ==== Proof.LibGS.lean ====
/-
  Three index-level readings of the host's gather and accumulating scatter, for the dimension numbers of a row
  lookup `table[idx]` and of the segment sums `zeros.at[idx].add(updates)` over rows and over scalars.

  * rows gather: entry `(e, k)` of the result is the table's entry `(r, k)`, `r` the start word of edge `e` read
    signed, negative words sent to row 0, clipped to the last row;
  * rows scatter-add: entry `(s, k)` of the result is the operand's entry plus the sum of the updates' entries
    `(e, k)` over the edges `e` whose start word, read signed and not clipped, is `s`;
  * vector scatter-add: the same with scalars in place of rows.

  Each is stated over the record given by its literal fields, with the well-formedness proof a variable, so that it
  applies to any program's record with those fields by unfolding the record's name.
-/
import Idealize.ShloMosaic.PureOps.Ideal
import Idealize.ShloMosaic.Lib.ValueIdx
import Idealize.ShloMosaic.Lib.ValueIdxRank1

noncomputable section

open scoped BigOperators

namespace Cert.LibGS

open Idealize.ShloMosaic Idealize.ShloMosaic.ValueIdx

/-! ## The records -/

/-- The scalar segment sum's dimension numbers: operand `[N]`, indices `[E, 1]`, updates `[E]`. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The row segment sum's dimension numbers: operand `[N, C]`, indices `[E, 1]`, updates `[E, C]`. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The row lookup's dimension numbers: table `[N, C]`, start indices `[E, 1]`, result `[E, C]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-! ## When an update lands on an element -/

/-- An update lands on operand element `i` exactly when, on every axis, its start plus its window coordinate is
    `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h
    split at h
    · rename_i H
      intro a
      have h1 := congrFun (Option.some.inj h) a
      have h2 := congrArg Fin.val h1
      simp only at h2
      have := H a
      omega
    · exact absurd h (by simp)
  · intro h
    have H : ∀ a, 0 ≤ d.start j idx a + (d.window j a : ℤ) ∧ d.start j idx a + (d.window j a : ℤ) < s.size a := by
      intro a
      have := h a
      have := (i a).isLt
      omega
    rw [dif_pos H]
    congr 1
    funext a
    apply Fin.ext
    have := h a
    simp only
    omega

/-! ## The scalar segment sum -/

section Vec
variable {N E w : Nat} (wf : ScatterDims.WF ⟨1, ![N]⟩ ⟨2, ![E, 1]⟩ ⟨1, ![E]⟩ [] [0] [0] 1)

/-- Update `j` starts at the word `idx[j, 0]`, read signed. -/
theorem vec_start (idx : IVec ⟨2, ![E, 1]⟩ w) (j : (⟨1, ![E]⟩ : Shape).Idx) :
    (vecScatterDims N E wf).start j idx 0 = (idx (ix2 (j 0) 0)).toInt := by
  unfold ScatterDims.start
  rw [dif_pos (show (0 : Fin 1) ∈ (vecScatterDims N E wf).scatterDimsToOperandDims from List.mem_singleton.mpr rfl)]
  have hsi : (vecScatterDims N E wf).siIdx j ⟨List.idxOf (0 : Fin 1) (vecScatterDims N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The operand's one axis is inserted: no window coordinate. -/
theorem vec_window (j : (⟨1, ![E]⟩ : Shape).Idx) : (vecScatterDims N E wf).window j 0 = 0 := by
  unfold ScatterDims.window
  rw [dif_neg]
  show (0 : Fin 1) ∉ (List.finRange 1).filter (fun a => a ∉ [(0 : Fin 1)])
  decide

/-- Update `j` lands on element `s` exactly when its start word, read signed, is `s`. -/
theorem vec_resultIdx?_iff (idx : IVec ⟨2, ![E, 1]⟩ w) (j : (⟨1, ![E]⟩ : Shape).Idx) (s : Fin N) :
    (vecScatterDims N E wf).resultIdx? j idx = some (ix1 s) ↔ (idx (ix2 (j 0) 0)).toInt = (s.val : ℤ) := by
  rw [resultIdx?_eq_some_iff]
  constructor
  · intro h
    have h0 := h 0
    rw [vec_start, vec_window] at h0
    have h1 : (idx (ix2 (j 0) 0)).toInt + ((0 : ℕ) : ℤ) = (s.val : ℤ) := h0
    simpa using h1
  · intro h a
    obtain rfl : a = 0 := Subsingleton.elim _ _
    rw [vec_start, vec_window]
    show (idx (ix2 (j 0) 0)).toInt + ((0 : ℕ) : ℤ) = (s.val : ℤ)
    simpa using h

end Vec

/-- THE SCALAR SEGMENT SUM READ AT `s`: the operand's entry plus the updates of the edges whose start word, read
    signed, is `s`. -/
theorem scatterAdd_vec_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (s : Fin N) :
    Ideal.hostScatterAdd (vecScatterDims N E wf) x idx upd (ix1 s)
      = x (ix1 s) + ∑ e ∈ Finset.univ.filter (fun e : Fin E => (idx (ix2 e 0)).toInt = (s.val : ℤ)), upd (ix1 e) := by
  unfold Ideal.hostScatterAdd
  congr 1
  rw [Finset.sum_filter, Finset.sum_filter, ← Equiv.sum_comp (idxEquiv1 (n := E)).symm]
  refine Finset.sum_congr rfl fun e _ => ?_
  exact if_congr (vec_resultIdx?_iff wf idx (ix1 e) s) rfl rfl

/-! ## The row segment sum -/

section Rows
variable {N E C w : Nat} (wf : ScatterDims.WF ⟨2, ![N, C]⟩ ⟨2, ![E, 1]⟩ ⟨2, ![E, C]⟩ [1] [0] [0] 1)

/-- On the row axis update `j` starts at the word `idx[j₀, 0]`, read signed … -/
theorem rows_start0 (idx : IVec ⟨2, ![E, 1]⟩ w) (j : (⟨2, ![E, C]⟩ : Shape).Idx) :
    (rowScatterDims N E C wf).start j idx 0 = (idx (ix2 (j 0) 0)).toInt := by
  unfold ScatterDims.start
  rw [dif_pos (show (0 : Fin 2) ∈ (rowScatterDims N E C wf).scatterDimsToOperandDims from List.mem_singleton.mpr rfl)]
  have hsi : (rowScatterDims N E C wf).siIdx j ⟨List.idxOf (0 : Fin 2) (rowScatterDims N E C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- … and on the column axis at `0`. -/
theorem rows_start1 (idx : IVec ⟨2, ![E, 1]⟩ w) (j : (⟨2, ![E, C]⟩ : Shape).Idx) :
    (rowScatterDims N E C wf).start j idx 1 = 0 := by
  unfold ScatterDims.start
  rw [dif_neg]
  show (1 : Fin 2) ∉ [(0 : Fin 2)]
  decide

/-- The row axis is inserted: no window coordinate there … -/
theorem rows_window0 (j : (⟨2, ![E, C]⟩ : Shape).Idx) : (rowScatterDims N E C wf).window j 0 = 0 := by
  unfold ScatterDims.window
  rw [dif_neg]
  show (0 : Fin 2) ∉ (List.finRange 2).filter (fun a => a ∉ [(0 : Fin 2)])
  decide

/-- … and the column axis carries the update's column. -/
theorem rows_window1 (j : (⟨2, ![E, C]⟩ : Shape).Idx) : (rowScatterDims N E C wf).window j 1 = (j 1).val := by
  unfold ScatterDims.window
  have hm : (1 : Fin 2) ∈ (rowScatterDims N E C wf).sKept := by
    show (1 : Fin 2) ∈ (List.finRange 2).filter (fun a => a ∉ [(0 : Fin 2)])
    decide
  rw [dif_pos hm]
  rfl

/-- Update `j` lands on element `(s, k)` exactly when its start word, read signed, is `s` and its column is `k`. -/
theorem rows_resultIdx?_iff (idx : IVec ⟨2, ![E, 1]⟩ w) (j : (⟨2, ![E, C]⟩ : Shape).Idx) (s : Fin N) (k : Fin C) :
    (rowScatterDims N E C wf).resultIdx? j idx = some (ix2 s k)
      ↔ (idx (ix2 (j 0) 0)).toInt = (s.val : ℤ) ∧ j 1 = k := by
  rw [resultIdx?_eq_some_iff]
  constructor
  · intro h
    have h0 := h 0
    have h1 := h 1
    rw [rows_start0, rows_window0] at h0
    rw [rows_start1, rows_window1] at h1
    have h0' : (idx (ix2 (j 0) 0)).toInt + ((0 : ℕ) : ℤ) = (s.val : ℤ) := h0
    have h1' : (0 : ℤ) + (((j 1).val : ℕ) : ℤ) = (k.val : ℤ) := h1
    refine ⟨by simpa using h0', Fin.ext ?_⟩
    omega
  · rintro ⟨h0, h1⟩ a
    match a with
    | ⟨0, _⟩ =>
      show (rowScatterDims N E C wf).start j idx 0 + (((rowScatterDims N E C wf).window j 0 : ℕ) : ℤ) = (s.val : ℤ)
      rw [rows_start0, rows_window0]
      simpa using h0
    | ⟨1, _⟩ =>
      show (rowScatterDims N E C wf).start j idx 1 + (((rowScatterDims N E C wf).window j 1 : ℕ) : ℤ) = (k.val : ℤ)
      rw [rows_start1, rows_window1, h1]
      simp

end Rows

/-- THE ROW SEGMENT SUM READ AT `(s, k)`: the operand's entry plus the updates' entries `(e, k)` of the edges whose
    start word, read signed, is `s`. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (s : Fin N) (k : Fin C) :
    Ideal.hostScatterAdd (rowScatterDims N E C wf) x idx upd (ix2 s k)
      = x (ix2 s k)
        + ∑ e ∈ Finset.univ.filter (fun e : Fin E => (idx (ix2 e 0)).toInt = (s.val : ℤ)), upd (ix2 e k) := by
  unfold Ideal.hostScatterAdd
  congr 1
  rw [Finset.sum_filter, Finset.sum_filter, sum_idx2]
  refine Finset.sum_congr rfl fun e _ => ?_
  by_cases hP : (idx (ix2 e 0)).toInt = (s.val : ℤ)
  · rw [if_pos hP, Finset.sum_eq_single k]
    · exact if_pos ((rows_resultIdx?_iff wf idx (ix2 e k) s k).2 ⟨hP, rfl⟩)
    · intro b _ hb
      exact if_neg fun h => hb ((rows_resultIdx?_iff wf idx (ix2 e b) s k).1 h).2
    · intro h
      exact absurd (Finset.mem_univ k) h
  · rw [if_neg hP]
    exact Finset.sum_eq_zero fun b _ => if_neg fun h => hP ((rows_resultIdx?_iff wf idx (ix2 e b) s k).1 h).1

/-! ## The row lookup -/

/-- THE ROW LOOKUP READ AT `(e, k)`: the table's entry `(r, k)`, `r` the start word of `e` read signed, a negative
    word sent to `0`, clipped to the last row. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 ⟨min (idx (ix2 e 0)).toInt.toNat (N - 1), by omega⟩ k) := by
  unfold Host.gather
  congr 1
  funext a
  refine Fin.ext ?_
  match a with
  | ⟨0, _⟩ =>
    show (rowGatherDims N E C wf).start (ix2 e k) idx 0 + (rowGatherDims N E C wf).batchCoord (ix2 e k) 0
      + (rowGatherDims N E C wf).offCoord (ix2 e k) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e k) idx 1 + (rowGatherDims N E C wf).batchCoord (ix2 e k) 1
      + (rowGatherDims N E C wf).offCoord (ix2 e k) 1 = k.val
    rw [GatherDims.batchCoord_eq_zero _ _ _ List.not_mem_nil]
    have hs : (rowGatherDims N E C wf).start (ix2 e k) idx 1 = 0 := by
      unfold GatherDims.start
      rw [dif_neg]
      show (1 : Fin 2) ∉ [(0 : Fin 2)]
      decide
    have ho : (rowGatherDims N E C wf).offCoord (ix2 e k) 1 = k.val := by
      unfold GatherDims.offCoord
      have hm : (1 : Fin 2) ∈ (rowGatherDims N E C wf).sKept := by
        show (1 : Fin 2) ∈ (List.finRange 2).filter (fun a => a ∉ [(0 : Fin 2)] ++ [])
        decide
      rw [dif_pos hm]
      rfl
    rw [hs, ho]
    omega

end Cert.LibGS

end
-- ==== Proof.RefL1.lean ====
/-
  The reference's first layer on graph 1, read index by index: the node projection x Wnᵀ + bn and the edge projection
  ea Weᵀ + be are a transposed weight, a contraction and a broadcast bias; each endpoint word is raised by the node
  count when negative and the table row it names is looked up (clipped into range); the three terms are added and
  every node sums the messages whose destination word, read signed, is its number; the sums are projected back.
-/
import proofs.«408848_j32693291057228_1_alg».proof.Proof.Gen.ReferenceIdeal.Run
import proofs.«408848_j32693291057228_1_alg».proof.Proof.Gen.ReferenceIdeal.Read
import proofs.«408848_j32693291057228_1_alg».proof.Proof.Spec
import proofs.«408848_j32693291057228_1_alg».proof.Proof.LibGS

noncomputable section

open scoped BigOperators

namespace Cert.ReferenceIdeal.RefL1

open Idealize.ShloMosaic Idealize.ShloMosaic.TcCoe Idealize.SL.Sem Idealize.ShloMosaic.ValueIdx
open Cert.ReferenceIdeal Cert.ReferenceIdeal.Gen Cert.ReferenceIdeal.Read

/-! ## Words -/

/-- The compare-and-select on an endpoint word: a word that reads negative is raised by the node count. -/
theorem raise_word (a c : BitVec 32) :
    Scalar.select (IntOp.cmpi .slt a 0#32) (IntOp.addi a c) a = (if a.slt 0#32 then a + c else a) := by
  unfold Scalar.select IntOp.cmpi IntOp.addi
  cases a.slt 0#32 <;> rfl

/-- A row lookup whose start word is a raised endpoint word reads the row that word names. -/
theorem lookup_row {N E C : Nat} (hN : 0 < N)
    (wf : GatherDims.WF ⟨2, ![N, C]⟩ ⟨2, ![E, 1]⟩ ⟨2, ![E, C]⟩ [1] [0] [] [0] [] 1 ![1, C])
    (px : (Cert.Spec.Mat N C).Idx → EReal) (idx : IVec ⟨2, ![E, 1]⟩ 32) (a : BitVec 32) (e : Fin E) (k : Fin C)
    (h : idx (ix2 e 0) = if a.slt 0#32 then a + BitVec.ofNat 32 N else a) :
    Host.gather (Cert.LibGS.rowGatherDims N E C wf) px idx (ix2 e k)
      = px (ix2 ⟨Cert.Spec.node N a, Cert.Spec.node_lt hN a⟩ k) := by
  refine (Cert.LibGS.gather_rows_apply hN wf px idx e k).trans ?_
  congr 2
  apply Fin.ext
  show min (idx (ix2 e 0)).toInt.toNat (N - 1) = Cert.Spec.node N a
  rw [h]
  rfl

/-- The accumulating scatter into zeros, read at a node and a column: zero plus the updates of the edges whose
    start word, read signed, is the node. -/
theorem segment_sum {N E C : Nat}
    (wf : ScatterDims.WF ⟨2, ![N, C]⟩ ⟨2, ![E, 1]⟩ ⟨2, ![E, C]⟩ [1] [0] [0] 1)
    (z : (Cert.Spec.Mat N C).Idx → EReal) (idx : IVec ⟨2, ![E, 1]⟩ 32) (upd : (Cert.Spec.Mat E C).Idx → EReal)
    (dst : (Cert.Spec.Row E).Idx → BitVec 32) (msg : Fin E → Fin C → EReal)
    (hz : ∀ i, z i = 0) (hidx : ∀ e : Fin E, idx (ix2 e 0) = dst (ix1 e))
    (hupd : ∀ (e : Fin E) (k : Fin C), upd (ix2 e k) = msg e k) (s : Fin N) (k : Fin C) :
    Host.scatterAdd (F := Ideal) (φ := .f32) (Cert.LibGS.rowScatterDims N E C wf) z idx upd (ix2 s k)
      = 0 + ∑ e ∈ Finset.univ.filter (fun e : Fin E => (dst (ix1 e)).toInt = (s.val : ℤ)), msg e k := by
  refine (Cert.LibGS.scatterAdd_rows_apply wf z idx upd s k).trans ?_
  rw [hz]
  simp only [hidx, hupd]

/-! ## The stages of the layer, each read at an index -/

section Stages
variable (x0 : (⟨S512x600, .f32⟩ : BufTy).Contents (Elt Ideal)) (x2 : (⟨S2x16384, .i32⟩ : BufTy).Contents (Elt Ideal))
  (x4 : (⟨S16384x300, .f32⟩ : BufTy).Contents (Elt Ideal)) (x10 : (⟨S300x600, .f32⟩ : BufTy).Contents (Elt Ideal))
  (x11 : (⟨S300, .f32⟩ : BufTy).Contents (Elt Ideal)) (x12 : (⟨S300x300, .f32⟩ : BufTy).Contents (Elt Ideal))
  (x13 : (⟨S300, .f32⟩ : BufTy).Contents (Elt Ideal)) (x14 : (⟨S600x300, .f32⟩ : BufTy).Contents (Elt Ideal))
  (x15 : (⟨S600, .f32⟩ : BufTy).Contents (Elt Ideal))

/-- The node projection: entry (p, q) contracts row p of the features with row q of the weight and adds bias q. -/
theorem proj_node (p : Fin 512) (q : Fin 300) :
    val_main_v4 (F := Ideal) x0 x10 x11 (ix2 p q) = Cert.Spec.lin x0 x10 x11 (ix2 p q) := by
  have hl : ∀ k : Fin 600, lidx_main_v1 (ix2 p q) k = ix2 p k := fun k =>
    funext fun a => Fin.ext (by match a with | ⟨0, _⟩ => rfl | ⟨1, _⟩ => rfl)
  have hr : ∀ k : Fin 600, idx_main_v0 (ridx_main_v1 (ix2 p q) k) = ix2 q k := fun k =>
    funext fun a => Fin.ext (by match a with | ⟨0, _⟩ => rfl | ⟨1, _⟩ => rfl)
  have hb : idx_main_v2 (idx_main_v3 (ix2 p q)) = ix1 q :=
    funext fun a => Fin.ext (by match a with | ⟨0, _⟩ => rfl)
  rw [val_main_v4_apply, val_main_v1_apply, val_main_v3_apply, val_main_v2_apply, hb]
  simp only [val_main_v0_apply, hl, hr]
  rfl

/-- The edge projection: entry (e, h) contracts edge e's features with row h of the weight and adds bias h. -/
theorem proj_edge (e : Fin 16384) (h : Fin 300) :
    val_main_v9 (F := Ideal) x4 x12 x13 (ix2 e h) = Cert.Spec.edgeProj x12 x13 x4 e h := by
  have hl : ∀ k : Fin 300, lidx_main_v6 (ix2 e h) k = ix2 e k := fun k =>
    funext fun a => Fin.ext (by match a with | ⟨0, _⟩ => rfl | ⟨1, _⟩ => rfl)
  have hr : ∀ k : Fin 300, idx_main_v5 (ridx_main_v6 (ix2 e h) k) = ix2 h k := fun k =>
    funext fun a => Fin.ext (by match a with | ⟨0, _⟩ => rfl | ⟨1, _⟩ => rfl)
  have hb : idx_main_v7 (idx_main_v8 (ix2 e h)) = ix1 h :=
    funext fun a => Fin.ext (by match a with | ⟨0, _⟩ => rfl)
  rw [val_main_v9_apply, val_main_v6_apply, val_main_v8_apply, val_main_v7_apply, hb]
  simp only [val_main_v5_apply, hl, hr]
  rfl

/-- The source words are row 0 of the endpoint table. -/
theorem src_word (e : Fin 16384) :
    val_main_v11 (F := Ideal) x2 (ix1 e) = Cert.Spec.endpoints 0 x2 (ix1 e) := by
  have hi : idx_main_v10 (idx_main_v11 (ix1 e)) = ix2 (0 : Fin 2) e :=
    funext fun a => Fin.ext (by match a with | ⟨0, _⟩ => rfl | ⟨1, _⟩ => exact Nat.mod_eq_of_lt e.isLt)
  rw [val_main_v11_apply, val_main_v10_apply, hi]
  rfl

/-- The destination words are row 1 of the endpoint table. -/
theorem dst_word (e : Fin 16384) :
    val_main_v13 (F := Ideal) x2 (ix1 e) = Cert.Spec.endpoints 1 x2 (ix1 e) := by
  have hi : idx_main_v12 (idx_main_v13 (ix1 e)) = ix2 (1 : Fin 2) e :=
    funext fun a => Fin.ext (by match a with | ⟨0, _⟩ => rfl | ⟨1, _⟩ => exact Nat.mod_eq_of_lt e.isLt)
  rw [val_main_v13_apply, val_main_v12_apply, hi]
  rfl

/-- The start word of the destination lookup of edge e: its destination word, raised by 512 when negative. -/
theorem raised_dst (e : Fin 16384) :
    val_main_v19 (F := Ideal) x2 (ix2 e 0)
      = (if (Cert.Spec.endpoints 1 x2 (ix1 e)).slt 0#32 then Cert.Spec.endpoints 1 x2 (ix1 e) + BitVec.ofNat 32 512
          else Cert.Spec.endpoints 1 x2 (ix1 e)) := by
  have hi : idx_main_v19 (ix2 e (0 : Fin 1)) = ix1 e := funext fun a => Fin.ext (by match a with | ⟨0, _⟩ => rfl)
  rw [val_main_v19_apply, hi, val_main_v18_apply, val_main_v15_apply, val_main_v17_apply, val_main_v14_apply,
    val_main_v16_apply, val_main_c_apply, val_main_c_0_apply, dst_word]
  exact raise_word _ _

/-- The start word of the source lookup of edge e: its source word, raised by 512 when negative. -/
theorem raised_src (e : Fin 16384) :
    val_main_v26 (F := Ideal) x2 (ix2 e 0)
      = (if (Cert.Spec.endpoints 0 x2 (ix1 e)).slt 0#32 then Cert.Spec.endpoints 0 x2 (ix1 e) + BitVec.ofNat 32 512
          else Cert.Spec.endpoints 0 x2 (ix1 e)) := by
  have hi : idx_main_v26 (ix2 e (0 : Fin 1)) = ix1 e := funext fun a => Fin.ext (by match a with | ⟨0, _⟩ => rfl)
  rw [val_main_v26_apply, hi, val_main_v25_apply, val_main_v22_apply, val_main_v24_apply, val_main_v21_apply,
    val_main_v23_apply, val_main_c_1_apply, val_main_c_2_apply, src_word]
  exact raise_word _ _

/-- The message of edge e at column h: the projected rows its two endpoint words name, plus its projected features. -/
theorem message (e : Fin 16384) (h : Fin 300) :
    val_main_v29 (F := Ideal) x0 x2 x4 x10 x11 x12 x13 (ix2 e h)
      = Cert.Spec.msgLook (N := 512) (by decide) (Cert.Spec.lin x0 x10 x11) x12 x13 x4
          (Cert.Spec.endpoints 0 x2) (Cert.Spec.endpoints 1 x2) e h := by
  have hpx : val_main_v4 (F := Ideal) x0 x10 x11 = Cert.Spec.lin x0 x10 x11 := by
    funext i
    obtain ⟨p, q, rfl⟩ : ∃ (p : Fin 512) (q : Fin 300), i = ix2 p q := ⟨i 0, i 1, eq_ix2 i⟩
    exact proj_node x0 x10 x11 p q
  rw [val_main_v29_apply, val_main_v28_apply, proj_edge]
  unfold val_main_v20 val_main_v27
  rw [hpx]
  have hd : Host.gather gather_S512x300_S16384x1_S16384x300_1_0_n_n_0_1_1300 (Cert.Spec.lin x0 x10 x11)
      (val_main_v19 (F := Ideal) x2) (ix2 e h)
      = Cert.Spec.lin x0 x10 x11 (ix2 ⟨Cert.Spec.node 512 (Cert.Spec.endpoints 1 x2 (ix1 e)), Cert.Spec.node_lt (by decide) _⟩ h) :=
    lookup_row (N := 512) (E := 16384) (C := 300) (by decide) Facts₀.gather_S512x300_S16384x1_S16384x300_1_0_n_n_0_1_1300_wf
      (Cert.Spec.lin x0 x10 x11) (val_main_v19 (F := Ideal) x2) (Cert.Spec.endpoints 1 x2 (ix1 e)) e h (raised_dst x2 e)
  have hs : Host.gather gather_S512x300_S16384x1_S16384x300_1_0_n_n_0_1_1300 (Cert.Spec.lin x0 x10 x11)
      (val_main_v26 (F := Ideal) x2) (ix2 e h)
      = Cert.Spec.lin x0 x10 x11 (ix2 ⟨Cert.Spec.node 512 (Cert.Spec.endpoints 0 x2 (ix1 e)), Cert.Spec.node_lt (by decide) _⟩ h) :=
    lookup_row (N := 512) (E := 16384) (C := 300) (by decide) Facts₀.gather_S512x300_S16384x1_S16384x300_1_0_n_n_0_1_1300_wf
      (Cert.Spec.lin x0 x10 x11) (val_main_v26 (F := Ideal) x2) (Cert.Spec.endpoints 0 x2 (ix1 e)) e h (raised_src x2 e)
  rw [hd, hs]
  rfl

/-- The scatter-add into zeros is the aggregation: node s at column k sums the messages of the edges whose
    destination word, read signed, is s. -/
theorem aggregate :
    val_main_v32 (F := Ideal) x0 x2 x4 x10 x11 x12 x13
      = Cert.Spec.aggLook (N := 512) (by decide) (Cert.Spec.lin x0 x10 x11) x12 x13 x4
          (Cert.Spec.endpoints 0 x2) (Cert.Spec.endpoints 1 x2) := by
  funext i
  obtain ⟨s, k, rfl⟩ : ∃ (s : Fin 512) (k : Fin 300), i = ix2 s k := ⟨i 0, i 1, eq_ix2 i⟩
  have hz : ∀ i, val_main_v30 (F := Ideal) i = 0 := fun i => by
    rw [val_main_v30_apply, val_main_cst_apply, Ideal.ofBits_def]
    exact Ideal.ofBits_zero_f32
  have hidx : ∀ e : Fin 16384, val_main_v31 (F := Ideal) x2 (ix2 e 0) = Cert.Spec.endpoints 1 x2 (ix1 e) := fun e => by
    have hi : idx_main_v31 (ix2 e (0 : Fin 1)) = ix1 e := funext fun a => Fin.ext (by match a with | ⟨0, _⟩ => rfl)
    rw [val_main_v31_apply, hi, dst_word]
  unfold val_main_v32
  exact segment_sum Facts₀.scatter_S512x300_S16384x1_S16384x300_1_0_0_1_wf (val_main_v30 (F := Ideal))
    (val_main_v31 (F := Ideal) x2) (val_main_v29 (F := Ideal) x0 x2 x4 x10 x11 x12 x13) (Cert.Spec.endpoints 1 x2)
    (Cert.Spec.msgLook (N := 512) (by decide) (Cert.Spec.lin x0 x10 x11) x12 x13 x4
      (Cert.Spec.endpoints 0 x2) (Cert.Spec.endpoints 1 x2))
    hz hidx (message x0 x2 x4 x10 x11 x12 x13) s k

end Stages

/-- The stage that ends this layer is the lookup form of the layer. -/
theorem layer (x0 : (⟨S512x600, .f32⟩ : BufTy).Contents (Elt Ideal)) (x2 : (⟨S2x16384, .i32⟩ : BufTy).Contents (Elt Ideal)) (x4 : (⟨S16384x300, .f32⟩ : BufTy).Contents (Elt Ideal)) (x10 : (⟨S300x600, .f32⟩ : BufTy).Contents (Elt Ideal)) (x11 : (⟨S300, .f32⟩ : BufTy).Contents (Elt Ideal)) (x12 : (⟨S300x300, .f32⟩ : BufTy).Contents (Elt Ideal)) (x13 : (⟨S300, .f32⟩ : BufTy).Contents (Elt Ideal)) (x14 : (⟨S600x300, .f32⟩ : BufTy).Contents (Elt Ideal)) (x15 : (⟨S600, .f32⟩ : BufTy).Contents (Elt Ideal)) :
    val_main_v37 (F := Ideal) x0 x2 x4 x10 x11 x12 x13 x14 x15
      = Cert.Spec.gnnLook (N := 512) (E := 16384) (Dn := 600) (H := 300) (De := 300) (by decide) x0 x2 x4 ⟨x10, x11, x12, x13, x14, x15⟩ := by
  funext i
  obtain ⟨p, q, rfl⟩ : ∃ (p : Fin 512) (q : Fin 600), i = ix2 p q := ⟨i 0, i 1, eq_ix2 i⟩
  have hl : ∀ k : Fin 300, lidx_main_v34 (ix2 p q) k = ix2 p k := fun k =>
    funext fun a => Fin.ext (by match a with | ⟨0, _⟩ => rfl | ⟨1, _⟩ => rfl)
  have hr : ∀ k : Fin 300, idx_main_v33 (ridx_main_v34 (ix2 p q) k) = ix2 q k := fun k =>
    funext fun a => Fin.ext (by match a with | ⟨0, _⟩ => rfl | ⟨1, _⟩ => rfl)
  have hb : idx_main_v35 (idx_main_v36 (ix2 p q)) = ix1 q :=
    funext fun a => Fin.ext (by match a with | ⟨0, _⟩ => rfl)
  rw [val_main_v37_apply, val_main_v34_apply, val_main_v36_apply, val_main_v35_apply, hb, aggregate]
  simp only [val_main_v33_apply, hl, hr]
  rfl

end Cert.ReferenceIdeal.RefL1

end
-- ==== Proof.RefL2.lean ====
/-
  The reference's first layer on graph 2, read index by index: the node projection x Wnᵀ + bn and the edge projection
  ea Weᵀ + be are a transposed weight, a contraction and a broadcast bias; each endpoint word is raised by the node
  count when negative and the table row it names is looked up (clipped into range); the three terms are added and
  every node sums the messages whose destination word, read signed, is its number; the sums are projected back.
-/
import proofs.«408848_j32693291057228_1_alg».proof.Proof.Gen.ReferenceIdeal.Run
import proofs.«408848_j32693291057228_1_alg».proof.Proof.Gen.ReferenceIdeal.Read
import proofs.«408848_j32693291057228_1_alg».proof.Proof.Spec
import proofs.«408848_j32693291057228_1_alg».proof.Proof.LibGS

noncomputable section

open scoped BigOperators

namespace Cert.ReferenceIdeal.RefL2

open Idealize.ShloMosaic Idealize.ShloMosaic.TcCoe Idealize.SL.Sem Idealize.ShloMosaic.ValueIdx
open Cert.ReferenceIdeal Cert.ReferenceIdeal.Gen Cert.ReferenceIdeal.Read

/-! ## Words -/

/-- The compare-and-select on an endpoint word: a word that reads negative is raised by the node count. -/
theorem raise_word (a c : BitVec 32) :
    Scalar.select (IntOp.cmpi .slt a 0#32) (IntOp.addi a c) a = (if a.slt 0#32 then a + c else a) := by
  unfold Scalar.select IntOp.cmpi IntOp.addi
  cases a.slt 0#32 <;> rfl

/-- A row lookup whose start word is a raised endpoint word reads the row that word names. -/
theorem lookup_row {N E C : Nat} (hN : 0 < N)
    (wf : GatherDims.WF ⟨2, ![N, C]⟩ ⟨2, ![E, 1]⟩ ⟨2, ![E, C]⟩ [1] [0] [] [0] [] 1 ![1, C])
    (px : (Cert.Spec.Mat N C).Idx → EReal) (idx : IVec ⟨2, ![E, 1]⟩ 32) (a : BitVec 32) (e : Fin E) (k : Fin C)
    (h : idx (ix2 e 0) = if a.slt 0#32 then a + BitVec.ofNat 32 N else a) :
    Host.gather (Cert.LibGS.rowGatherDims N E C wf) px idx (ix2 e k)
      = px (ix2 ⟨Cert.Spec.node N a, Cert.Spec.node_lt hN a⟩ k) := by
  refine (Cert.LibGS.gather_rows_apply hN wf px idx e k).trans ?_
  congr 2
  apply Fin.ext
  show min (idx (ix2 e 0)).toInt.toNat (N - 1) = Cert.Spec.node N a
  rw [h]
  rfl

/-- The accumulating scatter into zeros, read at a node and a column: zero plus the updates of the edges whose
    start word, read signed, is the node. -/
theorem segment_sum {N E C : Nat}
    (wf : ScatterDims.WF ⟨2, ![N, C]⟩ ⟨2, ![E, 1]⟩ ⟨2, ![E, C]⟩ [1] [0] [0] 1)
    (z : (Cert.Spec.Mat N C).Idx → EReal) (idx : IVec ⟨2, ![E, 1]⟩ 32) (upd : (Cert.Spec.Mat E C).Idx → EReal)
    (dst : (Cert.Spec.Row E).Idx → BitVec 32) (msg : Fin E → Fin C → EReal)
    (hz : ∀ i, z i = 0) (hidx : ∀ e : Fin E, idx (ix2 e 0) = dst (ix1 e))
    (hupd : ∀ (e : Fin E) (k : Fin C), upd (ix2 e k) = msg e k) (s : Fin N) (k : Fin C) :
    Host.scatterAdd (F := Ideal) (φ := .f32) (Cert.LibGS.rowScatterDims N E C wf) z idx upd (ix2 s k)
      = 0 + ∑ e ∈ Finset.univ.filter (fun e : Fin E => (dst (ix1 e)).toInt = (s.val : ℤ)), msg e k := by
  refine (Cert.LibGS.scatterAdd_rows_apply wf z idx upd s k).trans ?_
  rw [hz]
  simp only [hidx, hupd]

/-! ## The stages of the layer, each read at an index -/

section Stages
variable (x1 : (⟨S512x600, .f32⟩ : BufTy).Contents (Elt Ideal)) (x3 : (⟨S2x16384, .i32⟩ : BufTy).Contents (Elt Ideal))
  (x5 : (⟨S16384x300, .f32⟩ : BufTy).Contents (Elt Ideal)) (x16 : (⟨S300x600, .f32⟩ : BufTy).Contents (Elt Ideal))
  (x17 : (⟨S300, .f32⟩ : BufTy).Contents (Elt Ideal)) (x18 : (⟨S300x300, .f32⟩ : BufTy).Contents (Elt Ideal))
  (x19 : (⟨S300, .f32⟩ : BufTy).Contents (Elt Ideal)) (x20 : (⟨S600x300, .f32⟩ : BufTy).Contents (Elt Ideal))
  (x21 : (⟨S600, .f32⟩ : BufTy).Contents (Elt Ideal))

/-- The node projection: entry (p, q) contracts row p of the features with row q of the weight and adds bias q. -/
theorem proj_node (p : Fin 512) (q : Fin 300) :
    val_main_v42 (F := Ideal) x1 x16 x17 (ix2 p q) = Cert.Spec.lin x1 x16 x17 (ix2 p q) := by
  have hl : ∀ k : Fin 600, lidx_main_v39 (ix2 p q) k = ix2 p k := fun k =>
    funext fun a => Fin.ext (by match a with | ⟨0, _⟩ => rfl | ⟨1, _⟩ => rfl)
  have hr : ∀ k : Fin 600, idx_main_v38 (ridx_main_v39 (ix2 p q) k) = ix2 q k := fun k =>
    funext fun a => Fin.ext (by match a with | ⟨0, _⟩ => rfl | ⟨1, _⟩ => rfl)
  have hb : idx_main_v40 (idx_main_v41 (ix2 p q)) = ix1 q :=
    funext fun a => Fin.ext (by match a with | ⟨0, _⟩ => rfl)
  rw [val_main_v42_apply, val_main_v39_apply, val_main_v41_apply, val_main_v40_apply, hb]
  simp only [val_main_v38_apply, hl, hr]
  rfl

/-- The edge projection: entry (e, h) contracts edge e's features with row h of the weight and adds bias h. -/
theorem proj_edge (e : Fin 16384) (h : Fin 300) :
    val_main_v47 (F := Ideal) x5 x18 x19 (ix2 e h) = Cert.Spec.edgeProj x18 x19 x5 e h := by
  have hl : ∀ k : Fin 300, lidx_main_v44 (ix2 e h) k = ix2 e k := fun k =>
    funext fun a => Fin.ext (by match a with | ⟨0, _⟩ => rfl | ⟨1, _⟩ => rfl)
  have hr : ∀ k : Fin 300, idx_main_v43 (ridx_main_v44 (ix2 e h) k) = ix2 h k := fun k =>
    funext fun a => Fin.ext (by match a with | ⟨0, _⟩ => rfl | ⟨1, _⟩ => rfl)
  have hb : idx_main_v45 (idx_main_v46 (ix2 e h)) = ix1 h :=
    funext fun a => Fin.ext (by match a with | ⟨0, _⟩ => rfl)
  rw [val_main_v47_apply, val_main_v44_apply, val_main_v46_apply, val_main_v45_apply, hb]
  simp only [val_main_v43_apply, hl, hr]
  rfl

/-- The source words are row 0 of the endpoint table. -/
theorem src_word (e : Fin 16384) :
    val_main_v49 (F := Ideal) x3 (ix1 e) = Cert.Spec.endpoints 0 x3 (ix1 e) := by
  have hi : idx_main_v48 (idx_main_v49 (ix1 e)) = ix2 (0 : Fin 2) e :=
    funext fun a => Fin.ext (by match a with | ⟨0, _⟩ => rfl | ⟨1, _⟩ => exact Nat.mod_eq_of_lt e.isLt)
  rw [val_main_v49_apply, val_main_v48_apply, hi]
  rfl

/-- The destination words are row 1 of the endpoint table. -/
theorem dst_word (e : Fin 16384) :
    val_main_v51 (F := Ideal) x3 (ix1 e) = Cert.Spec.endpoints 1 x3 (ix1 e) := by
  have hi : idx_main_v50 (idx_main_v51 (ix1 e)) = ix2 (1 : Fin 2) e :=
    funext fun a => Fin.ext (by match a with | ⟨0, _⟩ => rfl | ⟨1, _⟩ => exact Nat.mod_eq_of_lt e.isLt)
  rw [val_main_v51_apply, val_main_v50_apply, hi]
  rfl

/-- The start word of the destination lookup of edge e: its destination word, raised by 512 when negative. -/
theorem raised_dst (e : Fin 16384) :
    val_main_v57 (F := Ideal) x3 (ix2 e 0)
      = (if (Cert.Spec.endpoints 1 x3 (ix1 e)).slt 0#32 then Cert.Spec.endpoints 1 x3 (ix1 e) + BitVec.ofNat 32 512
          else Cert.Spec.endpoints 1 x3 (ix1 e)) := by
  have hi : idx_main_v57 (ix2 e (0 : Fin 1)) = ix1 e := funext fun a => Fin.ext (by match a with | ⟨0, _⟩ => rfl)
  rw [val_main_v57_apply, hi, val_main_v56_apply, val_main_v53_apply, val_main_v55_apply, val_main_v52_apply,
    val_main_v54_apply, val_main_c_3_apply, val_main_c_4_apply, dst_word]
  exact raise_word _ _

/-- The start word of the source lookup of edge e: its source word, raised by 512 when negative. -/
theorem raised_src (e : Fin 16384) :
    val_main_v64 (F := Ideal) x3 (ix2 e 0)
      = (if (Cert.Spec.endpoints 0 x3 (ix1 e)).slt 0#32 then Cert.Spec.endpoints 0 x3 (ix1 e) + BitVec.ofNat 32 512
          else Cert.Spec.endpoints 0 x3 (ix1 e)) := by
  have hi : idx_main_v64 (ix2 e (0 : Fin 1)) = ix1 e := funext fun a => Fin.ext (by match a with | ⟨0, _⟩ => rfl)
  rw [val_main_v64_apply, hi, val_main_v63_apply, val_main_v60_apply, val_main_v62_apply, val_main_v59_apply,
    val_main_v61_apply, val_main_c_5_apply, val_main_c_6_apply, src_word]
  exact raise_word _ _

/-- The message of edge e at column h: the projected rows its two endpoint words name, plus its projected features. -/
theorem message (e : Fin 16384) (h : Fin 300) :
    val_main_v67 (F := Ideal) x1 x3 x5 x16 x17 x18 x19 (ix2 e h)
      = Cert.Spec.msgLook (N := 512) (by decide) (Cert.Spec.lin x1 x16 x17) x18 x19 x5
          (Cert.Spec.endpoints 0 x3) (Cert.Spec.endpoints 1 x3) e h := by
  have hpx : val_main_v42 (F := Ideal) x1 x16 x17 = Cert.Spec.lin x1 x16 x17 := by
    funext i
    obtain ⟨p, q, rfl⟩ : ∃ (p : Fin 512) (q : Fin 300), i = ix2 p q := ⟨i 0, i 1, eq_ix2 i⟩
    exact proj_node x1 x16 x17 p q
  rw [val_main_v67_apply, val_main_v66_apply, proj_edge]
  unfold val_main_v58 val_main_v65
  rw [hpx]
  have hd : Host.gather gather_S512x300_S16384x1_S16384x300_1_0_n_n_0_1_1300 (Cert.Spec.lin x1 x16 x17)
      (val_main_v57 (F := Ideal) x3) (ix2 e h)
      = Cert.Spec.lin x1 x16 x17 (ix2 ⟨Cert.Spec.node 512 (Cert.Spec.endpoints 1 x3 (ix1 e)), Cert.Spec.node_lt (by decide) _⟩ h) :=
    lookup_row (N := 512) (E := 16384) (C := 300) (by decide) Facts₀.gather_S512x300_S16384x1_S16384x300_1_0_n_n_0_1_1300_wf
      (Cert.Spec.lin x1 x16 x17) (val_main_v57 (F := Ideal) x3) (Cert.Spec.endpoints 1 x3 (ix1 e)) e h (raised_dst x3 e)
  have hs : Host.gather gather_S512x300_S16384x1_S16384x300_1_0_n_n_0_1_1300 (Cert.Spec.lin x1 x16 x17)
      (val_main_v64 (F := Ideal) x3) (ix2 e h)
      = Cert.Spec.lin x1 x16 x17 (ix2 ⟨Cert.Spec.node 512 (Cert.Spec.endpoints 0 x3 (ix1 e)), Cert.Spec.node_lt (by decide) _⟩ h) :=
    lookup_row (N := 512) (E := 16384) (C := 300) (by decide) Facts₀.gather_S512x300_S16384x1_S16384x300_1_0_n_n_0_1_1300_wf
      (Cert.Spec.lin x1 x16 x17) (val_main_v64 (F := Ideal) x3) (Cert.Spec.endpoints 0 x3 (ix1 e)) e h (raised_src x3 e)
  rw [hd, hs]
  rfl

/-- The scatter-add into zeros is the aggregation: node s at column k sums the messages of the edges whose
    destination word, read signed, is s. -/
theorem aggregate :
    val_main_v70 (F := Ideal) x1 x3 x5 x16 x17 x18 x19
      = Cert.Spec.aggLook (N := 512) (by decide) (Cert.Spec.lin x1 x16 x17) x18 x19 x5
          (Cert.Spec.endpoints 0 x3) (Cert.Spec.endpoints 1 x3) := by
  funext i
  obtain ⟨s, k, rfl⟩ : ∃ (s : Fin 512) (k : Fin 300), i = ix2 s k := ⟨i 0, i 1, eq_ix2 i⟩
  have hz : ∀ i, val_main_v68 (F := Ideal) i = 0 := fun i => by
    rw [val_main_v68_apply, val_main_cst_7_apply, Ideal.ofBits_def]
    exact Ideal.ofBits_zero_f32
  have hidx : ∀ e : Fin 16384, val_main_v69 (F := Ideal) x3 (ix2 e 0) = Cert.Spec.endpoints 1 x3 (ix1 e) := fun e => by
    have hi : idx_main_v69 (ix2 e (0 : Fin 1)) = ix1 e := funext fun a => Fin.ext (by match a with | ⟨0, _⟩ => rfl)
    rw [val_main_v69_apply, hi, dst_word]
  unfold val_main_v70
  exact segment_sum Facts₀.scatter_S512x300_S16384x1_S16384x300_1_0_0_1_wf (val_main_v68 (F := Ideal))
    (val_main_v69 (F := Ideal) x3) (val_main_v67 (F := Ideal) x1 x3 x5 x16 x17 x18 x19) (Cert.Spec.endpoints 1 x3)
    (Cert.Spec.msgLook (N := 512) (by decide) (Cert.Spec.lin x1 x16 x17) x18 x19 x5
      (Cert.Spec.endpoints 0 x3) (Cert.Spec.endpoints 1 x3))
    hz hidx (message x1 x3 x5 x16 x17 x18 x19) s k

end Stages

/-- The stage that ends this layer is the lookup form of the layer. -/
theorem layer (x1 : (⟨S512x600, .f32⟩ : BufTy).Contents (Elt Ideal)) (x3 : (⟨S2x16384, .i32⟩ : BufTy).Contents (Elt Ideal)) (x5 : (⟨S16384x300, .f32⟩ : BufTy).Contents (Elt Ideal)) (x16 : (⟨S300x600, .f32⟩ : BufTy).Contents (Elt Ideal)) (x17 : (⟨S300, .f32⟩ : BufTy).Contents (Elt Ideal)) (x18 : (⟨S300x300, .f32⟩ : BufTy).Contents (Elt Ideal)) (x19 : (⟨S300, .f32⟩ : BufTy).Contents (Elt Ideal)) (x20 : (⟨S600x300, .f32⟩ : BufTy).Contents (Elt Ideal)) (x21 : (⟨S600, .f32⟩ : BufTy).Contents (Elt Ideal)) :
    val_main_v75 (F := Ideal) x1 x3 x5 x16 x17 x18 x19 x20 x21
      = Cert.Spec.gnnLook (N := 512) (E := 16384) (Dn := 600) (H := 300) (De := 300) (by decide) x1 x3 x5 ⟨x16, x17, x18, x19, x20, x21⟩ := by
  funext i
  obtain ⟨p, q, rfl⟩ : ∃ (p : Fin 512) (q : Fin 600), i = ix2 p q := ⟨i 0, i 1, eq_ix2 i⟩
  have hl : ∀ k : Fin 300, lidx_main_v72 (ix2 p q) k = ix2 p k := fun k =>
    funext fun a => Fin.ext (by match a with | ⟨0, _⟩ => rfl | ⟨1, _⟩ => rfl)
  have hr : ∀ k : Fin 300, idx_main_v71 (ridx_main_v72 (ix2 p q) k) = ix2 q k := fun k =>
    funext fun a => Fin.ext (by match a with | ⟨0, _⟩ => rfl | ⟨1, _⟩ => rfl)
  have hb : idx_main_v73 (idx_main_v74 (ix2 p q)) = ix1 q :=
    funext fun a => Fin.ext (by match a with | ⟨0, _⟩ => rfl)
  rw [val_main_v75_apply, val_main_v72_apply, val_main_v74_apply, val_main_v73_apply, hb, aggregate]
  simp only [val_main_v71_apply, hl, hr]
  rfl

end Cert.ReferenceIdeal.RefL2

end
-- ==== Proof.RefL3.lean ====
/-
  The reference's cross layer 1, whose node table is a stack of the two first-layer results (taken here as it stands), read index by index: the node projection x Wnᵀ + bn and the edge projection
  ea Weᵀ + be are a transposed weight, a contraction and a broadcast bias; each endpoint word is raised by the node
  count when negative and the table row it names is looked up (clipped into range); the three terms are added and
  every node sums the messages whose destination word, read signed, is its number; the sums are projected back.
-/
import proofs.«408848_j32693291057228_1_alg».proof.Proof.Gen.ReferenceIdeal.Run
import proofs.«408848_j32693291057228_1_alg».proof.Proof.Gen.ReferenceIdeal.Read
import proofs.«408848_j32693291057228_1_alg».proof.Proof.Spec
import proofs.«408848_j32693291057228_1_alg».proof.Proof.LibGS

noncomputable section

namespace Cert.ReferenceIdeal.RefL3

open Idealize.ShloMosaic Idealize.ShloMosaic.TcCoe Idealize.SL.Sem Idealize.ShloMosaic.ValueIdx
open Cert.ReferenceIdeal Cert.ReferenceIdeal.Gen Cert.ReferenceIdeal.Read

open Cert.Spec (lin edgeProj node node_lt msgLook aggLook endpoints)
open Cert.LibGS (gather_rows_apply scatterAdd_rows_apply)

/-! ## The stages' index functions, by coordinates

  A contraction reads its left operand at (row of the entry, k) and the transposed weight at (k, column of the
  entry), which is the weight itself at (column, k); a bias broadcast down the rows is read at the column alone. -/

theorem lidx_px (i : S1024x300.Idx) (k : Fin 600) : lidx_main_v79 i k = ix2 (i 0) k :=
  funext fun a => Fin.ext (by match a with | ⟨0, _⟩ => rfl | ⟨1, _⟩ => rfl)

theorem ridx_px (i : S1024x300.Idx) (k : Fin 600) : idx_main_v78 (ridx_main_v79 i k) = ix2 (i 1) k :=
  funext fun a => Fin.ext (by match a with | ⟨0, _⟩ => rfl | ⟨1, _⟩ => rfl)

theorem bidx_px (i : S1024x300.Idx) : idx_main_v80 (idx_main_v81 i) = ix1 (i 1) :=
  funext fun a => Fin.ext (by match a with | ⟨0, _⟩ => rfl)

theorem lidx_pe (e : Fin 262144) (h : Fin 300) (k : Fin 300) : lidx_main_v84 (ix2 e h) k = ix2 e k :=
  funext fun a => Fin.ext (by match a with | ⟨0, _⟩ => rfl | ⟨1, _⟩ => rfl)

theorem ridx_pe (e : Fin 262144) (h : Fin 300) (k : Fin 300) :
    idx_main_v83 (ridx_main_v84 (ix2 e h) k) = ix2 h k :=
  funext fun a => Fin.ext (by match a with | ⟨0, _⟩ => rfl | ⟨1, _⟩ => rfl)

theorem bidx_pe (e : Fin 262144) (h : Fin 300) : idx_main_v85 (idx_main_v86 (ix2 e h)) = ix1 h :=
  funext fun a => Fin.ext (by match a with | ⟨0, _⟩ => rfl)

theorem lidx_out (i : S1024x600.Idx) (k : Fin 300) : lidx_main_v112 i k = ix2 (i 0) k :=
  funext fun a => Fin.ext (by match a with | ⟨0, _⟩ => rfl | ⟨1, _⟩ => rfl)

theorem ridx_out (i : S1024x600.Idx) (k : Fin 300) : idx_main_v111 (ridx_main_v112 i k) = ix2 (i 1) k :=
  funext fun a => Fin.ext (by match a with | ⟨0, _⟩ => rfl | ⟨1, _⟩ => rfl)

theorem bidx_out (i : S1024x600.Idx) : idx_main_v113 (idx_main_v114 i) = ix1 (i 1) :=
  funext fun a => Fin.ext (by match a with | ⟨0, _⟩ => rfl)

/-- Row 0 of the endpoint table, flattened: entry e is the table's entry (0, e). -/
theorem idx_src (e : Fin 262144) : idx_main_v88 (idx_main_v89 (ix1 e)) = ix2 0 e :=
  funext fun a => Fin.ext (by
    match a with
    | ⟨0, _⟩ => rfl
    | ⟨1, _⟩ => exact Nat.mod_eq_of_lt e.isLt)

/-- Row 1 of the endpoint table, flattened: entry e is the table's entry (1, e). -/
theorem idx_dst (e : Fin 262144) : idx_main_v90 (idx_main_v91 (ix1 e)) = ix2 1 e :=
  funext fun a => Fin.ext (by
    match a with
    | ⟨0, _⟩ => rfl
    | ⟨1, _⟩ => exact Nat.mod_eq_of_lt e.isLt)

theorem idx_col_dst (e : Fin 262144) : idx_main_v97 (ix2 e 0) = ix1 e :=
  funext fun a => Fin.ext (by match a with | ⟨0, _⟩ => rfl)

theorem idx_col_src (e : Fin 262144) : idx_main_v104 (ix2 e 0) = ix1 e :=
  funext fun a => Fin.ext (by match a with | ⟨0, _⟩ => rfl)

theorem idx_col_raw (e : Fin 262144) : idx_main_v109 (ix2 e 0) = ix1 e :=
  funext fun a => Fin.ext (by match a with | ⟨0, _⟩ => rfl)

/-! ## Words -/

/-- The compare-and-select on a word: a negative word is raised by the node count, any other kept. -/
theorem raise_eq (a : BitVec 32) :
    Scalar.select (IntOp.cmpi .slt a 0#32) (IntOp.addi a 1024#32) a
      = if a.slt 0#32 then a + BitVec.ofNat 32 1024 else a := by
  show (if BitVec.ofBool (a.slt 0#32) = 1 then a + 1024#32 else a) = _
  cases a.slt 0#32 <;> rfl

section Stages

variable (x0 x1 : (⟨S512x600, .f32⟩ : BufTy).Contents (Elt Ideal)) (x2 x3 : (⟨S2x16384, .i32⟩ : BufTy).Contents (Elt Ideal))
  (x4 x5 : (⟨S16384x300, .f32⟩ : BufTy).Contents (Elt Ideal)) (x6 : (⟨S2x262144, .i32⟩ : BufTy).Contents (Elt Ideal))
  (x7 : (⟨S262144x300, .f32⟩ : BufTy).Contents (Elt Ideal))
  (x10 : (⟨S300x600, .f32⟩ : BufTy).Contents (Elt Ideal)) (x11 : (⟨S300, .f32⟩ : BufTy).Contents (Elt Ideal))
  (x12 : (⟨S300x300, .f32⟩ : BufTy).Contents (Elt Ideal)) (x13 : (⟨S300, .f32⟩ : BufTy).Contents (Elt Ideal))
  (x14 : (⟨S600x300, .f32⟩ : BufTy).Contents (Elt Ideal)) (x15 : (⟨S600, .f32⟩ : BufTy).Contents (Elt Ideal))
  (x16 : (⟨S300x600, .f32⟩ : BufTy).Contents (Elt Ideal)) (x17 : (⟨S300, .f32⟩ : BufTy).Contents (Elt Ideal))
  (x18 : (⟨S300x300, .f32⟩ : BufTy).Contents (Elt Ideal)) (x19 : (⟨S300, .f32⟩ : BufTy).Contents (Elt Ideal))
  (x20 : (⟨S600x300, .f32⟩ : BufTy).Contents (Elt Ideal)) (x21 : (⟨S600, .f32⟩ : BufTy).Contents (Elt Ideal))
  (x22 : (⟨S300x600, .f32⟩ : BufTy).Contents (Elt Ideal)) (x23 : (⟨S300, .f32⟩ : BufTy).Contents (Elt Ideal))
  (x24 : (⟨S300x300, .f32⟩ : BufTy).Contents (Elt Ideal)) (x25 : (⟨S300, .f32⟩ : BufTy).Contents (Elt Ideal))
  (x26 : (⟨S600x300, .f32⟩ : BufTy).Contents (Elt Ideal)) (x27 : (⟨S600, .f32⟩ : BufTy).Contents (Elt Ideal))

/-- The source word of edge e is entry (0, e) of the endpoint table. -/
theorem src_word (e : Fin 262144) : val_main_v89 (F := Ideal) x6 (ix1 e) = endpoints 0 x6 (ix1 e) := by
  rw [val_main_v89_apply, val_main_v88_apply, idx_src]
  rfl

/-- The destination word of edge e is entry (1, e) of the endpoint table. -/
theorem dst_word (e : Fin 262144) : val_main_v91 (F := Ideal) x6 (ix1 e) = endpoints 1 x6 (ix1 e) := by
  rw [val_main_v91_apply, val_main_v90_apply, idx_dst]
  rfl

/-- The start word the destination lookup is given: the destination word, raised when negative. -/
theorem dst_start (e : Fin 262144) :
    val_main_v97 (F := Ideal) x6 (ix2 e 0)
      = if (endpoints 1 x6 (ix1 e)).slt 0#32 then endpoints 1 x6 (ix1 e) + BitVec.ofNat 32 1024
        else endpoints 1 x6 (ix1 e) := by
  rw [val_main_v97_apply, idx_col_dst, val_main_v96_apply, val_main_v93_apply, val_main_v95_apply, val_main_v92_apply,
    val_main_v94_apply, val_main_c_8_apply, val_main_c_9_apply, dst_word]
  exact raise_eq _

/-- The start word the source lookup is given: the source word, raised when negative. -/
theorem src_start (e : Fin 262144) :
    val_main_v104 (F := Ideal) x6 (ix2 e 0)
      = if (endpoints 0 x6 (ix1 e)).slt 0#32 then endpoints 0 x6 (ix1 e) + BitVec.ofNat 32 1024
        else endpoints 0 x6 (ix1 e) := by
  rw [val_main_v104_apply, idx_col_src, val_main_v103_apply, val_main_v100_apply, val_main_v102_apply, val_main_v99_apply,
    val_main_v101_apply, val_main_c_10_apply, val_main_c_11_apply, src_word]
  exact raise_eq _

/-- The scatter's index column holds the destination words as they are. -/
theorem raw_word (e : Fin 262144) : val_main_v109 (F := Ideal) x6 (ix2 e 0) = endpoints 1 x6 (ix1 e) := by
  rw [val_main_v109_apply, idx_col_raw, dst_word]

/-! ## The two projections that feed the message -/

/-- The node projection: the table times the transposed node weight, plus the bias down the rows. -/
theorem px_eq :
    val_main_v82 (F := Ideal) x0 x1 x2 x3 x4 x5 x10 x11 x12 x13 x14 x15 x16 x17 x18 x19 x20 x21 x22 x23 = lin (val_main_v76 (F := Ideal) x0 x1 x2 x3 x4 x5 x10 x11 x12 x13 x14 x15 x16 x17 x18 x19 x20 x21) x22 x23 := by
  funext i
  rw [val_main_v82_apply, val_main_v79_apply, val_main_v81_apply, val_main_v80_apply]
  generalize val_main_v76 (F := Ideal) x0 x1 x2 x3 x4 x5 x10 x11 x12 x13 x14 x15 x16 x17 x18 x19 x20 x21 = tbl
  simp only [val_main_v78_apply, lidx_px, ridx_px, bidx_px, Ideal.addf_def]
  rfl

/-- The edge projection at edge e, column h. -/
theorem pe_eq (e : Fin 262144) (h : Fin 300) :
    val_main_v87 (F := Ideal) x7 x24 x25 (ix2 e h) = edgeProj x24 x25 x7 e h := by
  rw [val_main_v87_apply, val_main_v84_apply, val_main_v86_apply, val_main_v85_apply]
  simp only [val_main_v83_apply, lidx_pe, ridx_pe, bidx_pe, Ideal.addf_def]
  rfl

/-! ## The two row lookups -/

/-- The destination lookup reads the row the destination word names. -/
theorem gather_dst (px : S1024x300.Idx → EReal) (e : Fin 262144) (h : Fin 300) :
    Host.gather gather_S1024x300_S262144x1_S262144x300_1_0_n_n_0_1_1300 px (val_main_v97 (F := Ideal) x6) (ix2 e h)
      = px (ix2 ⟨node 1024 (endpoints 1 x6 (ix1 e)), node_lt (by decide) _⟩ h) := by
  refine (gather_rows_apply (N := 1024) (E := 262144) (C := 300) (by decide) _ px
    (val_main_v97 (F := Ideal) x6) e h).trans (congrArg px ?_)
  refine congrArg (fun r : Fin 1024 => ix2 r h) (Fin.ext ?_)
  show min (val_main_v97 (F := Ideal) x6 (ix2 e 0)).toInt.toNat (1024 - 1) = node 1024 (endpoints 1 x6 (ix1 e))
  rw [dst_start]
  rfl

/-- The source lookup reads the row the source word names. -/
theorem gather_src (px : S1024x300.Idx → EReal) (e : Fin 262144) (h : Fin 300) :
    Host.gather gather_S1024x300_S262144x1_S262144x300_1_0_n_n_0_1_1300 px (val_main_v104 (F := Ideal) x6) (ix2 e h)
      = px (ix2 ⟨node 1024 (endpoints 0 x6 (ix1 e)), node_lt (by decide) _⟩ h) := by
  refine (gather_rows_apply (N := 1024) (E := 262144) (C := 300) (by decide) _ px
    (val_main_v104 (F := Ideal) x6) e h).trans (congrArg px ?_)
  refine congrArg (fun r : Fin 1024 => ix2 r h) (Fin.ext ?_)
  show min (val_main_v104 (F := Ideal) x6 (ix2 e 0)).toInt.toNat (1024 - 1) = node 1024 (endpoints 0 x6 (ix1 e))
  rw [src_start]
  rfl

/-! ## The message, the aggregate, the layer -/

/-- Edge e's message at column h: the two looked-up rows of the node projection plus the edge projection. -/
theorem msg_eq (e : Fin 262144) (h : Fin 300) :
    val_main_v107 (F := Ideal) x0 x1 x2 x3 x4 x5 x6 x7 x10 x11 x12 x13 x14 x15 x16 x17 x18 x19 x20 x21 x22 x23 x24 x25 (ix2 e h)
      = msgLook (N := 1024) (by decide) (lin (val_main_v76 (F := Ideal) x0 x1 x2 x3 x4 x5 x10 x11 x12 x13 x14 x15 x16 x17 x18 x19 x20 x21) x22 x23) x24 x25 x7 (endpoints 0 x6) (endpoints 1 x6) e h := by
  rw [val_main_v107_apply, val_main_v106_apply]
  unfold val_main_v98 val_main_v105
  rw [px_eq]
  generalize lin (val_main_v76 (F := Ideal) x0 x1 x2 x3 x4 x5 x10 x11 x12 x13 x14 x15 x16 x17 x18 x19 x20 x21) x22 x23 = px
  rw [gather_dst, gather_src, pe_eq]
  rfl

/-- The scatter-add into zeros: node s sums the messages of the edges whose destination word, read signed, is s. -/
theorem agg_eq :
    val_main_v110 (F := Ideal) x0 x1 x2 x3 x4 x5 x6 x7 x10 x11 x12 x13 x14 x15 x16 x17 x18 x19 x20 x21 x22 x23 x24 x25
      = aggLook (N := 1024) (by decide) (lin (val_main_v76 (F := Ideal) x0 x1 x2 x3 x4 x5 x10 x11 x12 x13 x14 x15 x16 x17 x18 x19 x20 x21) x22 x23) x24 x25 x7 (endpoints 0 x6) (endpoints 1 x6) := by
  funext i
  obtain ⟨s, k, rfl⟩ : ∃ (s : Fin 1024) (k : Fin 300), i = ix2 s k := ⟨i 0, i 1, eq_ix2 i⟩
  have hmsg := msg_eq x0 x1 x2 x3 x4 x5 x6 x7 x10 x11 x12 x13 x14 x15 x16 x17 x18 x19 x20 x21 x22 x23 x24 x25
  unfold val_main_v110
  generalize val_main_v107 (F := Ideal) x0 x1 x2 x3 x4 x5 x6 x7 x10 x11 x12 x13 x14 x15 x16 x17 x18 x19 x20 x21 x22 x23 x24 x25 = upd at hmsg ⊢
  generalize lin (val_main_v76 (F := Ideal) x0 x1 x2 x3 x4 x5 x10 x11 x12 x13 x14 x15 x16 x17 x18 x19 x20 x21) x22 x23 = px at hmsg ⊢
  refine (scatterAdd_rows_apply (N := 1024) (E := 262144) (C := 300) _ (val_main_v108 (F := Ideal))
    (val_main_v109 (F := Ideal) x6) upd s k).trans ?_
  rw [val_main_v108_apply, val_main_cst_12_apply, Ideal.ofBits_def, Ideal.ofBits_zero_f32]
  refine congrArg (fun z : EReal => 0 + z) ?_
  refine Finset.sum_congr (Finset.filter_congr fun e _ => ?_) (fun e _ => hmsg e k)
  rw [raw_word]

end Stages

/-- The stage that ends this layer is the lookup form of the layer on the stacked table. -/
theorem layer (x0 : (⟨S512x600, .f32⟩ : BufTy).Contents (Elt Ideal)) (x1 : (⟨S512x600, .f32⟩ : BufTy).Contents (Elt Ideal)) (x2 : (⟨S2x16384, .i32⟩ : BufTy).Contents (Elt Ideal)) (x3 : (⟨S2x16384, .i32⟩ : BufTy).Contents (Elt Ideal)) (x4 : (⟨S16384x300, .f32⟩ : BufTy).Contents (Elt Ideal)) (x5 : (⟨S16384x300, .f32⟩ : BufTy).Contents (Elt Ideal)) (x6 : (⟨S2x262144, .i32⟩ : BufTy).Contents (Elt Ideal)) (x7 : (⟨S262144x300, .f32⟩ : BufTy).Contents (Elt Ideal)) (x10 : (⟨S300x600, .f32⟩ : BufTy).Contents (Elt Ideal)) (x11 : (⟨S300, .f32⟩ : BufTy).Contents (Elt Ideal)) (x12 : (⟨S300x300, .f32⟩ : BufTy).Contents (Elt Ideal)) (x13 : (⟨S300, .f32⟩ : BufTy).Contents (Elt Ideal)) (x14 : (⟨S600x300, .f32⟩ : BufTy).Contents (Elt Ideal)) (x15 : (⟨S600, .f32⟩ : BufTy).Contents (Elt Ideal)) (x16 : (⟨S300x600, .f32⟩ : BufTy).Contents (Elt Ideal)) (x17 : (⟨S300, .f32⟩ : BufTy).Contents (Elt Ideal)) (x18 : (⟨S300x300, .f32⟩ : BufTy).Contents (Elt Ideal)) (x19 : (⟨S300, .f32⟩ : BufTy).Contents (Elt Ideal)) (x20 : (⟨S600x300, .f32⟩ : BufTy).Contents (Elt Ideal)) (x21 : (⟨S600, .f32⟩ : BufTy).Contents (Elt Ideal)) (x22 : (⟨S300x600, .f32⟩ : BufTy).Contents (Elt Ideal)) (x23 : (⟨S300, .f32⟩ : BufTy).Contents (Elt Ideal)) (x24 : (⟨S300x300, .f32⟩ : BufTy).Contents (Elt Ideal)) (x25 : (⟨S300, .f32⟩ : BufTy).Contents (Elt Ideal)) (x26 : (⟨S600x300, .f32⟩ : BufTy).Contents (Elt Ideal)) (x27 : (⟨S600, .f32⟩ : BufTy).Contents (Elt Ideal)) :
    val_main_v115 (F := Ideal) x0 x1 x2 x3 x4 x5 x6 x7 x10 x11 x12 x13 x14 x15 x16 x17 x18 x19 x20 x21 x22 x23 x24 x25 x26 x27
      = Cert.Spec.gnnLook (N := 1024) (E := 262144) (Dn := 600) (H := 300) (De := 300) (by decide)
          (val_main_v76 (F := Ideal) x0 x1 x2 x3 x4 x5 x10 x11 x12 x13 x14 x15 x16 x17 x18 x19 x20 x21) x6 x7 ⟨x22, x23, x24, x25, x26, x27⟩ := by
  funext i
  rw [val_main_v115_apply, val_main_v112_apply, val_main_v114_apply, val_main_v113_apply, agg_eq]
  show _ = lin (aggLook (N := 1024) (by decide) (lin (val_main_v76 (F := Ideal) x0 x1 x2 x3 x4 x5 x10 x11 x12 x13 x14 x15 x16 x17 x18 x19 x20 x21) x22 x23) x24 x25 x7 (endpoints 0 x6) (endpoints 1 x6)) x26 x27 i
  generalize aggLook (N := 1024) (by decide) (lin (val_main_v76 (F := Ideal) x0 x1 x2 x3 x4 x5 x10 x11 x12 x13 x14 x15 x16 x17 x18 x19 x20 x21) x22 x23) x24 x25 x7 (endpoints 0 x6) (endpoints 1 x6) = ag
  simp only [val_main_v111_apply, lidx_out, ridx_out, bidx_out, Ideal.addf_def]
  rfl

end Cert.ReferenceIdeal.RefL3

end
-- ==== Proof.RefL4.lean ====
/-
  The reference's cross layer 2, whose node table is a stack of the two first-layer results (taken here as it stands), read index by index: the node projection x Wnᵀ + bn and the edge projection
  ea Weᵀ + be are a transposed weight, a contraction and a broadcast bias; each endpoint word is raised by the node
  count when negative and the table row it names is looked up (clipped into range); the three terms are added and
  every node sums the messages whose destination word, read signed, is its number; the sums are projected back.
-/
import proofs.«408848_j32693291057228_1_alg».proof.Proof.Gen.ReferenceIdeal.Run
import proofs.«408848_j32693291057228_1_alg».proof.Proof.Gen.ReferenceIdeal.Read
import proofs.«408848_j32693291057228_1_alg».proof.Proof.Spec
import proofs.«408848_j32693291057228_1_alg».proof.Proof.LibGS

noncomputable section

namespace Cert.ReferenceIdeal.RefL4

open Idealize.ShloMosaic Idealize.ShloMosaic.TcCoe Idealize.SL.Sem Idealize.ShloMosaic.ValueIdx
open Cert.ReferenceIdeal Cert.ReferenceIdeal.Gen Cert.ReferenceIdeal.Read

open Cert.Spec (lin edgeProj node node_lt msgLook aggLook endpoints)
open Cert.LibGS (gather_rows_apply scatterAdd_rows_apply)

/-! ## The stages' index functions, by coordinates

  A contraction reads its left operand at (row of the entry, k) and the transposed weight at (k, column of the
  entry), which is the weight itself at (column, k); a bias broadcast down the rows is read at the column alone. -/

theorem lidx_px (i : S1024x300.Idx) (k : Fin 600) : lidx_main_v117 i k = ix2 (i 0) k :=
  funext fun a => Fin.ext (by match a with | ⟨0, _⟩ => rfl | ⟨1, _⟩ => rfl)

theorem ridx_px (i : S1024x300.Idx) (k : Fin 600) : idx_main_v116 (ridx_main_v117 i k) = ix2 (i 1) k :=
  funext fun a => Fin.ext (by match a with | ⟨0, _⟩ => rfl | ⟨1, _⟩ => rfl)

theorem bidx_px (i : S1024x300.Idx) : idx_main_v118 (idx_main_v119 i) = ix1 (i 1) :=
  funext fun a => Fin.ext (by match a with | ⟨0, _⟩ => rfl)

theorem lidx_pe (e : Fin 262144) (h : Fin 300) (k : Fin 300) : lidx_main_v122 (ix2 e h) k = ix2 e k :=
  funext fun a => Fin.ext (by match a with | ⟨0, _⟩ => rfl | ⟨1, _⟩ => rfl)

theorem ridx_pe (e : Fin 262144) (h : Fin 300) (k : Fin 300) :
    idx_main_v121 (ridx_main_v122 (ix2 e h) k) = ix2 h k :=
  funext fun a => Fin.ext (by match a with | ⟨0, _⟩ => rfl | ⟨1, _⟩ => rfl)

theorem bidx_pe (e : Fin 262144) (h : Fin 300) : idx_main_v123 (idx_main_v124 (ix2 e h)) = ix1 h :=
  funext fun a => Fin.ext (by match a with | ⟨0, _⟩ => rfl)

theorem lidx_out (i : S1024x600.Idx) (k : Fin 300) : lidx_main_v150 i k = ix2 (i 0) k :=
  funext fun a => Fin.ext (by match a with | ⟨0, _⟩ => rfl | ⟨1, _⟩ => rfl)

theorem ridx_out (i : S1024x600.Idx) (k : Fin 300) : idx_main_v149 (ridx_main_v150 i k) = ix2 (i 1) k :=
  funext fun a => Fin.ext (by match a with | ⟨0, _⟩ => rfl | ⟨1, _⟩ => rfl)

theorem bidx_out (i : S1024x600.Idx) : idx_main_v151 (idx_main_v152 i) = ix1 (i 1) :=
  funext fun a => Fin.ext (by match a with | ⟨0, _⟩ => rfl)

/-- Row 0 of the endpoint table, flattened: entry e is the table's entry (0, e). -/
theorem idx_src (e : Fin 262144) : idx_main_v126 (idx_main_v127 (ix1 e)) = ix2 0 e :=
  funext fun a => Fin.ext (by
    match a with
    | ⟨0, _⟩ => rfl
    | ⟨1, _⟩ => exact Nat.mod_eq_of_lt e.isLt)

/-- Row 1 of the endpoint table, flattened: entry e is the table's entry (1, e). -/
theorem idx_dst (e : Fin 262144) : idx_main_v128 (idx_main_v129 (ix1 e)) = ix2 1 e :=
  funext fun a => Fin.ext (by
    match a with
    | ⟨0, _⟩ => rfl
    | ⟨1, _⟩ => exact Nat.mod_eq_of_lt e.isLt)

theorem idx_col_dst (e : Fin 262144) : idx_main_v135 (ix2 e 0) = ix1 e :=
  funext fun a => Fin.ext (by match a with | ⟨0, _⟩ => rfl)

theorem idx_col_src (e : Fin 262144) : idx_main_v142 (ix2 e 0) = ix1 e :=
  funext fun a => Fin.ext (by match a with | ⟨0, _⟩ => rfl)

theorem idx_col_raw (e : Fin 262144) : idx_main_v147 (ix2 e 0) = ix1 e :=
  funext fun a => Fin.ext (by match a with | ⟨0, _⟩ => rfl)

/-! ## Words -/

/-- The compare-and-select on a word: a negative word is raised by the node count, any other kept. -/
theorem raise_eq (a : BitVec 32) :
    Scalar.select (IntOp.cmpi .slt a 0#32) (IntOp.addi a 1024#32) a
      = if a.slt 0#32 then a + BitVec.ofNat 32 1024 else a := by
  show (if BitVec.ofBool (a.slt 0#32) = 1 then a + 1024#32 else a) = _
  cases a.slt 0#32 <;> rfl

section Stages

variable (x0 x1 : (⟨S512x600, .f32⟩ : BufTy).Contents (Elt Ideal)) (x2 x3 : (⟨S2x16384, .i32⟩ : BufTy).Contents (Elt Ideal))
  (x4 x5 : (⟨S16384x300, .f32⟩ : BufTy).Contents (Elt Ideal)) (x8 : (⟨S2x262144, .i32⟩ : BufTy).Contents (Elt Ideal))
  (x9 : (⟨S262144x300, .f32⟩ : BufTy).Contents (Elt Ideal))
  (x10 : (⟨S300x600, .f32⟩ : BufTy).Contents (Elt Ideal)) (x11 : (⟨S300, .f32⟩ : BufTy).Contents (Elt Ideal))
  (x12 : (⟨S300x300, .f32⟩ : BufTy).Contents (Elt Ideal)) (x13 : (⟨S300, .f32⟩ : BufTy).Contents (Elt Ideal))
  (x14 : (⟨S600x300, .f32⟩ : BufTy).Contents (Elt Ideal)) (x15 : (⟨S600, .f32⟩ : BufTy).Contents (Elt Ideal))
  (x16 : (⟨S300x600, .f32⟩ : BufTy).Contents (Elt Ideal)) (x17 : (⟨S300, .f32⟩ : BufTy).Contents (Elt Ideal))
  (x18 : (⟨S300x300, .f32⟩ : BufTy).Contents (Elt Ideal)) (x19 : (⟨S300, .f32⟩ : BufTy).Contents (Elt Ideal))
  (x20 : (⟨S600x300, .f32⟩ : BufTy).Contents (Elt Ideal)) (x21 : (⟨S600, .f32⟩ : BufTy).Contents (Elt Ideal))
  (x28 : (⟨S300x600, .f32⟩ : BufTy).Contents (Elt Ideal)) (x29 : (⟨S300, .f32⟩ : BufTy).Contents (Elt Ideal))
  (x30 : (⟨S300x300, .f32⟩ : BufTy).Contents (Elt Ideal)) (x31 : (⟨S300, .f32⟩ : BufTy).Contents (Elt Ideal))
  (x32 : (⟨S600x300, .f32⟩ : BufTy).Contents (Elt Ideal)) (x33 : (⟨S600, .f32⟩ : BufTy).Contents (Elt Ideal))

/-- The source word of edge e is entry (0, e) of the endpoint table. -/
theorem src_word (e : Fin 262144) : val_main_v127 (F := Ideal) x8 (ix1 e) = endpoints 0 x8 (ix1 e) := by
  rw [val_main_v127_apply, val_main_v126_apply, idx_src]
  rfl

/-- The destination word of edge e is entry (1, e) of the endpoint table. -/
theorem dst_word (e : Fin 262144) : val_main_v129 (F := Ideal) x8 (ix1 e) = endpoints 1 x8 (ix1 e) := by
  rw [val_main_v129_apply, val_main_v128_apply, idx_dst]
  rfl

/-- The start word the destination lookup is given: the destination word, raised when negative. -/
theorem dst_start (e : Fin 262144) :
    val_main_v135 (F := Ideal) x8 (ix2 e 0)
      = if (endpoints 1 x8 (ix1 e)).slt 0#32 then endpoints 1 x8 (ix1 e) + BitVec.ofNat 32 1024
        else endpoints 1 x8 (ix1 e) := by
  rw [val_main_v135_apply, idx_col_dst, val_main_v134_apply, val_main_v131_apply, val_main_v133_apply, val_main_v130_apply,
    val_main_v132_apply, val_main_c_13_apply, val_main_c_14_apply, dst_word]
  exact raise_eq _

/-- The start word the source lookup is given: the source word, raised when negative. -/
theorem src_start (e : Fin 262144) :
    val_main_v142 (F := Ideal) x8 (ix2 e 0)
      = if (endpoints 0 x8 (ix1 e)).slt 0#32 then endpoints 0 x8 (ix1 e) + BitVec.ofNat 32 1024
        else endpoints 0 x8 (ix1 e) := by
  rw [val_main_v142_apply, idx_col_src, val_main_v141_apply, val_main_v138_apply, val_main_v140_apply, val_main_v137_apply,
    val_main_v139_apply, val_main_c_15_apply, val_main_c_16_apply, src_word]
  exact raise_eq _

/-- The scatter's index column holds the destination words as they are. -/
theorem raw_word (e : Fin 262144) : val_main_v147 (F := Ideal) x8 (ix2 e 0) = endpoints 1 x8 (ix1 e) := by
  rw [val_main_v147_apply, idx_col_raw, dst_word]

/-! ## The two projections that feed the message -/

/-- The node projection: the table times the transposed node weight, plus the bias down the rows. -/
theorem px_eq :
    val_main_v120 (F := Ideal) x0 x1 x2 x3 x4 x5 x10 x11 x12 x13 x14 x15 x16 x17 x18 x19 x20 x21 x28 x29 = lin (val_main_v77 (F := Ideal) x0 x1 x2 x3 x4 x5 x10 x11 x12 x13 x14 x15 x16 x17 x18 x19 x20 x21) x28 x29 := by
  funext i
  rw [val_main_v120_apply, val_main_v117_apply, val_main_v119_apply, val_main_v118_apply]
  generalize val_main_v77 (F := Ideal) x0 x1 x2 x3 x4 x5 x10 x11 x12 x13 x14 x15 x16 x17 x18 x19 x20 x21 = tbl
  simp only [val_main_v116_apply, lidx_px, ridx_px, bidx_px, Ideal.addf_def]
  rfl

/-- The edge projection at edge e, column h. -/
theorem pe_eq (e : Fin 262144) (h : Fin 300) :
    val_main_v125 (F := Ideal) x9 x30 x31 (ix2 e h) = edgeProj x30 x31 x9 e h := by
  rw [val_main_v125_apply, val_main_v122_apply, val_main_v124_apply, val_main_v123_apply]
  simp only [val_main_v121_apply, lidx_pe, ridx_pe, bidx_pe, Ideal.addf_def]
  rfl

/-! ## The two row lookups -/

/-- The destination lookup reads the row the destination word names. -/
theorem gather_dst (px : S1024x300.Idx → EReal) (e : Fin 262144) (h : Fin 300) :
    Host.gather gather_S1024x300_S262144x1_S262144x300_1_0_n_n_0_1_1300 px (val_main_v135 (F := Ideal) x8) (ix2 e h)
      = px (ix2 ⟨node 1024 (endpoints 1 x8 (ix1 e)), node_lt (by decide) _⟩ h) := by
  refine (gather_rows_apply (N := 1024) (E := 262144) (C := 300) (by decide) _ px
    (val_main_v135 (F := Ideal) x8) e h).trans (congrArg px ?_)
  refine congrArg (fun r : Fin 1024 => ix2 r h) (Fin.ext ?_)
  show min (val_main_v135 (F := Ideal) x8 (ix2 e 0)).toInt.toNat (1024 - 1) = node 1024 (endpoints 1 x8 (ix1 e))
  rw [dst_start]
  rfl

/-- The source lookup reads the row the source word names. -/
theorem gather_src (px : S1024x300.Idx → EReal) (e : Fin 262144) (h : Fin 300) :
    Host.gather gather_S1024x300_S262144x1_S262144x300_1_0_n_n_0_1_1300 px (val_main_v142 (F := Ideal) x8) (ix2 e h)
      = px (ix2 ⟨node 1024 (endpoints 0 x8 (ix1 e)), node_lt (by decide) _⟩ h) := by
  refine (gather_rows_apply (N := 1024) (E := 262144) (C := 300) (by decide) _ px
    (val_main_v142 (F := Ideal) x8) e h).trans (congrArg px ?_)
  refine congrArg (fun r : Fin 1024 => ix2 r h) (Fin.ext ?_)
  show min (val_main_v142 (F := Ideal) x8 (ix2 e 0)).toInt.toNat (1024 - 1) = node 1024 (endpoints 0 x8 (ix1 e))
  rw [src_start]
  rfl

/-! ## The message, the aggregate, the layer -/

/-- Edge e's message at column h: the two looked-up rows of the node projection plus the edge projection. -/
theorem msg_eq (e : Fin 262144) (h : Fin 300) :
    val_main_v145 (F := Ideal) x0 x1 x2 x3 x4 x5 x8 x9 x10 x11 x12 x13 x14 x15 x16 x17 x18 x19 x20 x21 x28 x29 x30 x31 (ix2 e h)
      = msgLook (N := 1024) (by decide) (lin (val_main_v77 (F := Ideal) x0 x1 x2 x3 x4 x5 x10 x11 x12 x13 x14 x15 x16 x17 x18 x19 x20 x21) x28 x29) x30 x31 x9 (endpoints 0 x8) (endpoints 1 x8) e h := by
  rw [val_main_v145_apply, val_main_v144_apply]
  unfold val_main_v136 val_main_v143
  rw [px_eq]
  generalize lin (val_main_v77 (F := Ideal) x0 x1 x2 x3 x4 x5 x10 x11 x12 x13 x14 x15 x16 x17 x18 x19 x20 x21) x28 x29 = px
  rw [gather_dst, gather_src, pe_eq]
  rfl

/-- The scatter-add into zeros: node s sums the messages of the edges whose destination word, read signed, is s. -/
theorem agg_eq :
    val_main_v148 (F := Ideal) x0 x1 x2 x3 x4 x5 x8 x9 x10 x11 x12 x13 x14 x15 x16 x17 x18 x19 x20 x21 x28 x29 x30 x31
      = aggLook (N := 1024) (by decide) (lin (val_main_v77 (F := Ideal) x0 x1 x2 x3 x4 x5 x10 x11 x12 x13 x14 x15 x16 x17 x18 x19 x20 x21) x28 x29) x30 x31 x9 (endpoints 0 x8) (endpoints 1 x8) := by
  funext i
  obtain ⟨s, k, rfl⟩ : ∃ (s : Fin 1024) (k : Fin 300), i = ix2 s k := ⟨i 0, i 1, eq_ix2 i⟩
  have hmsg := msg_eq x0 x1 x2 x3 x4 x5 x8 x9 x10 x11 x12 x13 x14 x15 x16 x17 x18 x19 x20 x21 x28 x29 x30 x31
  unfold val_main_v148
  generalize val_main_v145 (F := Ideal) x0 x1 x2 x3 x4 x5 x8 x9 x10 x11 x12 x13 x14 x15 x16 x17 x18 x19 x20 x21 x28 x29 x30 x31 = upd at hmsg ⊢
  generalize lin (val_main_v77 (F := Ideal) x0 x1 x2 x3 x4 x5 x10 x11 x12 x13 x14 x15 x16 x17 x18 x19 x20 x21) x28 x29 = px at hmsg ⊢
  refine (scatterAdd_rows_apply (N := 1024) (E := 262144) (C := 300) _ (val_main_v146 (F := Ideal))
    (val_main_v147 (F := Ideal) x8) upd s k).trans ?_
  rw [val_main_v146_apply, val_main_cst_17_apply, Ideal.ofBits_def, Ideal.ofBits_zero_f32]
  refine congrArg (fun z : EReal => 0 + z) ?_
  refine Finset.sum_congr (Finset.filter_congr fun e _ => ?_) (fun e _ => hmsg e k)
  rw [raw_word]

end Stages

/-- The stage that ends this layer is the lookup form of the layer on the stacked table. -/
theorem layer (x0 : (⟨S512x600, .f32⟩ : BufTy).Contents (Elt Ideal)) (x1 : (⟨S512x600, .f32⟩ : BufTy).Contents (Elt Ideal)) (x2 : (⟨S2x16384, .i32⟩ : BufTy).Contents (Elt Ideal)) (x3 : (⟨S2x16384, .i32⟩ : BufTy).Contents (Elt Ideal)) (x4 : (⟨S16384x300, .f32⟩ : BufTy).Contents (Elt Ideal)) (x5 : (⟨S16384x300, .f32⟩ : BufTy).Contents (Elt Ideal)) (x8 : (⟨S2x262144, .i32⟩ : BufTy).Contents (Elt Ideal)) (x9 : (⟨S262144x300, .f32⟩ : BufTy).Contents (Elt Ideal)) (x10 : (⟨S300x600, .f32⟩ : BufTy).Contents (Elt Ideal)) (x11 : (⟨S300, .f32⟩ : BufTy).Contents (Elt Ideal)) (x12 : (⟨S300x300, .f32⟩ : BufTy).Contents (Elt Ideal)) (x13 : (⟨S300, .f32⟩ : BufTy).Contents (Elt Ideal)) (x14 : (⟨S600x300, .f32⟩ : BufTy).Contents (Elt Ideal)) (x15 : (⟨S600, .f32⟩ : BufTy).Contents (Elt Ideal)) (x16 : (⟨S300x600, .f32⟩ : BufTy).Contents (Elt Ideal)) (x17 : (⟨S300, .f32⟩ : BufTy).Contents (Elt Ideal)) (x18 : (⟨S300x300, .f32⟩ : BufTy).Contents (Elt Ideal)) (x19 : (⟨S300, .f32⟩ : BufTy).Contents (Elt Ideal)) (x20 : (⟨S600x300, .f32⟩ : BufTy).Contents (Elt Ideal)) (x21 : (⟨S600, .f32⟩ : BufTy).Contents (Elt Ideal)) (x28 : (⟨S300x600, .f32⟩ : BufTy).Contents (Elt Ideal)) (x29 : (⟨S300, .f32⟩ : BufTy).Contents (Elt Ideal)) (x30 : (⟨S300x300, .f32⟩ : BufTy).Contents (Elt Ideal)) (x31 : (⟨S300, .f32⟩ : BufTy).Contents (Elt Ideal)) (x32 : (⟨S600x300, .f32⟩ : BufTy).Contents (Elt Ideal)) (x33 : (⟨S600, .f32⟩ : BufTy).Contents (Elt Ideal)) :
    val_main_v153 (F := Ideal) x0 x1 x2 x3 x4 x5 x8 x9 x10 x11 x12 x13 x14 x15 x16 x17 x18 x19 x20 x21 x28 x29 x30 x31 x32 x33
      = Cert.Spec.gnnLook (N := 1024) (E := 262144) (Dn := 600) (H := 300) (De := 300) (by decide)
          (val_main_v77 (F := Ideal) x0 x1 x2 x3 x4 x5 x10 x11 x12 x13 x14 x15 x16 x17 x18 x19 x20 x21) x8 x9 ⟨x28, x29, x30, x31, x32, x33⟩ := by
  funext i
  rw [val_main_v153_apply, val_main_v150_apply, val_main_v152_apply, val_main_v151_apply, agg_eq]
  show _ = lin (aggLook (N := 1024) (by decide) (lin (val_main_v77 (F := Ideal) x0 x1 x2 x3 x4 x5 x10 x11 x12 x13 x14 x15 x16 x17 x18 x19 x20 x21) x28 x29) x30 x31 x9 (endpoints 0 x8) (endpoints 1 x8)) x32 x33 i
  generalize aggLook (N := 1024) (by decide) (lin (val_main_v77 (F := Ideal) x0 x1 x2 x3 x4 x5 x10 x11 x12 x13 x14 x15 x16 x17 x18 x19 x20 x21) x28 x29) x30 x31 x9 (endpoints 0 x8) (endpoints 1 x8) = ag
  simp only [val_main_v149_apply, lidx_out, ridx_out, bidx_out, Ideal.addf_def]
  rfl

end Cert.ReferenceIdeal.RefL4

end
-- ==== Proof.RefValue.lean ====
/-
  The reference's two results as functions of its arguments: the two first-layer results are joined along the node
  axis (graph 1 on top for the first cross layer, graph 2 on top for the second), each cross layer runs on its stack,
  and the first 512 rows of each are kept. With the four layers read as the lookup form, each result is the lookup
  form of the whole network.
-/
import proofs.«408848_j32693291057228_1_alg».proof.Proof.Gen.ReferenceIdeal.Run
import proofs.«408848_j32693291057228_1_alg».proof.Proof.Gen.ReferenceIdeal.Read
import proofs.«408848_j32693291057228_1_alg».proof.Proof.Spec
import proofs.«408848_j32693291057228_1_alg».proof.Proof.LibGS
import proofs.«408848_j32693291057228_1_alg».proof.Proof.RefL1
import proofs.«408848_j32693291057228_1_alg».proof.Proof.RefL2
import proofs.«408848_j32693291057228_1_alg».proof.Proof.RefL3
import proofs.«408848_j32693291057228_1_alg».proof.Proof.RefL4

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read

/-- Two 512-row tables joined along the row axis: a row below 512 is that row of the first table, any other row r is
    row r − 512 of the second. -/
private theorem concat_stack (a b : S512x600.Idx → EReal)
    (h : Shape.Concatenates [S512x600, S512x600] S1024x600 0) :
    concatenate S1024x600 0 [⟨S512x600, a⟩, ⟨S512x600, b⟩] h = Cert.Spec.stack 1024 rfl a b := by
  funext i
  unfold Cert.Spec.stack
  beta_reduce
  by_cases hlt : (i 0).val < 512
  · rw [dif_pos hlt]
    exact concatenate_pair_apply_left 0 a b h i rfl _
      (fun c => match c with | ⟨0, _⟩ => rfl | ⟨1, _⟩ => rfl)
  · rw [dif_neg hlt]
    exact concatenate_pair_apply_right 0 a b h i rfl rfl _
      (fun c hc => match c, hc with | ⟨0, _⟩, hc => absurd rfl hc | ⟨1, _⟩, _ => rfl)
      (by show (i 0).val - 512 + 512 = (i 0).val; omega)

/-- Keeping the rows 0 … 511 and every column of a 1024-row table reads it at the same coordinates. -/
private theorem slice_top (y : S1024x600.Idx → EReal) (i : S512x600.Idx) (j : S1024x600.Idx)
    (h0 : (j 0).val = (i 0).val) (h1 : (j 1).val = (i 1).val) :
    y j = Cert.Spec.top (N := 512) (M := 1024) (by decide) y i := by
  unfold Cert.Spec.top
  beta_reduce
  congr 1
  funext a
  match a with
  | ⟨0, _⟩ => exact Fin.ext h0
  | ⟨1, _⟩ => exact Fin.ext h1

/-- Joining along the node axis puts the first table on top. -/
theorem stack12 (x0 : (⟨S512x600, .f32⟩ : BufTy).Contents (Elt Ideal)) (x1 : (⟨S512x600, .f32⟩ : BufTy).Contents (Elt Ideal)) (x2 : (⟨S2x16384, .i32⟩ : BufTy).Contents (Elt Ideal)) (x3 : (⟨S2x16384, .i32⟩ : BufTy).Contents (Elt Ideal)) (x4 : (⟨S16384x300, .f32⟩ : BufTy).Contents (Elt Ideal)) (x5 : (⟨S16384x300, .f32⟩ : BufTy).Contents (Elt Ideal)) (x10 : (⟨S300x600, .f32⟩ : BufTy).Contents (Elt Ideal)) (x11 : (⟨S300, .f32⟩ : BufTy).Contents (Elt Ideal)) (x12 : (⟨S300x300, .f32⟩ : BufTy).Contents (Elt Ideal)) (x13 : (⟨S300, .f32⟩ : BufTy).Contents (Elt Ideal)) (x14 : (⟨S600x300, .f32⟩ : BufTy).Contents (Elt Ideal)) (x15 : (⟨S600, .f32⟩ : BufTy).Contents (Elt Ideal)) (x16 : (⟨S300x600, .f32⟩ : BufTy).Contents (Elt Ideal)) (x17 : (⟨S300, .f32⟩ : BufTy).Contents (Elt Ideal)) (x18 : (⟨S300x300, .f32⟩ : BufTy).Contents (Elt Ideal)) (x19 : (⟨S300, .f32⟩ : BufTy).Contents (Elt Ideal)) (x20 : (⟨S600x300, .f32⟩ : BufTy).Contents (Elt Ideal)) (x21 : (⟨S600, .f32⟩ : BufTy).Contents (Elt Ideal)) :
    val_main_v76 (F := Ideal) x0 x1 x2 x3 x4 x5 x10 x11 x12 x13 x14 x15 x16 x17 x18 x19 x20 x21
      = Cert.Spec.stack 1024 rfl (val_main_v37 (F := Ideal) x0 x2 x4 x10 x11 x12 x13 x14 x15)
          (val_main_v75 (F := Ideal) x1 x3 x5 x16 x17 x18 x19 x20 x21) := by
  unfold val_main_v76
  exact concat_stack _ _ _

theorem stack21 (x0 : (⟨S512x600, .f32⟩ : BufTy).Contents (Elt Ideal)) (x1 : (⟨S512x600, .f32⟩ : BufTy).Contents (Elt Ideal)) (x2 : (⟨S2x16384, .i32⟩ : BufTy).Contents (Elt Ideal)) (x3 : (⟨S2x16384, .i32⟩ : BufTy).Contents (Elt Ideal)) (x4 : (⟨S16384x300, .f32⟩ : BufTy).Contents (Elt Ideal)) (x5 : (⟨S16384x300, .f32⟩ : BufTy).Contents (Elt Ideal)) (x10 : (⟨S300x600, .f32⟩ : BufTy).Contents (Elt Ideal)) (x11 : (⟨S300, .f32⟩ : BufTy).Contents (Elt Ideal)) (x12 : (⟨S300x300, .f32⟩ : BufTy).Contents (Elt Ideal)) (x13 : (⟨S300, .f32⟩ : BufTy).Contents (Elt Ideal)) (x14 : (⟨S600x300, .f32⟩ : BufTy).Contents (Elt Ideal)) (x15 : (⟨S600, .f32⟩ : BufTy).Contents (Elt Ideal)) (x16 : (⟨S300x600, .f32⟩ : BufTy).Contents (Elt Ideal)) (x17 : (⟨S300, .f32⟩ : BufTy).Contents (Elt Ideal)) (x18 : (⟨S300x300, .f32⟩ : BufTy).Contents (Elt Ideal)) (x19 : (⟨S300, .f32⟩ : BufTy).Contents (Elt Ideal)) (x20 : (⟨S600x300, .f32⟩ : BufTy).Contents (Elt Ideal)) (x21 : (⟨S600, .f32⟩ : BufTy).Contents (Elt Ideal)) :
    val_main_v77 (F := Ideal) x0 x1 x2 x3 x4 x5 x10 x11 x12 x13 x14 x15 x16 x17 x18 x19 x20 x21
      = Cert.Spec.stack 1024 rfl (val_main_v75 (F := Ideal) x1 x3 x5 x16 x17 x18 x19 x20 x21)
          (val_main_v37 (F := Ideal) x0 x2 x4 x10 x11 x12 x13 x14 x15) := by
  unfold val_main_v77
  exact concat_stack _ _ _

/-- The final slice keeps the first 512 rows. -/
theorem top0 (x0 : (⟨S512x600, .f32⟩ : BufTy).Contents (Elt Ideal)) (x1 : (⟨S512x600, .f32⟩ : BufTy).Contents (Elt Ideal)) (x2 : (⟨S2x16384, .i32⟩ : BufTy).Contents (Elt Ideal)) (x3 : (⟨S2x16384, .i32⟩ : BufTy).Contents (Elt Ideal)) (x4 : (⟨S16384x300, .f32⟩ : BufTy).Contents (Elt Ideal)) (x5 : (⟨S16384x300, .f32⟩ : BufTy).Contents (Elt Ideal)) (x6 : (⟨S2x262144, .i32⟩ : BufTy).Contents (Elt Ideal)) (x7 : (⟨S262144x300, .f32⟩ : BufTy).Contents (Elt Ideal)) (x10 : (⟨S300x600, .f32⟩ : BufTy).Contents (Elt Ideal)) (x11 : (⟨S300, .f32⟩ : BufTy).Contents (Elt Ideal)) (x12 : (⟨S300x300, .f32⟩ : BufTy).Contents (Elt Ideal)) (x13 : (⟨S300, .f32⟩ : BufTy).Contents (Elt Ideal)) (x14 : (⟨S600x300, .f32⟩ : BufTy).Contents (Elt Ideal)) (x15 : (⟨S600, .f32⟩ : BufTy).Contents (Elt Ideal)) (x16 : (⟨S300x600, .f32⟩ : BufTy).Contents (Elt Ideal)) (x17 : (⟨S300, .f32⟩ : BufTy).Contents (Elt Ideal)) (x18 : (⟨S300x300, .f32⟩ : BufTy).Contents (Elt Ideal)) (x19 : (⟨S300, .f32⟩ : BufTy).Contents (Elt Ideal)) (x20 : (⟨S600x300, .f32⟩ : BufTy).Contents (Elt Ideal)) (x21 : (⟨S600, .f32⟩ : BufTy).Contents (Elt Ideal)) (x22 : (⟨S300x600, .f32⟩ : BufTy).Contents (Elt Ideal)) (x23 : (⟨S300, .f32⟩ : BufTy).Contents (Elt Ideal)) (x24 : (⟨S300x300, .f32⟩ : BufTy).Contents (Elt Ideal)) (x25 : (⟨S300, .f32⟩ : BufTy).Contents (Elt Ideal)) (x26 : (⟨S600x300, .f32⟩ : BufTy).Contents (Elt Ideal)) (x27 : (⟨S600, .f32⟩ : BufTy).Contents (Elt Ideal)) :
    val_main_v154 (F := Ideal) x0 x1 x2 x3 x4 x5 x6 x7 x10 x11 x12 x13 x14 x15 x16 x17 x18 x19 x20 x21 x22 x23 x24 x25 x26 x27
      = Cert.Spec.top (N := 512) (M := 1024) (by decide) (val_main_v115 (F := Ideal) x0 x1 x2 x3 x4 x5 x6 x7 x10 x11 x12 x13 x14 x15 x16 x17 x18 x19 x20 x21 x22 x23 x24 x25 x26 x27) := by
  funext i
  rw [val_main_v154_apply]
  exact slice_top _ i (idx_main_v154 i) rfl rfl

theorem top1 (x0 : (⟨S512x600, .f32⟩ : BufTy).Contents (Elt Ideal)) (x1 : (⟨S512x600, .f32⟩ : BufTy).Contents (Elt Ideal)) (x2 : (⟨S2x16384, .i32⟩ : BufTy).Contents (Elt Ideal)) (x3 : (⟨S2x16384, .i32⟩ : BufTy).Contents (Elt Ideal)) (x4 : (⟨S16384x300, .f32⟩ : BufTy).Contents (Elt Ideal)) (x5 : (⟨S16384x300, .f32⟩ : BufTy).Contents (Elt Ideal)) (x8 : (⟨S2x262144, .i32⟩ : BufTy).Contents (Elt Ideal)) (x9 : (⟨S262144x300, .f32⟩ : BufTy).Contents (Elt Ideal)) (x10 : (⟨S300x600, .f32⟩ : BufTy).Contents (Elt Ideal)) (x11 : (⟨S300, .f32⟩ : BufTy).Contents (Elt Ideal)) (x12 : (⟨S300x300, .f32⟩ : BufTy).Contents (Elt Ideal)) (x13 : (⟨S300, .f32⟩ : BufTy).Contents (Elt Ideal)) (x14 : (⟨S600x300, .f32⟩ : BufTy).Contents (Elt Ideal)) (x15 : (⟨S600, .f32⟩ : BufTy).Contents (Elt Ideal)) (x16 : (⟨S300x600, .f32⟩ : BufTy).Contents (Elt Ideal)) (x17 : (⟨S300, .f32⟩ : BufTy).Contents (Elt Ideal)) (x18 : (⟨S300x300, .f32⟩ : BufTy).Contents (Elt Ideal)) (x19 : (⟨S300, .f32⟩ : BufTy).Contents (Elt Ideal)) (x20 : (⟨S600x300, .f32⟩ : BufTy).Contents (Elt Ideal)) (x21 : (⟨S600, .f32⟩ : BufTy).Contents (Elt Ideal)) (x28 : (⟨S300x600, .f32⟩ : BufTy).Contents (Elt Ideal)) (x29 : (⟨S300, .f32⟩ : BufTy).Contents (Elt Ideal)) (x30 : (⟨S300x300, .f32⟩ : BufTy).Contents (Elt Ideal)) (x31 : (⟨S300, .f32⟩ : BufTy).Contents (Elt Ideal)) (x32 : (⟨S600x300, .f32⟩ : BufTy).Contents (Elt Ideal)) (x33 : (⟨S600, .f32⟩ : BufTy).Contents (Elt Ideal)) :
    val_main_v155 (F := Ideal) x0 x1 x2 x3 x4 x5 x8 x9 x10 x11 x12 x13 x14 x15 x16 x17 x18 x19 x20 x21 x28 x29 x30 x31 x32 x33
      = Cert.Spec.top (N := 512) (M := 1024) (by decide) (val_main_v153 (F := Ideal) x0 x1 x2 x3 x4 x5 x8 x9 x10 x11 x12 x13 x14 x15 x16 x17 x18 x19 x20 x21 x28 x29 x30 x31 x32 x33) := by
  funext i
  rw [val_main_v155_apply]
  exact slice_top _ i (idx_main_v155 i) rfl rfl

variable (m : (ℓ : Loc nD τ sig) → Buf (Elt Ideal) ℓ)

/-- The reference's first result is the lookup form of the network. -/
theorem out0 (c : Dev nD) :
    Cert.ReferenceIdeal.Value.res_main_v154 (F := Ideal) m c
      = Cert.Spec.outLook (N := 512) (M := 1024) (E := 16384) (Ec := 262144) (Dn := 600) (H := 300) (De := 300) (by decide) rfl
          (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
          ⟨(m ((c.tc : Thread nD τ).loc main_arg10)), (m ((c.tc : Thread nD τ).loc main_arg11)), (m ((c.tc : Thread nD τ).loc main_arg12)), (m ((c.tc : Thread nD τ).loc main_arg13)), (m ((c.tc : Thread nD τ).loc main_arg14)), (m ((c.tc : Thread nD τ).loc main_arg15))⟩
          ⟨(m ((c.tc : Thread nD τ).loc main_arg16)), (m ((c.tc : Thread nD τ).loc main_arg17)), (m ((c.tc : Thread nD τ).loc main_arg18)), (m ((c.tc : Thread nD τ).loc main_arg19)), (m ((c.tc : Thread nD τ).loc main_arg20)), (m ((c.tc : Thread nD τ).loc main_arg21))⟩
          ⟨(m ((c.tc : Thread nD τ).loc main_arg22)), (m ((c.tc : Thread nD τ).loc main_arg23)), (m ((c.tc : Thread nD τ).loc main_arg24)), (m ((c.tc : Thread nD τ).loc main_arg25)), (m ((c.tc : Thread nD τ).loc main_arg26)), (m ((c.tc : Thread nD τ).loc main_arg27))⟩ := by
  rw [val_main_v154_eq, top0, RefL3.layer, stack12, RefL1.layer, RefL2.layer]
  rfl

/-- The reference's second result is the lookup form of the network with the two graphs exchanged. -/
theorem out1 (c : Dev nD) :
    Cert.ReferenceIdeal.Value.res_main_v155 (F := Ideal) m c
      = Cert.Spec.outLook (N := 512) (M := 1024) (E := 16384) (Ec := 262144) (Dn := 600) (H := 300) (De := 300) (by decide) rfl
          (m ((c.tc : Thread nD τ).loc main_arg1)) (m ((c.tc : Thread nD τ).loc main_arg0)) (m ((c.tc : Thread nD τ).loc main_arg3)) (m ((c.tc : Thread nD τ).loc main_arg2)) (m ((c.tc : Thread nD τ).loc main_arg5)) (m ((c.tc : Thread nD τ).loc main_arg4)) (m ((c.tc : Thread nD τ).loc main_arg8)) (m ((c.tc : Thread nD τ).loc main_arg9))
          ⟨(m ((c.tc : Thread nD τ).loc main_arg16)), (m ((c.tc : Thread nD τ).loc main_arg17)), (m ((c.tc : Thread nD τ).loc main_arg18)), (m ((c.tc : Thread nD τ).loc main_arg19)), (m ((c.tc : Thread nD τ).loc main_arg20)), (m ((c.tc : Thread nD τ).loc main_arg21))⟩
          ⟨(m ((c.tc : Thread nD τ).loc main_arg10)), (m ((c.tc : Thread nD τ).loc main_arg11)), (m ((c.tc : Thread nD τ).loc main_arg12)), (m ((c.tc : Thread nD τ).loc main_arg13)), (m ((c.tc : Thread nD τ).loc main_arg14)), (m ((c.tc : Thread nD τ).loc main_arg15))⟩
          ⟨(m ((c.tc : Thread nD τ).loc main_arg28)), (m ((c.tc : Thread nD τ).loc main_arg29)), (m ((c.tc : Thread nD τ).loc main_arg30)), (m ((c.tc : Thread nD τ).loc main_arg31)), (m ((c.tc : Thread nD τ).loc main_arg32)), (m ((c.tc : Thread nD τ).loc main_arg33))⟩ := by
  rw [val_main_v155_eq, top1, RefL4.layer, stack21, RefL1.layer, RefL2.layer]
  rfl

end Cert.ReferenceIdeal.RefValue

end
-- ==== Proof.PreRange.lean ====
/-
  What the precondition says of the four edge tables: every word of each table's first row (the source endpoints)
  is at least 0 and below the node count of its graph (512 for the two plain graphs, 1024 for the two cross graphs).
  The printed precondition is a conjunction of reductions; the eight conjuncts that speak of the edge tables are
  the last eight, each "all of (first row compared with a constant)".

  The decoding goes from the inside out.  One element: the one-row block cut from the top of a [2, E] table reads the
  table's row 0, and a broadcast scalar reads the scalar, so an element of the compared array is the comparison of the
  table's word with the constant.  One conjunct: an and-reduction over both axes that came out 1 met a 1 at every
  element, so every word of row 0 satisfies the comparison; a signed "at least" / "below" of words is the same order
  of their signed values.  The chain: the precondition is a left-nested conjunction, so the last conjuncts are peeled
  from the outside, each peel splitting "rest and last = 1" into "rest = 1" and "last = 1"; the thirty conjuncts in front
  (about the float arrays) stay closed inside "rest".
-/
import proofs.«408848_j32693291057228_1_alg».proof.Defs
import proofs.«408848_j32693291057228_1_alg».proof.Proof.Spec
import Idealize.ShloMosaic.Lib.ReduceAll
import Idealize.ShloMosaic.Lib.StableHlo.Predicate

noncomputable section

namespace Cert.Proof.PreRange

open Idealize.ShloMosaic Idealize.ShloMosaic.TcCoe Idealize.SL.Sem Idealize.ShloMosaic.ValueIdx

/-- A rank-0 array has one index. -/
instance subsingleton_scalar_idx : Subsingleton (⟨0, ![]⟩ : Shape).Idx := ⟨fun a b => funext fun d => d.elim0⟩

/-- The one-row block at offset (0, 0) of a two-row table reads the table's row 0: entry (0, e) of the block is
    entry (0 + 0, 0 + e) of the table. -/
theorem slice_row0 {E : Nat} (x : IVec ⟨2, ![2, E]⟩ 32)
    (hs : (⟨2, ![2, E]⟩ : Shape).Slices ![0, 0] ⟨2, ![1, E]⟩) (e : Fin E) :
    extractStridedSlice (⟨2, ![1, E]⟩ : Shape) ![0, 0] x hs (ix2 0 e) = x (ix2 0 e) := by
  unfold extractStridedSlice
  congr 1
  funext a
  match a with
  | ⟨0, _⟩ => rfl
  | ⟨1, _⟩ => exact Fin.ext (by simp)

/-- "All of (row 0 compared with the constant k)" being 1 says the comparison holds of every word of row 0:
    the reduction met a 1 at entry (0, e), which compares the table's word (0, e) with k. -/
theorem all_cmp_row {E : Nat} (p : CmpIPredicate) (k : BitVec 32) (x : IVec ⟨2, ![2, E]⟩ 32)
    (hs : (⟨2, ![2, E]⟩ : Shape).Slices ![0, 0] ⟨2, ![1, E]⟩)
    (hb : (⟨0, ![]⟩ : Shape).BroadcastsInDim ⟨2, ![1, E]⟩ ![])
    (hr : (⟨2, ![1, E]⟩ : Shape).ReducesTo [0, 1] ⟨0, ![]⟩) (h0 : 0 < (⟨0, ![]⟩ : Shape).numel)
    (init : IVec ⟨0, ![]⟩ 1)
    (h : Host.reduce IntOp.andi (cmpi p (extractStridedSlice (⟨2, ![1, E]⟩ : Shape) ![0, 0] x hs)
          (broadcastInDim (⟨2, ![1, E]⟩ : Shape) ![] hb (constantI ⟨0, ![]⟩ 32 k))) init hr h0 ix0 = 1#1) (e : Fin E) :
    IntOp.cmpi p (x (ix2 0 e)) k = 1#1 := by
  have h1 := Host.reduce_andi_all _ _ hr h0 ix0 h (ix2 0 e)
  have h2 : cmpi p (extractStridedSlice (⟨2, ![1, E]⟩ : Shape) ![0, 0] x hs)
          (broadcastInDim (⟨2, ![1, E]⟩ : Shape) ![] hb (constantI ⟨0, ![]⟩ 32 k)) (ix2 0 e)
      = IntOp.cmpi p (extractStridedSlice (⟨2, ![1, E]⟩ : Shape) ![0, 0] x hs (ix2 0 e))
          (broadcastInDim (⟨2, ![1, E]⟩ : Shape) ![] hb (constantI ⟨0, ![]⟩ 32 k) (ix2 0 e)) := rfl
  rw [h2, slice_row0, StableHlo.Predicate.bcast_scalar hb h0] at h1
  exact h1

/-- Every word of row 0, read signed, is at least zero. -/
def GeAll {E : Nat} (x : IVec ⟨2, ![2, E]⟩ 32) : Prop := ∀ e : Fin E, 0 ≤ (x (ix2 0 e)).toInt

/-- Every word of row 0, read signed, is below N. -/
def LtAll {E : Nat} (N : Nat) (x : IVec ⟨2, ![2, E]⟩ 32) : Prop := ∀ e : Fin E, (x (ix2 0 e)).toInt < (N : ℤ)

/-- The conjunct "all of (row 0 ≥ 0)": a signed "at least" of words orders their signed values, and the word 0 is 0. -/
theorem geAll_of {E : Nat} (x : IVec ⟨2, ![2, E]⟩ 32)
    (hs : (⟨2, ![2, E]⟩ : Shape).Slices ![0, 0] ⟨2, ![1, E]⟩)
    (hb : (⟨0, ![]⟩ : Shape).BroadcastsInDim ⟨2, ![1, E]⟩ ![])
    (hr : (⟨2, ![1, E]⟩ : Shape).ReducesTo [0, 1] ⟨0, ![]⟩) (h0 : 0 < (⟨0, ![]⟩ : Shape).numel)
    (init : IVec ⟨0, ![]⟩ 1)
    (h : Host.reduce IntOp.andi (cmpi .sge (extractStridedSlice (⟨2, ![1, E]⟩ : Shape) ![0, 0] x hs)
          (broadcastInDim (⟨2, ![1, E]⟩ : Shape) ![] hb (constantI ⟨0, ![]⟩ 32 0#32))) init hr h0 ix0 = 1#1) :
    GeAll x := fun e => by
  have h1 := IntOp.cmpi_sge.1 (all_cmp_row .sge _ x hs hb hr h0 init h e)
  rwa [show (0#32 : BitVec 32).toInt = 0 from by decide] at h1

/-- The conjunct "all of (row 0 < N)": a signed "below" of words orders their signed values, and the word N (small)
    reads N. -/
theorem ltAll_of {E : Nat} (N : Nat) (hN : N < 2 ^ 31) (x : IVec ⟨2, ![2, E]⟩ 32)
    (hs : (⟨2, ![2, E]⟩ : Shape).Slices ![0, 0] ⟨2, ![1, E]⟩)
    (hb : (⟨0, ![]⟩ : Shape).BroadcastsInDim ⟨2, ![1, E]⟩ ![])
    (hr : (⟨2, ![1, E]⟩ : Shape).ReducesTo [0, 1] ⟨0, ![]⟩) (h0 : 0 < (⟨0, ![]⟩ : Shape).numel)
    (init : IVec ⟨0, ![]⟩ 1)
    (h : Host.reduce IntOp.andi (cmpi .slt (extractStridedSlice (⟨2, ![1, E]⟩ : Shape) ![0, 0] x hs)
          (broadcastInDim (⟨2, ![1, E]⟩ : Shape) ![] hb (constantI ⟨0, ![]⟩ 32 (BitVec.ofNat 32 N)))) init hr h0 ix0 = 1#1) :
    LtAll N x := fun e => by
  have h1 := IntOp.cmpi_slt.1 (all_cmp_row .slt _ x hs hb hr h0 init h e)
  rwa [StableHlo.Predicate.toInt_ofNat_small N hN] at h1

open Cert.Pre_finite_inputs in
/-- The tail of the conjunction, from the conjunct after "first table ≥ 0" on: if "v and the last seven conjuncts" is 1
    then v is 1 and each of the seven holds.  The seven are, from the inside out: first table < 512, second table ≥ 0
    and < 512, third table ≥ 0 and < 1024, fourth table ≥ 0 and < 1024; they are peeled outermost first. -/
theorem part9_read [Cert.Pre_finite_inputs.Facts] {F : FTy → Type} [FloatOps F]
    (a2 a3 : IVec S2x16384 32) (a6 a8 : IVec S2x262144 32) (v : IVec S_ 1)
    (h : fn_part9 (F := F) a2 a3 a6 a8 v ix0 = 1#1) :
    v ix0 = 1#1 ∧ LtAll 512 a2 ∧ GeAll a3 ∧ LtAll 512 a3 ∧ GeAll a6 ∧ LtAll 1024 a6 ∧ GeAll a8 ∧ LtAll 1024 a8 := by
  unfold fn_part9 fn_part10 fn_part11 at h
  obtain ⟨h, h8b⟩ := IntOp.andi_eq_one.1 h
  obtain ⟨h, h8a⟩ := IntOp.andi_eq_one.1 h
  obtain ⟨h, h6b⟩ := IntOp.andi_eq_one.1 h
  obtain ⟨h, h6a⟩ := IntOp.andi_eq_one.1 h
  obtain ⟨h, h3b⟩ := IntOp.andi_eq_one.1 h
  obtain ⟨h, h3a⟩ := IntOp.andi_eq_one.1 h
  obtain ⟨h, h2b⟩ := IntOp.andi_eq_one.1 h
  exact ⟨h, ltAll_of 512 (by norm_num) a2 _ _ _ _ _ h2b, geAll_of a3 _ _ _ _ _ h3a, ltAll_of 512 (by norm_num) a3 _ _ _ _ _ h3b,
    geAll_of a6 _ _ _ _ _ h6a, ltAll_of 1024 (by norm_num) a6 _ _ _ _ _ h6b, geAll_of a8 _ _ _ _ _ h8a,
    ltAll_of 1024 (by norm_num) a8 _ _ _ _ _ h8b⟩

open Cert.Pre_finite_inputs in
/-- One segment further in, where the conjunct "first table ≥ 0" sits: it is the last conjunct of what the tail above
    calls v, so one more peel reaches it; whatever stands in front of it (v, w: the float conjuncts) is not looked at. -/
theorem part8_read [Cert.Pre_finite_inputs.Facts] {F : FTy → Type} [FloatOps F]
    (a2 a3 : IVec S2x16384 32) (a6 a8 : IVec S2x262144 32) (a32 : FVec F S600x300 .f32) (a33 : FVec F S600 .f32)
    (v : IVec S_ 1) (w : IVec S300 1)
    (h : fn_part8 (F := F) a2 a3 a6 a8 a32 a33 v w ix0 = 1#1) :
    (GeAll a2 ∧ LtAll 512 a2) ∧ (GeAll a3 ∧ LtAll 512 a3) ∧ (GeAll a6 ∧ LtAll 1024 a6) ∧ (GeAll a8 ∧ LtAll 1024 a8) := by
  obtain ⟨h1, h2b, h3a, h3b, h6a, h6b, h8a, h8b⟩ := part9_read (F := F) a2 a3 a6 a8 _ h
  obtain ⟨-, h2a⟩ := IntOp.andi_eq_one.1 h1
  exact ⟨⟨geAll_of a2 _ _ _ _ _ h2a, h2b⟩, ⟨h3a, h3b⟩, ⟨h6a, h6b⟩, ⟨h8a, h8b⟩⟩

/-- The source endpoint of edge e is word (0, e) of the table, so the two bounds on row 0 are the range statement. -/
theorem srcInRange_of {E : Nat} (N : Nat) (x : IVec ⟨2, ![2, E]⟩ 32) (h : GeAll x ∧ LtAll N x) :
    Cert.Spec.SrcInRange (E := E) N (Cert.Spec.endpoints 0 x) := fun e => ⟨h.1 e, h.2 e⟩

/-- Under the precondition every source word names a node of its graph. -/
theorem src_ranges [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.SrcInRange (E := 16384) 512 (Cert.Spec.endpoints 0 (m ((c.tc : Thread Cert.KernelIdeal.nD Cert.KernelIdeal.τ).loc Cert.KernelIdeal.main_arg2)))
    ∧ Cert.Spec.SrcInRange (E := 16384) 512 (Cert.Spec.endpoints 0 (m ((c.tc : Thread Cert.KernelIdeal.nD Cert.KernelIdeal.τ).loc Cert.KernelIdeal.main_arg3)))
    ∧ Cert.Spec.SrcInRange (E := 262144) 1024 (Cert.Spec.endpoints 0 (m ((c.tc : Thread Cert.KernelIdeal.nD Cert.KernelIdeal.τ).loc Cert.KernelIdeal.main_arg6)))
    ∧ Cert.Spec.SrcInRange (E := 262144) 1024 (Cert.Spec.endpoints 0 (m ((c.tc : Thread Cert.KernelIdeal.nD Cert.KernelIdeal.τ).loc Cert.KernelIdeal.main_arg8))) := by
  -- the precondition at the one index of its rank-0 result; the whole chain is, up to naming its earlier values, the
  -- segment that holds "first table ≥ 0" applied to the four tables
  have h0 := congrFun (h c) ix0
  obtain ⟨h2, h3, h6, h8⟩ := part8_read (F := Ideal) _ _ _ _ _ _ _ _ h0
  exact ⟨srcInRange_of 512 _ h2, srcInRange_of 512 _ h3, srcInRange_of 1024 _ h6, srcInRange_of 1024 _ h8⟩

end Cert.Proof.PreRange

end
-- ==== Proof.lean ====
/-
  The certificate of the graph-network kernel against its jnp reference.

  Both programs apply one message-passing layer four times: to graph 1, to graph 2, and to the two stackings of the
  two results (graph 1 on top, then graph 2 on top) over the two cross graphs, keeping the top 512 rows of each. A layer
  projects the node features, lets every edge send px[src] + px[dst] + (its projected feature) to its destination, sums
  at each node, and projects back. The kernel does the two row lookups and the scatter as sums against indicators
  ([word = node number], over all nodes, resp. over all edges of a tile, tile after tile); the reference looks rows up
  (a negative word raised by the node count, the result clipped) and sums by destination word. The precondition adds,
  to the finiteness of the float inputs, that every SOURCE word names a node of its graph: the reference itself indexes
  its node table with those words. Under it the two aggregations are one function (Spec, SpecLaw), and every other step
  is the same sum of products on both sides; finiteness is never used, since 0 · x = 0 for every extended real x.

  The kernel program's results are read off its run boundary by boundary (KChainA, KChainB over the twelve calls'
  values KLin*, KAgg*), the run itself being the generated launch with the two result buffers kept (KRun); the
  reference's results are read off its generated run operation by operation (RefL1 … RefL4, RefValue); PreRange
  decodes the source ranges from the printed precondition.
-/
import proofs.«408848_j32693291057228_1_alg».proof.Defs
import proofs.«408848_j32693291057228_1_alg».proof.Proof.Gen.Kernel
import proofs.«408848_j32693291057228_1_alg».proof.Proof.Gen.Kernel.Skeleton
import proofs.«408848_j32693291057228_1_alg».proof.Proof.Gen.Kernel.Launch
import proofs.«408848_j32693291057228_1_alg».proof.Proof.Gen.Kernel.Points
import proofs.«408848_j32693291057228_1_alg».proof.Proof.Gen.Kernel.Frame
import proofs.«408848_j32693291057228_1_alg».proof.Proof.Gen.KernelIdeal
import proofs.«408848_j32693291057228_1_alg».proof.Proof.Gen.KernelIdeal.Skeleton
import proofs.«408848_j32693291057228_1_alg».proof.Proof.Gen.KernelIdeal.Launch
import proofs.«408848_j32693291057228_1_alg».proof.Proof.Gen.KernelIdeal.Points
import proofs.«408848_j32693291057228_1_alg».proof.Proof.Gen.KernelIdeal.Frame
import proofs.«408848_j32693291057228_1_alg».proof.Proof.Gen.ReferenceIdeal
import proofs.«408848_j32693291057228_1_alg».proof.Proof.Gen.ReferenceIdeal.Run
import proofs.«408848_j32693291057228_1_alg».proof.Proof.Gen.Pre_finite_inputs
import proofs.«408848_j32693291057228_1_alg».proof.Proof.Spec
import proofs.«408848_j32693291057228_1_alg».proof.Proof.SpecLaw
import proofs.«408848_j32693291057228_1_alg».proof.Proof.KRun
import proofs.«408848_j32693291057228_1_alg».proof.Proof.KChainB
import proofs.«408848_j32693291057228_1_alg».proof.Proof.RefValue
import proofs.«408848_j32693291057228_1_alg».proof.Proof.PreRange
import Idealize.ShloMosaic.Adequacy
import Idealize.ShloMosaic.Init

noncomputable section

namespace Cert.Proof

open Idealize.ShloMosaic Idealize.ShloMosaic.TcCoe Idealize.SL.Sem

/-- The word-level kernel program's frame: generated whole. -/
theorem frame_k : Cert.frame_Kernel := fun m ρ _ => Cert.Kernel.Gen.frame m ρ

/-- The idealized kernel program's frame: generated whole. -/
theorem frame_ki : Cert.frame_KernelIdeal := fun m ρ _ => Cert.KernelIdeal.Gen.frame m ρ

/-- The reference's frame: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

-- the argument arrays' types are read out of the program's buffer table each time one is matched against a literal
-- matrix type, thirty-odd times per result: slow, not deep
set_option maxHeartbeats 3200000 in
/-- Both programs end with each result at the network's function of the arguments: the one-hot form for the kernel,
    the lookup form for the reference, one function once every source word names a node. -/
theorem algebraic : Cert.algebraic_KernelIdeal_ReferenceIdeal := by
  intro m ρ m' ρ' hpre hagree
  refine ⟨fun c => Cert.KernelIdeal.Gen.W25 (F := Ideal) m ρ c (Proc.devRef .tc Cert.KernelIdeal.main_v42),
    fun c => Cert.KernelIdeal.Gen.W25 (F := Ideal) m ρ c (Proc.devRef .tc Cert.KernelIdeal.main_v43),
    Cert.KernelIdeal.Run.run (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h1, h2, h1c, -⟩ := Cert.Proof.PreRange.src_ranges m hpre c
    refine (Cert.ReferenceIdeal.RefValue.out0 m' c).trans ?_
    refine Eq.trans ?_ (Cert.KernelIdeal.Chain.out0 m ρ c).symm
    rw [(hagree c).1,
      (hagree c).2.1,
      (hagree c).2.2.1,
      (hagree c).2.2.2.1,
      (hagree c).2.2.2.2.1,
      (hagree c).2.2.2.2.2.1,
      (hagree c).2.2.2.2.2.2.1,
      (hagree c).2.2.2.2.2.2.2.1,
      (hagree c).2.2.2.2.2.2.2.2.2.2.1,
      (hagree c).2.2.2.2.2.2.2.2.2.2.2.1,
      (hagree c).2.2.2.2.2.2.2.2.2.2.2.2.1,
      (hagree c).2.2.2.2.2.2.2.2.2.2.2.2.2.1,
      (hagree c).2.2.2.2.2.2.2.2.2.2.2.2.2.2.1,
      (hagree c).2.2.2.2.2.2.2.2.2.2.2.2.2.2.2.1,
      (hagree c).2.2.2.2.2.2.2.2.2.2.2.2.2.2.2.2.1,
      (hagree c).2.2.2.2.2.2.2.2.2.2.2.2.2.2.2.2.2.1,
      (hagree c).2.2.2.2.2.2.2.2.2.2.2.2.2.2.2.2.2.2.1,
      (hagree c).2.2.2.2.2.2.2.2.2.2.2.2.2.2.2.2.2.2.2.1,
      (hagree c).2.2.2.2.2.2.2.2.2.2.2.2.2.2.2.2.2.2.2.2.1,
      (hagree c).2.2.2.2.2.2.2.2.2.2.2.2.2.2.2.2.2.2.2.2.2.1,
      (hagree c).2.2.2.2.2.2.2.2.2.2.2.2.2.2.2.2.2.2.2.2.2.2.1,
      (hagree c).2.2.2.2.2.2.2.2.2.2.2.2.2.2.2.2.2.2.2.2.2.2.2.1,
      (hagree c).2.2.2.2.2.2.2.2.2.2.2.2.2.2.2.2.2.2.2.2.2.2.2.2.1,
      (hagree c).2.2.2.2.2.2.2.2.2.2.2.2.2.2.2.2.2.2.2.2.2.2.2.2.2.1,
      (hagree c).2.2.2.2.2.2.2.2.2.2.2.2.2.2.2.2.2.2.2.2.2.2.2.2.2.2.1,
      (hagree c).2.2.2.2.2.2.2.2.2.2.2.2.2.2.2.2.2.2.2.2.2.2.2.2.2.2.2.1]
    refine Eq.symm ?_
    exact Cert.Spec.outHot_eq_outLook (N := 512) (M := 1024) (E := 16384) (Ec := 262144) (Dn := 600) (H := 300) (De := 300)
      (by norm_num) rfl (by norm_num) _ _ _ _ _ _ _ _ _ _ _ h1 h2 h1c
  · obtain ⟨h1, h2, -, h2c⟩ := Cert.Proof.PreRange.src_ranges m hpre c
    refine (Cert.ReferenceIdeal.RefValue.out1 m' c).trans ?_
    refine Eq.trans ?_ (Cert.KernelIdeal.Chain.out1 m ρ c).symm
    rw [(hagree c).1,
      (hagree c).2.1,
      (hagree c).2.2.1,
      (hagree c).2.2.2.1,
      (hagree c).2.2.2.2.1,
      (hagree c).2.2.2.2.2.1,
      (hagree c).2.2.2.2.2.2.2.2.1,
      (hagree c).2.2.2.2.2.2.2.2.2.1,
      (hagree c).2.2.2.2.2.2.2.2.2.2.1,
      (hagree c).2.2.2.2.2.2.2.2.2.2.2.1,
      (hagree c).2.2.2.2.2.2.2.2.2.2.2.2.1,
      (hagree c).2.2.2.2.2.2.2.2.2.2.2.2.2.1,
      (hagree c).2.2.2.2.2.2.2.2.2.2.2.2.2.2.1,
      (hagree c).2.2.2.2.2.2.2.2.2.2.2.2.2.2.2.1,
      (hagree c).2.2.2.2.2.2.2.2.2.2.2.2.2.2.2.2.1,
      (hagree c).2.2.2.2.2.2.2.2.2.2.2.2.2.2.2.2.2.1,
      (hagree c).2.2.2.2.2.2.2.2.2.2.2.2.2.2.2.2.2.2.1,
      (hagree c).2.2.2.2.2.2.2.2.2.2.2.2.2.2.2.2.2.2.2.1,
      (hagree c).2.2.2.2.2.2.2.2.2.2.2.2.2.2.2.2.2.2.2.2.1,
      (hagree c).2.2.2.2.2.2.2.2.2.2.2.2.2.2.2.2.2.2.2.2.2.1,
      (hagree c).2.2.2.2.2.2.2.2.2.2.2.2.2.2.2.2.2.2.2.2.2.2.2.2.2.2.2.2.1,
      (hagree c).2.2.2.2.2.2.2.2.2.2.2.2.2.2.2.2.2.2.2.2.2.2.2.2.2.2.2.2.2.1,
      (hagree c).2.2.2.2.2.2.2.2.2.2.2.2.2.2.2.2.2.2.2.2.2.2.2.2.2.2.2.2.2.2.1,
      (hagree c).2.2.2.2.2.2.2.2.2.2.2.2.2.2.2.2.2.2.2.2.2.2.2.2.2.2.2.2.2.2.2.1,
      (hagree c).2.2.2.2.2.2.2.2.2.2.2.2.2.2.2.2.2.2.2.2.2.2.2.2.2.2.2.2.2.2.2.2.1,
      (hagree c).2.2.2.2.2.2.2.2.2.2.2.2.2.2.2.2.2.2.2.2.2.2.2.2.2.2.2.2.2.2.2.2.2]
    refine Eq.symm ?_
    exact Cert.Spec.outHot_eq_outLook (N := 512) (M := 1024) (E := 16384) (Ec := 262144) (Dn := 600) (H := 300) (De := 300)
      (by norm_num) rfl (by norm_num) _ _ _ _ _ _ _ _ _ _ _ h2 h1 h2c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
